-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2x1024x1024 : Shape := ⟨4, ![1, 2, 1024, 1024]⟩
abbrev S1024x8 : Shape := ⟨2, ![1024, 8]⟩
abbrev S1x16 : Shape := ⟨2, ![1, 16]⟩
abbrev S32x2 : Shape := ⟨2, ![32, 2]⟩
abbrev S1x4 : Shape := ⟨2, ![1, 4]⟩
abbrev S_ : Shape := ⟨0, ![]⟩

class Facts : Prop where
  bcast_S_S1x2x1024x1024 : S_.BroadcastsInDim S1x2x1024x1024 (![] : Fin 0 → Fin S1x2x1024x1024.rank)
  reducesTo_S1x2x1024x1024_S_d0_1_2_3 : S1x2x1024x1024.ReducesTo [0, 1, 2, 3] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S1x16 : S_.BroadcastsInDim S1x16 (![] : Fin 0 → Fin S1x16.rank)
  reducesTo_S1x16_S_d0_1 : S1x16.ReducesTo [0, 1] S_
  bcast_S_S32x2 : S_.BroadcastsInDim S32x2 (![] : Fin 0 → Fin S32x2.rank)
  reducesTo_S32x2_S_d0_1 : S32x2.ReducesTo [0, 1] S_
  bcast_S_S1x4 : S_.BroadcastsInDim S1x4 (![] : Fin 0 → Fin S1x4.rank)
  reducesTo_S1x4_S_d0_1 : S1x4.ReducesTo [0, 1] S_

variable [Facts]

def fn_part3 {F : FTy → Type} [FloatOps F] (main_v48 : IVec S_ 1) (main_v49 : FVec F S1x4 .f32) (main_v50 : FVec F S1x4 .f32) : IVec S_ 1 :=
  let main_v51 : IVec S1x4 1 := cmpf .olt main_v49 main_v50
  let main_c_19 : IVec S_ 1 := constantI S_ 1 1#1
  let main_v52 : IVec S_ 1 := (fun x v => Host.reduce IntOp.andi x v reducesTo_S1x4_S_d0_1 h_S_) main_v51 main_c_19
  let main_v53 : IVec S_ 1 := andi main_v48 main_v52
  main_v53

def fn_part2 {F : FTy → Type} [FloatOps F] (main_arg7 : FVec F S1024x8 .f32) (main_arg8 : FVec F S1x16 .f32) (main_arg9 : FVec F S32x2 .f32) (main_arg10 : FVec F S1x4 .f32) (main_v33 : IVec S_ 1) : IVec S_ 1 :=
  let main_v34 : FVec F S1024x8 .f32 := Host.absf main_arg7
  let main_cst_12 : FVec F S_ .f32 := constant S_ .f32 0x7F800000#32
  let main_v35 : FVec F S1024x8 .f32 := broadcastInDim S1024x8 ![] bcast_S_S1024x8 main_cst_12
  let main_v36 : IVec S1024x8 1 := cmpf .olt main_v34 main_v35
  let main_c_13 : IVec S_ 1 := constantI S_ 1 1#1
  let main_v37 : IVec S_ 1 := (fun x v => Host.reduce IntOp.andi x v reducesTo_S1024x8_S_d0_1 h_S_) main_v36 main_c_13
  let main_v38 : IVec S_ 1 := andi main_v33 main_v37
  let main_v39 : FVec F S1x16 .f32 := Host.absf main_arg8
  let main_cst_14 : FVec F S_ .f32 := constant S_ .f32 0x7F800000#32
  let main_v40 : FVec F S1x16 .f32 := broadcastInDim S1x16 ![] bcast_S_S1x16 main_cst_14
  let main_v41 : IVec S1x16 1 := cmpf .olt main_v39 main_v40
  let main_c_15 : IVec S_ 1 := constantI S_ 1 1#1
  let main_v42 : IVec S_ 1 := (fun x v => Host.reduce IntOp.andi x v reducesTo_S1x16_S_d0_1 h_S_) main_v41 main_c_15
  let main_v43 : IVec S_ 1 := andi main_v38 main_v42
  let main_v44 : FVec F S32x2 .f32 := Host.absf main_arg9
  let main_cst_16 : FVec F S_ .f32 := constant S_ .f32 0x7F800000#32
  let main_v45 : FVec F S32x2 .f32 := broadcastInDim S32x2 ![] bcast_S_S32x2 main_cst_16
  let main_v46 : IVec S32x2 1 := cmpf .olt main_v44 main_v45
  let main_c_17 : IVec S_ 1 := constantI S_ 1 1#1
  let main_v47 : IVec S_ 1 := (fun x v => Host.reduce IntOp.andi x v reducesTo_S32x2_S_d0_1 h_S_) main_v46 main_c_17
  let main_v48 : IVec S_ 1 := andi main_v43 main_v47
  let main_v49 : FVec F S1x4 .f32 := Host.absf main_arg10
  let main_cst_18 : FVec F S_ .f32 := constant S_ .f32 0x7F800000#32
  let main_v50 : FVec F S1x4 .f32 := broadcastInDim S1x4 ![] bcast_S_S1x4 main_cst_18
  fn_part3 (F := F) main_v48 main_v49 main_v50

def fn_part1 {F : FTy → Type} [FloatOps F] (main_arg4 : FVec F S1x16 .f32) (main_arg5 : FVec F S1024x8 .f32) (main_arg6 : FVec F S1x16 .f32) (main_arg7 : FVec F S1024x8 .f32) (main_arg8 : FVec F S1x16 .f32) (main_arg9 : FVec F S32x2 .f32) (main_arg10 : FVec F S1x4 .f32) (main_v13 : IVec S_ 1) (main_v16 : IVec S1024x8 1) : IVec S_ 1 :=
  let main_c_5 : IVec S_ 1 := constantI S_ 1 1#1
  let main_v17 : IVec S_ 1 := (fun x v => Host.reduce IntOp.andi x v reducesTo_S1024x8_S_d0_1 h_S_) main_v16 main_c_5
  let main_v18 : IVec S_ 1 := andi main_v13 main_v17
  let main_v19 : FVec F S1x16 .f32 := Host.absf main_arg4
  let main_cst_6 : FVec F S_ .f32 := constant S_ .f32 0x7F800000#32
  let main_v20 : FVec F S1x16 .f32 := broadcastInDim S1x16 ![] bcast_S_S1x16 main_cst_6
  let main_v21 : IVec S1x16 1 := cmpf .olt main_v19 main_v20
  let main_c_7 : IVec S_ 1 := constantI S_ 1 1#1
  let main_v22 : IVec S_ 1 := (fun x v => Host.reduce IntOp.andi x v reducesTo_S1x16_S_d0_1 h_S_) main_v21 main_c_7
  let main_v23 : IVec S_ 1 := andi main_v18 main_v22
  let main_v24 : FVec F S1024x8 .f32 := Host.absf main_arg5
  let main_cst_8 : FVec F S_ .f32 := constant S_ .f32 0x7F800000#32
  let main_v25 : FVec F S1024x8 .f32 := broadcastInDim S1024x8 ![] bcast_S_S1024x8 main_cst_8
  let main_v26 : IVec S1024x8 1 := cmpf .olt main_v24 main_v25
  let main_c_9 : IVec S_ 1 := constantI S_ 1 1#1
  let main_v27 : IVec S_ 1 := (fun x v => Host.reduce IntOp.andi x v reducesTo_S1024x8_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S1x2x1024x1024 .f32) (main_arg1 : FVec F S1024x8 .f32) (main_arg2 : FVec F S1x16 .f32) (main_arg3 : FVec F S1024x8 .f32) (main_arg4 : FVec F S1x16 .f32) (main_arg5 : FVec F S1024x8 .f32) (main_arg6 : FVec F S1x16 .f32) (main_arg7 : FVec F S1024x8 .f32) (main_arg8 : FVec F S1x16 .f32) (main_arg9 : FVec F S32x2 .f32) (main_arg10 : FVec F S1x4 .f32) : IVec S_ 1 :=
  let main_v0 : FVec F S1x2x1024x1024 .f32 := Host.absf main_arg0
  let main_cst : FVec F S_ .f32 := constant S_ .f32 0x7F800000#32
  let main_v1 : FVec F S1x2x1024x1024 .f32 := broadcastInDim S1x2x1024x1024 ![] bcast_S_S1x2x1024x1024 main_cst
  let main_v2 : IVec S1x2x1024x1024 1 := cmpf .olt main_v0 main_v1
  let main_c : IVec S_ 1 := constantI S_ 1 1#1
  let main_v3 : IVec S_ 1 := (fun x v => Host.reduce IntOp.andi x v reducesTo_S1x2x1024x1024_S_d0_1_2_3 h_S_) main_v2 main_c
  let main_v4 : FVec F S1024x8 .f32 := Host.absf main_arg1
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S1x16 .f32 := Host.absf main_arg2
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S1024x8 .f32 := Host.absf main_arg3
  let main_cst_4 : FVec F S_ .f32 := constant S_ .f32 0x7F800000#32
  let main_v15 : FVec F S1024x8 .f32 := broadcastInDim S1024x8 ![] bcast_S_S1024x8 main_cst_4
  let main_v16 : IVec S1024x8 1 := cmpf .olt main_v14 main_v15
  fn_part1 (F := F) main_arg4 main_arg5 main_arg6 main_arg7 main_arg8 main_arg9 main_arg10 main_v13 main_v16
-- ==== Kernel.lean ====
abbrev S1x2x1024x1024 : Shape := ⟨4, ![1, 2, 1024, 1024]⟩
abbrev S1024x8 : Shape := ⟨2, ![1024, 8]⟩
abbrev S1x16 : Shape := ⟨2, ![1, 16]⟩
abbrev S32x2 : Shape := ⟨2, ![32, 2]⟩
abbrev S1x4 : Shape := ⟨2, ![1, 4]⟩
abbrev S1024x32 : Shape := ⟨2, ![1024, 32]⟩
abbrev S4x16 : Shape := ⟨2, ![4, 16]⟩
abbrev S_ : Shape := ⟨0, ![]⟩
abbrev S16x8 : Shape := ⟨2, ![16, 8]⟩
abbrev S4x8 : Shape := ⟨2, ![4, 8]⟩
abbrev S1 : Shape := ⟨1, ![1]⟩
abbrev S1x2 : Shape := ⟨2, ![1, 2]⟩
abbrev S2 : Shape := ⟨1, ![2]⟩
abbrev S1x1x1024x1024 : Shape := ⟨4, ![1, 1, 1024, 1024]⟩
abbrev S1024x1024 : Shape := ⟨2, ![1024, 1024]⟩
abbrev S1024x2 : Shape := ⟨2, ![1024, 2]⟩
abbrev S1024x1 : Shape := ⟨2, ![1024, 1]⟩
abbrev S1x8 : Shape := ⟨2, ![1, 8]⟩
abbrev S1024 : Shape := ⟨1, ![1024]⟩
abbrev S1x1024 : Shape := ⟨2, ![1, 1024]⟩
abbrev S1024x9 : Shape := ⟨2, ![1024, 9]⟩
abbrev S1024x3 : Shape := ⟨2, ![1024, 3]⟩
abbrev S1x1024x2 : Shape := ⟨3, ![1, 1024, 2]⟩

abbrev nBuf : Space → Nat
  | .hbm => 45
  | .vmem => 6
  | .smem => 0
  | _ => 0

abbrev bufTy : (tb : Table) → Fin (tcTables nBuf tb) → BufTy
  | .hbm, ⟨0, _⟩ => ⟨S1x2x1024x1024, .f32⟩
  | .hbm, ⟨1, _⟩ => ⟨S1024x8, .f32⟩
  | .hbm, ⟨2, _⟩ => ⟨S1x16, .f32⟩
  | .hbm, ⟨3, _⟩ => ⟨S1024x8, .f32⟩
  | .hbm, ⟨4, _⟩ => ⟨S1x16, .f32⟩
  | .hbm, ⟨5, _⟩ => ⟨S1024x8, .f32⟩
  | .hbm, ⟨6, _⟩ => ⟨S1x16, .f32⟩
  | .hbm, ⟨7, _⟩ => ⟨S1024x8, .f32⟩
  | .hbm, ⟨8, _⟩ => ⟨S1x16, .f32⟩
  | .hbm, ⟨9, _⟩ => ⟨S32x2, .f32⟩
  | .hbm, ⟨10, _⟩ => ⟨S1x4, .f32⟩
  | .hbm, ⟨11, _⟩ => ⟨S1024x32, .f32⟩
  | .hbm, ⟨12, _⟩ => ⟨S4x16, .f32⟩
  | .hbm, ⟨13, _⟩ => ⟨S_, .f32⟩
  | .hbm, ⟨14, _⟩ => ⟨S16x8, .f32⟩
  | .hbm, ⟨15, _⟩ => ⟨S4x8, .f32⟩
  | .hbm, ⟨16, _⟩ => ⟨S_, .i32⟩
  | .hbm, ⟨17, _⟩ => ⟨S1, .i32⟩
  | .hbm, ⟨18, _⟩ => ⟨S16x8, .f32⟩
  | .hbm, ⟨19, _⟩ => ⟨S4x8, .f32⟩
  | .hbm, ⟨20, _⟩ => ⟨S_, .i32⟩
  | .hbm, ⟨21, _⟩ => ⟨S1, .i32⟩
  | .hbm, ⟨22, _⟩ => ⟨S16x8, .f32⟩
  | .hbm, ⟨23, _⟩ => ⟨S1x2, .f32⟩
  | .hbm, ⟨24, _⟩ => ⟨S2, .f32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S2, .i32⟩
  | .hbm, ⟨30, _⟩ => ⟨S16x8, .f32⟩
  | .hbm, ⟨31, _⟩ => ⟨S1x2, .f32⟩
  | .hbm, ⟨32, _⟩ => ⟨S2, .f32⟩
  | .hbm, ⟨33, _⟩ => ⟨S_, .i32⟩
  | .hbm, ⟨34, _⟩ => ⟨S1, .i32⟩
  | .hbm, ⟨35, _⟩ => ⟨S_, .i32⟩
  | .hbm, ⟨36, _⟩ => ⟨S1, .i32⟩
  | .hbm, ⟨37, _⟩ => ⟨S2, .i32⟩
  | .hbm, ⟨38, _⟩ => ⟨S16x8, .f32⟩
  | .hbm, ⟨39, _⟩ => ⟨S1x1x1024x1024, .f32⟩
  | .hbm, ⟨40, _⟩ => ⟨S1024x1024, .f32⟩
  | .hbm, ⟨41, _⟩ => ⟨S1x1x1024x1024, .f32⟩
  | .hbm, ⟨42, _⟩ => ⟨S1024x1024, .f32⟩
  | .hbm, ⟨43, _⟩ => ⟨S1024x2, .f32⟩
  | .hbm, ⟨44, _⟩ => ⟨S1x1024x2, .f32⟩
  | .local _ .vmem, ⟨0, _⟩ => ⟨S1024x1024, .f32⟩
  | .local _ .vmem, ⟨1, _⟩ => ⟨S1024x1024, .f32⟩
  | .local _ .vmem, ⟨2, _⟩ => ⟨S1024x32, .f32⟩
  | .local _ .vmem, ⟨3, _⟩ => ⟨S16x8, .f32⟩
  | .local _ .vmem, ⟨4, _⟩ => ⟨S32x2, .f32⟩
  | .local _ .vmem, ⟨5, _⟩ => ⟨S1024x2, .f32⟩
  | _, _ => ⟨S1x2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_c_2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

class Facts₀ : Prop where
  concatenates_S1024x8_S1024x8_S1024x8_S1024x8_S1024x32_d1 : Shape.Concatenates [S1024x8, S1024x8, S1024x8, S1024x8] S1024x32 1
  concatenates_S1x16_S1x16_S1x16_S1x16_S4x16_d0 : Shape.Concatenates [S1x16, S1x16, S1x16, S1x16] S4x16 0
  bcast_S_S16x8 : S_.BroadcastsInDim S16x8 (![] : Fin 0 → Fin S16x8.rank)
  slices_S4x16_S4x8_0_0 : S4x16.Slices ![0, 0] S4x8
  bcast_S_S1 : S_.BroadcastsInDim S1 (![] : Fin 0 → Fin S1.rank)
  slices_S4x16_S4x8_0_8 : S4x16.Slices ![0, 8] S4x8
  slices_S1x4_S1x2_0_0 : S1x4.Slices ![0, 0] S1x2
  shapeCasts_S1x2_S2 : S1x2.ShapeCasts S2
  concatenates_S1_S1_S2_d0 : Shape.Concatenates [S1, S1] S2 0
  slices_S1x4_S1x2_0_2 : S1x4.Slices ![0, 2] S1x2
  slices_S1x2x1024x1024_S1x1x1024x1024_0_0_0_0 : S1x2x1024x1024.Slices ![0, 0, 0, 0] S1x1x1024x1024
  shapeCasts_S1x1x1024x1024_S1024x1024 : S1x1x1024x1024.ShapeCasts S1024x1024
  slices_S1x2x1024x1024_S1x1x1024x1024_0_1_0_0 : S1x2x1024x1024.Slices ![0, 1, 0, 0] S1x1x1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S16x8_S16x8_0_0 : ∀ a, (![0, 0] : Fin 2 → Nat) a + S16x8.size a ≤ S16x8.size a
  h_S16x8 : 0 < S16x8.numel
  shapeCasts_S16x8_S16x8 : S16x8.ShapeCasts S16x8
  slices_S1024x32_o0_0_S1024x8 : S1024x32.Slices ![0, 0] S1024x8
  slices_S16x8_o0_0_S1x8 : S16x8.Slices ![0, 0] S1x8
  broadcasts_S1x8_S1024x8 : S1x8.Broadcasts S1024x8
  reduces_S1024x8_S1024 : S1024x8.Reduces [1] S1024
  shapeCasts_S1024_S1024x1 : S1024.ShapeCasts S1024x1
  slices_S16x8_o4_0_S1x8 : S16x8.Slices ![4, 0] S1x8
  broadcasts_S1024x1_S1024x1024 : S1024x1.Broadcasts S1024x1024
  broadcasts_S1x1024_S1024x1024 : S1x1024.Broadcasts S1024x1024
  concatenates_S1024x8_S1024x1_S1024x9_d1 : Shape.Concatenates [S1024x8, S1024x1] S1024x9 1
  slices_S1024x9_o0_0_S1024x8 : S1024x9.Slices ![0, 0] S1024x8
  slices_S1024x9_o0_8_S1024x1 : S1024x9.Slices ![0, 8] S1024x1
  broadcasts_S1024x1_S1024x8 : S1024x1.Broadcasts S1024x8
  slices_S1024x32_o0_8_S1024x8 : S1024x32.Slices ![0, 8] S1024x8
  slices_S16x8_o1_0_S1x8 : S16x8.Slices ![1, 0] S1x8
  slices_S16x8_o5_0_S1x8 : S16x8.Slices ![5, 0] S1x8
  slices_S1024x32_o0_16_S1024x8 : S1024x32.Slices ![0, 16] S1024x8
  slices_S16x8_o2_0_S1x8 : S16x8.Slices ![2, 0] S1x8
  slices_S16x8_o6_0_S1x8 : S16x8.Slices ![6, 0] S1x8
  slices_S1024x32_o0_24_S1024x8 : S1024x32.Slices ![0, 24] S1024x8
  slices_S16x8_o3_0_S1x8 : S16x8.Slices ![3, 0] S1x8
  slices_S16x8_o7_0_S1x8 : S16x8.Slices ![7, 0] S1x8
  inb_S32x2_S32x2_0_0 : ∀ a, (![0, 0] : Fin 2 → Nat) a + S32x2.size a ≤ S32x2.size a
  h_S32x2 : 0 < S32x2.numel
  slices_S16x8_o8_0_S1x2 : S16x8.Slices ![8, 0] S1x2
  broadcasts_S1x2_S1024x2 : S1x2.Broadcasts S1024x2
  reduces_S1024x2_S1024 : S1024x2.Reduces [1] S1024
  slices_S16x8_o9_0_S1x2 : S16x8.Slices ![9, 0] S1x2
  concatenates_S1024x2_S1024x1_S1024x3_d1 : Shape.Concatenates [S1024x2, S1024x1] S1024x3 1
  slices_S1024x3_o0_0_S1024x2 : S1024x3.Slices ![0, 0] S1024x2
  slices_S1024x3_o0_2_S1024x1 : S1024x3.Slices ![0, 2] S1024x1
  broadcasts_S1024x1_S1024x2 : S1024x1.Broadcasts S1024x2
  inb_S1024x2_S1024x2_0_0 : ∀ a, (![0, 0] : Fin 2 → Nat) a + S1024x2.size a ≤ S1024x2.size a
  h_S1024x2 : 0 < S1024x2.numel
  bcast_S1024x2_S1x1024x2_1_2 : S1024x2.BroadcastsInDim S1x1024x2 (![1, 2] : Fin 2 → Fin S1x1024x2.rank)
  scatter_S16x8_S1_S4x8_01_n_0_0_wf : ScatterDims.WF S16x8 S1 S4x8 [0, 1] [] [0] 0
  scatter_S16x8_S2_S2_0_0_01_0_wf : ScatterDims.WF S16x8 S2 S2 [0] [0] [0, 1] 0
  dot_S1024x1024_S1024x32_S1024x32_1_0_0_1_n_n_wf : DotDims.WF S1024x1024 S1024x32 S1024x32 [1] [0] [0] [1] [] []
  dot_S1x8_S1024x8_S1x1024_1_1_0_0_n_n_wf : DotDims.WF S1x8 S1024x8 S1x1024 [1] [1] [0] [0] [] []
  dot_S1024x1024_S1024x9_S1024x9_1_0_0_1_n_n_wf : DotDims.WF S1024x1024 S1024x9 S1024x9 [1] [0] [0] [1] [] []
  dot_S1024x32_S32x2_S1024x2_1_0_0_1_n_n_wf : DotDims.WF S1024x32 S32x2 S1024x2 [1] [0] [0] [1] [] []
  dot_S1x2_S1024x2_S1x1024_1_1_0_0_n_n_wf : DotDims.WF S1x2 S1024x2 S1x1024 [1] [1] [0] [0] [] []
  dot_S1024x1024_S1024x3_S1024x3_1_0_0_1_n_n_wf : DotDims.WF S1024x1024 S1024x3 S1024x3 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole

variable [Facts₀]

def scatter_S16x8_S1_S4x8_01_n_0_0 : ScatterDims S16x8 S1 S4x8 where
  updateWindowDims := [0, 1]
  insertedWindowDims := []
  scatterDimsToOperandDims := [0]
  indexVectorDim := 0
  wf := scatter_S16x8_S1_S4x8_01_n_0_0_wf
def scatter_S16x8_S2_S2_0_0_01_0 : ScatterDims S16x8 S2 S2 where
  updateWindowDims := [0]
  insertedWindowDims := [0]
  scatterDimsToOperandDims := [0, 1]
  indexVectorDim := 0
  wf := scatter_S16x8_S2_S2_0_0_01_0_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf
def dot_S1x8_S1024x8_S1x1024_1_1_0_0_n_n : DotDims S1x8 S1024x8 S1x1024 where
  lhsContracting := [1]
  rhsContracting := [1]
  lhsNonContracting := [0]
  rhsNonContracting := [0]
  lhsBatch := []
  rhsBatch := []
  wf := dot_S1x8_S1024x8_S1x1024_1_1_0_0_n_n_wf
def dot_S1024x1024_S1024x9_S1024x9_1_0_0_1_n_n : DotDims S1024x1024 S1024x9 S1024x9 where
  lhsContracting := [1]
  rhsContracting := [0]
  lhsNonContracting := [0]
  rhsNonContracting := [1]
  lhsBatch := []
  rhsBatch := []
  wf := dot_S1024x1024_S1024x9_S1024x9_1_0_0_1_n_n_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf
def dot_S1x2_S1024x2_S1x1024_1_1_0_0_n_n : DotDims S1x2 S1024x2 S1x1024 where
  lhsContracting := [1]
  rhsContracting := [1]
  lhsNonContracting := [0]
  rhsNonContracting := [0]
  lhsBatch := []
  rhsBatch := []
  wf := dot_S1x2_S1024x2_S1x1024_1_1_0_0_n_n_wf
def dot_S1024x1024_S1024x3_S1024x3_1_0_0_1_n_n : DotDims S1024x1024 S1024x3 S1024x3 where
  lhsContracting := [1]
  rhsContracting := [0]
  lhsNonContracting := [0]
  rhsNonContracting := [1]
  lhsBatch := []
  rhsBatch := []
  wf := dot_S1024x1024_S1024x3_S1024x3_1_0_0_1_n_n_wf

abbrev win0_0 : Pipeline.Window sig grid0 :=
  Pipeline.Window.whole (Memref.whole main_v22) false false (stage0_0 0) (sem0_0 0) (Memref.isWhole_whole _) (hstage0_0 0)

abbrev win0_1 : Pipeline.Window sig grid0 :=
  Pipeline.Window.whole (Memref.whole main_v24) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v20) false false (stage0_3 0) (sem0_3 0) (Memref.isWhole_whole _) (hstage0_3 0)

abbrev win0_4 : Pipeline.Window sig grid0 :=
  Pipeline.Window.whole (Memref.whole main_arg9) false false (stage0_4 0) (sem0_4 0) (Memref.isWhole_whole _) (hstage0_4 0)

abbrev win0_5 : Pipeline.Window sig grid0 :=
  Pipeline.Window.whole (Memref.whole main_v25) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1x2x1024x1024 : Shape := ⟨4, ![1, 2, 1024, 1024]⟩
abbrev S1024x8 : Shape := ⟨2, ![1024, 8]⟩
abbrev S1x16 : Shape := ⟨2, ![1, 16]⟩
abbrev S32x2 : Shape := ⟨2, ![32, 2]⟩
abbrev S1x4 : Shape := ⟨2, ![1, 4]⟩
abbrev S1x1x1024x1024 : Shape := ⟨4, ![1, 1, 1024, 1024]⟩
abbrev S1024x1024 : Shape := ⟨2, ![1024, 1024]⟩
abbrev S1024 : Shape := ⟨1, ![1024]⟩
abbrev S1048576 : Shape := ⟨1, ![1048576]⟩
abbrev S1x1024 : Shape := ⟨2, ![1, 1024]⟩
abbrev S_ : Shape := ⟨0, ![]⟩
abbrev S1048576x1 : Shape := ⟨2, ![1048576, 1]⟩
abbrev S1048576x8 : Shape := ⟨2, ![1048576, 8]⟩
abbrev S1048576x16 : Shape := ⟨2, ![1048576, 16]⟩
abbrev S16x1048576 : Shape := ⟨2, ![16, 1048576]⟩
abbrev S1x1048576 : Shape := ⟨2, ![1, 1048576]⟩
abbrev S1024x1 : Shape := ⟨2, ![1024, 1]⟩
abbrev S1024x32 : Shape := ⟨2, ![1024, 32]⟩
abbrev S1024x2 : Shape := ⟨2, ![1024, 2]⟩
abbrev S1048576x2 : Shape := ⟨2, ![1048576, 2]⟩
abbrev S1048576x4 : Shape := ⟨2, ![1048576, 4]⟩
abbrev S4x1048576 : Shape := ⟨2, ![4, 1048576]⟩
abbrev S1x1024x2 : Shape := ⟨3, ![1, 1024, 2]⟩

abbrev nBuf : Space → Nat
  | .hbm => 401
  | .vmem => 0
  | .smem => 0
  | _ => 0

abbrev hbmTy0_0 (i : Nat) : BufTy := match i % 128 with
  | 0 => ⟨S1x2x1024x1024, .f32⟩
  | 1 => ⟨S1024x8, .f32⟩
  | 2 => ⟨S1x16, .f32⟩
  | 3 => ⟨S1024x8, .f32⟩
  | 4 => ⟨S1x16, .f32⟩
  | 5 => ⟨S1024x8, .f32⟩
  | 6 => ⟨S1x16, .f32⟩
  | 7 => ⟨S1024x8, .f32⟩
  | 8 => ⟨S1x16, .f32⟩
  | 9 => ⟨S32x2, .f32⟩
  | 10 => ⟨S1x4, .f32⟩
  | 11 => ⟨S1x1x1024x1024, .f32⟩
  | 12 => ⟨S1024x1024, .f32⟩
  | 13 => ⟨S1x1x1024x1024, .f32⟩
  | 14 => ⟨S1024x1024, .f32⟩
  | 15 => ⟨S1024, .i32⟩
  | 16 => ⟨S1024x1024, .i32⟩
  | 17 => ⟨S1048576, .i32⟩
  | 18 => ⟨S1024, .i32⟩
  | 19 => ⟨S1x1024, .i32⟩
  | 20 => ⟨S1024x1024, .i32⟩
  | 21 => ⟨S1048576, .i32⟩
  | 22 => ⟨S1048576, .f32⟩
  | 23 => ⟨S_, .f32⟩
  | 24 => ⟨S1048576, .f32⟩
  | 25 => ⟨S1048576, .i1⟩
  | 26 => ⟨S1048576, .f32⟩
  | 27 => ⟨S1024x8, .f32⟩
  | 28 => ⟨S_, .i32⟩
  | 29 => ⟨S1048576, .i32⟩
  | 30 => ⟨S1048576, .i1⟩
  | 31 => ⟨S_, .i32⟩
  | 32 => ⟨S1048576, .i32⟩
  | 33 => ⟨S1048576, .i32⟩
  | 34 => ⟨S1048576, .i32⟩
  | 35 => ⟨S1048576x1, .i32⟩
  | 36 => ⟨S1048576x8, .f32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S1048576x8, .f32⟩
  | 46 => ⟨S1048576x16, .f32⟩
  | 47 => ⟨S16x1048576, .f32⟩
  | 48 => ⟨S1x1048576, .f32⟩
  | 49 => ⟨S1048576, .f32⟩
  | 50 => ⟨S_, .f32⟩
  | 51 => ⟨S_, .f32⟩
  | 52 => ⟨S1048576, .f32⟩
  | 53 => ⟨S1048576, .i1⟩
  | 54 => ⟨S_, .f32⟩
  | 55 => ⟨S1048576, .f32⟩
  | 56 => ⟨S1048576, .f32⟩
  | 57 => ⟨S1048576, .f32⟩
  | 58 => ⟨S1048576, .f32⟩
  | 59 => ⟨S1048576, .f32⟩
  | 60 => ⟨S1048576, .f32⟩
  | 61 => ⟨S_, .f32⟩
  | 62 => ⟨S1024, .f32⟩
  | 63 => ⟨S1048576x1, .i32⟩
  | 64 => ⟨S1024, .f32⟩
  | 65 => ⟨S1024x1, .f32⟩
  | 66 => ⟨S1048576x1, .f32⟩
  | 67 => ⟨S_, .i32⟩
  | 68 => ⟨S1048576, .i32⟩
  | 69 => ⟨S1048576, .i1⟩
  | 70 => ⟨S_, .i32⟩
  | 71 => ⟨S1048576, .i32⟩
  | 72 => ⟨S1048576, .i32⟩
  | 73 => ⟨S1048576, .i32⟩
  | 74 => ⟨S1048576x1, .i32⟩
  | 75 => ⟨S1048576x8, .f32⟩
  | 76 => ⟨S1048576x8, .f32⟩
  | 77 => ⟨S1048576x8, .f32⟩
  | 78 => ⟨S_, .f32⟩
  | 79 => ⟨S1024x8, .f32⟩
  | 80 => ⟨S1048576x1, .i32⟩
  | 81 => ⟨S1024x8, .f32⟩
  | 82 => ⟨S1024x8, .f32⟩
  | 83 => ⟨S1024x8, .f32⟩
  | 84 => ⟨S_, .f32⟩
  | 85 => ⟨S1024x8, .f32⟩
  | 86 => ⟨S1024x8, .i1⟩
  | 87 => ⟨S_, .f32⟩
  | 88 => ⟨S1024x8, .f32⟩
  | 89 => ⟨S1024x8, .i1⟩
  | 90 => ⟨S_, .f32⟩
  | 91 => ⟨S_, .f32⟩
  | 92 => ⟨S1024x8, .f32⟩
  | 93 => ⟨S1024x8, .f32⟩
  | 94 => ⟨S1024x8, .f32⟩
  | 95 => ⟨S_, .f32⟩
  | 96 => ⟨S1024x8, .f32⟩
  | 97 => ⟨S1024x8, .f32⟩
  | 98 => ⟨S1024x8, .f32⟩
  | 99 => ⟨S1024x8, .f32⟩
  | 100 => ⟨S_, .i32⟩
  | 101 => ⟨S1048576, .i32⟩
  | 102 => ⟨S1048576, .i1⟩
  | 103 => ⟨S_, .i32⟩
  | 104 => ⟨S1048576, .i32⟩
  | 105 => ⟨S1048576, .i32⟩
  | 106 => ⟨S1048576, .i32⟩
  | 107 => ⟨S1048576x1, .i32⟩
  | 108 => ⟨S1048576x8, .f32⟩
  | 109 => ⟨S_, .i32⟩
  | 110 => ⟨S1048576, .i32⟩
  | 111 => ⟨S1048576, .i1⟩
  | 112 => ⟨S_, .i32⟩
  | 113 => ⟨S1048576, .i32⟩
  | 114 => ⟨S1048576, .i32⟩
  | 115 => ⟨S1048576, .i32⟩
  | 116 => ⟨S1048576x1, .i32⟩
  | 117 => ⟨S1048576x8, .f32⟩
  | 118 => ⟨S1048576x16, .f32⟩
  | 119 => ⟨S16x1048576, .f32⟩
  | 120 => ⟨S1x1048576, .f32⟩
  | 121 => ⟨S1048576, .f32⟩
  | 122 => ⟨S_, .f32⟩
  | 123 => ⟨S_, .f32⟩
  | 124 => ⟨S1048576, .f32⟩
  | 125 => ⟨S1048576, .i1⟩
  | 126 => ⟨S_, .f32⟩
  | 127 => ⟨S1048576, .f32⟩
  | _ => ⟨S1x2x1024x1024, .f32⟩

abbrev hbmTy0_1 (i : Nat) : BufTy := match i % 128 with
  | 0 => ⟨S1048576, .f32⟩
  | 1 => ⟨S1048576, .f32⟩
  | 2 => ⟨S1048576, .f32⟩
  | 3 => ⟨S1048576, .f32⟩
  | 4 => ⟨S1048576, .f32⟩
  | 5 => ⟨S_, .f32⟩
  | 6 => ⟨S1024, .f32⟩
  | 7 => ⟨S1048576x1, .i32⟩
  | 8 => ⟨S1024, .f32⟩
  | 9 => ⟨S1024x1, .f32⟩
  | 10 => ⟨S1048576x1, .f32⟩
  | 11 => ⟨S_, .i32⟩
  | 12 => ⟨S1048576, .i32⟩
  | 13 => ⟨S1048576, .i1⟩
  | 14 => ⟨S_, .i32⟩
  | 15 => ⟨S1048576, .i32⟩
  | 16 => ⟨S1048576, .i32⟩
  | 17 => ⟨S1048576, .i32⟩
  | 18 => ⟨S1048576x1, .i32⟩
  | 19 => ⟨S1048576x8, .f32⟩
  | 20 => ⟨S1048576x8, .f32⟩
  | 21 => ⟨S1048576x8, .f32⟩
  | 22 => ⟨S_, .f32⟩
  | 23 => ⟨S1024x8, .f32⟩
  | 24 => ⟨S1048576x1, .i32⟩
  | 25 => ⟨S1024x8, .f32⟩
  | 26 => ⟨S1024x8, .f32⟩
  | 27 => ⟨S1024x8, .f32⟩
  | 28 => ⟨S_, .f32⟩
  | 29 => ⟨S1024x8, .f32⟩
  | 30 => ⟨S1024x8, .i1⟩
  | 31 => ⟨S_, .f32⟩
  | 32 => ⟨S1024x8, .f32⟩
  | 33 => ⟨S1024x8, .i1⟩
  | 34 => ⟨S_, .f32⟩
  | 35 => ⟨S_, .f32⟩
  | 36 => ⟨S1024x8, .f32⟩
  | 37 => ⟨S1024x8, .f32⟩
  | 38 => ⟨S1024x8, .f32⟩
  | 39 => ⟨S_, .f32⟩
  | 40 => ⟨S1024x8, .f32⟩
  | 41 => ⟨S1024x8, .f32⟩
  | 42 => ⟨S1024x8, .f32⟩
  | 43 => ⟨S1024x8, .f32⟩
  | 44 => ⟨S_, .i32⟩
  | 45 => ⟨S1048576, .i32⟩
  | 46 => ⟨S1048576, .i1⟩
  | 47 => ⟨S_, .i32⟩
  | 48 => ⟨S1048576, .i32⟩
  | 49 => ⟨S1048576, .i32⟩
  | 50 => ⟨S1048576, .i32⟩
  | 51 => ⟨S1048576x1, .i32⟩
  | 52 => ⟨S1048576x8, .f32⟩
  | 53 => ⟨S_, .i32⟩
  | 54 => ⟨S1048576, .i32⟩
  | 55 => ⟨S1048576, .i1⟩
  | 56 => ⟨S_, .i32⟩
  | 57 => ⟨S1048576, .i32⟩
  | 58 => ⟨S1048576, .i32⟩
  | 59 => ⟨S1048576, .i32⟩
  | 60 => ⟨S1048576x1, .i32⟩
  | 61 => ⟨S1048576x8, .f32⟩
  | 62 => ⟨S1048576x16, .f32⟩
  | 63 => ⟨S16x1048576, .f32⟩
  | 64 => ⟨S1x1048576, .f32⟩
  | 65 => ⟨S1048576, .f32⟩
  | 66 => ⟨S_, .f32⟩
  | 67 => ⟨S_, .f32⟩
  | 68 => ⟨S1048576, .f32⟩
  | 69 => ⟨S1048576, .i1⟩
  | 70 => ⟨S_, .f32⟩
  | 71 => ⟨S1048576, .f32⟩
  | 72 => ⟨S1048576, .f32⟩
  | 73 => ⟨S1048576, .f32⟩
  | 74 => ⟨S1048576, .f32⟩
  | 75 => ⟨S1048576, .f32⟩
  | 76 => ⟨S1048576, .f32⟩
  | 77 => ⟨S_, .f32⟩
  | 78 => ⟨S1024, .f32⟩
  | 79 => ⟨S1048576x1, .i32⟩
  | 80 => ⟨S1024, .f32⟩
  | 81 => ⟨S1024x1, .f32⟩
  | 82 => ⟨S1048576x1, .f32⟩
  | 83 => ⟨S_, .i32⟩
  | 84 => ⟨S1048576, .i32⟩
  | 85 => ⟨S1048576, .i1⟩
  | 86 => ⟨S_, .i32⟩
  | 87 => ⟨S1048576, .i32⟩
  | 88 => ⟨S1048576, .i32⟩
  | 89 => ⟨S1048576, .i32⟩
  | 90 => ⟨S1048576x1, .i32⟩
  | 91 => ⟨S1048576x8, .f32⟩
  | 92 => ⟨S1048576x8, .f32⟩
  | 93 => ⟨S1048576x8, .f32⟩
  | 94 => ⟨S_, .f32⟩
  | 95 => ⟨S1024x8, .f32⟩
  | 96 => ⟨S1048576x1, .i32⟩
  | 97 => ⟨S1024x8, .f32⟩
  | 98 => ⟨S1024x8, .f32⟩
  | 99 => ⟨S1024x8, .f32⟩
  | 100 => ⟨S_, .f32⟩
  | 101 => ⟨S1024x8, .f32⟩
  | 102 => ⟨S1024x8, .i1⟩
  | 103 => ⟨S_, .f32⟩
  | 104 => ⟨S1024x8, .f32⟩
  | 105 => ⟨S1024x8, .i1⟩
  | 106 => ⟨S_, .f32⟩
  | 107 => ⟨S_, .f32⟩
  | 108 => ⟨S1024x8, .f32⟩
  | 109 => ⟨S1024x8, .f32⟩
  | 110 => ⟨S1024x8, .f32⟩
  | 111 => ⟨S_, .f32⟩
  | 112 => ⟨S1024x8, .f32⟩
  | 113 => ⟨S1024x8, .f32⟩
  | 114 => ⟨S1024x8, .f32⟩
  | 115 => ⟨S1024x8, .f32⟩
  | 116 => ⟨S_, .i32⟩
  | 117 => ⟨S1048576, .i32⟩
  | 118 => ⟨S1048576, .i1⟩
  | 119 => ⟨S_, .i32⟩
  | 120 => ⟨S1048576, .i32⟩
  | 121 => ⟨S1048576, .i32⟩
  | 122 => ⟨S1048576, .i32⟩
  | 123 => ⟨S1048576x1, .i32⟩
  | 124 => ⟨S1048576x8, .f32⟩
  | 125 => ⟨S_, .i32⟩
  | 126 => ⟨S1048576, .i32⟩
  | 127 => ⟨S1048576, .i1⟩
  | _ => ⟨S1x2x1024x1024, .f32⟩

abbrev hbmTy0_2 (i : Nat) : BufTy := match i % 128 with
  | 0 => ⟨S_, .i32⟩
  | 1 => ⟨S1048576, .i32⟩
  | 2 => ⟨S1048576, .i32⟩
  | 3 => ⟨S1048576, .i32⟩
  | 4 => ⟨S1048576x1, .i32⟩
  | 5 => ⟨S1048576x8, .f32⟩
  | 6 => ⟨S1048576x16, .f32⟩
  | 7 => ⟨S16x1048576, .f32⟩
  | 8 => ⟨S1x1048576, .f32⟩
  | 9 => ⟨S1048576, .f32⟩
  | 10 => ⟨S_, .f32⟩
  | 11 => ⟨S_, .f32⟩
  | 12 => ⟨S1048576, .f32⟩
  | 13 => ⟨S1048576, .i1⟩
  | 14 => ⟨S_, .f32⟩
  | 15 => ⟨S1048576, .f32⟩
  | 16 => ⟨S1048576, .f32⟩
  | 17 => ⟨S1048576, .f32⟩
  | 18 => ⟨S1048576, .f32⟩
  | 19 => ⟨S1048576, .f32⟩
  | 20 => ⟨S1048576, .f32⟩
  | 21 => ⟨S_, .f32⟩
  | 22 => ⟨S1024, .f32⟩
  | 23 => ⟨S1048576x1, .i32⟩
  | 24 => ⟨S1024, .f32⟩
  | 25 => ⟨S1024x1, .f32⟩
  | 26 => ⟨S1048576x1, .f32⟩
  | 27 => ⟨S_, .i32⟩
  | 28 => ⟨S1048576, .i32⟩
  | 29 => ⟨S1048576, .i1⟩
  | 30 => ⟨S_, .i32⟩
  | 31 => ⟨S1048576, .i32⟩
  | 32 => ⟨S1048576, .i32⟩
  | 33 => ⟨S1048576, .i32⟩
  | 34 => ⟨S1048576x1, .i32⟩
  | 35 => ⟨S1048576x8, .f32⟩
  | 36 => ⟨S1048576x8, .f32⟩
  | 37 => ⟨S1048576x8, .f32⟩
  | 38 => ⟨S_, .f32⟩
  | 39 => ⟨S1024x8, .f32⟩
  | 40 => ⟨S1048576x1, .i32⟩
  | 41 => ⟨S1024x8, .f32⟩
  | 42 => ⟨S1024x8, .f32⟩
  | 43 => ⟨S1024x8, .f32⟩
  | 44 => ⟨S_, .f32⟩
  | 45 => ⟨S1024x8, .f32⟩
  | 46 => ⟨S1024x8, .i1⟩
  | 47 => ⟨S_, .f32⟩
  | 48 => ⟨S1024x8, .f32⟩
  | 49 => ⟨S1024x8, .i1⟩
  | 50 => ⟨S_, .f32⟩
  | 51 => ⟨S_, .f32⟩
  | 52 => ⟨S1024x8, .f32⟩
  | 53 => ⟨S1024x8, .f32⟩
  | 54 => ⟨S1024x8, .f32⟩
  | 55 => ⟨S_, .f32⟩
  | 56 => ⟨S1024x8, .f32⟩
  | 57 => ⟨S1024x8, .f32⟩
  | 58 => ⟨S1024x8, .f32⟩
  | 59 => ⟨S1024x32, .f32⟩
  | 60 => ⟨S1024, .i32⟩
  | 61 => ⟨S1024x1024, .i32⟩
  | 62 => ⟨S1048576, .i32⟩
  | 63 => ⟨S1024, .i32⟩
  | 64 => ⟨S1x1024, .i32⟩
  | 65 => ⟨S1024x1024, .i32⟩
  | 66 => ⟨S1048576, .i32⟩
  | 67 => ⟨S1048576, .f32⟩
  | 68 => ⟨S_, .f32⟩
  | 69 => ⟨S1048576, .f32⟩
  | 70 => ⟨S1048576, .i1⟩
  | 71 => ⟨S1048576, .f32⟩
  | 72 => ⟨S1024x2, .f32⟩
  | 73 => ⟨S_, .i32⟩
  | 74 => ⟨S1048576, .i32⟩
  | 75 => ⟨S1048576, .i1⟩
  | 76 => ⟨S_, .i32⟩
  | 77 => ⟨S1048576, .i32⟩
  | 78 => ⟨S1048576, .i32⟩
  | 79 => ⟨S1048576, .i32⟩
  | 80 => ⟨S1048576x1, .i32⟩
  | 81 => ⟨S1048576x2, .f32⟩
  | 82 => ⟨S_, .i32⟩
  | 83 => ⟨S1048576, .i32⟩
  | 84 => ⟨S1048576, .i1⟩
  | 85 => ⟨S_, .i32⟩
  | 86 => ⟨S1048576, .i32⟩
  | 87 => ⟨S1048576, .i32⟩
  | 88 => ⟨S1048576, .i32⟩
  | 89 => ⟨S1048576x1, .i32⟩
  | 90 => ⟨S1048576x2, .f32⟩
  | 91 => ⟨S1048576x4, .f32⟩
  | 92 => ⟨S4x1048576, .f32⟩
  | 93 => ⟨S1x1048576, .f32⟩
  | 94 => ⟨S1048576, .f32⟩
  | 95 => ⟨S_, .f32⟩
  | 96 => ⟨S_, .f32⟩
  | 97 => ⟨S1048576, .f32⟩
  | 98 => ⟨S1048576, .i1⟩
  | 99 => ⟨S_, .f32⟩
  | 100 => ⟨S1048576, .f32⟩
  | 101 => ⟨S1048576, .f32⟩
  | 102 => ⟨S1048576, .f32⟩
  | 103 => ⟨S1048576, .f32⟩
  | 104 => ⟨S1048576, .f32⟩
  | 105 => ⟨S1048576, .f32⟩
  | 106 => ⟨S_, .f32⟩
  | 107 => ⟨S1024, .f32⟩
  | 108 => ⟨S1048576x1, .i32⟩
  | 109 => ⟨S1024, .f32⟩
  | 110 => ⟨S1024x1, .f32⟩
  | 111 => ⟨S1048576x1, .f32⟩
  | 112 => ⟨S_, .i32⟩
  | 113 => ⟨S1048576, .i32⟩
  | 114 => ⟨S1048576, .i1⟩
  | 115 => ⟨S_, .i32⟩
  | 116 => ⟨S1048576, .i32⟩
  | 117 => ⟨S1048576, .i32⟩
  | 118 => ⟨S1048576, .i32⟩
  | 119 => ⟨S1048576x1, .i32⟩
  | 120 => ⟨S1048576x2, .f32⟩
  | 121 => ⟨S1048576x2, .f32⟩
  | 122 => ⟨S1048576x2, .f32⟩
  | 123 => ⟨S_, .f32⟩
  | 124 => ⟨S1024x2, .f32⟩
  | 125 => ⟨S1048576x1, .i32⟩
  | 126 => ⟨S1024x2, .f32⟩
  | 127 => ⟨S1024x2, .f32⟩
  | _ => ⟨S1x2x1024x1024, .f32⟩

abbrev hbmTy0_3 (i : Nat) : BufTy := match i % 128 with
  | 0 => ⟨S1024x2, .f32⟩
  | 1 => ⟨S_, .f32⟩
  | 2 => ⟨S1024x2, .f32⟩
  | 3 => ⟨S1024x2, .i1⟩
  | 4 => ⟨S_, .f32⟩
  | 5 => ⟨S1024x2, .f32⟩
  | 6 => ⟨S1024x2, .i1⟩
  | 7 => ⟨S_, .f32⟩
  | 8 => ⟨S_, .f32⟩
  | 9 => ⟨S1024x2, .f32⟩
  | 10 => ⟨S1024x2, .f32⟩
  | 11 => ⟨S1024x2, .f32⟩
  | 12 => ⟨S_, .f32⟩
  | 13 => ⟨S1024x2, .f32⟩
  | 14 => ⟨S1024x2, .f32⟩
  | 15 => ⟨S1024x2, .f32⟩
  | 16 => ⟨S1x1024x2, .f32⟩
  | _ => ⟨S1x2x1024x1024, .f32⟩

abbrev hbmTy (i : Nat) : BufTy := match i / 128 with
  | 0 => hbmTy0_0 i
  | 1 => hbmTy0_1 i
  | 2 => hbmTy0_2 i
  | 3 => hbmTy0_3 i
  | _ => ⟨S1x2x1024x1024, .f32⟩

abbrev bufTy : (tb : Table) → Fin (tcTables nBuf tb) → BufTy
  | .hbm, ⟨i, _⟩ => hbmTy i
  | _, _ => ⟨S1x2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_1 : Ref sig .tc := ⟨.hbm, 37, rfl⟩
abbrev main_v23 : Ref sig .tc := ⟨.hbm, 38, rfl⟩
abbrev main_v24 : Ref sig .tc := ⟨.hbm, 39, rfl⟩
abbrev main_c_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_4 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_5 : Ref sig .tc := ⟨.hbm, 67, rfl⟩
abbrev main_v43 : Ref sig .tc := ⟨.hbm, 68, rfl⟩
abbrev main_v44 : Ref sig .tc := ⟨.hbm, 69, rfl⟩
abbrev main_c_6 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_cst_0 : Ref sig .tc := ⟨.hbm, 87, rfl⟩
abbrev main_call1_v2 : Ref sig .tc := ⟨.hbm, 88, rfl⟩
abbrev main_call1_v3 : Ref sig .tc := ⟨.hbm, 89, rfl⟩
abbrev main_call1_cst_1 : Ref sig .tc := ⟨.hbm, 90, rfl⟩
abbrev main_call1_call0_v0 : Ref sig .tc := ⟨.hbm, 91, rfl⟩
abbrev main_call1_call0_v1 : Ref sig .tc := ⟨.hbm, 92, rfl⟩
abbrev main_call1_v4 : Ref sig .tc := ⟨.hbm, 93, rfl⟩
abbrev main_call1_v5 : Ref sig .tc := ⟨.hbm, 94, rfl⟩
abbrev main_call1_cst_2 : Ref sig .tc := ⟨.hbm, 95, rfl⟩
abbrev main_call1_v6 : Ref sig .tc := ⟨.hbm, 96, rfl⟩
abbrev main_call1_v7 : Ref sig .tc := ⟨.hbm, 97, rfl⟩
abbrev main_v57 : Ref sig .tc := ⟨.hbm, 98, rfl⟩
abbrev main_v58 : Ref sig .tc := ⟨.hbm, 99, rfl⟩
abbrev main_c_8 : Ref sig .tc := ⟨.hbm, 100, rfl⟩
abbrev main_v59 : Ref sig .tc := ⟨.hbm, 101, rfl⟩
abbrev main_v60 : Ref sig .tc := ⟨.hbm, 102, rfl⟩
abbrev main_c_9 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_c_10 : Ref sig .tc := ⟨.hbm, 109, rfl⟩
abbrev main_v66 : Ref sig .tc := ⟨.hbm, 110, rfl⟩
abbrev main_v67 : Ref sig .tc := ⟨.hbm, 111, rfl⟩
abbrev main_c_11 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_12 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_cst_13 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_c_14 : Ref sig .tc := ⟨.hbm, 139, rfl⟩
abbrev main_v86 : Ref sig .tc := ⟨.hbm, 140, rfl⟩
abbrev main_v87 : Ref sig .tc := ⟨.hbm, 141, rfl⟩
abbrev main_c_15 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_16 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_call3_cst : Ref sig .tc := ⟨.hbm, 156, rfl⟩
abbrev main_call3_v0 : Ref sig .tc := ⟨.hbm, 157, rfl⟩
abbrev main_call3_v1 : Ref sig .tc := ⟨.hbm, 158, rfl⟩
abbrev main_call3_cst_0 : Ref sig .tc := ⟨.hbm, 159, rfl⟩
abbrev main_call3_v2 : Ref sig .tc := ⟨.hbm, 160, rfl⟩
abbrev main_call3_v3 : Ref sig .tc := ⟨.hbm, 161, rfl⟩
abbrev main_call3_cst_1 : Ref sig .tc := ⟨.hbm, 162, rfl⟩
abbrev main_call3_call0_v0 : Ref sig .tc := ⟨.hbm, 163, rfl⟩
abbrev main_call3_call0_v1 : Ref sig .tc := ⟨.hbm, 164, rfl⟩
abbrev main_call3_v4 : Ref sig .tc := ⟨.hbm, 165, rfl⟩
abbrev main_call3_v5 : Ref sig .tc := ⟨.hbm, 166, rfl⟩
abbrev main_call3_cst_2 : Ref sig .tc := ⟨.hbm, 167, rfl⟩
abbrev main_call3_v6 : Ref sig .tc := ⟨.hbm, 168, rfl⟩
abbrev main_call3_v7 : Ref sig .tc := ⟨.hbm, 169, rfl⟩
abbrev main_v100 : Ref sig .tc := ⟨.hbm, 170, rfl⟩
abbrev main_v101 : Ref sig .tc := ⟨.hbm, 171, rfl⟩
abbrev main_c_17 : Ref sig .tc := ⟨.hbm, 172, rfl⟩
abbrev main_v102 : Ref sig .tc := ⟨.hbm, 173, rfl⟩
abbrev main_v103 : Ref sig .tc := ⟨.hbm, 174, rfl⟩
abbrev main_c_18 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_c_19 : Ref sig .tc := ⟨.hbm, 181, rfl⟩
abbrev main_v109 : Ref sig .tc := ⟨.hbm, 182, rfl⟩
abbrev main_v110 : Ref sig .tc := ⟨.hbm, 183, rfl⟩
abbrev main_c_20 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_cst_21 : Ref sig .tc := ⟨.hbm, 194, rfl⟩
abbrev main_call4_cst : Ref sig .tc := ⟨.hbm, 195, rfl⟩
abbrev main_call4_v0 : Ref sig .tc := ⟨.hbm, 196, rfl⟩
abbrev main_call4_v1 : Ref sig .tc := ⟨.hbm, 197, rfl⟩
abbrev main_call4_v2 : Ref sig .tc := ⟨.hbm, 198, rfl⟩
abbrev main_call4_v3 : Ref sig .tc := ⟨.hbm, 199, rfl⟩
abbrev main_call4_v4 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_cst_22 : Ref sig .tc := ⟨.hbm, 205, rfl⟩
abbrev main_v124 : Ref sig .tc := ⟨.hbm, 206, rfl⟩
abbrev main_v125 : Ref sig .tc := ⟨.hbm, 207, rfl⟩
abbrev main_v126 : Ref sig .tc := ⟨.hbm, 208, rfl⟩
abbrev main_v127 : Ref sig .tc := ⟨.hbm, 209, rfl⟩
abbrev main_v128 : Ref sig .tc := ⟨.hbm, 210, rfl⟩
abbrev main_c_23 : Ref sig .tc := ⟨.hbm, 211, rfl⟩
abbrev main_v129 : Ref sig .tc := ⟨.hbm, 212, rfl⟩
abbrev main_v130 : Ref sig .tc := ⟨.hbm, 213, rfl⟩
abbrev main_c_24 : Ref sig .tc := ⟨.hbm, 214, rfl⟩
abbrev main_v131 : Ref sig .tc := ⟨.hbm, 215, rfl⟩
abbrev main_v132 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_v136 : Ref sig .tc := ⟨.hbm, 220, rfl⟩
abbrev main_v137 : Ref sig .tc := ⟨.hbm, 221, rfl⟩
abbrev main_cst_25 : Ref sig .tc := ⟨.hbm, 222, rfl⟩
abbrev main_v138 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_call5_cst : Ref sig .tc := ⟨.hbm, 228, rfl⟩
abbrev main_call5_v0 : Ref sig .tc := ⟨.hbm, 229, rfl⟩
abbrev main_call5_v1 : Ref sig .tc := ⟨.hbm, 230, rfl⟩
abbrev main_call5_cst_0 : Ref sig .tc := ⟨.hbm, 231, rfl⟩
abbrev main_call5_v2 : Ref sig .tc := ⟨.hbm, 232, rfl⟩
abbrev main_call5_v3 : Ref sig .tc := ⟨.hbm, 233, rfl⟩
abbrev main_call5_cst_1 : Ref sig .tc := ⟨.hbm, 234, rfl⟩
abbrev main_call5_call0_v0 : Ref sig .tc := ⟨.hbm, 235, rfl⟩
abbrev main_call5_call0_v1 : Ref sig .tc := ⟨.hbm, 236, rfl⟩
abbrev main_call5_v4 : Ref sig .tc := ⟨.hbm, 237, rfl⟩
abbrev main_call5_v5 : Ref sig .tc := ⟨.hbm, 238, rfl⟩
abbrev main_call5_cst_2 : Ref sig .tc := ⟨.hbm, 239, rfl⟩
abbrev main_call5_v6 : Ref sig .tc := ⟨.hbm, 240, rfl⟩
abbrev main_call5_v7 : Ref sig .tc := ⟨.hbm, 241, rfl⟩
abbrev main_v143 : Ref sig .tc := ⟨.hbm, 242, rfl⟩
abbrev main_v144 : Ref sig .tc := ⟨.hbm, 243, rfl⟩
abbrev main_c_26 : Ref sig .tc := ⟨.hbm, 244, rfl⟩
abbrev main_v145 : Ref sig .tc := ⟨.hbm, 245, rfl⟩
abbrev main_v146 : Ref sig .tc := ⟨.hbm, 246, rfl⟩
abbrev main_c_27 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_c_28 : Ref sig .tc := ⟨.hbm, 253, rfl⟩
abbrev main_v152 : Ref sig .tc := ⟨.hbm, 254, rfl⟩
abbrev main_v153 : Ref sig .tc := ⟨.hbm, 255, rfl⟩
abbrev main_c_29 : Ref sig .tc := ⟨.hbm, 256, rfl⟩
abbrev main_v154 : Ref sig .tc := ⟨.hbm, 257, rfl⟩
abbrev main_v155 : Ref sig .tc := ⟨.hbm, 258, rfl⟩
abbrev main_v156 : Ref sig .tc := ⟨.hbm, 259, rfl⟩
abbrev main_v157 : Ref sig .tc := ⟨.hbm, 260, rfl⟩
abbrev main_v158 : Ref sig .tc := ⟨.hbm, 261, rfl⟩
abbrev main_v159 : Ref sig .tc := ⟨.hbm, 262, rfl⟩
abbrev main_v160 : Ref sig .tc := ⟨.hbm, 263, rfl⟩
abbrev main_v161 : Ref sig .tc := ⟨.hbm, 264, rfl⟩
abbrev main_v162 : Ref sig .tc := ⟨.hbm, 265, rfl⟩
abbrev main_cst_30 : Ref sig .tc := ⟨.hbm, 266, rfl⟩
abbrev main_call6_cst : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_cst_31 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_v171 : Ref sig .tc := ⟨.hbm, 282, rfl⟩
abbrev main_c_32 : Ref sig .tc := ⟨.hbm, 283, rfl⟩
abbrev main_v172 : Ref sig .tc := ⟨.hbm, 284, rfl⟩
abbrev main_v173 : Ref sig .tc := ⟨.hbm, 285, rfl⟩
abbrev main_c_33 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_cst_34 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_call7_cst : Ref sig .tc := ⟨.hbm, 300, rfl⟩
abbrev main_call7_v0 : Ref sig .tc := ⟨.hbm, 301, rfl⟩
abbrev main_call7_v1 : Ref sig .tc := ⟨.hbm, 302, rfl⟩
abbrev main_call7_cst_0 : Ref sig .tc := ⟨.hbm, 303, rfl⟩
abbrev main_call7_v2 : Ref sig .tc := ⟨.hbm, 304, rfl⟩
abbrev main_call7_v3 : Ref sig .tc := ⟨.hbm, 305, rfl⟩
abbrev main_call7_cst_1 : Ref sig .tc := ⟨.hbm, 306, rfl⟩
abbrev main_call7_call0_v0 : Ref sig .tc := ⟨.hbm, 307, rfl⟩
abbrev main_call7_call0_v1 : Ref sig .tc := ⟨.hbm, 308, rfl⟩
abbrev main_call7_v4 : Ref sig .tc := ⟨.hbm, 309, rfl⟩
abbrev main_call7_v5 : Ref sig .tc := ⟨.hbm, 310, rfl⟩
abbrev main_call7_cst_2 : Ref sig .tc := ⟨.hbm, 311, rfl⟩
abbrev main_call7_v6 : Ref sig .tc := ⟨.hbm, 312, rfl⟩
abbrev main_call7_v7 : Ref sig .tc := ⟨.hbm, 313, rfl⟩
abbrev main_v186 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_cst_35 : Ref sig .tc := ⟨.hbm, 324, rfl⟩
abbrev main_v196 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_c_36 : Ref sig .tc := ⟨.hbm, 329, rfl⟩
abbrev main_v200 : Ref sig .tc := ⟨.hbm, 330, rfl⟩
abbrev main_v201 : Ref sig .tc := ⟨.hbm, 331, rfl⟩
abbrev main_c_37 : Ref sig .tc := ⟨.hbm, 332, rfl⟩
abbrev main_v202 : Ref sig .tc := ⟨.hbm, 333, rfl⟩
abbrev main_v203 : Ref sig .tc := ⟨.hbm, 334, rfl⟩
abbrev main_v204 : Ref sig .tc := ⟨.hbm, 335, rfl⟩
abbrev main_v205 : Ref sig .tc := ⟨.hbm, 336, rfl⟩
abbrev main_v206 : Ref sig .tc := ⟨.hbm, 337, rfl⟩
abbrev main_c_38 : Ref sig .tc := ⟨.hbm, 338, rfl⟩
abbrev main_v207 : Ref sig .tc := ⟨.hbm, 339, rfl⟩
abbrev main_v208 : Ref sig .tc := ⟨.hbm, 340, rfl⟩
abbrev main_c_39 : Ref sig .tc := ⟨.hbm, 341, rfl⟩
abbrev main_v209 : Ref sig .tc := ⟨.hbm, 342, rfl⟩
abbrev main_v210 : Ref sig .tc := ⟨.hbm, 343, rfl⟩
abbrev main_v211 : Ref sig .tc := ⟨.hbm, 344, rfl⟩
abbrev main_v212 : Ref sig .tc := ⟨.hbm, 345, rfl⟩
abbrev main_v213 : Ref sig .tc := ⟨.hbm, 346, rfl⟩
abbrev main_v214 : Ref sig .tc := ⟨.hbm, 347, rfl⟩
abbrev main_v215 : Ref sig .tc := ⟨.hbm, 348, rfl⟩
abbrev main_v216 : Ref sig .tc := ⟨.hbm, 349, rfl⟩
abbrev main_v217 : Ref sig .tc := ⟨.hbm, 350, rfl⟩
abbrev main_cst_40 : Ref sig .tc := ⟨.hbm, 351, rfl⟩
abbrev main_call8_cst : Ref sig .tc := ⟨.hbm, 352, rfl⟩
abbrev main_call8_v0 : Ref sig .tc := ⟨.hbm, 353, rfl⟩
abbrev main_call8_v1 : Ref sig .tc := ⟨.hbm, 354, rfl⟩
abbrev main_call8_v2 : Ref sig .tc := ⟨.hbm, 355, rfl⟩
abbrev main_call8_v3 : Ref sig .tc := ⟨.hbm, 356, rfl⟩
abbrev main_call8_v4 : Ref sig .tc := ⟨.hbm, 357, rfl⟩
abbrev main_v218 : Ref sig .tc := ⟨.hbm, 358, rfl⟩
abbrev main_v219 : Ref sig .tc := ⟨.hbm, 359, rfl⟩
abbrev main_v220 : Ref sig .tc := ⟨.hbm, 360, rfl⟩
abbrev main_v221 : Ref sig .tc := ⟨.hbm, 361, rfl⟩
abbrev main_cst_41 : Ref sig .tc := ⟨.hbm, 362, rfl⟩
abbrev main_v222 : Ref sig .tc := ⟨.hbm, 363, rfl⟩
abbrev main_v223 : Ref sig .tc := ⟨.hbm, 364, rfl⟩
abbrev main_v224 : Ref sig .tc := ⟨.hbm, 365, rfl⟩
abbrev main_v225 : Ref sig .tc := ⟨.hbm, 366, rfl⟩
abbrev main_v226 : Ref sig .tc := ⟨.hbm, 367, rfl⟩
abbrev main_c_42 : Ref sig .tc := ⟨.hbm, 368, rfl⟩
abbrev main_v227 : Ref sig .tc := ⟨.hbm, 369, rfl⟩
abbrev main_v228 : Ref sig .tc := ⟨.hbm, 370, rfl⟩
abbrev main_c_43 : Ref sig .tc := ⟨.hbm, 371, rfl⟩
abbrev main_v229 : Ref sig .tc := ⟨.hbm, 372, rfl⟩
abbrev main_v230 : Ref sig .tc := ⟨.hbm, 373, rfl⟩
abbrev main_v231 : Ref sig .tc := ⟨.hbm, 374, rfl⟩
abbrev main_v232 : Ref sig .tc := ⟨.hbm, 375, rfl⟩
abbrev main_v233 : Ref sig .tc := ⟨.hbm, 376, rfl⟩
abbrev main_v234 : Ref sig .tc := ⟨.hbm, 377, rfl⟩
abbrev main_v235 : Ref sig .tc := ⟨.hbm, 378, rfl⟩
abbrev main_cst_44 : Ref sig .tc := ⟨.hbm, 379, rfl⟩
abbrev main_v236 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_call9_cst : Ref sig .tc := ⟨.hbm, 385, rfl⟩
abbrev main_call9_v0 : Ref sig .tc := ⟨.hbm, 386, rfl⟩
abbrev main_call9_v1 : Ref sig .tc := ⟨.hbm, 387, rfl⟩
abbrev main_call9_cst_0 : Ref sig .tc := ⟨.hbm, 388, rfl⟩
abbrev main_call9_v2 : Ref sig .tc := ⟨.hbm, 389, rfl⟩
abbrev main_call9_v3 : Ref sig .tc := ⟨.hbm, 390, rfl⟩
abbrev main_call9_cst_1 : Ref sig .tc := ⟨.hbm, 391, rfl⟩
abbrev main_call9_call0_v0 : Ref sig .tc := ⟨.hbm, 392, rfl⟩
abbrev main_call9_call0_v1 : Ref sig .tc := ⟨.hbm, 393, rfl⟩
abbrev main_call9_v4 : Ref sig .tc := ⟨.hbm, 394, rfl⟩
abbrev main_call9_v5 : Ref sig .tc := ⟨.hbm, 395, rfl⟩
abbrev main_call9_cst_2 : Ref sig .tc := ⟨.hbm, 396, rfl⟩
abbrev main_call9_v6 : Ref sig .tc := ⟨.hbm, 397, rfl⟩
abbrev main_call9_v7 : Ref sig .tc := ⟨.hbm, 398, rfl⟩
abbrev main_v241 : Ref sig .tc := ⟨.hbm, 399, rfl⟩
abbrev main_v242 : Ref sig .tc := ⟨.hbm, 400, rfl⟩

abbrev nD : Nat := 1
abbrev τ : Topo := Topo.v7x

variable {F : FTy → Type} [FloatOps F]

class Facts₀ : Prop where
  slices_S1x2x1024x1024_S1x1x1024x1024_0_0_0_0 : S1x2x1024x1024.Slices ![0, 0, 0, 0] S1x1x1024x1024
  shapeCasts_S1x1x1024x1024_S1024x1024 : S1x1x1024x1024.ShapeCasts S1024x1024
  slices_S1x2x1024x1024_S1x1x1024x1024_0_1_0_0 : S1x2x1024x1024.Slices ![0, 1, 0, 0] S1x1x1024x1024
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S_S1048576 : S_.BroadcastsInDim S1048576 (![] : Fin 0 → Fin S1048576.rank)
  bcast_S1048576_S1048576x1_0 : S1048576.BroadcastsInDim S1048576x1 (![0] : Fin 1 → Fin S1048576x1.rank)
  concatenates_S1048576x8_S1048576x8_S1048576x16_d1 : Shape.Concatenates [S1048576x8, S1048576x8] S1048576x16 1
  transposes_S1048576x16_S16x1048576_1_0 : S1048576x16.Transposes [1, 0] S16x1048576
  shapeCasts_S1x1048576_S1048576 : S1x1048576.ShapeCasts S1048576
  bcast_S_S1024 : S_.BroadcastsInDim S1024 (![] : Fin 0 → Fin S1024.rank)
  bcast_S1024_S1024x1_0 : S1024.BroadcastsInDim S1024x1 (![0] : Fin 1 → Fin S1024x1.rank)
  bcast_S1048576x1_S1048576x8_0_1 : S1048576x1.BroadcastsInDim S1048576x8 (![0, 1] : Fin 2 → Fin S1048576x8.rank)
  bcast_S_S1024x8 : S_.BroadcastsInDim S1024x8 (![] : Fin 0 → Fin S1024x8.rank)
  bcast_S1024x1_S1024x8_0_1 : S1024x1.BroadcastsInDim S1024x8 (![0, 1] : Fin 2 → Fin S1024x8.rank)
  concatenates_S1024x8_S1024x8_S1024x8_S1024x8_S1024x32_d1 : Shape.Concatenates [S1024x8, S1024x8, S1024x8, S1024x8] S1024x32 1
  concatenates_S1048576x2_S1048576x2_S1048576x4_d1 : Shape.Concatenates [S1048576x2, S1048576x2] S1048576x4 1
  transposes_S1048576x4_S4x1048576_1_0 : S1048576x4.Transposes [1, 0] S4x1048576
  bcast_S1048576x1_S1048576x2_0_1 : S1048576x1.BroadcastsInDim S1048576x2 (![0, 1] : Fin 2 → Fin S1048576x2.rank)
  bcast_S_S1024x2 : S_.BroadcastsInDim S1024x2 (![] : Fin 0 → Fin S1024x2.rank)
  bcast_S1024x1_S1024x2_0_1 : S1024x1.BroadcastsInDim S1024x2 (![0, 1] : Fin 2 → Fin S1024x2.rank)
  bcast_S1024x2_S1x1024x2_1_2 : S1024x2.BroadcastsInDim S1x1024x2 (![1, 2] : Fin 2 → Fin S1x1024x2.rank)
  dot_S1024x1024_S1024x8_S1024x8_1_0_0_1_n_n_wf : DotDims.WF S1024x1024 S1024x8 S1024x8 [1] [0] [0] [1] [] []
  gather_S1024x8_S1048576x1_S1048576x8_1_0_n_n_0_1_18_wf : GatherDims.WF S1024x8 S1048576x1 S1048576x8 [1] [0] [] [0] [] 1 ![1, 8]
  dot_S1x16_S16x1048576_S1x1048576_1_0_0_1_n_n_wf : DotDims.WF S1x16 S16x1048576 S1x1048576 [1] [0] [0] [1] [] []
  scatter_S1024_S1048576x1_S1048576_n_0_0_1_wf : ScatterDims.WF S1024 S1048576x1 S1048576 [] [0] [0] 1
  scatter_S1024x8_S1048576x1_S1048576x8_1_0_0_1_wf : ScatterDims.WF S1024x8 S1048576x1 S1048576x8 [1] [0] [0] 1
  dot_S1024x32_S32x2_S1024x2_1_0_0_1_n_n_wf : DotDims.WF S1024x32 S32x2 S1024x2 [1] [0] [0] [1] [] []
  gather_S1024x2_S1048576x1_S1048576x2_1_0_n_n_0_1_12_wf : GatherDims.WF S1024x2 S1048576x1 S1048576x2 [1] [0] [] [0] [] 1 ![1, 2]
  dot_S1x4_S4x1048576_S1x1048576_1_0_0_1_n_n_wf : DotDims.WF S1x4 S4x1048576 S1x1048576 [1] [0] [0] [1] [] []
  scatter_S1024x2_S1048576x1_S1048576x2_1_0_0_1_wf : ScatterDims.WF S1024x2 S1048576x1 S1048576x2 [1] [0] [0] 1

variable [Facts₀]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def gather_S1024x8_S1048576x1_S1048576x8_1_0_n_n_0_1_18 : GatherDims S1024x8 S1048576x1 S1048576x8 where
  offsetDims := [1]
  collapsedSliceDims := [0]
  operandBatchingDims := []
  startIndicesBatchingDims := []
  startIndexMap := [0]
  indexVectorDim := 1
  sliceSizes := ![1, 8]
  wf := gather_S1024x8_S1048576x1_S1048576x8_1_0_n_n_0_1_18_wf
def dot_S1x16_S16x1048576_S1x1048576_1_0_0_1_n_n : DotDims S1x16 S16x1048576 S1x1048576 where
  lhsContracting := [1]
  rhsContracting := [0]
  lhsNonContracting := [0]
  rhsNonContracting := [1]
  lhsBatch := []
  rhsBatch := []
  wf := dot_S1x16_S16x1048576_S1x1048576_1_0_0_1_n_n_wf
def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def scatter_S1024x8_S1048576x1_S1048576x8_1_0_0_1 : ScatterDims S1024x8 S1048576x1 S1048576x8 where
  updateWindowDims := [1]
  insertedWindowDims := [0]
  scatterDimsToOperandDims := [0]
  indexVectorDim := 1
  wf := scatter_S1024x8_S1048576x1_S1048576x8_1_0_0_1_wf
def dot_S1024x32_S32x2_S1024x2_1_0_0_1_n_n : DotDims S1024x32 S32x2 S1024x2 where
  lhsContracting := [1]
  rhsContracting := [0]
  lhsNonContracting := [0]
  rhsNonContracting := [1]
  lhsBatch := []
  rhsBatch := []
  wf := dot_S1024x32_S32x2_S1024x2_1_0_0_1_n_n_wf
def gather_S1024x2_S1048576x1_S1048576x2_1_0_n_n_0_1_12 : GatherDims S1024x2 S1048576x1 S1048576x2 where
  offsetDims := [1]
  collapsedSliceDims := [0]
  operandBatchingDims := []
  startIndicesBatchingDims := []
  startIndexMap := [0]
  indexVectorDim := 1
  sliceSizes := ![1, 2]
  wf := gather_S1024x2_S1048576x1_S1048576x2_1_0_n_n_0_1_12_wf
def dot_S1x4_S4x1048576_S1x1048576_1_0_0_1_n_n : DotDims S1x4 S4x1048576 S1x1048576 where
  lhsContracting := [1]
  rhsContracting := [0]
  lhsNonContracting := [0]
  rhsNonContracting := [1]
  lhsBatch := []
  rhsBatch := []
  wf := dot_S1x4_S4x1048576_S1x1048576_1_0_0_1_n_n_wf
def scatter_S1024x2_S1048576x1_S1048576x2_1_0_0_1 : ScatterDims S1024x2 S1048576x1 S1048576x2 where
  updateWindowDims := [1]
  insertedWindowDims := [0]
  scatterDimsToOperandDims := [0]
  indexVectorDim := 1
  wf := scatter_S1024x2_S1048576x1_S1048576x2_1_0_0_1_wf

class Facts : Prop extends Facts₀ where

variable [Facts]
-- ==== Proof.Spec.lean ====
/-
  The mathematics both programs compute, stated once over the extended reals.

  One graph-attention head over n = 1024 nodes with a dense 0/1 edge mask: project the node features,
  score every ordered pair (i, j) by a source term of i plus a destination term of j, pass the score through the
  leaky rectifier, weight the pair by exp of minus that (times the mask), and return for node i the weighted
  average of the projected features of all j, divided by the total weight, through the exponential linear unit.
  The network is four such heads side by side over the raw features and one more head over their concatenation.
-/
import Idealize.ShloMosaic.PureOps.Ideal
import Idealize.ShloMosaic.PureOps.Ideal.Laws
import Idealize.ShloMosaic.Lib.ValueIdx

noncomputable section

namespace Cert.Gat

open Idealize.ShloMosaic Idealize.ShloMosaic.ValueIdx

/-- The slope of the leaky rectifier on the negative side: the value of the f32 word nearest 0.2, the same word
    in both programs (it is never evaluated). -/
def slope : EReal := Ideal.ofBits .f32 0x3E4CCCCD#32

/-- The leaky rectifier. -/
def leaky (e : EReal) : EReal := if 0 ≤ e then e else slope * e

/-- The exponential linear unit. -/
def elu (r : EReal) : EReal := if 0 < r then r else Ideal.exp r - 1

/-- An adjacency entry as a 0/1 weight: 1 exactly where the entry is not zero. -/
def maskOf (a : EReal) : EReal := if a = 0 then 0 else 1

section Head

variable {K H : ℕ} (x : Fin 1024 → Fin K → EReal) (mask : Fin 1024 → Fin 1024 → EReal)
  (W : Fin K → Fin H → EReal) (asrc adst : Fin H → EReal)

/-- The projected features: row i of x times W. -/
def proj (i : Fin 1024) (d : Fin H) : EReal := ∑ k, x i k * W k d

/-- The source half of a pair's score. -/
def srcScore (i : Fin 1024) : EReal := ∑ d, proj x W i d * asrc d

/-- The destination half of a pair's score. -/
def dstScore (j : Fin 1024) : EReal := ∑ d, adst d * proj x W j d

/-- The weight of the ordered pair (i, j). -/
def weight (i j : Fin 1024) : EReal :=
  Ideal.exp (-(leaky (srcScore x W asrc i + dstScore x W adst j))) * mask i j

/-- The weighted sum of the projected features of all j, for node i. -/
def agg (i : Fin 1024) (d : Fin H) : EReal := ∑ j, weight x mask W asrc adst i j * proj x W j d

/-- The total weight of node i's pairs. -/
def total (i : Fin 1024) : EReal := ∑ j, weight x mask W asrc adst i j

/-- One head: the normalised aggregate through the exponential linear unit. -/
def head (i : Fin 1024) (d : Fin H) : EReal :=
  elu (Ideal.div (agg x mask W asrc adst i d) (total x mask W asrc adst i))

/-- The same head from already projected features p (row i of x times W). -/
def weightOf (p : Fin 1024 → Fin H → EReal) (i j : Fin 1024) : EReal :=
  Ideal.exp (-(leaky ((∑ d, p i d * asrc d) + ∑ d, adst d * p j d))) * mask i j

def headOf (p : Fin 1024 → Fin H → EReal) (i : Fin 1024) (d : Fin H) : EReal :=
  elu (Ideal.div (∑ j, weightOf mask asrc adst p i j * p j d) (∑ j, weightOf mask asrc adst p i j))

theorem head_eq_headOf : head x mask W asrc adst = headOf mask asrc adst (proj x W) := rfl

end Head

/-- Four heads of eight features side by side: column c is feature c % 8 of head c / 8. -/
def hcat (h : Fin 4 → Fin 1024 → Fin 8 → EReal) (i : Fin 1024) (c : Fin 32) : EReal :=
  h ⟨c.val / 8, by omega⟩ i ⟨c.val % 8, by omega⟩

/-- The whole network on curried arrays: x the node features, adj the adjacency, W k and a k head k's projection
    and its 16 attention weights (8 source, then 8 destination), Wl and al the last layer's (2 source, 2 destination). -/
def final (x adj : Fin 1024 → Fin 1024 → EReal) (W : Fin 4 → Fin 1024 → Fin 8 → EReal) (a : Fin 4 → Fin 16 → EReal)
    (Wl : Fin 32 → Fin 2 → EReal) (al : Fin 4 → EReal) : Fin 1024 → Fin 2 → EReal :=
  head (hcat fun k => head x (fun i j => maskOf (adj i j)) (W k)
      (fun d => a k ⟨d.val, by omega⟩) (fun d => a k ⟨8 + d.val, by omega⟩))
    (fun i j => maskOf (adj i j)) Wl (fun d => al ⟨d.val, by omega⟩) (fun d => al ⟨2 + d.val, by omega⟩)

/-- The result array as ONE function of the eleven argument arrays. -/
def G (s : (⟨4, ![1, 2, 1024, 1024]⟩ : Shape).Idx → EReal)
    (w0 : (⟨2, ![1024, 8]⟩ : Shape).Idx → EReal) (a0 : (⟨2, ![1, 16]⟩ : Shape).Idx → EReal)
    (w1 : (⟨2, ![1024, 8]⟩ : Shape).Idx → EReal) (a1 : (⟨2, ![1, 16]⟩ : Shape).Idx → EReal)
    (w2 : (⟨2, ![1024, 8]⟩ : Shape).Idx → EReal) (a2 : (⟨2, ![1, 16]⟩ : Shape).Idx → EReal)
    (w3 : (⟨2, ![1024, 8]⟩ : Shape).Idx → EReal) (a3 : (⟨2, ![1, 16]⟩ : Shape).Idx → EReal)
    (wl : (⟨2, ![32, 2]⟩ : Shape).Idx → EReal) (al : (⟨2, ![1, 4]⟩ : Shape).Idx → EReal) :
    (⟨3, ![1, 1024, 2]⟩ : Shape).Idx → EReal := fun j =>
  final (fun i k => s (ix4 0 0 i k)) (fun i k => s (ix4 0 1 i k))
    (fun h k d => (![w0, w1, w2, w3] h) (ix2 k d)) (fun h t => (![a0, a1, a2, a3] h) (ix2 0 t))
    (fun c d => wl (ix2 c d)) (fun t => al (ix2 0 t)) (j 1) (j 2)

/-! ## The two programs' spellings of the three scalar functions -/

theorem zero_word : Ideal.ofBits .f32 0x00000000#32 = 0 := Ideal.ofBits_zero_f32

/-- The f32 word of 1.0 is the real 1. -/
theorem one_word : Ideal.ofBits .f32 0x3F800000#32 = 1 := by
  simp [Ideal.ofBits, Ideal.ieee]
  first
    | (rw [← EReal.coe_mul]; norm_num)
    | (norm_cast; norm_num)
    | (rw [← EReal.coe_mul, ← EReal.coe_one]; exact congrArg _ (by norm_num))

/-- A select on "e ≥ 0" is the leaky rectifier. -/
theorem leaky_of_select (e : EReal) :
    Scalar.select (Ideal.cmp .oge e 0) e (slope * e) = leaky e := by
  unfold leaky Scalar.select Ideal.cmp
  by_cases h : (0 : EReal) ≤ e <;> simp [h]

/-- The kernel's unit: exp of the minimum with zero, minus one, selected on "r > 0". -/
theorem elu_of_min (r : EReal) :
    Scalar.select (Ideal.cmp .ogt r 0) r (Ideal.exp (min r 0) - 1) = elu r := by
  unfold elu Scalar.select Ideal.cmp
  by_cases h : (0 : EReal) < r
  · simp [h]
  · have : min r 0 = r := min_eq_left (not_lt.mp h)
    simp [h, this]

/-- The reference's unit: one times (exp of "0 where r > 0, else r") minus one, selected on "r > 0". -/
theorem elu_of_where (r : EReal) :
    Scalar.select (Ideal.cmp .ogt r 0) r (1 * (Ideal.exp (Scalar.select (Ideal.cmp .ogt r 0) 0 r) - 1)) = elu r := by
  unfold elu Scalar.select Ideal.cmp
  by_cases h : (0 : EReal) < r <;> simp [h]

end Cert.Gat

end
-- ==== Proof.KBody.lean ====
/-
  The value the kernel body stores, as ONE function of the five arrays it loads: the adjacency, the node features,
  the four projections side by side, the table of attention rows, and the last layer's projection. It is the body's
  named pure values composed in the order the body computes them.
-/
import proofs.«174455_g86844238725802_fold_wed_m_134_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F]

/-- What the body stores into its output buffer, from what it loaded. -/
def kerBody (adj x : Vec F S1024x1024 .f32) (wall : Vec F S1024x32 .f32) (acat : Vec F S16x8 .f32)
    (wlast : Vec F S32x2 .f32) : FVec F S1024x2 .f32 :=
  have v5 : FVec F S1024x1024 .f32 := k0_pay2 adj
  have v10 : FVec F S1024x32 .f32 := k0_pay3 x wall
  have v12 : FVec F S16x8 .f32 := k0_pay4 acat
  have v13 : FVec F S1024x1 .f32 := k0_pay5 (F := F)
  have v39 : FVec F S1024x8 .f32 := k0_pay6 adj x wall acat
  have v41 : IVec S1024x8 1 := k0_pay7 adj x wall acat
  have v47 : FVec F S1024x8 .f32 := k0_pay8 v39 v41
  have v81 : FVec F S1024x8 .f32 := k0_pay9 v5 v10 v12 v13
  have v82 : FVec F S1024x8 .f32 := k0_pay10 v10
  have v87 : FVec F S1024x1 .f32 := k0_pay11 v10 v12
  have v88 : FVec F S1x8 .f32 := k0_pay12 v12
  have cst_28 : FVec F S1x1024 .f32 := constant S1x1024 .f32 0x00000000#32
  have v115 : FVec F S1024x8 .f32 := k0_pay13 v5 v13 v82 v87 v88 cst_28
  have v135 : FVec F S1024x1024 .f32 := k0_pay15 v5 v10 v12
  have v136 : FVec F S1024x9 .f32 := k0_pay16 v10 v13
  have v177 : FVec F S1024x2 .f32 := k0_pay17 v5 v12 v13 v47 v81 v115 v135 v136 wlast
  have v179 : IVec S1024x2 1 := k0_pay18 v5 v12 v13 v47 v81 v115 v135 v136 wlast
  have v181 : FVec F S1024x2 .f32 := k0_pay19 v5 v12 v13 v47 v81 v115 v135 v136 wlast
  k0_pay1 v177 v179 v181

end Cert.KernelIdeal.Hand

end
-- ==== Proof.KFrame.lean ====
/-
  The frame of the graph-attention program: @main is a stretch of host operations that lay the arguments out
  (the four projections side by side, the table of attention rows, the two planes of the first argument split
  into the node features and the adjacency), ONE kernel region over six whole-array windows, and one host
  operation that gives the result its leading unit axis. This module says what each buffer holds when the region
  is entered and when it is left, runs the kernel body once on the whole staging buffers, and concludes that
  every execution terminates with the eleven argument arrays as they were launched.
-/
import proofs.«174455_g86844238725802_fold_wed_m_134_3_alg».proof.Proof.Gen.KernelIdeal.Launch
import proofs.«174455_g86844238725802_fold_wed_m_134_3_alg».proof.Proof.Gen.KernelIdeal.Skeleton
import proofs.«174455_g86844238725802_fold_wed_m_134_3_alg».proof.Proof.Gen.KernelIdeal.Points
import proofs.«174455_g86844238725802_fold_wed_m_134_3_alg».proof.Proof.KBody
import Idealize.ShloMosaic.Lib.Pipeline.FrameBody
import Idealize.ShloMosaic.Lib.Pipeline.FrameSuffix
import Idealize.ShloMosaic.Lib.Ring
import Idealize.ShloMosaic.Lib.Tactic

-- membership in a rectangle of 1024 rows: the structural look recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered, as a valuation: the launched memory after the host operations
    that come before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing, -/
theorem hostOps0_fresh : (hostOps0 : List (HloOp τ sig (Elt F))).Forall fun op => op.fresh = ∅ := by
  simp only [List.Forall]; repeat' constructor
/-- nor does the one after it. -/
theorem hostOps1_fresh : (hostOps1 : List (HloOp τ sig (Elt F))).Forall fun op => op.fresh = ∅ := by
  simp only [List.Forall]; repeat' constructor

/-- @main is the host operations before the region, the region, the host operation after it: it reduces to the
    region continued by the last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the pipeline's arrays and the bypassing buffers only: its buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes the result with its leading unit axis, which is no window's
    array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The eleven argument arrays: the two planes (node features, adjacency), four pairs of a head's projection and
    its attention row, the last layer's projection and its attention row. -/
abbrev argRefs : List (Ref sig .tc) :=
  [main_arg0, main_arg1, main_arg2, main_arg3, main_arg4, main_arg5, main_arg6, main_arg7, main_arg8, main_arg9, main_arg10]

/-- No host operation before the region writes an argument array (each writes its own result buffer): the region
    finds every argument as launched. -/
theorem V_arg (c : Dev nD) (b : Ref sig .tc) (hb : b ∈ (argRefs : List (Ref sig .tc))) : V m c b = m ((c : Thread nD τ).loc b) := by
  simp only [argRefs, List.mem_cons, List.mem_nil_iff, or_false] at hb
  rcases hb with rfl | rfl | rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-- Nor does the operation after the region write it (`hr`: it is not the final result), so an argument that no
    window stages (`hw`) ends as launched. -/
theorem W_arg (dats : (p : Fin _) → (c : Dev nD) → Dat τ (Elt F) Unit ℕ (UR sig nD τ) ℕ (cfgs p) c) (c : Dev nD)
    (b : Ref sig .tc) (hb : b ∈ (argRefs : List (Ref sig .tc))) (hw : ∀ w, Pipeline.arrRef spec0 w ≠ b) (hr : b ≠ main_v26) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne hr)),
    Pipeline.withArrays_of_ne _ c (V0 m c) _ b hw]
  exact V_arg m c b hb

/-! ## The windows' blocks -/

/-- Window `w`'s block at the one point of the grid, read off its array as the region finds it: each window is
    its whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at the point, fetched there or not, for any proof data whose
    array is the region-entry contents and whose body leaves the block in place: the window is uncut and never
    idle. Window 0, the node features; -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- window 1, the adjacency; -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- window 2, the four heads' projections side by side; -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- window 3, the table of attention rows; -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- window 4, the last layer's projection. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    library's frame post read at the eleven argument arrays is the frame claim's post. Ten arguments are staged by
    no window and are read by the post's second clause; the last layer's projection is window 4's own array, an
    input, which ends at its entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
   ⟨((h c).2 main_arg0 (Pipeline.mem_restRefs_of main_arg0 (by decide) (by decide))).trans (W_arg m dats c main_arg0 (by decide) (by decide) (by decide)),
    ((h c).2 main_arg1 (Pipeline.mem_restRefs_of main_arg1 (by decide) (by decide))).trans (W_arg m dats c main_arg1 (by decide) (by decide) (by decide)),
    ((h c).2 main_arg2 (Pipeline.mem_restRefs_of main_arg2 (by decide) (by decide))).trans (W_arg m dats c main_arg2 (by decide) (by decide) (by decide)),
    ((h c).2 main_arg3 (Pipeline.mem_restRefs_of main_arg3 (by decide) (by decide))).trans (W_arg m dats c main_arg3 (by decide) (by decide) (by decide)),
    ((h c).2 main_arg4 (Pipeline.mem_restRefs_of main_arg4 (by decide) (by decide))).trans (W_arg m dats c main_arg4 (by decide) (by decide) (by decide)),
    ((h c).2 main_arg5 (Pipeline.mem_restRefs_of main_arg5 (by decide) (by decide))).trans (W_arg m dats c main_arg5 (by decide) (by decide) (by decide)),
    ((h c).2 main_arg6 (Pipeline.mem_restRefs_of main_arg6 (by decide) (by decide))).trans (W_arg m dats c main_arg6 (by decide) (by decide) (by decide)),
    ((h c).2 main_arg7 (Pipeline.mem_restRefs_of main_arg7 (by decide) (by decide))).trans (W_arg m dats c main_arg7 (by decide) (by decide) (by decide)),
    ((h c).2 main_arg8 (Pipeline.mem_restRefs_of main_arg8 (by decide) (by decide))).trans (W_arg m dats c main_arg8 (by decide) (by decide) (by decide)),
    ((h c).1 4).trans (((dats 0 c).arrAt_in 4 rfl _).trans ((hA c 4).trans (V_arg m c main_arg9 (by decide)))),
    ((h c).2 main_arg10 (Pipeline.mem_restRefs_of main_arg10 (by decide) (by decide))).trans (W_arg m dats c main_arg10 (by decide) (by decide) (by decide))⟩) h

/-! ## The body's accesses: each the whole of its buffer -/

abbrev r0_a : Rect S1024x1024 := Rect.unit (s := S1024x1024) ![0, 0] S1024x1024.size inb_S1024x1024_S1024x1024_0_0
abbrev r0_2 : Rect S1024x32 := Rect.unit (s := S1024x32) ![0, 0] S1024x32.size inb_S1024x32_S1024x32_0_0
abbrev r0_3 : Rect S16x8 := Rect.unit (s := S16x8) ![0, 0] S16x8.size inb_S16x8_S16x8_0_0
abbrev r0_4 : Rect S32x2 := Rect.unit (s := S32x2) ![0, 0] S32x2.size inb_S32x2_S32x2_0_0
abbrev r0_5 : Rect S1024x2 := Rect.unit (s := S1024x2) ![0, 0] S1024x2.size inb_S1024x2_S1024x2_0_0

/-! ## What the body leaves in the output window's buffer -/

/-- The output buffer after the body, from the five input buffers' contents: its one store, of the body's value
    at what the five loads read (the adjacency is the second window, the node features the first). -/
def out0_5 (x0 x1 : Vec F S1024x1024 .f32) (x2 : Vec F S1024x32 .f32) (x3 : Vec F S16x8 .f32) (x4 : Vec F S32x2 .f32) : Vec F S1024x2 .f32 :=
  View.canon [⟨r0_5, kerBody (View.ld x1 r0_a) (View.ld x0 r0_a) (View.ld x2 r0_2) (View.ld x3 r0_3) (View.ld x4 r0_4)⟩]

/-- The one store is of the whole buffer, so it covers it. -/
theorem cover0_5 (p0 : Vec F S1024x2 .f32) (y : S1024x2.Idx) :
    ∃ pc ∈ ([⟨r0_5, p0⟩] : List (View.Piece (Elt F) S1024x2 .f32)), y ∈ pc.1.set :=
  View.cover_of_tiled [⟨r0_5, p0⟩] S1024x2.size (by rfl) y

/-! ## The body's triple -/

set_option maxHeartbeats 1000000 in
/-- The kernel body on whole staging buffers, the five inputs' at contents `x0 … x4` and the output's at anything,
    runs to the continuation holding the inputs' as they were and the output's at `out0_5` of the inputs': five
    whole loads, pure arithmetic in four parts, a load of the output whose value is unused, one whole store. The
    stored value is the parts' named values composed in the body's order, which is `kerBody` of the five loads. -/
theorem sound_kernel (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x32 .f32) (harg2 : arg2.IsWhole) (arg3 : Memref sig .tc .vmem S16x8 .f32) (harg3 : arg3.IsWhole)
    (arg4 : Memref sig .tc .vmem S32x2 .f32) (harg4 : arg4.IsWhole) (arg5 : Memref sig .tc .vmem S1024x2 .f32) (harg5 : arg5.IsWhole)
    (x0 x1 : Vec F S1024x1024 .f32) (x2 : Vec F S1024x32 .f32) (x3 : Vec F S16x8 .f32) (x4 : Vec F S32x2 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E
          (cc0__gat_fused_kernel arg0 harg0 arg1 harg1 arg2 harg2 arg3 harg3 arg4 harg4 arg5 harg5) K := by
  simp only [cc0__gat_fused_kernel_eq_skeleton]; unfold cc0__gat_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them; after the body each
    input's buffer still at its block and the output's at the body's value of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window: the five inputs' blocks in place, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- and the output at the body's value of them. -/
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at the point -/

/-- What the body is called with: the invariant, what the core owes, and the six windows' staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main
    terminates, and every final state has every array of the pipeline at what the proof data say and every other
    unscoped buffer as the last host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates with the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Hand

end
-- ==== Proof.KBodyBits.lean ====
/-
  The value the kernel body stores, as ONE function of the five arrays it loads: the adjacency, the node features,
  the four projections side by side, the table of attention rows, and the last layer's projection. It is the body's
  named pure values composed in the order the body computes them.
-/
import proofs.«174455_g86844238725802_fold_wed_m_134_3_alg».proof.Proof.Gen.Kernel.Skeleton

noncomputable section

namespace Cert.Kernel.Hand

open Idealize.ShloMosaic Idealize.SL.Sem Cert.Kernel Cert.Kernel.Gen

variable {F : FTy → Type} [FloatOps F]

/-- What the body stores into its output buffer, from what it loaded. -/
def kerBody (adj x : Vec F S1024x1024 .f32) (wall : Vec F S1024x32 .f32) (acat : Vec F S16x8 .f32)
    (wlast : Vec F S32x2 .f32) : FVec F S1024x2 .f32 :=
  have v5 : FVec F S1024x1024 .f32 := k0_pay2 adj
  have v10 : FVec F S1024x32 .f32 := k0_pay3 x wall
  have v12 : FVec F S16x8 .f32 := k0_pay4 acat
  have v13 : FVec F S1024x1 .f32 := k0_pay5 (F := F)
  have v39 : FVec F S1024x8 .f32 := k0_pay6 adj x wall acat
  have v41 : IVec S1024x8 1 := k0_pay7 adj x wall acat
  have v47 : FVec F S1024x8 .f32 := k0_pay8 v39 v41
  have v81 : FVec F S1024x8 .f32 := k0_pay9 v5 v10 v12 v13
  have v82 : FVec F S1024x8 .f32 := k0_pay10 v10
  have v87 : FVec F S1024x1 .f32 := k0_pay11 v10 v12
  have v88 : FVec F S1x8 .f32 := k0_pay12 v12
  have cst_28 : FVec F S1x1024 .f32 := constant S1x1024 .f32 0x00000000#32
  have v115 : FVec F S1024x8 .f32 := k0_pay13 v5 v13 v82 v87 v88 cst_28
  have v135 : FVec F S1024x1024 .f32 := k0_pay15 v5 v10 v12
  have v136 : FVec F S1024x9 .f32 := k0_pay16 v10 v13
  have v177 : FVec F S1024x2 .f32 := k0_pay17 v5 v12 v13 v47 v81 v115 v135 v136 wlast
  have v179 : IVec S1024x2 1 := k0_pay18 v5 v12 v13 v47 v81 v115 v135 v136 wlast
  have v181 : FVec F S1024x2 .f32 := k0_pay19 v5 v12 v13 v47 v81 v115 v135 v136 wlast
  k0_pay1 v177 v179 v181

end Cert.Kernel.Hand

end
-- ==== Proof.KFrameBits.lean ====
/-
  The frame of the graph-attention program: @main is a stretch of host operations that lay the arguments out
  (the four projections side by side, the table of attention rows, the two planes of the first argument split
  into the node features and the adjacency), ONE kernel region over six whole-array windows, and one host
  operation that gives the result its leading unit axis. This module says what each buffer holds when the region
  is entered and when it is left, runs the kernel body once on the whole staging buffers, and concludes that
  every execution terminates with the eleven argument arrays as they were launched.
-/
import proofs.«174455_g86844238725802_fold_wed_m_134_3_alg».proof.Proof.Gen.Kernel.Launch
import proofs.«174455_g86844238725802_fold_wed_m_134_3_alg».proof.Proof.Gen.Kernel.Skeleton
import proofs.«174455_g86844238725802_fold_wed_m_134_3_alg».proof.Proof.Gen.Kernel.Points
import proofs.«174455_g86844238725802_fold_wed_m_134_3_alg».proof.Proof.KBodyBits
import Idealize.ShloMosaic.Lib.Pipeline.FrameBody
import Idealize.ShloMosaic.Lib.Pipeline.FrameSuffix
import Idealize.ShloMosaic.Lib.Ring
import Idealize.ShloMosaic.Lib.Tactic

-- membership in a rectangle of 1024 rows: the structural look recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffers when the region is entered, as a valuation: the launched memory after the host operations
    that come before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host operations before the region allocate nothing, -/
theorem hostOps0_fresh : (hostOps0 : List (HloOp τ sig (Elt F))).Forall fun op => op.fresh = ∅ := by
  simp only [List.Forall]; repeat' constructor
/-- nor does the one after it. -/
theorem hostOps1_fresh : (hostOps1 : List (HloOp τ sig (Elt F))).Forall fun op => op.fresh = ∅ := by
  simp only [List.Forall]; repeat' constructor

/-- @main is the host operations before the region, the region, the host operation after it: it reduces to the
    region continued by the last operation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The operation after the region touches the pipeline's arrays and the bypassing buffers only: its buffers are
    unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes no array of the pipeline: it writes the result with its leading unit axis, which is no window's
    array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- The eleven argument arrays: the two planes (node features, adjacency), four pairs of a head's projection and
    its attention row, the last layer's projection and its attention row. -/
abbrev argRefs : List (Ref sig .tc) :=
  [main_arg0, main_arg1, main_arg2, main_arg3, main_arg4, main_arg5, main_arg6, main_arg7, main_arg8, main_arg9, main_arg10]

/-- No host operation before the region writes an argument array (each writes its own result buffer): the region
    finds every argument as launched. -/
theorem V_arg (c : Dev nD) (b : Ref sig .tc) (hb : b ∈ (argRefs : List (Ref sig .tc))) : V m c b = m ((c : Thread nD τ).loc b) := by
  simp only [argRefs, List.mem_cons, List.mem_nil_iff, or_false] at hb
  rcases hb with rfl | rfl | rfl | rfl | rfl | rfl | rfl | rfl | rfl | rfl | rfl
  all_goals
    exact StableHlo.after_of_forall_not_mem (b := Proc.devRef .tc _) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide)))

/-- Nor does the operation after the region write it (`hr`: it is not the final result), so an argument that no
    window stages (`hw`) ends as launched. -/
theorem W_arg (dats : (p : Fin _) → (c : Dev nD) → Dat τ (Elt F) Unit ℕ (UR sig nD τ) ℕ (cfgs p) c) (c : Dev nD)
    (b : Ref sig .tc) (hb : b ∈ (argRefs : List (Ref sig .tc))) (hw : ∀ w, Pipeline.arrRef spec0 w ≠ b) (hr : b ≠ main_v26) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne hr)),
    Pipeline.withArrays_of_ne _ c (V0 m c) _ b hw]
  exact V_arg m c b hb

/-! ## The windows' blocks -/

/-- Window `w`'s block at the one point of the grid, read off its array as the region finds it: each window is
    its whole array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at the point, fetched there or not, for any proof data whose
    array is the region-entry contents and whose body leaves the block in place: the window is uncut and never
    idle. Window 0, the node features; -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- window 1, the adjacency; -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- window 2, the four heads' projections side by side; -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- window 3, the table of attention rows; -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- window 4, the last layer's projection. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the
    library's frame post read at the eleven argument arrays is the frame claim's post. Ten arguments are staged by
    no window and are read by the post's second clause; the last layer's projection is window 4's own array, an
    input, which ends at its entry contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
   ⟨((h c).2 main_arg0 (Pipeline.mem_restRefs_of main_arg0 (by decide) (by decide))).trans (W_arg m dats c main_arg0 (by decide) (by decide) (by decide)),
    ((h c).2 main_arg1 (Pipeline.mem_restRefs_of main_arg1 (by decide) (by decide))).trans (W_arg m dats c main_arg1 (by decide) (by decide) (by decide)),
    ((h c).2 main_arg2 (Pipeline.mem_restRefs_of main_arg2 (by decide) (by decide))).trans (W_arg m dats c main_arg2 (by decide) (by decide) (by decide)),
    ((h c).2 main_arg3 (Pipeline.mem_restRefs_of main_arg3 (by decide) (by decide))).trans (W_arg m dats c main_arg3 (by decide) (by decide) (by decide)),
    ((h c).2 main_arg4 (Pipeline.mem_restRefs_of main_arg4 (by decide) (by decide))).trans (W_arg m dats c main_arg4 (by decide) (by decide) (by decide)),
    ((h c).2 main_arg5 (Pipeline.mem_restRefs_of main_arg5 (by decide) (by decide))).trans (W_arg m dats c main_arg5 (by decide) (by decide) (by decide)),
    ((h c).2 main_arg6 (Pipeline.mem_restRefs_of main_arg6 (by decide) (by decide))).trans (W_arg m dats c main_arg6 (by decide) (by decide) (by decide)),
    ((h c).2 main_arg7 (Pipeline.mem_restRefs_of main_arg7 (by decide) (by decide))).trans (W_arg m dats c main_arg7 (by decide) (by decide) (by decide)),
    ((h c).2 main_arg8 (Pipeline.mem_restRefs_of main_arg8 (by decide) (by decide))).trans (W_arg m dats c main_arg8 (by decide) (by decide) (by decide)),
    ((h c).1 4).trans (((dats 0 c).arrAt_in 4 rfl _).trans ((hA c 4).trans (V_arg m c main_arg9 (by decide)))),
    ((h c).2 main_arg10 (Pipeline.mem_restRefs_of main_arg10 (by decide) (by decide))).trans (W_arg m dats c main_arg10 (by decide) (by decide) (by decide))⟩) h

/-! ## The body's accesses: each the whole of its buffer -/

abbrev r0_a : Rect S1024x1024 := Rect.unit (s := S1024x1024) ![0, 0] S1024x1024.size inb_S1024x1024_S1024x1024_0_0
abbrev r0_2 : Rect S1024x32 := Rect.unit (s := S1024x32) ![0, 0] S1024x32.size inb_S1024x32_S1024x32_0_0
abbrev r0_3 : Rect S16x8 := Rect.unit (s := S16x8) ![0, 0] S16x8.size inb_S16x8_S16x8_0_0
abbrev r0_4 : Rect S32x2 := Rect.unit (s := S32x2) ![0, 0] S32x2.size inb_S32x2_S32x2_0_0
abbrev r0_5 : Rect S1024x2 := Rect.unit (s := S1024x2) ![0, 0] S1024x2.size inb_S1024x2_S1024x2_0_0

/-! ## What the body leaves in the output window's buffer -/

/-- The output buffer after the body, from the five input buffers' contents: its one store, of the body's value
    at what the five loads read (the adjacency is the second window, the node features the first). -/
def out0_5 (x0 x1 : Vec F S1024x1024 .f32) (x2 : Vec F S1024x32 .f32) (x3 : Vec F S16x8 .f32) (x4 : Vec F S32x2 .f32) : Vec F S1024x2 .f32 :=
  View.canon [⟨r0_5, kerBody (View.ld x1 r0_a) (View.ld x0 r0_a) (View.ld x2 r0_2) (View.ld x3 r0_3) (View.ld x4 r0_4)⟩]

/-- The one store is of the whole buffer, so it covers it. -/
theorem cover0_5 (p0 : Vec F S1024x2 .f32) (y : S1024x2.Idx) :
    ∃ pc ∈ ([⟨r0_5, p0⟩] : List (View.Piece (Elt F) S1024x2 .f32)), y ∈ pc.1.set :=
  View.cover_of_tiled [⟨r0_5, p0⟩] S1024x2.size (by rfl) y

/-! ## The body's triple -/

set_option maxHeartbeats 1000000 in
/-- The kernel body on whole staging buffers, the five inputs' at contents `x0 … x4` and the output's at anything,
    runs to the continuation holding the inputs' as they were and the output's at `out0_5` of the inputs': five
    whole loads, pure arithmetic in four parts, a load of the output whose value is unused, one whole store. The
    stored value is the parts' named values composed in the body's order, which is `kerBody` of the five loads. -/
theorem sound_kernel (c : Dev nD) (E : Set ℕ)
    (arg0 : Memref sig .tc .vmem S1024x1024 .f32) (harg0 : arg0.IsWhole) (arg1 : Memref sig .tc .vmem S1024x1024 .f32) (harg1 : arg1.IsWhole)
    (arg2 : Memref sig .tc .vmem S1024x32 .f32) (harg2 : arg2.IsWhole) (arg3 : Memref sig .tc .vmem S16x8 .f32) (harg3 : arg3.IsWhole)
    (arg4 : Memref sig .tc .vmem S32x2 .f32) (harg4 : arg4.IsWhole) (arg5 : Memref sig .tc .vmem S1024x2 .f32) (harg5 : arg5.IsWhole)
    (x0 x1 : Vec F S1024x1024 .f32) (x2 : Vec F S1024x32 .f32) (x3 : Vec F S16x8 .f32) (x4 : Vec F S32x2 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E
          (cc0__gat_fused_kernel arg0 harg0 arg1 harg1 arg2 harg2 arg3 harg3 arg4 harg4 arg5 harg5) K := by
  simp only [cc0__gat_fused_kernel_eq_skeleton]; unfold cc0__gat_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the one pipeline on core `c`: the arrays as the region finds them; after the body each
    input's buffer still at its block and the output's at the body's value of the input blocks; the invariant
    the scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window: the five inputs' blocks in place, -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
/-- and the output at the body's value of them. -/
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's staging buffer holds its block at the point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at the point -/

/-- What the body is called with: the invariant, what the core owes, and the six windows' staging buffers, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at the point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main
    terminates, and every final state has every array of the pipeline at what the proof data say and every other
    unscoped buffer as the last host operation leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every execution terminates with the eleven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.KHost.lean ====
/-
  What the kernel's five input arrays hold when the kernel starts, as functions of the program's arguments.

  Before the kernel the program lays its arguments out: the first argument's two planes become the node features
  and the adjacency; the four heads' projections are put side by side, head k in columns 8k to 8k + 7; and a
  [16, 8] table of zeros receives four writes: rows 0 to 3 := the first halves of the four attention vectors, rows
  4 to 7 := their second halves, the first two cells of row 8 := the last layer's first two attention weights, the
  first two cells of row 9 := its last two. The last layer's projection is passed on untouched.

  A write "set these cells to the update's" is a fold over the update's cells, each step replacing one cell of the
  array. When every update cell lands inside the array and distinct update cells land on distinct cells, the fold
  read at a cell is the update cell that lands there, if one does, and the array's old cell otherwise. Both
  writes here land every update cell at a literal offset, so both conditions hold.
-/
import proofs.«174455_g86844238725802_fold_wed_m_134_3_alg».proof.Proof.Gen.KernelIdeal.Launch
import proofs.«174455_g86844238725802_fold_wed_m_134_3_alg».proof.Proof.Spec
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Idealize.SL.Sem

section SetFold
variable {ι κ α : Type} [DecidableEq κ]

theorem foldl_set_miss (g : ι → κ) (v : ι → α) (i' : κ) :
    ∀ (l : List ι) (r : κ → α), (∀ n ∈ l, g n ≠ i') →
      (l.foldl (fun r n => fun i => if i = g n then v n else r i) r) i' = r i'
  | [], r, _ => rfl
  | n :: l, r, h => by
    rw [List.foldl_cons, foldl_set_miss g v i' l _ fun m hm => h m (List.mem_cons_of_mem _ hm)]
    exact if_neg fun e => h n List.mem_cons_self e.symm

theorem foldl_set_hit (g : ι → κ) (v : ι → α) (i' : κ) (n0 : ι) (h0 : g n0 = i') (hu : ∀ n, g n = i' → n = n0) :
    ∀ (l : List ι) (r : κ → α), n0 ∈ l →
      (l.foldl (fun r n => fun i => if i = g n then v n else r i) r) i' = v n0
  | [], r, h => absurd h List.not_mem_nil
  | n :: l, r, h => by
    rw [List.foldl_cons]
    by_cases hl : n0 ∈ l
    · exact foldl_set_hit g v i' n0 h0 hu l _ hl
    · have hn : n = n0 := by
        rcases List.mem_cons.1 h with e | e
        · exact e.symm
        · exact absurd e hl
      subst hn
      rw [foldl_set_miss g v i' l _ fun m hm e => hl (hu m e ▸ hm)]
      exact if_pos h0.symm
end SetFold

section Scatter
variable {s si u : Shape} {α : Type} {w : Nat}

theorem scatter_set_eq (d : ScatterDims s si u) (x : s.Idx → α) (idx : IVec si w) (upd : u.Idx → α) (g : u.Idx → s.Idx)
    (hg : ∀ j, d.resultIdx? j idx = some (g j)) :
    Host.scatter d (fun _ b => b) x idx upd
      = (List.finRange u.numel).foldl (fun r n => fun i => if i = g (u.rowMajor.symm n) then upd (u.rowMajor.symm n) else r i) x := by
  unfold Host.scatter
  simp only [hg]

theorem scatter_set_hit (d : ScatterDims s si u) (x : s.Idx → α) (idx : IVec si w) (upd : u.Idx → α) (g : u.Idx → s.Idx)
    (hg : ∀ j, d.resultIdx? j idx = some (g j)) (i' : s.Idx) (j0 : u.Idx) (h0 : g j0 = i') (hu : ∀ j, g j = i' → j = j0) :
    Host.scatter d (fun _ b => b) x idx upd i' = upd j0 := by
  rw [scatter_set_eq d x idx upd g hg]
  have := foldl_set_hit (fun n => g (u.rowMajor.symm n)) (fun n => upd (u.rowMajor.symm n)) i' (u.rowMajor j0)
    (by rw [Equiv.symm_apply_apply]; exact h0)
    (fun n hn => by rw [← hu _ hn, Equiv.apply_symm_apply]) (List.finRange u.numel) x (List.mem_finRange _)
  rw [Equiv.symm_apply_apply] at this
  exact this

theorem scatter_set_miss (d : ScatterDims s si u) (x : s.Idx → α) (idx : IVec si w) (upd : u.Idx → α) (g : u.Idx → s.Idx)
    (hg : ∀ j, d.resultIdx? j idx = some (g j)) (i' : s.Idx) (hm : ∀ j, g j ≠ i') :
    Host.scatter d (fun _ b => b) x idx upd i' = x i' := by
  rw [scatter_set_eq d x idx upd g hg]
  exact foldl_set_miss (fun n => g (u.rowMajor.symm n)) (fun n => upd (u.rowMajor.symm n)) i' _ x fun n _ => hm _

theorem resultIdx_of (d : ScatterDims s si u) (idx : IVec si w) (j : u.Idx) (i : s.Idx)
    (h : ∀ a, d.start j idx a + (d.window j a : Int) = ((i a).val : Int)) : d.resultIdx? j idx = some i := by
  unfold ScatterDims.resultIdx?
  rw [dif_pos fun a => by rw [h a]; exact ⟨Int.natCast_nonneg _, by exact_mod_cast (i a).isLt⟩]
  congr 1
  funext a
  apply Fin.ext
  show (d.start j idx a + (d.window j a : Int)).toNat = (i a).val
  rw [h a, Int.toNat_natCast]
end Scatter

theorem d1_window (j : S4x8.Idx) (a : Fin 2) : scatter_S16x8_S1_S4x8_01_n_0_0.window j a = (j a).val := by
  match a with
  | ⟨0, _⟩ => rfl
  | ⟨1, _⟩ => rfl

theorem d1_start0 (idx : IVec S1 32) (c : BitVec 32) (hc : ∀ k, idx k = c) (j : S4x8.Idx) :
    scatter_S16x8_S1_S4x8_01_n_0_0.start j idx 0 = c.toInt := by
  unfold ScatterDims.start; rw [dif_pos (by decide), hc]

theorem d1_start1 (idx : IVec S1 32) (j : S4x8.Idx) :
    scatter_S16x8_S1_S4x8_01_n_0_0.start j idx 1 = 0 := by
  unfold ScatterDims.start; rw [dif_neg (by decide)]

theorem d2_window (j : S2.Idx) (a : Fin 2) : scatter_S16x8_S2_S2_0_0_01_0.window j a = if a = 0 then 0 else (j 0).val := by
  match a with
  | ⟨0, _⟩ => rfl
  | ⟨1, _⟩ => rfl

theorem d2_start0 (idx : IVec S2 32) (j : S2.Idx) :
    scatter_S16x8_S2_S2_0_0_01_0.start j idx 0 = (idx (ix1 0)).toInt := by
  unfold ScatterDims.start; rw [dif_pos (by decide)]; congr 2; funext b; match b with | ⟨0, _⟩ => rfl

theorem d2_start1 (idx : IVec S2 32) (j : S2.Idx) :
    scatter_S16x8_S2_S2_0_0_01_0.start j idx 1 = (idx (ix1 1)).toInt := by
  unfold ScatterDims.start; rw [dif_pos (by decide)]; congr 2; funext b; match b with | ⟨0, _⟩ => rfl

/-! ## The two scatter indices -/

/-- A row write's scatter index: one word. -/
def rowIdx (c : BitVec 32) : IVec S1 32 := broadcastInDim S1 ![] bcast_S_S1 (constantI S_ 32 c)
theorem rowIdx_apply (c : BitVec 32) (k : S1.Idx) : rowIdx c k = c := rfl

/-- A cell write's scatter index: the row's word, then the column's. -/
def cellIdx (r c : BitVec 32) : IVec S2 32 := concatenate S2 0 [⟨S1, rowIdx r⟩, ⟨S1, rowIdx c⟩] concatenates_S1_S1_S2_d0
theorem cellIdx_0 (r c : BitVec 32) : cellIdx r c (ix1 0) = r :=
  concatenate_pair_apply_left (0 : Fin S2.rank) (rowIdx r) (rowIdx c) concatenates_S1_S1_S2_d0 (ix1 0) rfl (ix1 0)
    (fun b => match b with | ⟨0, _⟩ => rfl)
theorem cellIdx_1 (r c : BitVec 32) : cellIdx r c (ix1 1) = c :=
  concatenate_pair_apply_right (0 : Fin S2.rank) (rowIdx r) (rowIdx c) concatenates_S1_S1_S2_d0 (ix1 1) rfl rfl (ix1 0)
    (fun b hb => match b, hb with | ⟨0, _⟩, hb => absurd rfl hb) rfl

/-! ## Where each update lands -/

theorem d1_resultIdx (c : BitVec 32) (r0 : Nat) (hc : c.toInt = (r0 : Int)) (h4 : r0 + 4 ≤ 16) (j : S4x8.Idx) :
    scatter_S16x8_S1_S4x8_01_n_0_0.resultIdx? j (rowIdx c)
      = some (ix2 (⟨r0 + (j 0).val, by have := idx2_lt0 j; omega⟩ : Fin 16) (⟨(j 1).val, idx2_lt1 j⟩ : Fin 8)) :=
  resultIdx_of _ _ j _ fun a => match a with
    | ⟨0, _⟩ => by
      show scatter_S16x8_S1_S4x8_01_n_0_0.start j (rowIdx c) 0 + ((scatter_S16x8_S1_S4x8_01_n_0_0.window j 0 : Nat) : Int)
        = ((r0 + (j 0).val : Nat) : Int)
      rw [d1_start0 _ c (rowIdx_apply c) j, d1_window, hc, Nat.cast_add]
    | ⟨1, _⟩ => by
      show scatter_S16x8_S1_S4x8_01_n_0_0.start j (rowIdx c) 1 + ((scatter_S16x8_S1_S4x8_01_n_0_0.window j 1 : Nat) : Int)
        = (((j 1).val : Nat) : Int)
      rw [d1_start1, d1_window, zero_add]

theorem d2_resultIdx (r : BitVec 32) (r0 : Nat) (hr : r.toInt = (r0 : Int)) (h16 : r0 < 16) (j : S2.Idx) :
    scatter_S16x8_S2_S2_0_0_01_0.resultIdx? j (cellIdx r 0#32)
      = some (ix2 (⟨r0, h16⟩ : Fin 16) (⟨(j 0).val, lt_of_lt_of_le (j 0).isLt (by decide)⟩ : Fin 8)) :=
  resultIdx_of _ _ j _ fun a => match a with
    | ⟨0, _⟩ => by
      show scatter_S16x8_S2_S2_0_0_01_0.start j (cellIdx r 0#32) 0 + ((scatter_S16x8_S2_S2_0_0_01_0.window j 0 : Nat) : Int)
        = ((r0 : Nat) : Int)
      rw [d2_start0, d2_window, cellIdx_0, hr]; simp
    | ⟨1, _⟩ => by
      show scatter_S16x8_S2_S2_0_0_01_0.start j (cellIdx r 0#32) 1 + ((scatter_S16x8_S2_S2_0_0_01_0.window j 1 : Nat) : Int)
        = (((j 0).val : Nat) : Int)
      rw [d2_start1, d2_window, cellIdx_1]; simp

section Reads
variable {α : Type}

/-- A write of four rows at row r0, read inside the rows. -/
theorem rows_hit (c : BitVec 32) (r0 : Nat) (hc : c.toInt = (r0 : Int)) (h4 : r0 + 4 ≤ 16) (x : S16x8.Idx → α) (upd : S4x8.Idx → α)
    (i : Fin 16) (a : Fin 4) (b : Fin 8) (hi : i.val = r0 + a.val) :
    Host.scatter scatter_S16x8_S1_S4x8_01_n_0_0 (fun _ b => b) x (rowIdx c) upd (ix2 i b) = upd (ix2 a b) :=
  scatter_set_hit _ x (rowIdx c) upd _ (d1_resultIdx c r0 hc h4) (ix2 i b) (ix2 a b)
    (funext fun t => match t with | ⟨0, _⟩ => Fin.ext hi.symm | ⟨1, _⟩ => rfl)
    (fun j hj => by
      have e0 : r0 + (j 0).val = i.val := congrArg (fun q : S16x8.Idx => (q 0).val) hj
      have e1 : (j 1).val = b.val := congrArg (fun q : S16x8.Idx => (q 1).val) hj
      have h0 : j 0 = a := Fin.ext (by omega)
      have h1 : j 1 = b := Fin.ext e1
      rw [eq_ix2 j, h0, h1]
      rfl)

/-- The same write, read outside the rows. -/
theorem rows_miss (c : BitVec 32) (r0 : Nat) (hc : c.toInt = (r0 : Int)) (h4 : r0 + 4 ≤ 16) (x : S16x8.Idx → α) (upd : S4x8.Idx → α)
    (i : Fin 16) (b : Fin 8) (h : i.val < r0 ∨ r0 + 4 ≤ i.val) :
    Host.scatter scatter_S16x8_S1_S4x8_01_n_0_0 (fun _ b => b) x (rowIdx c) upd (ix2 i b) = x (ix2 i b) :=
  scatter_set_miss _ x (rowIdx c) upd _ (d1_resultIdx c r0 hc h4) (ix2 i b) fun j hj => by
    have e0 : r0 + (j 0).val = i.val := congrArg (fun q : S16x8.Idx => (q 0).val) hj
    have := idx2_lt0 j
    omega

/-- A write of two cells at the start of row r0, read at one of them. -/
theorem cells_hit (r : BitVec 32) (r0 : Nat) (hr : r.toInt = (r0 : Int)) (h16 : r0 < 16) (x : S16x8.Idx → α) (upd : S2.Idx → α)
    (i : Fin 16) (b : Fin 2) (c : Fin 8) (hi : i.val = r0) (hc : c.val = b.val) :
    Host.scatter scatter_S16x8_S2_S2_0_0_01_0 (fun _ b => b) x (cellIdx r 0#32) upd (ix2 i c) = upd (ix1 b) :=
  scatter_set_hit _ x (cellIdx r 0#32) upd _ (d2_resultIdx r r0 hr h16) (ix2 i c) (ix1 b)
    (funext fun t => match t with | ⟨0, _⟩ => Fin.ext hi.symm | ⟨1, _⟩ => Fin.ext hc.symm)
    (fun j hj => by
      have e1 : (j 0).val = c.val := congrArg (fun q : S16x8.Idx => (q 1).val) hj
      have h0 : j 0 = b := Fin.ext (by omega)
      rw [eq_ix1 j, h0]
      rfl)

/-- The same write, read elsewhere. -/
theorem cells_miss (r : BitVec 32) (r0 : Nat) (hr : r.toInt = (r0 : Int)) (h16 : r0 < 16) (x : S16x8.Idx → α) (upd : S2.Idx → α)
    (i : Fin 16) (c : Fin 8) (h : i.val ≠ r0 ∨ 2 ≤ c.val) :
    Host.scatter scatter_S16x8_S2_S2_0_0_01_0 (fun _ b => b) x (cellIdx r 0#32) upd (ix2 i c) = x (ix2 i c) :=
  scatter_set_miss _ x (cellIdx r 0#32) upd _ (d2_resultIdx r r0 hr h16) (ix2 i c) fun j hj => by
    have e0 : r0 = i.val := congrArg (fun q : S16x8.Idx => (q 0).val) hj
    have e1 : (j 0).val = c.val := congrArg (fun q : S16x8.Idx => (q 1).val) hj
    have : (j 0).val < 2 := (j 0).isLt
    omega
end Reads

/-! ## The five arrays the kernel loads, as terms of the arguments -/

/-- The buffers' contents after the host operations that come before the kernel. -/
abbrev after0 (Vl : Valuation τ sig (Elt Ideal)) : Valuation τ sig (Elt Ideal) := StableHlo.after (hostOps0 (F := Ideal)) Vl

/-- The table's initial contents: zeros. -/
def zeros16x8 : FVec Ideal S16x8 .f32 := broadcastInDim S16x8 ![] bcast_S_S16x8 (constant (F := Ideal) S_ .f32 0x00000000#32)

/-- The four attention vectors as the rows of one [4, 16] array. -/
def acat4 (a0 a1 a2 a3 : FVec Ideal S1x16 .f32) : FVec Ideal S4x16 .f32 :=
  concatenate S4x16 0 [⟨S1x16, a0⟩, ⟨S1x16, a1⟩, ⟨S1x16, a2⟩, ⟨S1x16, a3⟩] concatenates_S1x16_S1x16_S1x16_S1x16_S4x16_d0

/-- The four projections side by side. -/
def wall4 (w0 w1 w2 w3 : FVec Ideal S1024x8 .f32) : FVec Ideal S1024x32 .f32 :=
  concatenate S1024x32 1 [⟨S1024x8, w0⟩, ⟨S1024x8, w1⟩, ⟨S1024x8, w2⟩, ⟨S1024x8, w3⟩]
    concatenates_S1024x8_S1024x8_S1024x8_S1024x8_S1024x32_d1

/-- The [16, 8] table: into zeros, rows 0 to 3 := the attention vectors' first halves, rows 4 to 7 := their second halves,
    the start of row 8 := the last layer's first two weights, the start of row 9 := its last two. -/
def table (a0 a1 a2 a3 : FVec Ideal S1x16 .f32) (al : FVec Ideal S1x4 .f32) : FVec Ideal S16x8 .f32 :=
  Host.scatter scatter_S16x8_S2_S2_0_0_01_0 (fun _ b => b)
    (Host.scatter scatter_S16x8_S2_S2_0_0_01_0 (fun _ b => b)
      (Host.scatter scatter_S16x8_S1_S4x8_01_n_0_0 (fun _ b => b)
        (Host.scatter scatter_S16x8_S1_S4x8_01_n_0_0 (fun _ b => b) zeros16x8 (rowIdx 0#32)
          (extractStridedSlice S4x8 ![0, 0] (acat4 a0 a1 a2 a3) slices_S4x16_S4x8_0_0))
        (rowIdx 4#32) (extractStridedSlice S4x8 ![0, 8] (acat4 a0 a1 a2 a3) slices_S4x16_S4x8_0_8))
      (cellIdx 8#32 0#32) (shapeCast S2 (extractStridedSlice S1x2 ![0, 0] al slices_S1x4_S1x2_0_0) shapeCasts_S1x2_S2))
    (cellIdx 9#32 0#32) (shapeCast S2 (extractStridedSlice S1x2 ![0, 2] al slices_S1x4_S1x2_0_2) shapeCasts_S1x2_S2)

theorem after0_v22 (Vl : Valuation τ sig (Elt Ideal)) :
    after0 Vl (Proc.devRef .tc main_v22)
      = shapeCast S1024x1024 (extractStridedSlice S1x1x1024x1024 ![0, 0, 0, 0] (Vl (Proc.devRef .tc main_arg0))
          slices_S1x2x1024x1024_S1x1x1024x1024_0_0_0_0) shapeCasts_S1x1x1024x1024_S1024x1024 := by
  unfold after0
  after_results_simp
  rfl

theorem after0_v24 (Vl : Valuation τ sig (Elt Ideal)) :
    after0 Vl (Proc.devRef .tc main_v24)
      = shapeCast S1024x1024 (extractStridedSlice S1x1x1024x1024 ![0, 1, 0, 0] (Vl (Proc.devRef .tc main_arg0))
          slices_S1x2x1024x1024_S1x1x1024x1024_0_1_0_0) shapeCasts_S1x1x1024x1024_S1024x1024 := by
  unfold after0
  after_results_simp
  rfl

theorem after0_v0 (Vl : Valuation τ sig (Elt Ideal)) :
    after0 Vl (Proc.devRef .tc main_v0)
      = wall4 (Vl (Proc.devRef .tc main_arg1)) (Vl (Proc.devRef .tc main_arg3)) (Vl (Proc.devRef .tc main_arg5))
          (Vl (Proc.devRef .tc main_arg7)) := by
  unfold after0
  after_results_simp
  rfl

attribute [local irreducible] Host.scatter in
theorem after0_v20 (Vl : Valuation τ sig (Elt Ideal)) :
    after0 Vl (Proc.devRef .tc main_v20)
      = table (Vl (Proc.devRef .tc main_arg2)) (Vl (Proc.devRef .tc main_arg4)) (Vl (Proc.devRef .tc main_arg6))
          (Vl (Proc.devRef .tc main_arg8)) (Vl (Proc.devRef .tc main_arg10)) := by
  unfold after0
  after_results_simp
  rfl

/-- No host operation writes the last layer's projection. -/
theorem host_wlast (Vl : Valuation τ sig (Elt Ideal)) :
    after0 Vl (Proc.devRef .tc main_arg9) = Vl (Proc.devRef .tc main_arg9) := by
  unfold after0
  after_results_simp

/-! ## The concatenations read at an index -/

theorem wall4_apply (w0 w1 w2 w3 : FVec Ideal S1024x8 .f32) (kk : Fin 1024) (k : Fin 4) (dd : Fin 8) :
    wall4 w0 w1 w2 w3 (ix2 kk ⟨8 * k.val + dd.val, by omega⟩) = (![w0, w1, w2, w3] k) (ix2 kk dd) := by
  match k with
  | ⟨0, _⟩ =>
    exact concatenate_apply_piece (1 : Fin S1024x32.rank) _ _ _ 0 (by show (0 : ℕ) < 4; omega) S1024x8 w0 rfl rfl 0 rfl (ix2 kk dd)
      (fun b hb => match b, hb with | ⟨0, _⟩, _ => rfl | ⟨1, _⟩, hb => absurd rfl hb)
      (by show 0 + dd.val = 8 * 0 + dd.val; omega)
  | ⟨1, _⟩ =>
    exact concatenate_apply_piece (1 : Fin S1024x32.rank) _ _ _ 1 (by show (1 : ℕ) < 4; omega) S1024x8 w1 rfl rfl 8 rfl (ix2 kk dd)
      (fun b hb => match b, hb with | ⟨0, _⟩, _ => rfl | ⟨1, _⟩, hb => absurd rfl hb)
      (by show 8 + dd.val = 8 * 1 + dd.val; omega)
  | ⟨2, _⟩ =>
    exact concatenate_apply_piece (1 : Fin S1024x32.rank) _ _ _ 2 (by show (2 : ℕ) < 4; omega) S1024x8 w2 rfl rfl 16 rfl (ix2 kk dd)
      (fun b hb => match b, hb with | ⟨0, _⟩, _ => rfl | ⟨1, _⟩, hb => absurd rfl hb)
      (by show 16 + dd.val = 8 * 2 + dd.val; omega)
  | ⟨3, _⟩ =>
    exact concatenate_apply_piece (1 : Fin S1024x32.rank) _ _ _ 3 (by show (3 : ℕ) < 4; omega) S1024x8 w3 rfl rfl 24 rfl (ix2 kk dd)
      (fun b hb => match b, hb with | ⟨0, _⟩, _ => rfl | ⟨1, _⟩, hb => absurd rfl hb)
      (by show 24 + dd.val = 8 * 3 + dd.val; omega)

theorem acat4_apply (a0 a1 a2 a3 : FVec Ideal S1x16 .f32) (k : Fin 4) (c : Fin 16) :
    acat4 a0 a1 a2 a3 (ix2 k c) = (![a0, a1, a2, a3] k) (ix2 0 c) := by
  match k with
  | ⟨0, _⟩ =>
    exact concatenate_apply_piece (0 : Fin S4x16.rank) _ _ _ 0 (by show (0 : ℕ) < 4; omega) S1x16 a0 rfl rfl 0 rfl (ix2 0 c)
      (fun b hb => match b, hb with | ⟨0, _⟩, hb => absurd rfl hb | ⟨1, _⟩, _ => rfl) rfl
  | ⟨1, _⟩ =>
    exact concatenate_apply_piece (0 : Fin S4x16.rank) _ _ _ 1 (by show (1 : ℕ) < 4; omega) S1x16 a1 rfl rfl 1 rfl (ix2 0 c)
      (fun b hb => match b, hb with | ⟨0, _⟩, hb => absurd rfl hb | ⟨1, _⟩, _ => rfl) rfl
  | ⟨2, _⟩ =>
    exact concatenate_apply_piece (0 : Fin S4x16.rank) _ _ _ 2 (by show (2 : ℕ) < 4; omega) S1x16 a2 rfl rfl 2 rfl (ix2 0 c)
      (fun b hb => match b, hb with | ⟨0, _⟩, hb => absurd rfl hb | ⟨1, _⟩, _ => rfl) rfl
  | ⟨3, _⟩ =>
    exact concatenate_apply_piece (0 : Fin S4x16.rank) _ _ _ 3 (by show (3 : ℕ) < 4; omega) S1x16 a3 rfl rfl 3 rfl (ix2 0 c)
      (fun b hb => match b, hb with | ⟨0, _⟩, hb => absurd rfl hb | ⟨1, _⟩, _ => rfl) rfl

/-! ## The table read row by row -/

theorem table_src (a0 a1 a2 a3 : FVec Ideal S1x16 .f32) (al : FVec Ideal S1x4 .f32) (k : Fin 4) (dd : Fin 8) :
    table a0 a1 a2 a3 al (ix2 ⟨k.val, by omega⟩ dd) = (![a0, a1, a2, a3] k) (ix2 0 ⟨dd.val, by omega⟩) := by
  unfold table
  rw [cells_miss 9#32 9 (by decide) (by decide) _ _ ⟨k.val, by omega⟩ dd (Or.inl (by show k.val ≠ 9; omega)),
    cells_miss 8#32 8 (by decide) (by decide) _ _ ⟨k.val, by omega⟩ dd (Or.inl (by show k.val ≠ 8; omega)),
    rows_miss 4#32 4 (by decide) (by decide) _ _ ⟨k.val, by omega⟩ dd (Or.inl (by show k.val < 4; omega)),
    rows_hit 0#32 0 (by decide) (by decide) _ _ ⟨k.val, by omega⟩ k dd (by show k.val = 0 + k.val; omega)]
  refine (extractStridedSlice_apply _ _ _ (ix2 k dd) (ix2 k ⟨dd.val, by omega⟩)
    (fun a => match a with | ⟨0, _⟩ => (Nat.zero_add _).symm | ⟨1, _⟩ => (Nat.zero_add _).symm)).trans ?_
  exact acat4_apply a0 a1 a2 a3 k _

theorem table_dst (a0 a1 a2 a3 : FVec Ideal S1x16 .f32) (al : FVec Ideal S1x4 .f32) (k : Fin 4) (dd : Fin 8) :
    table a0 a1 a2 a3 al (ix2 ⟨4 + k.val, by omega⟩ dd) = (![a0, a1, a2, a3] k) (ix2 0 ⟨8 + dd.val, by omega⟩) := by
  unfold table
  rw [cells_miss 9#32 9 (by decide) (by decide) _ _ ⟨4 + k.val, by omega⟩ dd (Or.inl (by show 4 + k.val ≠ 9; omega)),
    cells_miss 8#32 8 (by decide) (by decide) _ _ ⟨4 + k.val, by omega⟩ dd (Or.inl (by show 4 + k.val ≠ 8; omega)),
    rows_hit 4#32 4 (by decide) (by decide) _ _ ⟨4 + k.val, by omega⟩ k dd rfl]
  refine (extractStridedSlice_apply _ _ _ (ix2 k dd) (ix2 k ⟨8 + dd.val, by omega⟩)
    (fun a => match a with | ⟨0, _⟩ => (Nat.zero_add _).symm | ⟨1, _⟩ => rfl)).trans ?_
  exact acat4_apply a0 a1 a2 a3 k _

theorem table_8 (a0 a1 a2 a3 : FVec Ideal S1x16 .f32) (al : FVec Ideal S1x4 .f32) (dd : Fin 2) :
    table a0 a1 a2 a3 al (ix2 8 ⟨dd.val, by omega⟩) = al (ix2 0 ⟨dd.val, by omega⟩) := by
  unfold table
  rw [cells_miss 9#32 9 (by decide) (by decide) _ _ 8 ⟨dd.val, by omega⟩ (Or.inl (by decide)),
    cells_hit 8#32 8 (by decide) (by decide) _ _ 8 dd ⟨dd.val, by omega⟩ rfl rfl]
  refine (shapeCast_apply _ _ (ix1 dd) (ix2 0 dd) ?_).trans ?_
  · rw [Shape.rowMajor_val_two, Shape.rowMajor_val_one]
    show 0 * 2 + dd.val = dd.val
    omega
  · exact extractStridedSlice_apply _ _ _ (ix2 0 dd) (ix2 0 ⟨dd.val, by omega⟩)
      (fun a => match a with | ⟨0, _⟩ => rfl | ⟨1, _⟩ => (Nat.zero_add _).symm)

theorem table_9 (a0 a1 a2 a3 : FVec Ideal S1x16 .f32) (al : FVec Ideal S1x4 .f32) (dd : Fin 2) :
    table a0 a1 a2 a3 al (ix2 9 ⟨dd.val, by omega⟩) = al (ix2 0 ⟨2 + dd.val, by omega⟩) := by
  unfold table
  rw [cells_hit 9#32 9 (by decide) (by decide) _ _ 9 dd ⟨dd.val, by omega⟩ rfl rfl]
  refine (shapeCast_apply _ _ (ix1 dd) (ix2 0 dd) ?_).trans ?_
  · rw [Shape.rowMajor_val_two, Shape.rowMajor_val_one]
    show 0 * 2 + dd.val = dd.val
    omega
  · exact extractStridedSlice_apply _ _ _ (ix2 0 dd) (ix2 0 ⟨2 + dd.val, by omega⟩)
      (fun a => match a with | ⟨0, _⟩ => rfl | ⟨1, _⟩ => rfl)

/-! ## What the kernel's five arrays hold, at an index -/

/-- The node features: plane 0 of the samples. -/
theorem host_x (Vl : Valuation τ sig (Elt Ideal)) (i k : Fin 1024) :
    after0 Vl (Proc.devRef .tc main_v22) (ix2 i k) = Vl (Proc.devRef .tc main_arg0) (ix4 0 0 i k) := by
  rw [after0_v22]
  refine (shapeCast_apply _ _ (ix2 i k) (ix4 0 0 i k) ?_).trans ?_
  · rw [Shape.rowMajor_val_four, Shape.rowMajor_val_two]
    show ((0 * 1 + 0) * 1024 + i.val) * 1024 + k.val = i.val * 1024 + k.val
    omega
  · exact extractStridedSlice_apply _ _ _ (ix4 0 0 i k) (ix4 0 0 i k)
      (fun a => match a with
        | ⟨0, _⟩ => rfl | ⟨1, _⟩ => rfl | ⟨2, _⟩ => (Nat.zero_add _).symm | ⟨3, _⟩ => (Nat.zero_add _).symm)

/-- The adjacency: plane 1 of the samples. -/
theorem host_adj (Vl : Valuation τ sig (Elt Ideal)) (i j : Fin 1024) :
    after0 Vl (Proc.devRef .tc main_v24) (ix2 i j) = Vl (Proc.devRef .tc main_arg0) (ix4 0 1 i j) := by
  rw [after0_v24]
  refine (shapeCast_apply _ _ (ix2 i j) (ix4 0 0 i j) ?_).trans ?_
  · rw [Shape.rowMajor_val_four, Shape.rowMajor_val_two]
    show ((0 * 1 + 0) * 1024 + i.val) * 1024 + j.val = i.val * 1024 + j.val
    omega
  · exact extractStridedSlice_apply _ _ _ (ix4 0 0 i j) (ix4 0 1 i j)
      (fun a => match a with
        | ⟨0, _⟩ => rfl | ⟨1, _⟩ => rfl | ⟨2, _⟩ => (Nat.zero_add _).symm | ⟨3, _⟩ => (Nat.zero_add _).symm)

/-- The four projections side by side: columns 8k to 8k + 7 are head k's. -/
theorem host_wall (Vl : Valuation τ sig (Elt Ideal)) (kk : Fin 1024) (k : Fin 4) (dd : Fin 8) :
    after0 Vl (Proc.devRef .tc main_v0) (ix2 kk ⟨8 * k.val + dd.val, by omega⟩)
      = (![Vl (Proc.devRef .tc main_arg1), Vl (Proc.devRef .tc main_arg3), Vl (Proc.devRef .tc main_arg5),
            Vl (Proc.devRef .tc main_arg7)] k) (ix2 kk dd) := by
  rw [after0_v0]
  exact wall4_apply _ _ _ _ kk k dd

/-- Rows 0 to 3 of the table: the heads' source weights. -/
theorem host_acat_src (Vl : Valuation τ sig (Elt Ideal)) (k : Fin 4) (dd : Fin 8) :
    after0 Vl (Proc.devRef .tc main_v20) (ix2 ⟨k.val, by omega⟩ dd)
      = (![Vl (Proc.devRef .tc main_arg2), Vl (Proc.devRef .tc main_arg4), Vl (Proc.devRef .tc main_arg6),
            Vl (Proc.devRef .tc main_arg8)] k) (ix2 0 ⟨dd.val, by omega⟩) := by
  rw [after0_v20]
  exact table_src _ _ _ _ _ k dd

/-- Rows 4 to 7: the heads' destination weights. -/
theorem host_acat_dst (Vl : Valuation τ sig (Elt Ideal)) (k : Fin 4) (dd : Fin 8) :
    after0 Vl (Proc.devRef .tc main_v20) (ix2 ⟨4 + k.val, by omega⟩ dd)
      = (![Vl (Proc.devRef .tc main_arg2), Vl (Proc.devRef .tc main_arg4), Vl (Proc.devRef .tc main_arg6),
            Vl (Proc.devRef .tc main_arg8)] k) (ix2 0 ⟨8 + dd.val, by omega⟩) := by
  rw [after0_v20]
  exact table_dst _ _ _ _ _ k dd

/-- Row 8: the last layer's source weights. -/
theorem host_acat_8 (Vl : Valuation τ sig (Elt Ideal)) (dd : Fin 2) :
    after0 Vl (Proc.devRef .tc main_v20) (ix2 8 ⟨dd.val, by omega⟩)
      = Vl (Proc.devRef .tc main_arg10) (ix2 0 ⟨dd.val, by omega⟩) := by
  rw [after0_v20]
  exact table_8 _ _ _ _ _ dd

/-- Row 9: the last layer's destination weights. -/
theorem host_acat_9 (Vl : Valuation τ sig (Elt Ideal)) (dd : Fin 2) :
    after0 Vl (Proc.devRef .tc main_v20) (ix2 9 ⟨dd.val, by omega⟩)
      = Vl (Proc.devRef .tc main_arg10) (ix2 0 ⟨2 + dd.val, by omega⟩) := by
  rw [after0_v20]
  exact table_9 _ _ _ _ _ dd

end Cert.KernelIdeal.Hand

end
-- ==== Proof.KChains.lean ====
/-
  The kernel body's arithmetic as three chains, each the body's own operations in order, and the body's stored
  value as their composition. For one head: the WEIGHTS of all ordered pairs (the source term of a row plus the
  destination term of a column, through the leaky rectifier, exp of minus that, times the mask); the NORMALISED
  AGGREGATE (the weights times the projected features with a column of ones appended, the first columns divided by
  the last); and the exponential linear UNIT. The last layer has the same three chains at width 2.
-/
import proofs.«174455_g86844238725802_fold_wed_m_134_3_alg».proof.Proof.KBody

noncomputable section

namespace Cert.KernelIdeal.Hand

open Idealize.ShloMosaic Idealize.SL.Sem Cert.KernelIdeal Cert.KernelIdeal.Gen

variable {F : FTy → Type} [FloatOps F]

/-- The weights of all ordered pairs, from the mask, the projected features and the head's two attention rows. -/
def kScore (mask : FVec F S1024x1024 .f32) (wh : FVec F S1024x8 .f32) (ar ac : FVec F S1x8 .f32) : FVec F S1024x1024 .f32 :=
  have v16 : FVec F S1024x8 .f32 := broadcastTo S1024x8 ar broadcasts_S1x8_S1024x8
  have v17 : FVec F S1024x8 .f32 := mulf wh v16
  have v18 : FVec F S1024 .f32 := multiReduction .add [1] S1024 v17 0x00000000#32 reduces_S1024x8_S1024 (.inl rfl) rfl
  have v19 : FVec F S1024x1 .f32 := shapeCast S1024x1 v18 shapeCasts_S1024_S1024x1
  have cst_10 : FVec F S1x1024 .f32 := constant S1x1024 .f32 0x00000000#32
  have v21 : FVec F S1x1024 .f32 := matmul dot_S1x8_S1024x8_S1x1024_1_1_0_0_n_n none ac wh cst_10
  have v22 : FVec F S1024x1024 .f32 := broadcastTo S1024x1024 v19 broadcasts_S1024x1_S1024x1024
  have v23 : FVec F S1024x1024 .f32 := broadcastTo S1024x1024 v21 broadcasts_S1x1024_S1024x1024
  have v24 : FVec F S1024x1024 .f32 := addf v22 v23
  have cst_11 : F .f32 := Scalar.ofBits .f32 0x00000000#32
  have v25 : FVec F S1024x1024 .f32 := broadcast S1024x1024 cst_11
  have v26 : IVec S1024x1024 1 := cmpf .oge v24 v25
  have cst_12 : F .f32 := Scalar.ofBits .f32 0x3E4CCCCD#32
  have v27 : FVec F S1024x1024 .f32 := broadcast S1024x1024 cst_12
  have v28 : FVec F S1024x1024 .f32 := mulf v27 v24
  have v29 : FVec F S1024x1024 .f32 := select v26 v24 v28
  have cst_13 : F .f32 := Scalar.ofBits .f32 0x00000000#32
  have v30 : FVec F S1024x1024 .f32 := broadcast S1024x1024 cst_13
  have v31 : FVec F S1024x1024 .f32 := subf v30 v29
  have v32 : FVec F S1024x1024 .f32 := exp v31
  have v33 : FVec F S1024x1024 .f32 := mulf v32 mask
  v33

/-- The projected features with a column of ones appended. -/
def kAug (wh : FVec F S1024x8 .f32) (ones : FVec F S1024x1 .f32) : FVec F S1024x9 .f32 :=
  have v34 : FVec F S1024x9 .f32 := concatenate S1024x9 1 [⟨S1024x8, wh⟩, ⟨S1024x1, ones⟩] concatenates_S1024x8_S1024x1_S1024x9_d1
  v34

/-- The weights times the augmented features; the first eight columns divided by the ninth. -/
def kAttend (vals : FVec F S1024x1024 .f32) (aug : FVec F S1024x9 .f32) : FVec F S1024x8 .f32 :=
  have cst_14 : FVec F S1024x9 .f32 := constant S1024x9 .f32 0x00000000#32
  have v35 : FVec F S1024x9 .f32 := matmul dot_S1024x1024_S1024x9_S1024x9_1_0_0_1_n_n none vals aug cst_14
  have v36 : FVec F S1024x8 .f32 := extractStridedSlice S1024x8 ![0, 0] v35 slices_S1024x9_o0_0_S1024x8
  have v37 : FVec F S1024x1 .f32 := extractStridedSlice S1024x1 ![0, 8] v35 slices_S1024x9_o0_8_S1024x1
  have v38 : FVec F S1024x8 .f32 := broadcastTo S1024x8 v37 broadcasts_S1024x1_S1024x8
  have v39 : FVec F S1024x8 .f32 := divf v36 v38
  v39

/-- The exponential linear unit, as the body spells it. -/
def kElu (r : FVec F S1024x8 .f32) : FVec F S1024x8 .f32 :=
  have cst_16 : F .f32 := Scalar.ofBits .f32 0x00000000#32
  have v42 : FVec F S1024x8 .f32 := broadcast S1024x8 cst_16
  have v43 : FVec F S1024x8 .f32 := minimumf r v42
  have v44 : FVec F S1024x8 .f32 := exp v43
  have cst_17 : F .f32 := Scalar.ofBits .f32 0x3F800000#32
  have v45 : FVec F S1024x8 .f32 := broadcast S1024x8 cst_17
  have v46 : FVec F S1024x8 .f32 := subf v44 v45
  select (cmpf .ogt r (broadcast S1024x8 (Scalar.ofBits .f32 0x00000000#32 : F .f32))) r v46

/-- The last layer's pair weights (width 2). -/
def kScore2 (mask : FVec F S1024x1024 .f32) (wh : FVec F S1024x2 .f32) (ar ac : FVec F S1x2 .f32) : FVec F S1024x1024 .f32 :=
  have v154 : FVec F S1024x2 .f32 := broadcastTo S1024x2 ar broadcasts_S1x2_S1024x2
  have v155 : FVec F S1024x2 .f32 := mulf wh v154
  have v156 : FVec F S1024 .f32 := multiReduction .add [1] S1024 v155 0x00000000#32 reduces_S1024x2_S1024 (.inl rfl) rfl
  have v157 : FVec F S1024x1 .f32 := shapeCast S1024x1 v156 shapeCasts_S1024_S1024x1
  have cst_49 : FVec F S1x1024 .f32 := constant S1x1024 .f32 0x00000000#32
  have v159 : FVec F S1x1024 .f32 := matmul dot_S1x2_S1024x2_S1x1024_1_1_0_0_n_n none ac wh cst_49
  have v160 : FVec F S1024x1024 .f32 := broadcastTo S1024x1024 v157 broadcasts_S1024x1_S1024x1024
  have v161 : FVec F S1024x1024 .f32 := broadcastTo S1024x1024 v159 broadcasts_S1x1024_S1024x1024
  have v162 : FVec F S1024x1024 .f32 := addf v160 v161
  have cst_50 : F .f32 := Scalar.ofBits .f32 0x00000000#32
  have v163 : FVec F S1024x1024 .f32 := broadcast S1024x1024 cst_50
  have v164 : IVec S1024x1024 1 := cmpf .oge v162 v163
  have cst_51 : F .f32 := Scalar.ofBits .f32 0x3E4CCCCD#32
  have v165 : FVec F S1024x1024 .f32 := broadcast S1024x1024 cst_51
  have v166 : FVec F S1024x1024 .f32 := mulf v165 v162
  have v167 : FVec F S1024x1024 .f32 := select v164 v162 v166
  have cst_52 : F .f32 := Scalar.ofBits .f32 0x00000000#32
  have v168 : FVec F S1024x1024 .f32 := broadcast S1024x1024 cst_52
  have v169 : FVec F S1024x1024 .f32 := subf v168 v167
  have v170 : FVec F S1024x1024 .f32 := exp v169
  have v171 : FVec F S1024x1024 .f32 := mulf v170 mask
  v171

def kAug2 (wh : FVec F S1024x2 .f32) (ones : FVec F S1024x1 .f32) : FVec F S1024x3 .f32 :=
  have v172 : FVec F S1024x3 .f32 := concatenate S1024x3 1 [⟨S1024x2, wh⟩, ⟨S1024x1, ones⟩] concatenates_S1024x2_S1024x1_S1024x3_d1
  v172

def kAttend2 (vals : FVec F S1024x1024 .f32) (aug : FVec F S1024x3 .f32) : FVec F S1024x2 .f32 :=
  have cst_53 : FVec F S1024x3 .f32 := constant S1024x3 .f32 0x00000000#32
  have v173 : FVec F S1024x3 .f32 := matmul dot_S1024x1024_S1024x3_S1024x3_1_0_0_1_n_n none vals aug cst_53
  have v174 : FVec F S1024x2 .f32 := extractStridedSlice S1024x2 ![0, 0] v173 slices_S1024x3_o0_0_S1024x2
  have v175 : FVec F S1024x1 .f32 := extractStridedSlice S1024x1 ![0, 2] v173 slices_S1024x3_o0_2_S1024x1
  have v176 : FVec F S1024x2 .f32 := broadcastTo S1024x2 v175 broadcasts_S1024x1_S1024x2
  have v177 : FVec F S1024x2 .f32 := divf v174 v176
  v177

def kElu2 (r : FVec F S1024x2 .f32) : FVec F S1024x2 .f32 :=
  have v182 : FVec F S1024x2 .f32 := exp (minimumf r (broadcast S1024x2 (Scalar.ofBits .f32 0x00000000#32 : F .f32)))
  have cst_56 : F .f32 := Scalar.ofBits .f32 0x3F800000#32
  have v183 : FVec F S1024x2 .f32 := broadcast S1024x2 cst_56
  have v184 : FVec F S1024x2 .f32 := subf v182 v183
  select (cmpf .ogt r (broadcast S1024x2 (Scalar.ofBits .f32 0x00000000#32 : F .f32))) r v184

/-- One head of the first layer, from the mask, its projected features, its two attention rows and the ones. -/
def kHead (mask : FVec F S1024x1024 .f32) (wh : FVec F S1024x8 .f32) (ar ac : FVec F S1x8 .f32) (ones : FVec F S1024x1 .f32) :
    FVec F S1024x8 .f32 :=
  kElu (kAttend (kScore mask wh ar ac) (kAug wh ones))

/-- The stored value is the last layer's three chains over the four heads side by side. -/
theorem kerBody_eq (adj x : Vec F S1024x1024 .f32) (wall : Vec F S1024x32 .f32) (acat : Vec F S16x8 .f32)
    (wlast : Vec F S32x2 .f32) :
    kerBody adj x wall acat wlast =
      (have mask := k0_pay2 adj
       have P := k0_pay3 x wall
       have A := k0_pay4 acat
       have ones := k0_pay5 (F := F)
       have h0 := kHead mask (extractStridedSlice S1024x8 ![0, 0] P slices_S1024x32_o0_0_S1024x8)
         (extractStridedSlice S1x8 ![0, 0] A slices_S16x8_o0_0_S1x8) (extractStridedSlice S1x8 ![4, 0] A slices_S16x8_o4_0_S1x8) ones
       have h1 := kHead mask (extractStridedSlice S1024x8 ![0, 8] P slices_S1024x32_o0_8_S1024x8)
         (extractStridedSlice S1x8 ![1, 0] A slices_S16x8_o1_0_S1x8) (extractStridedSlice S1x8 ![5, 0] A slices_S16x8_o5_0_S1x8) ones
       have h2 := kHead mask (extractStridedSlice S1024x8 ![0, 16] P slices_S1024x32_o0_16_S1024x8)
         (extractStridedSlice S1x8 ![2, 0] A slices_S16x8_o2_0_S1x8) (extractStridedSlice S1x8 ![6, 0] A slices_S16x8_o6_0_S1x8) ones
       have h3 := kHead mask (extractStridedSlice S1024x8 ![0, 24] P slices_S1024x32_o0_24_S1024x8)
         (extractStridedSlice S1x8 ![3, 0] A slices_S16x8_o3_0_S1x8) (extractStridedSlice S1x8 ![7, 0] A slices_S16x8_o7_0_S1x8) ones
       have Hc : FVec F S1024x32 .f32 := concatenate S1024x32 1 [⟨S1024x8, h0⟩, ⟨S1024x8, h1⟩, ⟨S1024x8, h2⟩, ⟨S1024x8, h3⟩]
         concatenates_S1024x8_S1024x8_S1024x8_S1024x8_S1024x32_d1
       have w2 : FVec F S1024x2 .f32 := matmul dot_S1024x32_S32x2_S1024x2_1_0_0_1_n_n none Hc wlast (constant S1024x2 .f32 0x00000000#32)
       kElu2 (kAttend2 (kScore2 mask w2 (extractStridedSlice S1x2 ![8, 0] A slices_S16x8_o8_0_S1x2)
         (extractStridedSlice S1x2 ![9, 0] A slices_S16x8_o9_0_S1x2)) (kAug2 w2 ones))) := by
  rfl

end Cert.KernelIdeal.Hand

end
-- ==== Proof.KMath8.lean ====
/-
  One first-layer head of the kernel body, read element by element, is the specification's head over the
  projected features. The pair weights: the source term of a row is a sum over the eight features (a lane sum
  kept as a column and spread over the columns), the destination term of a column is the same kind of sum
  written as a product of a row vector with the transposed features (spread over the rows); their sum goes
  through the leaky rectifier, exp of minus that, times the mask. The aggregate and the total weight come out
  of ONE product of the weights with the features extended by a column of ones: columns 0..7 are the
  aggregate, column 8 is the total, and the quotient goes through the exponential linear unit.
-/
import proofs.«174455_g86844238725802_fold_wed_m_134_3_alg».proof.Proof.KChains
import proofs.«174455_g86844238725802_fold_wed_m_134_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

namespace Width8

/-! ## Three layout readings: a vector kept as a column, a column spread over columns, exp at an index -/

section Layout
variable {α : Type}

/-- An [a] vector cast to an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- exp of a vector at an index is exp of the element. -/
theorem exp_apply {s : Shape} (v : FVec Ideal s .f32) (i : s.Idx) : exp v i = Ideal.exp (v i) := rfl

/-! ## The source term: the row's lane sum -/

/-- The sum over the feature axis of an [1024, 8] vector at row i. -/
theorem laneSum8_apply (v : FVec Ideal S1024x8 .f32) (i : Fin 1024) :
    multiReduction (F := Ideal) .add [1] S1024 v 0x00000000#32 reduces_S1024x8_S1024 (.inl rfl) rfl (ix1 i)
      = ∑ d : Fin 8, v (ix2 i d) := by
  refine (Ideal.multiReduction_add_single v 0x00000000#32 reduces_S1024x8_S1024 (.inl rfl) rfl (ix1 i)).trans ?_
  refine Finset.sum_congr rfl fun k _ => congrArg v (funext fun a => ?_)
  match a with
  | ⟨0, _⟩ => exact Fin.ext rfl
  | ⟨1, _⟩ => exact Fin.ext rfl

/-- The source term spread over the columns: at (i, j) it is the sum over the features of row i times the source row. -/
theorem srcTerm_apply (wh : FVec Ideal S1024x8 .f32) (ar : FVec Ideal S1x8 .f32) (i j : Fin 1024) :
    broadcastTo S1024x1024
        (shapeCast S1024x1
          (multiReduction (F := Ideal) .add [1] S1024 (mulf wh (broadcastTo S1024x8 ar broadcasts_S1x8_S1024x8)) 0x00000000#32
            reduces_S1024x8_S1024 (.inl rfl) rfl) shapeCasts_S1024_S1024x1)
        broadcasts_S1024x1_S1024x1024 (ix2 i j)
      = ∑ d : Fin 8, wh (ix2 i d) * ar (ix2 0 d) := by
  refine (broadcastTo_a1_ab_apply _ broadcasts_S1024x1_S1024x1024 i j).trans ?_
  refine (shapeCast_a_a1_apply _ shapeCasts_S1024_S1024x1 i 0).trans ?_
  refine (laneSum8_apply _ i).trans ?_
  refine Finset.sum_congr rfl fun d _ => ?_
  rw [mulf_apply, broadcastTo_1b_ab_apply ar broadcasts_S1x8_S1024x8 i d]

/-! ## The destination term: a row vector times the transposed features -/

theorem lhs_dst_0 (i : S1x1024.Idx) (q : dot_S1x8_S1024x8_S1x1024_1_1_0_0_n_n.contr.Idx) :
    (dot_S1x8_S1024x8_S1x1024_1_1_0_0_n_n.lhsIdx i q 0).val = (i 0).val := by
  unfold DotDims.lhsIdx
  rw [dif_neg (show ¬(0 : Fin S1x8.rank) ∈ dot_S1x8_S1024x8_S1x1024_1_1_0_0_n_n.lhsBatch by decide),
    dif_pos (show (0 : Fin S1x8.rank) ∈ dot_S1x8_S1024x8_S1x1024_1_1_0_0_n_n.lhsNonContracting by decide)]
  rfl
theorem lhs_dst_1 (i : S1x1024.Idx) (q : dot_S1x8_S1024x8_S1x1024_1_1_0_0_n_n.contr.Idx) :
    (dot_S1x8_S1024x8_S1x1024_1_1_0_0_n_n.lhsIdx i q 1).val = (q ⟨0, by decide⟩).val :=
  dot_S1x8_S1024x8_S1x1024_1_1_0_0_n_n.lhsIdx_val_of_single rfl i q
theorem rhs_dst_0 (i : S1x1024.Idx) (q : dot_S1x8_S1024x8_S1x1024_1_1_0_0_n_n.contr.Idx) :
    (dot_S1x8_S1024x8_S1x1024_1_1_0_0_n_n.rhsIdx i q 0).val = (i 1).val := by
  unfold DotDims.rhsIdx
  rw [dif_neg (show ¬(0 : Fin S1024x8.rank) ∈ dot_S1x8_S1024x8_S1x1024_1_1_0_0_n_n.rhsBatch by decide),
    dif_pos (show (0 : Fin S1024x8.rank) ∈ dot_S1x8_S1024x8_S1x1024_1_1_0_0_n_n.rhsNonContracting by decide)]
  rfl
theorem rhs_dst_1 (i : S1x1024.Idx) (q : dot_S1x8_S1024x8_S1x1024_1_1_0_0_n_n.contr.Idx) :
    (dot_S1x8_S1024x8_S1x1024_1_1_0_0_n_n.rhsIdx i q 1).val = (q ⟨0, by decide⟩).val :=
  dot_S1x8_S1024x8_S1x1024_1_1_0_0_n_n.rhsIdx_val_of_single rfl i q

/-- The row vector times the transposed features, onto zero: at (u, j) the sum over the features of the destination
    row times row j. -/
theorem dstRow_apply (ac : FVec Ideal S1x8 .f32) (wh : FVec Ideal S1024x8 .f32) (u : Fin 1) (j : Fin 1024) :
    matmul (F := Ideal) dot_S1x8_S1024x8_S1x1024_1_1_0_0_n_n none ac wh (constant S1x1024 .f32 0x00000000#32) (ix2 u j)
      = ∑ d : Fin 8, ac (ix2 0 d) * wh (ix2 j d) := by
  simp only [matmul]
  rw [Ideal.matmul_constant_zero_apply,
    ← Equiv.sum_comp (contrEquiv1 dot_S1x8_S1024x8_S1x1024_1_1_0_0_n_n 8 rfl rfl).symm]
  refine Finset.sum_congr rfl fun k _ => ?_
  have hk := contrEquiv1_symm_val dot_S1x8_S1024x8_S1x1024_1_1_0_0_n_n 8 rfl rfl k
  have hu : u.val = 0 := by omega
  have el : dot_S1x8_S1024x8_S1x1024_1_1_0_0_n_n.lhsIdx (ix2 u j)
      ((contrEquiv1 dot_S1x8_S1024x8_S1x1024_1_1_0_0_n_n 8 rfl rfl).symm k) = ix2 0 k := funext fun a => Fin.ext (by
    match a with
    | ⟨0, _⟩ => exact (lhs_dst_0 _ _).trans hu
    | ⟨1, _⟩ => exact (lhs_dst_1 _ _).trans hk)
  have er : dot_S1x8_S1024x8_S1x1024_1_1_0_0_n_n.rhsIdx (ix2 u j)
      ((contrEquiv1 dot_S1x8_S1024x8_S1x1024_1_1_0_0_n_n 8 rfl rfl).symm k) = ix2 j k := funext fun a => Fin.ext (by
    match a with
    | ⟨0, _⟩ => exact rhs_dst_0 _ _
    | ⟨1, _⟩ => exact (rhs_dst_1 _ _).trans hk)
  rw [el, er]

/-- The destination term spread over the rows. -/
theorem dstTerm_apply (ac : FVec Ideal S1x8 .f32) (wh : FVec Ideal S1024x8 .f32) (i j : Fin 1024) :
    broadcastTo S1024x1024
        (matmul (F := Ideal) dot_S1x8_S1024x8_S1x1024_1_1_0_0_n_n none ac wh (constant S1x1024 .f32 0x00000000#32))
        broadcasts_S1x1024_S1024x1024 (ix2 i j)
      = ∑ d : Fin 8, ac (ix2 0 d) * wh (ix2 j d) :=
  (broadcastTo_1b_ab_apply _ broadcasts_S1x1024_S1024x1024 i j).trans (dstRow_apply ac wh 0 j)

/-! ## The pair weights -/

/-- The body's weight of the ordered pair (i, j) is the specification's. -/
theorem kScore_apply (mask : FVec Ideal S1024x1024 .f32) (wh : FVec Ideal S1024x8 .f32) (ar ac : FVec Ideal S1x8 .f32)
    (i j : Fin 1024) :
    kScore (F := Ideal) mask wh ar ac (ix2 i j)
      = Cert.Gat.weightOf (fun i j => mask (ix2 i j)) (fun d => ar (ix2 0 d)) (fun d => ac (ix2 0 d))
          (fun i d => wh (ix2 i d)) i j := by
  unfold kScore Cert.Gat.weightOf
  simp only [mulf_apply, exp_apply, subf_apply, select_apply, cmpf_apply, addf_apply, broadcast_apply]
  rw [srcTerm_apply wh ar i j, dstTerm_apply ac wh i j]
  show Ideal.exp (Ideal.ofBits .f32 0x00000000#32 - Scalar.select (Ideal.cmp .oge _ (Ideal.ofBits .f32 0x00000000#32)) _ (Cert.Gat.slope * _)) * _ = _
  rw [Cert.Gat.zero_word, Cert.Gat.leaky_of_select, zero_sub]

/-! ## The features extended by a column of ones -/

/-- Columns 0..7 of the extended features are the features. -/
theorem kAug_feat (wh : FVec Ideal S1024x8 .f32) (ones : FVec Ideal S1024x1 .f32) (j : Fin 1024) (d : Fin 8) :
    kAug (F := Ideal) wh ones (ix2 j (⟨d.val, by omega⟩ : Fin 9)) = wh (ix2 j d) := by
  unfold kAug
  refine concatenate_pair_apply_left 1 wh ones concatenates_S1024x8_S1024x1_S1024x9_d1 _ rfl (ix2 j d) fun b => ?_
  match b with
  | ⟨0, _⟩ => rfl
  | ⟨1, _⟩ => rfl

/-- Column 8 of the extended features is the appended column. -/
theorem kAug_last (wh : FVec Ideal S1024x8 .f32) (ones : FVec Ideal S1024x1 .f32) (j : Fin 1024) :
    kAug (F := Ideal) wh ones (ix2 j (⟨8, by omega⟩ : Fin 9)) = ones (ix2 j (0 : Fin 1)) := by
  unfold kAug
  refine concatenate_pair_apply_right 1 wh ones concatenates_S1024x8_S1024x1_S1024x9_d1 _ rfl rfl (ix2 j (0 : Fin 1))
    (fun b hb => ?_) rfl
  match b with
  | ⟨0, _⟩ => rfl
  | ⟨1, _⟩ => exact absurd rfl hb

/-! ## The weights times the extended features -/

theorem lhs_att_0 (i : S1024x9.Idx) (q : dot_S1024x1024_S1024x9_S1024x9_1_0_0_1_n_n.contr.Idx) :
    (dot_S1024x1024_S1024x9_S1024x9_1_0_0_1_n_n.lhsIdx i q 0).val = (i 0).val := by
  unfold DotDims.lhsIdx
  rw [dif_neg (show ¬(0 : Fin S1024x1024.rank) ∈ dot_S1024x1024_S1024x9_S1024x9_1_0_0_1_n_n.lhsBatch by decide),
    dif_pos (show (0 : Fin S1024x1024.rank) ∈ dot_S1024x1024_S1024x9_S1024x9_1_0_0_1_n_n.lhsNonContracting by decide)]
  rfl
theorem lhs_att_1 (i : S1024x9.Idx) (q : dot_S1024x1024_S1024x9_S1024x9_1_0_0_1_n_n.contr.Idx) :
    (dot_S1024x1024_S1024x9_S1024x9_1_0_0_1_n_n.lhsIdx i q 1).val = (q ⟨0, by decide⟩).val :=
  dot_S1024x1024_S1024x9_S1024x9_1_0_0_1_n_n.lhsIdx_val_of_single rfl i q
theorem rhs_att_0 (i : S1024x9.Idx) (q : dot_S1024x1024_S1024x9_S1024x9_1_0_0_1_n_n.contr.Idx) :
    (dot_S1024x1024_S1024x9_S1024x9_1_0_0_1_n_n.rhsIdx i q 0).val = (q ⟨0, by decide⟩).val :=
  dot_S1024x1024_S1024x9_S1024x9_1_0_0_1_n_n.rhsIdx_val_of_single rfl i q
theorem rhs_att_1 (i : S1024x9.Idx) (q : dot_S1024x1024_S1024x9_S1024x9_1_0_0_1_n_n.contr.Idx) :
    (dot_S1024x1024_S1024x9_S1024x9_1_0_0_1_n_n.rhsIdx i q 1).val = (i 1).val := by
  unfold DotDims.rhsIdx
  rw [dif_neg (show ¬(1 : Fin S1024x9.rank) ∈ dot_S1024x1024_S1024x9_S1024x9_1_0_0_1_n_n.rhsBatch by decide),
    dif_pos (show (1 : Fin S1024x9.rank) ∈ dot_S1024x1024_S1024x9_S1024x9_1_0_0_1_n_n.rhsNonContracting by decide)]
  rfl

/-- The weights times the extended features, onto zero: at (i, c) the sum over all nodes j of the weight of (i, j)
    times column c of row j. -/
theorem attProd_apply (vals : FVec Ideal S1024x1024 .f32) (aug : FVec Ideal S1024x9 .f32) (i : Fin 1024) (c : Fin 9) :
    matmul (F := Ideal) dot_S1024x1024_S1024x9_S1024x9_1_0_0_1_n_n none vals aug (constant S1024x9 .f32 0x00000000#32) (ix2 i c)
      = ∑ j : Fin 1024, vals (ix2 i j) * aug (ix2 j c) := by
  simp only [matmul]
  rw [Ideal.matmul_constant_zero_apply,
    ← Equiv.sum_comp (contrEquiv1 dot_S1024x1024_S1024x9_S1024x9_1_0_0_1_n_n 1024 rfl rfl).symm]
  refine Finset.sum_congr rfl fun k _ => ?_
  have hk := contrEquiv1_symm_val dot_S1024x1024_S1024x9_S1024x9_1_0_0_1_n_n 1024 rfl rfl k
  have el : dot_S1024x1024_S1024x9_S1024x9_1_0_0_1_n_n.lhsIdx (ix2 i c)
      ((contrEquiv1 dot_S1024x1024_S1024x9_S1024x9_1_0_0_1_n_n 1024 rfl rfl).symm k) = ix2 i k := funext fun a => Fin.ext (by
    match a with
    | ⟨0, _⟩ => exact lhs_att_0 _ _
    | ⟨1, _⟩ => exact (lhs_att_1 _ _).trans hk)
  have er : dot_S1024x1024_S1024x9_S1024x9_1_0_0_1_n_n.rhsIdx (ix2 i c)
      ((contrEquiv1 dot_S1024x1024_S1024x9_S1024x9_1_0_0_1_n_n 1024 rfl rfl).symm k) = ix2 k c := funext fun a => Fin.ext (by
    match a with
    | ⟨0, _⟩ => exact (rhs_att_0 _ _).trans hk
    | ⟨1, _⟩ => exact rhs_att_1 _ _)
  rw [el, er]

/-- The normalised aggregate over any extended features: columns 0..7 of the product divided by column 8. -/
theorem kAttend_aug_apply (vals : FVec Ideal S1024x1024 .f32) (aug : FVec Ideal S1024x9 .f32) (i : Fin 1024) (d : Fin 8) :
    kAttend (F := Ideal) vals aug (ix2 i d)
      = Ideal.div (∑ j : Fin 1024, vals (ix2 i j) * aug (ix2 j (⟨d.val, by omega⟩ : Fin 9)))
          (∑ j : Fin 1024, vals (ix2 i j) * aug (ix2 j (⟨8, by omega⟩ : Fin 9))) := by
  unfold kAttend
  rw [divf_apply]
  refine congrArg₂ Ideal.div ?_ ?_
  · refine (slice2_axis1_apply 0 _ slices_S1024x9_o0_0_S1024x8 i d (⟨d.val, by omega⟩ : Fin 9) (Nat.zero_add _).symm).trans ?_
    exact attProd_apply vals aug i _
  · refine (broadcastTo_a1_ab_apply _ broadcasts_S1024x1_S1024x8 i d).trans ?_
    refine (slice2_axis1_apply 8 _ slices_S1024x9_o0_8_S1024x1 i (0 : Fin 1) (⟨8, by omega⟩ : Fin 9) (by simp)).trans ?_
    exact attProd_apply vals aug i _

/-- The word of 1.0 spread as a column reads 1 everywhere. -/
theorem ones_apply (j : Fin 1024) (u : Fin 1) : Gen.k0_pay5 (F := Ideal) (ix2 j u) = 1 :=
  Cert.Gat.one_word

/-- With the features extended by the column of ones: the aggregate over the total weight. -/
theorem kAttend_apply (vals : FVec Ideal S1024x1024 .f32) (wh : FVec Ideal S1024x8 .f32) (i : Fin 1024) (d : Fin 8) :
    kAttend (F := Ideal) vals (kAug wh (Gen.k0_pay5 (F := Ideal))) (ix2 i d)
      = Ideal.div (∑ j : Fin 1024, vals (ix2 i j) * wh (ix2 j d)) (∑ j : Fin 1024, vals (ix2 i j)) := by
  rw [kAttend_aug_apply]
  refine congrArg₂ Ideal.div (Finset.sum_congr rfl fun j _ => ?_) (Finset.sum_congr rfl fun j _ => ?_)
  · rw [kAug_feat]
  · rw [kAug_last, ones_apply, mul_one]

/-! ## The exponential linear unit, and the head -/

/-- The body's unit at an element is the specification's. -/
theorem kElu_apply (r : FVec Ideal S1024x8 .f32) (i : Fin 1024) (d : Fin 8) :
    kElu (F := Ideal) r (ix2 i d) = Cert.Gat.elu (r (ix2 i d)) := by
  unfold kElu
  simp only [select_apply, cmpf_apply, subf_apply, exp_apply, minimumf_apply, broadcast_apply]
  show Scalar.select (Ideal.cmp .ogt _ (Ideal.ofBits .f32 0x00000000#32)) _
      (Ideal.exp (min _ (Ideal.ofBits .f32 0x00000000#32)) - Ideal.ofBits .f32 0x3F800000#32) = _
  rw [Cert.Gat.zero_word, Cert.Gat.one_word]
  exact Cert.Gat.elu_of_min _

end Width8

open Width8 in
/-- One first-layer head of the body is the specification's head over the projected features. -/
theorem kHead_apply (mask : FVec Ideal S1024x1024 .f32) (wh : FVec Ideal S1024x8 .f32) (ar ac : FVec Ideal S1x8 .f32)
    (i : Fin 1024) (d : Fin 8) :
    kHead (F := Ideal) mask wh ar ac (Gen.k0_pay5 (F := Ideal)) (ix2 i d)
      = Cert.Gat.headOf (fun i j => mask (ix2 i j)) (fun d => ar (ix2 0 d)) (fun d => ac (ix2 0 d))
          (fun i d => wh (ix2 i d)) i d := by
  unfold kHead Cert.Gat.headOf
  rw [kElu_apply, kAttend_apply]
  refine congrArg Cert.Gat.elu (congrArg₂ Ideal.div (Finset.sum_congr rfl fun j _ => ?_) (Finset.sum_congr rfl fun j _ => ?_))
  · rw [kScore_apply]
  · rw [kScore_apply]

end Cert.KernelIdeal.Hand

end
-- ==== Proof.KMath2.lean ====
/-
  The last layer's three chains of the kernel body, read entry by entry at the extended reals, are the
  specification's attention head over already projected features (width 2).

  The pair weights: the score of the ordered pair (i, j) is the source term of row i, a sum over the two features of
  the feature times the source attention row, plus the destination term of column j, the destination attention row
  against node j's two features; the body keeps the first as a column and the second as a row and spreads both over
  the square. Through the leaky rectifier, exp of minus that, times the mask entry, this is the specification's
  weight. The normalised aggregate: the weights times the features with a column of ones appended give, in the first
  two columns, the weighted sums of the features and, in the third, the total weight (a product with one is the
  factor itself); the quotient is the specification's. The exponential linear unit is the body's select on "r > 0"
  between r and exp (min r 0) - 1.

  Each contraction is read at an index as a sum over its one contracted axis, re-indexed by that axis's coordinate;
  the operand indices' coordinates are stated one lemma per axis.
-/
import proofs.«174455_g86844238725802_fold_wed_m_134_3_alg».proof.Proof.KChains
import proofs.«174455_g86844238725802_fold_wed_m_134_3_alg».proof.Proof.Spec
import Idealize.ShloMosaic.Lib.ValueIdx
import Idealize.ShloMosaic.Lib.ValueLayout
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

/-! ## Three layout operations read at coordinates -/

section Layout
variable {α : Type}

/-- A vector `[a]` cast to the column `[a, 1]` reads, at `(i, u)`, the vector at `i`. -/
private theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
private theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The row sum over the two features -/

/-- The sum over the axis of extent 2, at row `i`, is the sum of the row's two entries. -/
theorem rowSum2_apply (v : FVec Ideal S1024x2 .f32) (i : Fin 1024) :
    multiReduction (F := Ideal) .add [1] S1024 v 0x00000000#32 reduces_S1024x2_S1024 (.inl rfl) rfl (ix1 i)
      = ∑ k : Fin 2, v (ix2 i k) := by
  refine (Ideal.multiReduction_add_single v 0x00000000#32 reduces_S1024x2_S1024 (.inl rfl) rfl (ix1 i)).trans ?_
  refine Finset.sum_congr rfl fun k _ => congrArg v ?_
  funext ax
  match ax with
  | ⟨0, _⟩ => rfl
  | ⟨1, _⟩ => rfl

/-! ## The destination term: the attention row of two against every node's two features -/

/-- On the row operand's free axis the contraction reads the result's first coordinate … -/
theorem colDot2_lhs_0 (i : S1x1024.Idx) (q : dot_S1x2_S1024x2_S1x1024_1_1_0_0_n_n.contr.Idx) :
    (dot_S1x2_S1024x2_S1x1024_1_1_0_0_n_n.lhsIdx i q 0).val = (i 0).val := by
  unfold DotDims.lhsIdx
  rw [dif_neg (show ¬(0 : Fin S1x2.rank) ∈ dot_S1x2_S1024x2_S1x1024_1_1_0_0_n_n.lhsBatch by decide),
    dif_pos (show (0 : Fin S1x2.rank) ∈ dot_S1x2_S1024x2_S1x1024_1_1_0_0_n_n.lhsNonContracting by decide)]
  rfl

/-- … and on its contracted axis the contraction's coordinate. -/
theorem colDot2_lhs_1 (i : S1x1024.Idx) (q : dot_S1x2_S1024x2_S1x1024_1_1_0_0_n_n.contr.Idx) :
    (dot_S1x2_S1024x2_S1x1024_1_1_0_0_n_n.lhsIdx i q 1).val = (q ⟨0, by decide⟩).val :=
  dot_S1x2_S1024x2_S1x1024_1_1_0_0_n_n.lhsIdx_val_of_single rfl i q

/-- On the feature operand's free axis the contraction reads the result's second coordinate … -/
theorem colDot2_rhs_0 (i : S1x1024.Idx) (q : dot_S1x2_S1024x2_S1x1024_1_1_0_0_n_n.contr.Idx) :
    (dot_S1x2_S1024x2_S1x1024_1_1_0_0_n_n.rhsIdx i q 0).val = (i 1).val := by
  unfold DotDims.rhsIdx
  rw [dif_neg (show ¬(0 : Fin S1024x2.rank) ∈ dot_S1x2_S1024x2_S1x1024_1_1_0_0_n_n.rhsBatch by decide),
    dif_pos (show (0 : Fin S1024x2.rank) ∈ dot_S1x2_S1024x2_S1x1024_1_1_0_0_n_n.rhsNonContracting by decide)]
  rfl

/-- … and on its contracted axis the contraction's coordinate. -/
theorem colDot2_rhs_1 (i : S1x1024.Idx) (q : dot_S1x2_S1024x2_S1x1024_1_1_0_0_n_n.contr.Idx) :
    (dot_S1x2_S1024x2_S1x1024_1_1_0_0_n_n.rhsIdx i q 1).val = (q ⟨0, by decide⟩).val :=
  dot_S1x2_S1024x2_S1x1024_1_1_0_0_n_n.rhsIdx_val_of_single rfl i q

/-- The product of the row `ac` with the features, both contracted on their second axis, onto zero: at column `j`
    the sum over the two features of `ac` times node `j`'s feature. -/
theorem colDot2_apply (ac : FVec Ideal S1x2 .f32) (wh : FVec Ideal S1024x2 .f32) (u : Fin 1) (j : Fin 1024) :
    matmul dot_S1x2_S1024x2_S1x1024_1_1_0_0_n_n none ac wh (constant (F := Ideal) S1x1024 .f32 0x00000000#32) (ix2 u j)
      = ∑ k : Fin 2, ac (ix2 u k) * wh (ix2 j k) := by
  simp only [matmul]
  rw [Ideal.matmul_constant_zero_apply,
    ← Equiv.sum_comp (contrEquiv1 dot_S1x2_S1024x2_S1x1024_1_1_0_0_n_n 2 rfl rfl).symm]
  refine Finset.sum_congr rfl fun k _ => ?_
  have hk := contrEquiv1_symm_val dot_S1x2_S1024x2_S1x1024_1_1_0_0_n_n 2 rfl rfl k
  have el : dot_S1x2_S1024x2_S1x1024_1_1_0_0_n_n.lhsIdx (ix2 u j)
      ((contrEquiv1 dot_S1x2_S1024x2_S1x1024_1_1_0_0_n_n 2 rfl rfl).symm k) = ix2 u k := funext fun a => Fin.ext (by
    match a with
    | ⟨0, _⟩ => exact colDot2_lhs_0 _ _
    | ⟨1, _⟩ => exact (colDot2_lhs_1 _ _).trans hk)
  have er : dot_S1x2_S1024x2_S1x1024_1_1_0_0_n_n.rhsIdx (ix2 u j)
      ((contrEquiv1 dot_S1x2_S1024x2_S1x1024_1_1_0_0_n_n 2 rfl rfl).symm k) = ix2 j k := funext fun a => Fin.ext (by
    match a with
    | ⟨0, _⟩ => exact colDot2_rhs_0 _ _
    | ⟨1, _⟩ => exact (colDot2_rhs_1 _ _).trans hk)
  rw [el, er]

/-! ## The pair weights -/

/-- The exponential at an index is the exponential of the entry. -/
private theorem exp_apply {s : Shape} {φ : FTy} (x : FVec Ideal s φ) (i : s.Idx) : exp x i = Ideal.exp (x i) := rfl

/-- The score of the ordered pair `(i, j)` before the rectifier: the source term of row `i` (the row sum of the
    features times the source attention row, kept as a column and spread over the columns) plus the destination term
    of column `j` (the destination attention row against node `j`'s features, spread over the rows). -/
theorem pairScore2_apply (w2 : FVec Ideal S1024x2 .f32) (ar ac : FVec Ideal S1x2 .f32) (i j : Fin 1024) :
    addf
        (broadcastTo S1024x1024
          (shapeCast S1024x1
            (multiReduction (F := Ideal) .add [1] S1024 (mulf w2 (broadcastTo S1024x2 ar broadcasts_S1x2_S1024x2)) 0x00000000#32
              reduces_S1024x2_S1024 (.inl rfl) rfl)
            shapeCasts_S1024_S1024x1)
          broadcasts_S1024x1_S1024x1024)
        (broadcastTo S1024x1024
          (matmul dot_S1x2_S1024x2_S1x1024_1_1_0_0_n_n none ac w2 (constant (F := Ideal) S1x1024 .f32 0x00000000#32))
          broadcasts_S1x1024_S1024x1024)
        (ix2 i j)
      = (∑ d : Fin 2, w2 (ix2 i d) * ar (ix2 (0 : Fin 1) d)) + ∑ d : Fin 2, ac (ix2 (0 : Fin 1) d) * w2 (ix2 j d) := by
  rw [addf_apply, broadcastTo_a1_ab_apply, shapeCast_a_a1_apply, rowSum2_apply, broadcastTo_1b_ab_apply, colDot2_apply]
  simp only [mulf_apply, broadcastTo_1b_ab_apply]

/-- One pair's weight from its score `e` and mask entry `m`, as the body spells it: zero minus the select on
    "e ≥ 0" between `e` and the slope times `e`, through the exponential, times `m`. -/
private theorem weight_of_score (e m : Ideal .f32) :
    Ideal.exp ((Scalar.ofBits .f32 0x00000000#32 : Ideal .f32)
        - Scalar.select (FloatOps.cmpf .oge e (Scalar.ofBits .f32 0x00000000#32 : Ideal .f32)) e
            ((Scalar.ofBits .f32 0x3E4CCCCD#32 : Ideal .f32) * e)) * m
      = Ideal.exp (-(Cert.Gat.leaky e)) * m := by
  have hz : (Scalar.ofBits .f32 0x00000000#32 : Ideal .f32) = (0 : EReal) := Cert.Gat.zero_word
  have hs : (Scalar.ofBits .f32 0x3E4CCCCD#32 : Ideal .f32) = Cert.Gat.slope := rfl
  rw [hz, hs, Ideal.cmpf_def, Cert.Gat.leaky_of_select, zero_sub]

/-- The last layer's pair weights are the specification's, from the projected features. -/
theorem kScore2_apply (mask : FVec Ideal S1024x1024 .f32) (w2 : FVec Ideal S1024x2 .f32) (ar ac : FVec Ideal S1x2 .f32)
    (i j : Fin 1024) :
    kScore2 (F := Ideal) mask w2 ar ac (ix2 i j)
      = Cert.Gat.weightOf (fun i j => mask (ix2 i j)) (fun d => ar (ix2 (0 : Fin 1) d)) (fun d => ac (ix2 (0 : Fin 1) d))
          (fun i d => w2 (ix2 i d)) i j := by
  unfold kScore2 Cert.Gat.weightOf
  simp only [mulf_apply, exp_apply, subf_apply, select_apply, cmpf_apply, broadcast_apply]
  rw [pairScore2_apply]
  exact weight_of_score _ _

/-! ## The features with the column of ones appended -/

/-- A column below 2 of the augmented features is that column of the features … -/
theorem kAug2_left (w2 : FVec Ideal S1024x2 .f32) (ones : FVec Ideal S1024x1 .f32) (j : Fin 1024) (d : Fin 2) :
    kAug2 (F := Ideal) w2 ones (ix2 j (⟨d.val, by omega⟩ : Fin 3)) = w2 (ix2 j d) := by
  unfold kAug2
  refine concatenate_pair_apply_left (1 : Fin S1024x3.rank) w2 ones concatenates_S1024x2_S1024x1_S1024x3_d1 _ rfl (ix2 j d)
    fun b => ?_
  match b with
  | ⟨0, _⟩ => rfl
  | ⟨1, _⟩ => rfl

/-- … and column 2 is the appended column. -/
theorem kAug2_right (w2 : FVec Ideal S1024x2 .f32) (ones : FVec Ideal S1024x1 .f32) (j : Fin 1024) :
    kAug2 (F := Ideal) w2 ones (ix2 j (2 : Fin 3)) = ones (ix2 j (0 : Fin 1)) := by
  unfold kAug2
  refine concatenate_pair_apply_right (1 : Fin S1024x3.rank) w2 ones concatenates_S1024x2_S1024x1_S1024x3_d1 _ rfl rfl
    (ix2 j (0 : Fin 1)) (fun b hb => ?_) rfl
  match b with
  | ⟨0, _⟩ => rfl
  | ⟨1, _⟩ => exact absurd rfl hb

/-- The appended column is the constant one. -/
private theorem ones_apply (j : Fin 1024) (u : Fin 1) : k0_pay5 (F := Ideal) (ix2 j u) = (1 : EReal) := by
  unfold k0_pay5
  exact Cert.Gat.one_word

/-! ## The normalised aggregate -/

/-- On the weights' free axis the contraction reads the result's row … -/
theorem attendDot2_lhs_0 (i : S1024x3.Idx) (q : dot_S1024x1024_S1024x3_S1024x3_1_0_0_1_n_n.contr.Idx) :
    (dot_S1024x1024_S1024x3_S1024x3_1_0_0_1_n_n.lhsIdx i q 0).val = (i 0).val := by
  unfold DotDims.lhsIdx
  rw [dif_neg (show ¬(0 : Fin S1024x1024.rank) ∈ dot_S1024x1024_S1024x3_S1024x3_1_0_0_1_n_n.lhsBatch by decide),
    dif_pos (show (0 : Fin S1024x1024.rank) ∈ dot_S1024x1024_S1024x3_S1024x3_1_0_0_1_n_n.lhsNonContracting by decide)]
  rfl

/-- … and on their contracted axis the contraction's coordinate. -/
theorem attendDot2_lhs_1 (i : S1024x3.Idx) (q : dot_S1024x1024_S1024x3_S1024x3_1_0_0_1_n_n.contr.Idx) :
    (dot_S1024x1024_S1024x3_S1024x3_1_0_0_1_n_n.lhsIdx i q 1).val = (q ⟨0, by decide⟩).val :=
  dot_S1024x1024_S1024x3_S1024x3_1_0_0_1_n_n.lhsIdx_val_of_single rfl i q

/-- On the augmented features' contracted axis the contraction reads its coordinate … -/
theorem attendDot2_rhs_0 (i : S1024x3.Idx) (q : dot_S1024x1024_S1024x3_S1024x3_1_0_0_1_n_n.contr.Idx) :
    (dot_S1024x1024_S1024x3_S1024x3_1_0_0_1_n_n.rhsIdx i q 0).val = (q ⟨0, by decide⟩).val :=
  dot_S1024x1024_S1024x3_S1024x3_1_0_0_1_n_n.rhsIdx_val_of_single rfl i q

/-- … and on their free axis the result's column. -/
theorem attendDot2_rhs_1 (i : S1024x3.Idx) (q : dot_S1024x1024_S1024x3_S1024x3_1_0_0_1_n_n.contr.Idx) :
    (dot_S1024x1024_S1024x3_S1024x3_1_0_0_1_n_n.rhsIdx i q 1).val = (i 1).val := by
  unfold DotDims.rhsIdx
  rw [dif_neg (show ¬(1 : Fin S1024x3.rank) ∈ dot_S1024x1024_S1024x3_S1024x3_1_0_0_1_n_n.rhsBatch by decide),
    dif_pos (show (1 : Fin S1024x3.rank) ∈ dot_S1024x1024_S1024x3_S1024x3_1_0_0_1_n_n.rhsNonContracting by decide)]
  rfl

/-- The weights times the augmented features onto zero: at `(i, c)` the sum over all nodes `j` of the weight of
    `(i, j)` times column `c` of node `j`'s augmented features. -/
theorem attendDot2_apply (vals : FVec Ideal S1024x1024 .f32) (aug : FVec Ideal S1024x3 .f32) (i : Fin 1024) (c : Fin 3) :
    matmul dot_S1024x1024_S1024x3_S1024x3_1_0_0_1_n_n none vals aug (constant (F := Ideal) S1024x3 .f32 0x00000000#32) (ix2 i c)
      = ∑ j : Fin 1024, vals (ix2 i j) * aug (ix2 j c) := by
  simp only [matmul]
  rw [Ideal.matmul_constant_zero_apply,
    ← Equiv.sum_comp (contrEquiv1 dot_S1024x1024_S1024x3_S1024x3_1_0_0_1_n_n 1024 rfl rfl).symm]
  refine Finset.sum_congr rfl fun k _ => ?_
  have hk := contrEquiv1_symm_val dot_S1024x1024_S1024x3_S1024x3_1_0_0_1_n_n 1024 rfl rfl k
  have el : dot_S1024x1024_S1024x3_S1024x3_1_0_0_1_n_n.lhsIdx (ix2 i c)
      ((contrEquiv1 dot_S1024x1024_S1024x3_S1024x3_1_0_0_1_n_n 1024 rfl rfl).symm k) = ix2 i k := funext fun a => Fin.ext (by
    match a with
    | ⟨0, _⟩ => exact attendDot2_lhs_0 _ _
    | ⟨1, _⟩ => exact (attendDot2_lhs_1 _ _).trans hk)
  have er : dot_S1024x1024_S1024x3_S1024x3_1_0_0_1_n_n.rhsIdx (ix2 i c)
      ((contrEquiv1 dot_S1024x1024_S1024x3_S1024x3_1_0_0_1_n_n 1024 rfl rfl).symm k) = ix2 k c := funext fun a => Fin.ext (by
    match a with
    | ⟨0, _⟩ => exact (attendDot2_rhs_0 _ _).trans hk
    | ⟨1, _⟩ => exact attendDot2_rhs_1 _ _)
  rw [el, er]

/-- The normalised aggregate: the weighted sum of the features over the total weight. -/
theorem kAttend2_apply (vals : FVec Ideal S1024x1024 .f32) (w2 : FVec Ideal S1024x2 .f32) (i : Fin 1024) (d : Fin 2) :
    kAttend2 (F := Ideal) vals (kAug2 w2 (k0_pay5 (F := Ideal))) (ix2 i d)
      = Ideal.div (∑ j : Fin 1024, vals (ix2 i j) * w2 (ix2 j d)) (∑ j : Fin 1024, vals (ix2 i j)) := by
  unfold kAttend2
  simp only [divf_apply]
  rw [broadcastTo_a1_ab_apply,
    slice2_axis1_apply 0 _ slices_S1024x3_o0_0_S1024x2 i d (⟨d.val, by omega⟩ : Fin 3) (Nat.zero_add _).symm,
    slice2_axis1_apply 2 _ slices_S1024x3_o0_2_S1024x1 i (0 : Fin 1) (2 : Fin 3) rfl,
    attendDot2_apply, attendDot2_apply]
  congr 1
  · exact Finset.sum_congr rfl fun j _ => by rw [kAug2_left]
  · exact Finset.sum_congr rfl fun j _ => by rw [kAug2_right, ones_apply, mul_one]

/-! ## The exponential linear unit, and the last layer -/

/-- One entry through the unit as the body spells it. -/
private theorem elu_of_body (r : Ideal .f32) :
    Scalar.select (FloatOps.cmpf .ogt r (Scalar.ofBits .f32 0x00000000#32 : Ideal .f32)) r
        (Ideal.exp (min r (Scalar.ofBits .f32 0x00000000#32 : Ideal .f32)) - (Scalar.ofBits .f32 0x3F800000#32 : Ideal .f32))
      = Cert.Gat.elu r := by
  have hz : (Scalar.ofBits .f32 0x00000000#32 : Ideal .f32) = (0 : EReal) := Cert.Gat.zero_word
  have h1 : (Scalar.ofBits .f32 0x3F800000#32 : Ideal .f32) = (1 : EReal) := Cert.Gat.one_word
  rw [hz, h1, Ideal.cmpf_def]
  exact Cert.Gat.elu_of_min r

/-- The body's unit at an entry is the exponential linear unit of the entry. -/
theorem kElu2_apply (r : FVec Ideal S1024x2 .f32) (i : Fin 1024) (d : Fin 2) :
    kElu2 (F := Ideal) r (ix2 i d) = Cert.Gat.elu (r (ix2 i d)) := by
  unfold kElu2
  simp only [select_apply, cmpf_apply, broadcast_apply, subf_apply, exp_apply, minimumf_apply]
  exact elu_of_body _

/-- The last layer's three chains are the specification's head from the projected features. -/
theorem kLast_apply (mask : FVec Ideal S1024x1024 .f32) (w2 : FVec Ideal S1024x2 .f32) (ar ac : FVec Ideal S1x2 .f32)
    (i : Fin 1024) (d : Fin 2) :
    kElu2 (F := Ideal) (kAttend2 (kScore2 mask w2 ar ac) (kAug2 w2 (Gen.k0_pay5 (F := Ideal)))) (ix2 i d)
      = Cert.Gat.headOf (fun i j => mask (ix2 i j)) (fun d => ar (ix2 0 d)) (fun d => ac (ix2 0 d))
          (fun i d => w2 (ix2 i d)) i d := by
  rw [kElu2_apply, kAttend2_apply]
  unfold Cert.Gat.headOf
  simp only [kScore2_apply]

end Cert.KernelIdeal.Hand

end
-- ==== Proof.KReads.lean ====
/-
  The small reads of the kernel body at an index, over the extended reals: the adjacency mask, the projection of
  the node features through the four heads' weights side by side, the column bands and single rows cut out of
  them, the four heads laid side by side, and the last layer's projection. Each is one equation: the named
  operation, read at a row and a column, is the entry (or the sum over the contracted coordinate) it stands for.
-/
import proofs.«174455_g86844238725802_fold_wed_m_134_3_alg».proof.Proof.KChains
import proofs.«174455_g86844238725802_fold_wed_m_134_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Idealize.ShloMosaic Idealize.SL.Sem Cert.KernelIdeal Cert.KernelIdeal.Gen Idealize.ShloMosaic.ValueIdx

/-! ## Bands of columns of the projected features -/

/-- Columns 0 to 7 of a row. -/
theorem kSlice0_apply (P : FVec Ideal S1024x32 .f32) (i : Fin 1024) (d : Fin 8) :
    extractStridedSlice S1024x8 ![0, 0] P slices_S1024x32_o0_0_S1024x8 (ix2 i d) = P (ix2 i ⟨d.val, by omega⟩) := by
  refine extractStridedSlice_apply _ P _ (ix2 i d) (ix2 i ⟨d.val, by omega⟩) fun a => ?_
  match a with
  | ⟨0, _⟩ => show i.val = 0 + i.val; omega
  | ⟨1, _⟩ => show d.val = 0 + d.val; omega

/-- Columns 8 to 15 of a row. -/
theorem kSlice8_apply (P : FVec Ideal S1024x32 .f32) (i : Fin 1024) (d : Fin 8) :
    extractStridedSlice S1024x8 ![0, 8] P slices_S1024x32_o0_8_S1024x8 (ix2 i d) = P (ix2 i ⟨8 + d.val, by omega⟩) := by
  refine extractStridedSlice_apply _ P _ (ix2 i d) (ix2 i ⟨8 + d.val, by omega⟩) fun a => ?_
  match a with
  | ⟨0, _⟩ => show i.val = 0 + i.val; omega
  | ⟨1, _⟩ => show 8 + d.val = 8 + d.val; rfl

/-- Columns 16 to 23 of a row. -/
theorem kSlice16_apply (P : FVec Ideal S1024x32 .f32) (i : Fin 1024) (d : Fin 8) :
    extractStridedSlice S1024x8 ![0, 16] P slices_S1024x32_o0_16_S1024x8 (ix2 i d) = P (ix2 i ⟨16 + d.val, by omega⟩) := by
  refine extractStridedSlice_apply _ P _ (ix2 i d) (ix2 i ⟨16 + d.val, by omega⟩) fun a => ?_
  match a with
  | ⟨0, _⟩ => show i.val = 0 + i.val; omega
  | ⟨1, _⟩ => show 16 + d.val = 16 + d.val; rfl

/-- Columns 24 to 31 of a row. -/
theorem kSlice24_apply (P : FVec Ideal S1024x32 .f32) (i : Fin 1024) (d : Fin 8) :
    extractStridedSlice S1024x8 ![0, 24] P slices_S1024x32_o0_24_S1024x8 (ix2 i d) = P (ix2 i ⟨24 + d.val, by omega⟩) := by
  refine extractStridedSlice_apply _ P _ (ix2 i d) (ix2 i ⟨24 + d.val, by omega⟩) fun a => ?_
  match a with
  | ⟨0, _⟩ => show i.val = 0 + i.val; omega
  | ⟨1, _⟩ => show 24 + d.val = 24 + d.val; rfl

/-! ## Single rows of the table of attention rows -/

/-- The table is loaded as it is: a shape cast to the same shape changes nothing. -/
theorem kAcat_apply (acat : FVec Ideal S16x8 .f32) : Gen.k0_pay4 (F := Ideal) acat = acat := by
  unfold Gen.k0_pay4
  exact shapeCast_self acat _

/-- Row 0 of the table of attention rows. -/
theorem kRow0_apply (A : FVec Ideal S16x8 .f32) (d : Fin 8) :
    extractStridedSlice S1x8 ![0, 0] A slices_S16x8_o0_0_S1x8 (ix2 0 d) = A (ix2 0 d) := by
  refine extractStridedSlice_apply _ A _ (ix2 0 d) (ix2 0 d) fun a => ?_
  match a with
  | ⟨0, _⟩ => rfl
  | ⟨1, _⟩ => show d.val = 0 + d.val; omega

/-- Row 1 of the table of attention rows. -/
theorem kRow1_apply (A : FVec Ideal S16x8 .f32) (d : Fin 8) :
    extractStridedSlice S1x8 ![1, 0] A slices_S16x8_o1_0_S1x8 (ix2 0 d) = A (ix2 1 d) := by
  refine extractStridedSlice_apply _ A _ (ix2 0 d) (ix2 1 d) fun a => ?_
  match a with
  | ⟨0, _⟩ => rfl
  | ⟨1, _⟩ => show d.val = 0 + d.val; omega

/-- Row 2 of the table of attention rows. -/
theorem kRow2_apply (A : FVec Ideal S16x8 .f32) (d : Fin 8) :
    extractStridedSlice S1x8 ![2, 0] A slices_S16x8_o2_0_S1x8 (ix2 0 d) = A (ix2 2 d) := by
  refine extractStridedSlice_apply _ A _ (ix2 0 d) (ix2 2 d) fun a => ?_
  match a with
  | ⟨0, _⟩ => rfl
  | ⟨1, _⟩ => show d.val = 0 + d.val; omega

/-- Row 3 of the table of attention rows. -/
theorem kRow3_apply (A : FVec Ideal S16x8 .f32) (d : Fin 8) :
    extractStridedSlice S1x8 ![3, 0] A slices_S16x8_o3_0_S1x8 (ix2 0 d) = A (ix2 3 d) := by
  refine extractStridedSlice_apply _ A _ (ix2 0 d) (ix2 3 d) fun a => ?_
  match a with
  | ⟨0, _⟩ => rfl
  | ⟨1, _⟩ => show d.val = 0 + d.val; omega

/-- Row 4 of the table of attention rows. -/
theorem kRow4_apply (A : FVec Ideal S16x8 .f32) (d : Fin 8) :
    extractStridedSlice S1x8 ![4, 0] A slices_S16x8_o4_0_S1x8 (ix2 0 d) = A (ix2 4 d) := by
  refine extractStridedSlice_apply _ A _ (ix2 0 d) (ix2 4 d) fun a => ?_
  match a with
  | ⟨0, _⟩ => rfl
  | ⟨1, _⟩ => show d.val = 0 + d.val; omega

/-- Row 5 of the table of attention rows. -/
theorem kRow5_apply (A : FVec Ideal S16x8 .f32) (d : Fin 8) :
    extractStridedSlice S1x8 ![5, 0] A slices_S16x8_o5_0_S1x8 (ix2 0 d) = A (ix2 5 d) := by
  refine extractStridedSlice_apply _ A _ (ix2 0 d) (ix2 5 d) fun a => ?_
  match a with
  | ⟨0, _⟩ => rfl
  | ⟨1, _⟩ => show d.val = 0 + d.val; omega

/-- Row 6 of the table of attention rows. -/
theorem kRow6_apply (A : FVec Ideal S16x8 .f32) (d : Fin 8) :
    extractStridedSlice S1x8 ![6, 0] A slices_S16x8_o6_0_S1x8 (ix2 0 d) = A (ix2 6 d) := by
  refine extractStridedSlice_apply _ A _ (ix2 0 d) (ix2 6 d) fun a => ?_
  match a with
  | ⟨0, _⟩ => rfl
  | ⟨1, _⟩ => show d.val = 0 + d.val; omega

/-- Row 7 of the table of attention rows. -/
theorem kRow7_apply (A : FVec Ideal S16x8 .f32) (d : Fin 8) :
    extractStridedSlice S1x8 ![7, 0] A slices_S16x8_o7_0_S1x8 (ix2 0 d) = A (ix2 7 d) := by
  refine extractStridedSlice_apply _ A _ (ix2 0 d) (ix2 7 d) fun a => ?_
  match a with
  | ⟨0, _⟩ => rfl
  | ⟨1, _⟩ => show d.val = 0 + d.val; omega

/-- The first two entries of row 8 of the table of attention rows. -/
theorem kRow8_apply (A : FVec Ideal S16x8 .f32) (d : Fin 2) :
    extractStridedSlice S1x2 ![8, 0] A slices_S16x8_o8_0_S1x2 (ix2 0 d) = A (ix2 8 ⟨d.val, by omega⟩) := by
  refine extractStridedSlice_apply _ A _ (ix2 0 d) (ix2 8 ⟨d.val, by omega⟩) fun a => ?_
  match a with
  | ⟨0, _⟩ => rfl
  | ⟨1, _⟩ => show d.val = 0 + d.val; omega

/-- The first two entries of row 9 of the table of attention rows. -/
theorem kRow9_apply (A : FVec Ideal S16x8 .f32) (d : Fin 2) :
    extractStridedSlice S1x2 ![9, 0] A slices_S16x8_o9_0_S1x2 (ix2 0 d) = A (ix2 9 ⟨d.val, by omega⟩) := by
  refine extractStridedSlice_apply _ A _ (ix2 0 d) (ix2 9 ⟨d.val, by omega⟩) fun a => ?_
  match a with
  | ⟨0, _⟩ => rfl
  | ⟨1, _⟩ => show d.val = 0 + d.val; omega

/-! ## The adjacency mask -/

/-- The signed value of a one-bit word widened to 32 bits is the bit. -/
theorem toInt_setWidth_ofBool (b : Bool) : ((BitVec.ofBool b).setWidth 32).toInt = if b then 1 else 0 := by
  cases b <;> rfl

/-- The mask is 1 where the adjacency entry is not zero, and 0 where it is. -/
theorem kMask_apply (adj : FVec Ideal S1024x1024 .f32) (i j : Fin 1024) :
    Gen.k0_pay2 (F := Ideal) adj (ix2 i j) = Cert.Gat.maskOf (adj (ix2 i j)) := by
  unfold Gen.k0_pay2
  rw [shapeCast_self adj]
  show (((((BitVec.ofBool (decide (adj (ix2 i j) ≠ Ideal.ofBits .f32 0x00000000#32))).setWidth 32).toInt : ℝ)) : EReal) = _
  rw [toInt_setWidth_ofBool, Cert.Gat.zero_word]
  unfold Cert.Gat.maskOf
  by_cases h : adj (ix2 i j) = 0 <;> simp [h]

/-! ## The four heads side by side -/

/-- Column c of the four heads laid side by side is feature c % 8 of head c / 8. -/
theorem kCat_apply (h0 h1 h2 h3 : FVec Ideal S1024x8 .f32) (i : Fin 1024) (c : Fin 32) :
    concatenate S1024x32 1 [⟨S1024x8, h0⟩, ⟨S1024x8, h1⟩, ⟨S1024x8, h2⟩, ⟨S1024x8, h3⟩]
        concatenates_S1024x8_S1024x8_S1024x8_S1024x8_S1024x32_d1 (ix2 i c)
      = (![h0, h1, h2, h3] ⟨c.val / 8, by omega⟩) (ix2 i ⟨c.val % 8, by omega⟩) := by
  refine concatenate_ofFn_apply (t := S1024x32) (s₁ := S1024x8) 1 ![h0, h1, h2, h3]
    concatenates_S1024x8_S1024x8_S1024x8_S1024x8_S1024x32_d1 rfl 8 rfl (ix2 i c) ⟨c.val / 8, by omega⟩ rfl
    (ix2 i ⟨c.val % 8, by omega⟩) rfl fun b hb => ?_
  match b, hb with
  | ⟨0, _⟩, _ => rfl
  | ⟨1, _⟩, hb => exact absurd rfl hb

/-! ## The projection of the node features through the four heads' weights -/

/-- On the left operand's row axis the index is the output's row. -/
theorem lhsP_0 (j : S1024x32.Idx) (q : dot_S1024x1024_S1024x32_S1024x32_1_0_0_1_n_n.contr.Idx) :
    (dot_S1024x1024_S1024x32_S1024x32_1_0_0_1_n_n.lhsIdx j q 0).val = (j 0).val := by
  unfold DotDims.lhsIdx
  rw [dif_neg (show ¬(0 : Fin S1024x1024.rank) ∈ dot_S1024x1024_S1024x32_S1024x32_1_0_0_1_n_n.lhsBatch by decide),
    dif_pos (show (0 : Fin S1024x1024.rank) ∈ dot_S1024x1024_S1024x32_S1024x32_1_0_0_1_n_n.lhsNonContracting by decide)]
  rfl

/-- On the left operand's column axis the index is the contracted coordinate. -/
theorem lhsP_1 (j : S1024x32.Idx) (q : dot_S1024x1024_S1024x32_S1024x32_1_0_0_1_n_n.contr.Idx) :
    (dot_S1024x1024_S1024x32_S1024x32_1_0_0_1_n_n.lhsIdx j q 1).val = (q ⟨0, by decide⟩).val :=
  dot_S1024x1024_S1024x32_S1024x32_1_0_0_1_n_n.lhsIdx_val_of_single rfl j q

/-- On the right operand's row axis the index is the contracted coordinate. -/
theorem rhsP_0 (j : S1024x32.Idx) (q : dot_S1024x1024_S1024x32_S1024x32_1_0_0_1_n_n.contr.Idx) :
    (dot_S1024x1024_S1024x32_S1024x32_1_0_0_1_n_n.rhsIdx j q 0).val = (q ⟨0, by decide⟩).val :=
  dot_S1024x1024_S1024x32_S1024x32_1_0_0_1_n_n.rhsIdx_val_of_single rfl j q

/-- On the right operand's column axis the index is the output's column. -/
theorem rhsP_1 (j : S1024x32.Idx) (q : dot_S1024x1024_S1024x32_S1024x32_1_0_0_1_n_n.contr.Idx) :
    (dot_S1024x1024_S1024x32_S1024x32_1_0_0_1_n_n.rhsIdx j q 1).val = (j 1).val := by
  unfold DotDims.rhsIdx
  rw [dif_neg (show ¬(1 : Fin S1024x32.rank) ∈ dot_S1024x1024_S1024x32_S1024x32_1_0_0_1_n_n.rhsBatch by decide),
    dif_pos (show (1 : Fin S1024x32.rank) ∈ dot_S1024x1024_S1024x32_S1024x32_1_0_0_1_n_n.rhsNonContracting by decide)]
  rfl

/-- Row i of the node features times column c of the weights: the sum over the 1024 input features. -/
theorem kProj_apply (x : FVec Ideal S1024x1024 .f32) (wall : FVec Ideal S1024x32 .f32) (i : Fin 1024) (c : Fin 32) :
    Gen.k0_pay3 (F := Ideal) x wall (ix2 i c) = ∑ kk : Fin 1024, x (ix2 i kk) * wall (ix2 kk c) := by
  unfold Gen.k0_pay3
  simp only [shapeCast_self, matmul]
  rw [Ideal.matmul_constant_zero_apply, ← Equiv.sum_comp (contrEquiv1 dot_S1024x1024_S1024x32_S1024x32_1_0_0_1_n_n 1024 rfl rfl).symm]
  refine Finset.sum_congr rfl fun k _ => ?_
  have hk := contrEquiv1_symm_val dot_S1024x1024_S1024x32_S1024x32_1_0_0_1_n_n 1024 rfl rfl k
  have el : dot_S1024x1024_S1024x32_S1024x32_1_0_0_1_n_n.lhsIdx (ix2 i c) ((contrEquiv1 dot_S1024x1024_S1024x32_S1024x32_1_0_0_1_n_n 1024 rfl rfl).symm k) = ix2 i k :=
    funext fun a => Fin.ext (by
      match a with
      | ⟨0, _⟩ => exact lhsP_0 _ _
      | ⟨1, _⟩ => exact (lhsP_1 _ _).trans hk)
  have er : dot_S1024x1024_S1024x32_S1024x32_1_0_0_1_n_n.rhsIdx (ix2 i c) ((contrEquiv1 dot_S1024x1024_S1024x32_S1024x32_1_0_0_1_n_n 1024 rfl rfl).symm k) = ix2 k c :=
    funext fun a => Fin.ext (by
      match a with
      | ⟨0, _⟩ => exact (rhsP_0 _ _).trans hk
      | ⟨1, _⟩ => exact rhsP_1 _ _)
  rw [el, er]

/-! ## The last layer's projection of the four heads side by side -/

/-- On the left operand's row axis the index is the output's row. -/
theorem lhsW2_0 (j : S1024x2.Idx) (q : dot_S1024x32_S32x2_S1024x2_1_0_0_1_n_n.contr.Idx) :
    (dot_S1024x32_S32x2_S1024x2_1_0_0_1_n_n.lhsIdx j q 0).val = (j 0).val := by
  unfold DotDims.lhsIdx
  rw [dif_neg (show ¬(0 : Fin S1024x32.rank) ∈ dot_S1024x32_S32x2_S1024x2_1_0_0_1_n_n.lhsBatch by decide),
    dif_pos (show (0 : Fin S1024x32.rank) ∈ dot_S1024x32_S32x2_S1024x2_1_0_0_1_n_n.lhsNonContracting by decide)]
  rfl

/-- On the left operand's column axis the index is the contracted coordinate. -/
theorem lhsW2_1 (j : S1024x2.Idx) (q : dot_S1024x32_S32x2_S1024x2_1_0_0_1_n_n.contr.Idx) :
    (dot_S1024x32_S32x2_S1024x2_1_0_0_1_n_n.lhsIdx j q 1).val = (q ⟨0, by decide⟩).val :=
  dot_S1024x32_S32x2_S1024x2_1_0_0_1_n_n.lhsIdx_val_of_single rfl j q

/-- On the right operand's row axis the index is the contracted coordinate. -/
theorem rhsW2_0 (j : S1024x2.Idx) (q : dot_S1024x32_S32x2_S1024x2_1_0_0_1_n_n.contr.Idx) :
    (dot_S1024x32_S32x2_S1024x2_1_0_0_1_n_n.rhsIdx j q 0).val = (q ⟨0, by decide⟩).val :=
  dot_S1024x32_S32x2_S1024x2_1_0_0_1_n_n.rhsIdx_val_of_single rfl j q

/-- On the right operand's column axis the index is the output's column. -/
theorem rhsW2_1 (j : S1024x2.Idx) (q : dot_S1024x32_S32x2_S1024x2_1_0_0_1_n_n.contr.Idx) :
    (dot_S1024x32_S32x2_S1024x2_1_0_0_1_n_n.rhsIdx j q 1).val = (j 1).val := by
  unfold DotDims.rhsIdx
  rw [dif_neg (show ¬(1 : Fin S32x2.rank) ∈ dot_S1024x32_S32x2_S1024x2_1_0_0_1_n_n.rhsBatch by decide),
    dif_pos (show (1 : Fin S32x2.rank) ∈ dot_S1024x32_S32x2_S1024x2_1_0_0_1_n_n.rhsNonContracting by decide)]
  rfl

/-- Row i of the four heads side by side times column d of the last weights: the sum over the 32 columns. -/
theorem kW2_apply (Hc : FVec Ideal S1024x32 .f32) (wlast : FVec Ideal S32x2 .f32) (i : Fin 1024) (d : Fin 2) :
    matmul (F := Ideal) dot_S1024x32_S32x2_S1024x2_1_0_0_1_n_n none Hc wlast (constant S1024x2 .f32 0x00000000#32) (ix2 i d)
      = ∑ c : Fin 32, Hc (ix2 i c) * wlast (ix2 c d) := by
  simp only [matmul]
  rw [Ideal.matmul_constant_zero_apply, ← Equiv.sum_comp (contrEquiv1 dot_S1024x32_S32x2_S1024x2_1_0_0_1_n_n 32 rfl rfl).symm]
  refine Finset.sum_congr rfl fun k _ => ?_
  have hk := contrEquiv1_symm_val dot_S1024x32_S32x2_S1024x2_1_0_0_1_n_n 32 rfl rfl k
  have el : dot_S1024x32_S32x2_S1024x2_1_0_0_1_n_n.lhsIdx (ix2 i d) ((contrEquiv1 dot_S1024x32_S32x2_S1024x2_1_0_0_1_n_n 32 rfl rfl).symm k) = ix2 i k :=
    funext fun a => Fin.ext (by
      match a with
      | ⟨0, _⟩ => exact lhsW2_0 _ _
      | ⟨1, _⟩ => exact (lhsW2_1 _ _).trans hk)
  have er : dot_S1024x32_S32x2_S1024x2_1_0_0_1_n_n.rhsIdx (ix2 i d) ((contrEquiv1 dot_S1024x32_S32x2_S1024x2_1_0_0_1_n_n 32 rfl rfl).symm k) = ix2 k d :=
    funext fun a => Fin.ext (by
      match a with
      | ⟨0, _⟩ => exact (rhsW2_0 _ _).trans hk
      | ⟨1, _⟩ => exact rhsW2_1 _ _)
  rw [el, er]

end Cert.KernelIdeal.Hand

end
-- ==== Proof.KApply.lean ====
/-
  The value the kernel body stores, read element by element, is the specification's network. The last layer's
  three chains over the projected concatenation are the specification's head from projected features; the
  projection of the four heads side by side is a sum over the 32 columns, column c being feature c % 8 of head
  c / 8; and head k of the first layer reads columns 8k..8k+7 of the one projection of the node features and rows
  k and 4 + k of the table of attention rows. The adjacency enters only through the 0/1 mask.
-/
import proofs.«174455_g86844238725802_fold_wed_m_134_3_alg».proof.Proof.KMath8
import proofs.«174455_g86844238725802_fold_wed_m_134_3_alg».proof.Proof.KMath2
import proofs.«174455_g86844238725802_fold_wed_m_134_3_alg».proof.Proof.KReads
import Idealize.ShloMosaic.Lib.ValueIdx

noncomputable section

namespace Cert.KernelIdeal.Hand

open Idealize.ShloMosaic Idealize.SL.Sem Cert.KernelIdeal Cert.KernelIdeal.Gen Idealize.ShloMosaic.ValueIdx

/-! ## Two heads with pointwise equal arguments are equal -/

/-- The head from projected features depends on its four arguments only through their values. -/
theorem headOf_congr {H : ℕ} {m m' : Fin 1024 → Fin 1024 → EReal} {s s' t t' : Fin H → EReal}
    {p p' : Fin 1024 → Fin H → EReal} (hm : ∀ i j, m i j = m' i j) (hs : ∀ d, s d = s' d) (ht : ∀ d, t d = t' d)
    (hp : ∀ i d, p i d = p' i d) (i : Fin 1024) (d : Fin H) :
    Cert.Gat.headOf m s t p i d = Cert.Gat.headOf m' s' t' p' i d := by
  obtain rfl : m = m' := funext fun i => funext fun j => hm i j
  obtain rfl : s = s' := funext hs
  obtain rfl : t = t' := funext ht
  obtain rfl : p = p' := funext fun i => funext fun d => hp i d
  rfl

/-! ## One first-layer head from the loaded arrays -/

/-- Head k of the first layer: from eight columns of the projection that read columns 8k..8k+7 of all 32, and two
    attention rows that read rows k and 4 + k of the table, the body computes the specification's head k. -/
theorem headGen_apply (adj x : FVec Ideal S1024x1024 .f32) (wall : FVec Ideal S1024x32 .f32) (acat : FVec Ideal S16x8 .f32)
    (k : Fin 4) (P8 : FVec Ideal S1024x8 .f32) (ar ac : FVec Ideal S1x8 .f32)
    (hP : ∀ (i : Fin 1024) (dd : Fin 8), P8 (ix2 i dd) = Gen.k0_pay3 (F := Ideal) x wall (ix2 i (⟨8 * k.val + dd.val, by omega⟩ : Fin 32)))
    (har : ∀ dd : Fin 8, ar (ix2 0 dd) = acat (ix2 (⟨k.val, by omega⟩ : Fin 16) dd))
    (hac : ∀ dd : Fin 8, ac (ix2 0 dd) = acat (ix2 (⟨4 + k.val, by omega⟩ : Fin 16) dd))
    (i : Fin 1024) (dd : Fin 8) :
    kHead (F := Ideal) (Gen.k0_pay2 (F := Ideal) adj) P8 ar ac (Gen.k0_pay5 (F := Ideal)) (ix2 i dd)
      = Cert.Gat.head (fun i k => x (ix2 i k)) (fun i j => Cert.Gat.maskOf (adj (ix2 i j)))
          (fun kk dd => wall (ix2 kk (⟨8 * k.val + dd.val, by omega⟩ : Fin 32)))
          (fun dd => acat (ix2 (⟨k.val, by omega⟩ : Fin 16) dd)) (fun dd => acat (ix2 (⟨4 + k.val, by omega⟩ : Fin 16) dd)) i dd := by
  rw [kHead_apply, Cert.Gat.head_eq_headOf]
  refine headOf_congr (fun i j => kMask_apply adj i j) har hac (fun i dd => ?_) i dd
  rw [hP, kProj_apply]
  rfl

/-- The four heads of the first layer, by number. -/
theorem headK_apply (adj x : FVec Ideal S1024x1024 .f32) (wall : FVec Ideal S1024x32 .f32) (acat : FVec Ideal S16x8 .f32)
    (k : Fin 4) (i : Fin 1024) (dd : Fin 8) :
    (![kHead (F := Ideal) (Gen.k0_pay2 (F := Ideal) adj)
          (extractStridedSlice S1024x8 ![0, 0] (Gen.k0_pay3 (F := Ideal) x wall) slices_S1024x32_o0_0_S1024x8)
          (extractStridedSlice S1x8 ![0, 0] (Gen.k0_pay4 (F := Ideal) acat) slices_S16x8_o0_0_S1x8)
          (extractStridedSlice S1x8 ![4, 0] (Gen.k0_pay4 (F := Ideal) acat) slices_S16x8_o4_0_S1x8) (Gen.k0_pay5 (F := Ideal)),
        kHead (F := Ideal) (Gen.k0_pay2 (F := Ideal) adj)
          (extractStridedSlice S1024x8 ![0, 8] (Gen.k0_pay3 (F := Ideal) x wall) slices_S1024x32_o0_8_S1024x8)
          (extractStridedSlice S1x8 ![1, 0] (Gen.k0_pay4 (F := Ideal) acat) slices_S16x8_o1_0_S1x8)
          (extractStridedSlice S1x8 ![5, 0] (Gen.k0_pay4 (F := Ideal) acat) slices_S16x8_o5_0_S1x8) (Gen.k0_pay5 (F := Ideal)),
        kHead (F := Ideal) (Gen.k0_pay2 (F := Ideal) adj)
          (extractStridedSlice S1024x8 ![0, 16] (Gen.k0_pay3 (F := Ideal) x wall) slices_S1024x32_o0_16_S1024x8)
          (extractStridedSlice S1x8 ![2, 0] (Gen.k0_pay4 (F := Ideal) acat) slices_S16x8_o2_0_S1x8)
          (extractStridedSlice S1x8 ![6, 0] (Gen.k0_pay4 (F := Ideal) acat) slices_S16x8_o6_0_S1x8) (Gen.k0_pay5 (F := Ideal)),
        kHead (F := Ideal) (Gen.k0_pay2 (F := Ideal) adj)
          (extractStridedSlice S1024x8 ![0, 24] (Gen.k0_pay3 (F := Ideal) x wall) slices_S1024x32_o0_24_S1024x8)
          (extractStridedSlice S1x8 ![3, 0] (Gen.k0_pay4 (F := Ideal) acat) slices_S16x8_o3_0_S1x8)
          (extractStridedSlice S1x8 ![7, 0] (Gen.k0_pay4 (F := Ideal) acat) slices_S16x8_o7_0_S1x8) (Gen.k0_pay5 (F := Ideal))] k)
        (ix2 i dd)
      = Cert.Gat.head (fun i k => x (ix2 i k)) (fun i j => Cert.Gat.maskOf (adj (ix2 i j)))
          (fun kk dd => wall (ix2 kk (⟨8 * k.val + dd.val, by omega⟩ : Fin 32)))
          (fun dd => acat (ix2 (⟨k.val, by omega⟩ : Fin 16) dd)) (fun dd => acat (ix2 (⟨4 + k.val, by omega⟩ : Fin 16) dd)) i dd := by
  have hA := kAcat_apply acat
  match k with
  | ⟨0, _⟩ =>
    exact headGen_apply adj x wall acat 0 _ _ _
      (fun i dd => (kSlice0_apply _ i dd).trans (congrArg _ (congrArg (ix2 i) (Fin.ext (by show dd.val = 8 * 0 + dd.val; omega)))))
      (fun dd => (kRow0_apply _ dd).trans (congrFun hA _)) (fun dd => (kRow4_apply _ dd).trans (congrFun hA _)) i dd
  | ⟨1, _⟩ =>
    exact headGen_apply adj x wall acat 1 _ _ _
      (fun i dd => (kSlice8_apply _ i dd).trans (congrArg _ (congrArg (ix2 i) (Fin.ext (by show 8 + dd.val = 8 * 1 + dd.val; omega)))))
      (fun dd => (kRow1_apply _ dd).trans (congrFun hA _)) (fun dd => (kRow5_apply _ dd).trans (congrFun hA _)) i dd
  | ⟨2, _⟩ =>
    exact headGen_apply adj x wall acat 2 _ _ _
      (fun i dd => (kSlice16_apply _ i dd).trans (congrArg _ (congrArg (ix2 i) (Fin.ext (by show 16 + dd.val = 8 * 2 + dd.val; omega)))))
      (fun dd => (kRow2_apply _ dd).trans (congrFun hA _)) (fun dd => (kRow6_apply _ dd).trans (congrFun hA _)) i dd
  | ⟨3, _⟩ =>
    exact headGen_apply adj x wall acat 3 _ _ _
      (fun i dd => (kSlice24_apply _ i dd).trans (congrArg _ (congrArg (ix2 i) (Fin.ext (by show 24 + dd.val = 8 * 3 + dd.val; omega)))))
      (fun dd => (kRow3_apply _ dd).trans (congrFun hA _)) (fun dd => (kRow7_apply _ dd).trans (congrFun hA _)) i dd

/-! ## The stored value -/

/-- The value the body stores is the specification's network: the last head over the four first-layer heads side by
    side, each read from the loaded arrays. -/
theorem kerBody_apply (adj x : FVec Ideal S1024x1024 .f32) (wall : FVec Ideal S1024x32 .f32) (acat : FVec Ideal S16x8 .f32)
    (wlast : FVec Ideal S32x2 .f32) (i : Fin 1024) (d : Fin 2) :
    kerBody (F := Ideal) adj x wall acat wlast (ix2 i d)
      = Cert.Gat.head (Cert.Gat.hcat fun k => Cert.Gat.head (fun i k => x (ix2 i k)) (fun i j => Cert.Gat.maskOf (adj (ix2 i j)))
            (fun kk dd => wall (ix2 kk ⟨8 * k.val + dd.val, by omega⟩)) (fun dd => acat (ix2 ⟨k.val, by omega⟩ dd)) (fun dd => acat (ix2 ⟨4 + k.val, by omega⟩ dd)))
          (fun i j => Cert.Gat.maskOf (adj (ix2 i j))) (fun c dd => wlast (ix2 c dd))
          (fun dd => acat (ix2 8 ⟨dd.val, by omega⟩)) (fun dd => acat (ix2 9 ⟨dd.val, by omega⟩)) i d := by
  rw [kerBody_eq]
  refine (kLast_apply _ _ _ _ i d).trans ?_
  rw [Cert.Gat.head_eq_headOf]
  have hA := kAcat_apply acat
  refine headOf_congr (fun i j => kMask_apply adj i j)
    (fun dd => (kRow8_apply _ dd).trans (congrFun hA _)) (fun dd => (kRow9_apply _ dd).trans (congrFun hA _))
    (fun i dd => ?_) i d
  refine (kW2_apply _ wlast i dd).trans ?_
  unfold Cert.Gat.proj
  refine Finset.sum_congr rfl fun c _ => congrArg (· * wlast (ix2 c dd)) ?_
  refine (kCat_apply _ _ _ _ i c).trans ?_
  exact headK_apply adj x wall acat ⟨c.val / 8, by omega⟩ i ⟨c.val % 8, by omega⟩

end Cert.KernelIdeal.Hand

end
-- ==== Proof.KValue.lean ====
/-
  The program's run with its result named: every execution terminates with the result buffer holding the
  graph-attention network of the eleven argument arrays, and the arguments as they were launched.

  The kernel has one grid point and every window is a whole array, so each input block is the array itself as the
  host operations before the kernel leave it, the one block written back is the whole result array, and the array
  after the run is the kernel body's value of the five input arrays. Read element by element that value is the
  network over the five arrays; the five arrays read at an index are the arguments' entries (the two planes of the
  first argument, the four projections side by side, the table of attention rows); and the one host operation after
  the kernel gives the result its leading unit axis.
-/
import proofs.«174455_g86844238725802_fold_wed_m_134_3_alg».proof.Proof.KHost
import proofs.«174455_g86844238725802_fold_wed_m_134_3_alg».proof.Proof.KFrame
import proofs.«174455_g86844238725802_fold_wed_m_134_3_alg».proof.Proof.KApply
import proofs.«174455_g86844238725802_fold_wed_m_134_3_alg».proof.Proof.Spec
import Idealize.ShloMosaic.Lib.Pipeline.Value
import Idealize.ShloMosaic.Lib.StableHlo.Run
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- Each input window's block is its whole array. -/
theorem iblk0 (c : Dev nD) (t : Fin cfg0.N) : (iblk m c 0 t : Vec Ideal S1024x1024 .f32) = V m c main_v22 :=
  Memref.read_access_unit_zero (Elt Ideal) main_v22 (off := fun a => win0_0.index t a * S1024x1024.size a)
    (funext fun a => Nat.zero_mul _) (fun a => by show 0 * _ + _ ≤ _; rw [Nat.zero_mul, Nat.zero_add]) (V m c main_v22)

theorem iblk1 (c : Dev nD) (t : Fin cfg0.N) : (iblk m c 1 t : Vec Ideal S1024x1024 .f32) = V m c main_v24 :=
  Memref.read_access_unit_zero (Elt Ideal) main_v24 (off := fun a => win0_1.index t a * S1024x1024.size a)
    (funext fun a => Nat.zero_mul _) (fun a => by show 0 * _ + _ ≤ _; rw [Nat.zero_mul, Nat.zero_add]) (V m c main_v24)

theorem iblk2 (c : Dev nD) (t : Fin cfg0.N) : (iblk m c 2 t : Vec Ideal S1024x32 .f32) = V m c main_v0 :=
  Memref.read_access_unit_zero (Elt Ideal) main_v0 (off := fun a => win0_2.index t a * S1024x32.size a)
    (funext fun a => Nat.zero_mul _) (fun a => by show 0 * _ + _ ≤ _; rw [Nat.zero_mul, Nat.zero_add]) (V m c main_v0)

theorem iblk3 (c : Dev nD) (t : Fin cfg0.N) : (iblk m c 3 t : Vec Ideal S16x8 .f32) = V m c main_v20 :=
  Memref.read_access_unit_zero (Elt Ideal) main_v20 (off := fun a => win0_3.index t a * S16x8.size a)
    (funext fun a => Nat.zero_mul _) (fun a => by show 0 * _ + _ ≤ _; rw [Nat.zero_mul, Nat.zero_add]) (V m c main_v20)

theorem iblk4 (c : Dev nD) (t : Fin cfg0.N) : (iblk m c 4 t : Vec Ideal S32x2 .f32) = V m c main_arg9 :=
  Memref.read_access_unit_zero (Elt Ideal) main_arg9 (off := fun a => win0_4.index t a * S32x2.size a)
    (funext fun a => Nat.zero_mul _) (fun a => by show 0 * _ + _ ≤ _; rw [Nat.zero_mul, Nat.zero_add]) (V m c main_arg9)

/-- The result array as the kernel leaves it: the body's value of the five arrays as the kernel finds them. -/
abbrev outArr (c : Dev nD) : FVec Ideal S1024x2 .f32 :=
  kerBody (F := Ideal) (V m c main_v24) (V m c main_v22) (V m c main_v0) (V m c main_v20) (V m c main_arg9)

/-- What the one point of the grid writes back is the whole of that value. -/
theorem flushed_eq (c : Dev nD) (t : Fin cfg0.N) :
    (dats m 0 c).flushed 5 t = ((cfg0.win 5).blk t).view.read (Elt Ideal) (outArr m c) := by
  show (cfg0.win 5).cut (grid0.coords t) ((dats m 0 c).after 5 t) = _
  rw [after0_5]
  unfold out0_5
  rw [View.canon_unit_zero zero_offsets]
  simp only [View.ld_unit_zero (S := S1024x1024) zero_offsets, View.ld_unit_zero (S := S1024x32) zero_offsets,
    View.ld_unit_zero (S := S16x8) zero_offsets, View.ld_unit_zero (S := S32x2) zero_offsets]
  rw [iblk0, iblk1, iblk2, iblk3, iblk4]
  exact (Memref.read_access_unit_zero (Elt Ideal) main_v25 (off := fun a => win0_5.index t a * S1024x2.size a)
    (funext fun a => Nat.zero_mul _) (fun a => by show 0 * _ + _ ≤ _; rw [Nat.zero_mul, Nat.zero_add]) (outArr m c)).symm

/-- The one point's block of the result array is all of it. -/
theorem cover (c : Dev nD) (i : S1024x2.Idx) :
    ∃ t : Fin cfg0.N, (cfg0.win 5).flush t = true ∧ i ∈ ((cfg0.win 5).blk t).view.set := by
  refine ⟨t0_0, flush0_5 t0_0, ?_⟩
  show i ∈ ((View.whole main_v25).slice (win0_5.rect t0_0)).set
  rw [View.set_slice_whole]
  exact View.mem_set_unit_zero (S := S1024x2) (off := fun a => win0_5.index t0_0 a * S1024x2.size a)
    (funext fun a => Nat.zero_mul _) (fun a => by show 0 * _ + _ ≤ _; rw [Nat.zero_mul, Nat.zero_add]) i

/-- The result array after the kernel. -/
theorem out_final (c : Dev nD) : (dats m 0 c).arrAt 5 cfg0.N = outArr m c :=
  (dats m 0 c).arrAt_eq_of_cover 5 (outArr m c) (fun t _ => flushed_eq m c t) (cover c)

/-- The program's result buffer: the kernel's result array under a leading unit axis. -/
theorem tail_v26 (c : Dev nD) :
    Pipeline.afterTail₀ cfgs (dats m) 0 (V0 m) [hostOps1] c main_v26
      = broadcastInDim S1x1024x2 ![1, 2] bcast_S1024x2_S1x1024x2_1_2 (outArr m c) := by
  unfold Pipeline.afterTail₀
  show StableHlo.after hostOps1 _ (Proc.devRef .tc main_v26) = _
  after_results
  exact congrArg _ ((Pipeline.withArrays_arr spec0 launch0.win.arr_inj c _ _ 5).trans (out_final m c))

/-! ## The five arrays as the kernel finds them, at an index, in terms of the arguments -/

section Arrays
variable (c : Dev nD)

theorem V_x (i k : Fin 1024) :
    (V m c main_v22 : FVec Ideal S1024x1024 .f32) (ix2 i k) = (m ((c.tc : Thread nD τ).loc main_arg0)) (ix4 0 0 i k) :=
  host_x (fun b => m (c, b)) i k

theorem V_adj (i j : Fin 1024) :
    (V m c main_v24 : FVec Ideal S1024x1024 .f32) (ix2 i j) = (m ((c.tc : Thread nD τ).loc main_arg0)) (ix4 0 1 i j) :=
  host_adj (fun b => m (c, b)) i j

theorem V_wall (kk : Fin 1024) (k : Fin 4) (dd : Fin 8) :
    (V m c main_v0 : FVec Ideal S1024x32 .f32) (ix2 kk ⟨8 * k.val + dd.val, by omega⟩)
      = (![(m ((c.tc : Thread nD τ).loc main_arg1)), (m ((c.tc : Thread nD τ).loc main_arg3)), (m ((c.tc : Thread nD τ).loc main_arg5)), (m ((c.tc : Thread nD τ).loc main_arg7))] k) (ix2 kk dd) :=
  host_wall (fun b => m (c, b)) kk k dd

theorem V_src (k : Fin 4) (dd : Fin 8) :
    (V m c main_v20 : FVec Ideal S16x8 .f32) (ix2 ⟨k.val, by omega⟩ dd)
      = (![(m ((c.tc : Thread nD τ).loc main_arg2)), (m ((c.tc : Thread nD τ).loc main_arg4)), (m ((c.tc : Thread nD τ).loc main_arg6)), (m ((c.tc : Thread nD τ).loc main_arg8))] k) (ix2 0 ⟨dd.val, by omega⟩) :=
  host_acat_src (fun b => m (c, b)) k dd

theorem V_dst (k : Fin 4) (dd : Fin 8) :
    (V m c main_v20 : FVec Ideal S16x8 .f32) (ix2 ⟨4 + k.val, by omega⟩ dd)
      = (![(m ((c.tc : Thread nD τ).loc main_arg2)), (m ((c.tc : Thread nD τ).loc main_arg4)), (m ((c.tc : Thread nD τ).loc main_arg6)), (m ((c.tc : Thread nD τ).loc main_arg8))] k) (ix2 0 ⟨8 + dd.val, by omega⟩) :=
  host_acat_dst (fun b => m (c, b)) k dd

theorem V_8 (dd : Fin 2) :
    (V m c main_v20 : FVec Ideal S16x8 .f32) (ix2 8 ⟨dd.val, by omega⟩) = (m ((c.tc : Thread nD τ).loc main_arg10)) (ix2 0 ⟨dd.val, by omega⟩) :=
  host_acat_8 (fun b => m (c, b)) dd

theorem V_9 (dd : Fin 2) :
    (V m c main_v20 : FVec Ideal S16x8 .f32) (ix2 9 ⟨dd.val, by omega⟩) = (m ((c.tc : Thread nD τ).loc main_arg10)) (ix2 0 ⟨2 + dd.val, by omega⟩) :=
  host_acat_9 (fun b => m (c, b)) dd

theorem V_wlast : (V m c main_arg9 : FVec Ideal S32x2 .f32) = (m ((c.tc : Thread nD τ).loc main_arg9)) :=
  host_wlast (fun b => m (c, b))

/-- A head depends on its five arguments only through their values. -/
theorem head_congr {K H : ℕ} {x x' : Fin 1024 → Fin K → EReal} {mk mk' : Fin 1024 → Fin 1024 → EReal}
    {W W' : Fin K → Fin H → EReal} {s s' t t' : Fin H → EReal}
    (hx : ∀ i k, x i k = x' i k) (hm : ∀ i j, mk i j = mk' i j) (hW : ∀ k d, W k d = W' k d)
    (hs : ∀ d, s d = s' d) (ht : ∀ d, t d = t' d) :
    Cert.Gat.head x mk W s t = Cert.Gat.head x' mk' W' s' t' := by
  obtain rfl : x = x' := funext fun i => funext fun k => hx i k
  obtain rfl : mk = mk' := funext fun i => funext fun j => hm i j
  obtain rfl : W = W' := funext fun k => funext fun d => hW k d
  obtain rfl : s = s' := funext hs
  obtain rfl : t = t' := funext ht
  rfl

/-- The kernel's result array, element by element, is the network of the eleven arguments. -/
theorem result_at (i : Fin 1024) (d : Fin 2) :
    outArr m c (ix2 i d) = Cert.Gat.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (ix3 0 i d) := by
  show kerBody (F := Ideal) (V m c main_v24) (V m c main_v22) (V m c main_v0) (V m c main_v20) (V m c main_arg9) (ix2 i d) = _
  rw [kerBody_apply]
  unfold Cert.Gat.G Cert.Gat.final
  refine congrFun (congrFun (head_congr (fun i' cc => ?_) (fun a b => congrArg Cert.Gat.maskOf (V_adj m c a b))
    (fun cc dd => congrFun (V_wlast m c) _) (fun dd => V_8 m c dd) (fun dd => V_9 m c dd)) i) d
  unfold Cert.Gat.hcat
  exact congrFun (congrFun (head_congr (fun a b => V_x m c a b) (fun a b => congrArg Cert.Gat.maskOf (V_adj m c a b))
    (fun kk dd => V_wall m c kk _ dd) (fun dd => V_src m c _ dd) (fun dd => V_dst m c _ dd)) i') _

/-- So is the program's result buffer. -/
theorem result_eq :
    broadcastInDim S1x1024x2 ![1, 2] bcast_S1024x2_S1x1024x2_1_2 (outArr m c) = Cert.Gat.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  funext j
  obtain ⟨a, i, d, rfl⟩ : ∃ (a : Fin 1) (i : Fin 1024) (d : Fin 2), j = ix3 a i d := ⟨j 0, j 1, j 2, eq_ix3 j⟩
  obtain rfl : a = 0 := Subsingleton.elim _ _
  refine (broadcastInDim_apply _ _ _ (ix3 0 i d) (ix2 i d) (fun b => match b with | ⟨0, _⟩ => rfl | ⟨1, _⟩ => rfl)).trans ?_
  exact result_at m c i d
end Arrays

/-! ## The final state, buffer by buffer -/

section Post
variable (r : PUnit × MemSt nD τ sig (Elt Ideal))
  (h : Pipeline.FramePost cfgs (dats m) 0 (Pipeline.afterTail₀ cfgs (dats m) 0 (V0 m) [hostOps1]) r)
include h

theorem post_v26 (c : Dev nD) :
    r.2.mem ((c.tc : Thread nD τ).loc main_v26) = broadcastInDim S1x1024x2 ![1, 2] bcast_S1024x2_S1x1024x2_1_2 (outArr m c) :=
  ((h c).2 main_v26 (Pipeline.mem_restRefs_of main_v26 rfl (by decide))).trans (tail_v26 m c)

/-- A buffer that is no window's array, that the last host operation does not write and the first ones leave as launched,
    ends as launched. -/
theorem post_rest (c : Dev nD) (b : Ref sig .tc) (hs : b.isScoped = false) (hw : ∀ w, (spec0 w).arr.view.ref ≠ b) (hb : b ≠ main_v26)
    (h0 : StableHlo.after (hostOps0 (F := Ideal)) (fun b' => m (c, b')) (Proc.devRef .tc b) = m ((c.tc : Thread nD τ).loc b)) :
    r.2.mem ((c.tc : Thread nD τ).loc b) = m ((c.tc : Thread nD τ).loc b) := by
  refine ((h c).2 b (Pipeline.mem_restRefs_of b hs hw)).trans ?_
  unfold Pipeline.afterTail₀
  show StableHlo.after (hostOps1 (F := Ideal)) _ (Proc.devRef .tc b) = _
  simp only [StableHlo.after_cons, StableHlo.after_nil]
  rw [StableHlo.unary_result_ne _ _ _ _ _ _ hb, Pipeline.withArrays_of_ne spec0 c _ _ b hw]
  exact h0

theorem post_arg0 (c : Dev nD) : r.2.mem ((c.tc : Thread nD τ).loc main_arg0) = m ((c.tc : Thread nD τ).loc main_arg0) :=
  post_rest m r h c main_arg0 rfl (by decide) (by decide) (by after_results_simp)

theorem post_arg1 (c : Dev nD) : r.2.mem ((c.tc : Thread nD τ).loc main_arg1) = m ((c.tc : Thread nD τ).loc main_arg1) :=
  post_rest m r h c main_arg1 rfl (by decide) (by decide) (by after_results_simp)

theorem post_arg2 (c : Dev nD) : r.2.mem ((c.tc : Thread nD τ).loc main_arg2) = m ((c.tc : Thread nD τ).loc main_arg2) :=
  post_rest m r h c main_arg2 rfl (by decide) (by decide) (by after_results_simp)

theorem post_arg3 (c : Dev nD) : r.2.mem ((c.tc : Thread nD τ).loc main_arg3) = m ((c.tc : Thread nD τ).loc main_arg3) :=
  post_rest m r h c main_arg3 rfl (by decide) (by decide) (by after_results_simp)

theorem post_arg4 (c : Dev nD) : r.2.mem ((c.tc : Thread nD τ).loc main_arg4) = m ((c.tc : Thread nD τ).loc main_arg4) :=
  post_rest m r h c main_arg4 rfl (by decide) (by decide) (by after_results_simp)

theorem post_arg5 (c : Dev nD) : r.2.mem ((c.tc : Thread nD τ).loc main_arg5) = m ((c.tc : Thread nD τ).loc main_arg5) :=
  post_rest m r h c main_arg5 rfl (by decide) (by decide) (by after_results_simp)

theorem post_arg6 (c : Dev nD) : r.2.mem ((c.tc : Thread nD τ).loc main_arg6) = m ((c.tc : Thread nD τ).loc main_arg6) :=
  post_rest m r h c main_arg6 rfl (by decide) (by decide) (by after_results_simp)

theorem post_arg7 (c : Dev nD) : r.2.mem ((c.tc : Thread nD τ).loc main_arg7) = m ((c.tc : Thread nD τ).loc main_arg7) :=
  post_rest m r h c main_arg7 rfl (by decide) (by decide) (by after_results_simp)

theorem post_arg8 (c : Dev nD) : r.2.mem ((c.tc : Thread nD τ).loc main_arg8) = m ((c.tc : Thread nD τ).loc main_arg8) :=
  post_rest m r h c main_arg8 rfl (by decide) (by decide) (by after_results_simp)

theorem post_arg10 (c : Dev nD) : r.2.mem ((c.tc : Thread nD τ).loc main_arg10) = m ((c.tc : Thread nD τ).loc main_arg10) :=
  post_rest m r h c main_arg10 rfl (by decide) (by decide) (by after_results_simp)

/-- The last layer's projection is an input window's array: the kernel reads it and never writes it back. -/
theorem post_arg9 (c : Dev nD) : r.2.mem ((c.tc : Thread nD τ).loc main_arg9) = m ((c.tc : Thread nD τ).loc main_arg9) :=
  ((h c).1 4).trans (((dats m 0 c).arrAt_in 4 rfl _).trans ((A_eq m c 4).trans (V_wlast m c)))
end Post

/-! ## The run -/

/-- Every execution of the program terminates with the result buffer at the network of the eleven arguments and
    the arguments as launched. -/
theorem run_value : θ_run (defs (F := Ideal)) (onTc (τ := τ) (main (F := Ideal))) ⟨m, fun _ => 0, ρ⟩ (fun r => ∀ c : Dev nD,
      r.2.mem ((c.tc : Thread nD τ).loc main_v26) = Cert.Gat.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(post_v26 m r h c).trans (result_eq m c),
      post_arg0 m r h c,
      post_arg1 m r h c,
      post_arg2 m r h c,
      post_arg3 m r h c,
      post_arg4 m r h c,
      post_arg5 m r h c,
      post_arg6 m r h c,
      post_arg7 m r h c,
      post_arg8 m r h c,
      post_arg9 m r h c,
      post_arg10 m r h c⟩)
    (run_main m ρ)

end Cert.KernelIdeal.Hand

end
-- ==== Proof.RefFn.lean ====
/-
  The reference program's operations composed as functions of their inputs, in the program's own order: each line is
  one operation, its function applied to the values of its operands. A reshape is the row-major re-indexing; the
  concatenation of four arrays is stated at its four operands; a call of a small function is the function's lines.
-/
import proofs.«174455_g86844238725802_fold_wed_m_134_3_alg».proof.Proof.Gen.ReferenceIdeal

noncomputable section

namespace Cert.ReferenceIdeal.Hand

open Cert.ReferenceIdeal Cert.ReferenceIdeal.Gen Idealize.ShloMosaic

variable {F : FTy → Type} [FloatOps F]

/-- The node features: the first of the two stacked matrices. -/
def rX (s : FVec F S1x2x1024x1024 .f32) : FVec F S1024x1024 .f32 :=
  have v0 : FVec F S1x1x1024x1024 .f32 := ((extractStridedSlice S1x1x1024x1024 ![0, 0, 0, 0] · slices_S1x2x1024x1024_S1x1x1024x1024_0_0_0_0) : (⟨S1x2x1024x1024, .f32⟩ : BufTy).Contents (Elt F) → (⟨S1x1x1024x1024, .f32⟩ : BufTy).Contents (Elt F)) s
  have v1 : FVec F S1024x1024 .f32 := shapeCast S1024x1024 v0 shapeCasts_S1x1x1024x1024_S1024x1024
  v1

/-- The adjacency: the second of the two stacked matrices. -/
def rAdj (s : FVec F S1x2x1024x1024 .f32) : FVec F S1024x1024 .f32 :=
  have v2 : FVec F S1x1x1024x1024 .f32 := ((extractStridedSlice S1x1x1024x1024 ![0, 1, 0, 0] · slices_S1x2x1024x1024_S1x1x1024x1024_0_1_0_0) : (⟨S1x2x1024x1024, .f32⟩ : BufTy).Contents (Elt F) → (⟨S1x1x1024x1024, .f32⟩ : BufTy).Contents (Elt F)) s
  have v3 : FVec F S1024x1024 .f32 := shapeCast S1024x1024 v2 shapeCasts_S1x1x1024x1024_S1024x1024
  v3

/-- The source table: the row number broadcast along rows, flattened; edge e has source e / 1024. -/
def rSrc : IVec S1048576 32 :=
  have v4 : IVec S1024 32 := iotaInDim S1024 32 0
  have v5 : IVec S1024x1024 32 := (broadcastInDim S1024x1024 ![0] bcast_S1024_S1024x1024_0) v4
  have v6 : IVec S1048576 32 := shapeCast S1048576 v5 shapeCasts_S1024x1024_S1048576
  v6

/-- The destination table: the column number broadcast along columns, flattened; edge e has destination e % 1024. -/
def rDst : IVec S1048576 32 :=
  have v7 : IVec S1024 32 := iotaInDim S1024 32 0
  have v8 : IVec S1x1024 32 := shapeCast S1x1024 v7 shapeCasts_S1024_S1x1024
  have v9 : IVec S1024x1024 32 := (broadcastInDim S1024x1024 ![0, 1] bcast_S1x1024_S1024x1024_0_1) v8
  have v10 : IVec S1048576 32 := shapeCast S1048576 v9 shapeCasts_S1024x1024_S1048576
  v10

/-- The mask per edge: 1 where the adjacency entry is not zero, else 0. -/
def rMask (adj : FVec F S1024x1024 .f32) : FVec F S1048576 .f32 :=
  have v11 : FVec F S1048576 .f32 := shapeCast S1048576 adj shapeCasts_S1024x1024_S1048576
  have cst : FVec F S_ .f32 := constant S_ .f32 0x00000000#32
  have v12 : FVec F S1048576 .f32 := (broadcastInDim S1048576 ![] bcast_S_S1048576 : (⟨S_, .f32⟩ : BufTy).Contents (Elt F) → (⟨S1048576, .f32⟩ : BufTy).Contents (Elt F)) cst
  have v13 : IVec S1048576 1 := (cmpf .une : (⟨S1048576, .f32⟩ : BufTy).Contents (Elt F) → (⟨S1048576, .f32⟩ : BufTy).Contents (Elt F) → (⟨S1048576, .i1⟩ : BufTy).Contents (Elt F)) v11 v12
  have v14 : FVec F S1048576 .f32 := (uitofp .f32 : (⟨S1048576, .i1⟩ : BufTy).Contents (Elt F) → (⟨S1048576, .f32⟩ : BufTy).Contents (Elt F)) v13
  v14

/-- One head, edge by edge: project the features, gather the projections at each edge's source and destination, score
    the edge, weight it by the exponential of minus the rectified score times the mask, add the weights and the weighted
    destination projections into the edge's source row, divide, and pass through the exponential linear unit. -/
def rHead (x : FVec F S1024x1024 .f32) (src dst : IVec S1048576 32) (mask : FVec F S1048576 .f32)
    (W : FVec F S1024x8 .f32) (a : FVec F S1x16 .f32) : FVec F S1024x8 .f32 :=
  have v15 : FVec F S1024x8 .f32 := ((fun l r => Host.dotGeneral dot_S1024x1024_S1024x8_S1024x8_1_0_0_1_n_n none l r) : (⟨S1024x1024, .f32⟩ : BufTy).Contents (Elt F) → (⟨S1024x8, .f32⟩ : BufTy).Contents (Elt F) → (⟨S1024x8, .f32⟩ : BufTy).Contents (Elt F)) x W
  have c : IVec S_ 32 := constantI S_ 32 0#32
  have v16 : IVec S1048576 32 := (broadcastInDim S1048576 ![] bcast_S_S1048576) c
  have v17 : IVec S1048576 1 := (cmpi .slt) src v16
  have c_0 : IVec S_ 32 := constantI S_ 32 1024#32
  have v18 : IVec S1048576 32 := (broadcastInDim S1048576 ![] bcast_S_S1048576) c_0
  have v19 : IVec S1048576 32 := addi src v18
  have v20 : IVec S1048576 32 := select v17 v19 src
  have v21 : IVec S1048576x1 32 := (broadcastInDim S1048576x1 ![0] bcast_S1048576_S1048576x1_0) v20
  have v22 : FVec F S1048576x8 .f32 := ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)) v15 v21
  have c_1 : IVec S_ 32 := constantI S_ 32 0#32
  have v23 : IVec S1048576 32 := (broadcastInDim S1048576 ![] bcast_S_S1048576) c_1
  have v24 : IVec S1048576 1 := (cmpi .slt) dst v23
  have c_2 : IVec S_ 32 := constantI S_ 32 1024#32
  have v25 : IVec S1048576 32 := (broadcastInDim S1048576 ![] bcast_S_S1048576) c_2
  have v26 : IVec S1048576 32 := addi dst v25
  have v27 : IVec S1048576 32 := select v24 v26 dst
  have v28 : IVec S1048576x1 32 := (broadcastInDim S1048576x1 ![0] bcast_S1048576_S1048576x1_0) v27
  have v29 : FVec F S1048576x8 .f32 := ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)) v15 v28
  have v30 : FVec F S1048576x16 .f32 := ((fun a b => concatenate S1048576x16 1 [⟨S1048576x8, a⟩, ⟨S1048576x8, b⟩] concatenates_S1048576x8_S1048576x8_S1048576x16_d1) : (⟨S1048576x8, .f32⟩ : BufTy).Contents (Elt F) → (⟨S1048576x8, .f32⟩ : BufTy).Contents (Elt F) → (⟨S1048576x16, .f32⟩ : BufTy).Contents (Elt F)) v22 v29
  have v31 : FVec F S16x1048576 .f32 := ((transpose S16x1048576 [1, 0] · transposes_S1048576x16_S16x1048576_1_0) : (⟨S1048576x16, .f32⟩ : BufTy).Contents (Elt F) → (⟨S16x1048576, .f32⟩ : BufTy).Contents (Elt F)) v30
  have v32 : FVec F S1x1048576 .f32 := ((fun l r => Host.dotGeneral dot_S1x16_S16x1048576_S1x1048576_1_0_0_1_n_n none l r) : (⟨S1x16, .f32⟩ : BufTy).Contents (Elt F) → (⟨S16x1048576, .f32⟩ : BufTy).Contents (Elt F) → (⟨S1x1048576, .f32⟩ : BufTy).Contents (Elt F)) a v31
  have v33 : FVec F S1048576 .f32 := shapeCast S1048576 v32 shapeCasts_S1x1048576_S1048576
  have cst_3 : FVec F S_ .f32 := constant S_ .f32 0x3E4CCCCD#32
  have call0_cst : FVec F S_ .f32 := constant S_ .f32 0x00000000#32
  have call0_v0 : FVec F S1048576 .f32 := (broadcastInDim S1048576 ![] bcast_S_S1048576) call0_cst
  have call0_v1 : IVec S1048576 1 := (cmpf .oge) v33 call0_v0
  have call0_v2 : FVec F S_ .f32 := id cst_3
  have call0_v3 : FVec F S1048576 .f32 := (broadcastInDim S1048576 ![] bcast_S_S1048576) call0_v2
  have call0_v4 : FVec F S1048576 .f32 := mulf call0_v3 v33
  have v34 : FVec F S1048576 .f32 := select call0_v1 v33 call0_v4
  have v35 : FVec F S1048576 .f32 := (Host.negf : (⟨S1048576, .f32⟩ : BufTy).Contents (Elt F) → (⟨S1048576, .f32⟩ : BufTy).Contents (Elt F)) v34
  have v36 : FVec F S1048576 .f32 := (Host.exp : (⟨S1048576, .f32⟩ : BufTy).Contents (Elt F) → (⟨S1048576, .f32⟩ : BufTy).Contents (Elt F)) v35
  have v37 : FVec F S1048576 .f32 := (mulf : (⟨S1048576, .f32⟩ : BufTy).Contents (Elt F) → (⟨S1048576, .f32⟩ : BufTy).Contents (Elt F) → (⟨S1048576, .f32⟩ : BufTy).Contents (Elt F)) v36 mask
  have cst_4 : FVec F S_ .f32 := constant S_ .f32 0x00000000#32
  have v38 : FVec F S1024 .f32 := (broadcastInDim S1024 ![] bcast_S_S1024 : (⟨S_, .f32⟩ : BufTy).Contents (Elt F) → (⟨S1024, .f32⟩ : BufTy).Contents (Elt F)) cst_4
  have v39 : IVec S1048576x1 32 := (broadcastInDim S1048576x1 ![0] bcast_S1048576_S1048576x1_0) src
  have v40 : FVec F S1024 .f32 := ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)) v38 v39 v37
  have v41 : FVec F S1024x1 .f32 := (broadcastInDim S1024x1 ![0] bcast_S1024_S1024x1_0 : (⟨S1024, .f32⟩ : BufTy).Contents (Elt F) → (⟨S1024x1, .f32⟩ : BufTy).Contents (Elt F)) v40
  have v42 : FVec F S1048576x1 .f32 := (broadcastInDim S1048576x1 ![0] bcast_S1048576_S1048576x1_0 : (⟨S1048576, .f32⟩ : BufTy).Contents (Elt F) → (⟨S1048576x1, .f32⟩ : BufTy).Contents (Elt F)) v37
  have c_5 : IVec S_ 32 := constantI S_ 32 0#32
  have v43 : IVec S1048576 32 := (broadcastInDim S1048576 ![] bcast_S_S1048576) c_5
  have v44 : IVec S1048576 1 := (cmpi .slt) dst v43
  have c_6 : IVec S_ 32 := constantI S_ 32 1024#32
  have v45 : IVec S1048576 32 := (broadcastInDim S1048576 ![] bcast_S_S1048576) c_6
  have v46 : IVec S1048576 32 := addi dst v45
  have v47 : IVec S1048576 32 := select v44 v46 dst
  have v48 : IVec S1048576x1 32 := (broadcastInDim S1048576x1 ![0] bcast_S1048576_S1048576x1_0) v47
  have v49 : FVec F S1048576x8 .f32 := ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)) v15 v48
  have v50 : FVec F S1048576x8 .f32 := (broadcastInDim S1048576x8 ![0, 1] bcast_S1048576x1_S1048576x8_0_1 : (⟨S1048576x1, .f32⟩ : BufTy).Contents (Elt F) → (⟨S1048576x8, .f32⟩ : BufTy).Contents (Elt F)) v42
  have v51 : FVec F S1048576x8 .f32 := (mulf : (⟨S1048576x8, .f32⟩ : BufTy).Contents (Elt F) → (⟨S1048576x8, .f32⟩ : BufTy).Contents (Elt F) → (⟨S1048576x8, .f32⟩ : BufTy).Contents (Elt F)) v50 v49
  have cst_7 : FVec F S_ .f32 := constant S_ .f32 0x00000000#32
  have v52 : FVec F S1024x8 .f32 := (broadcastInDim S1024x8 ![] bcast_S_S1024x8 : (⟨S_, .f32⟩ : BufTy).Contents (Elt F) → (⟨S1024x8, .f32⟩ : BufTy).Contents (Elt F)) cst_7
  have v53 : IVec S1048576x1 32 := (broadcastInDim S1048576x1 ![0] bcast_S1048576_S1048576x1_0) src
  have v54 : FVec F S1024x8 .f32 := ((fun x i u => Host.scatterAdd scatter_S1024x8_S1048576x1_S1048576x8_1_0_0_1 x i u) : (⟨S1024x8, .f32⟩ : BufTy).Contents (Elt F) → (⟨S1048576x1, .i32⟩ : BufTy).Contents (Elt F) → (⟨S1048576x8, .f32⟩ : BufTy).Contents (Elt F) → (⟨S1024x8, .f32⟩ : BufTy).Contents (Elt F)) v52 v53 v51
  have v55 : FVec F S1024x8 .f32 := (broadcastInDim S1024x8 ![0, 1] bcast_S1024x1_S1024x8_0_1 : (⟨S1024x1, .f32⟩ : BufTy).Contents (Elt F) → (⟨S1024x8, .f32⟩ : BufTy).Contents (Elt F)) v41
  have v56 : FVec F S1024x8 .f32 := (Host.divf : (⟨S1024x8, .f32⟩ : BufTy).Contents (Elt F) → (⟨S1024x8, .f32⟩ : BufTy).Contents (Elt F) → (⟨S1024x8, .f32⟩ : BufTy).Contents (Elt F)) v54 v55
  have call1_cst : FVec F S_ .f32 := constant S_ .f32 0x00000000#32
  have call1_v0 : FVec F S1024x8 .f32 := (broadcastInDim S1024x8 ![] bcast_S_S1024x8) call1_cst
  have call1_v1 : IVec S1024x8 1 := (cmpf .ogt) v56 call1_v0
  have call1_cst_0 : FVec F S_ .f32 := constant S_ .f32 0x00000000#32
  have call1_v2 : FVec F S1024x8 .f32 := (broadcastInDim S1024x8 ![] bcast_S_S1024x8) call1_cst_0
  have call1_v3 : IVec S1024x8 1 := (cmpf .ogt) v56 call1_v2
  have call1_cst_1 : FVec F S_ .f32 := constant S_ .f32 0x00000000#32
  have call1_call0_v0 : FVec F S_ .f32 := id call1_cst_1
  have call1_call0_v1 : FVec F S1024x8 .f32 := (broadcastInDim S1024x8 ![] bcast_S_S1024x8) call1_call0_v0
  have call1_v4 : FVec F S1024x8 .f32 := select call1_v3 call1_call0_v1 v56
  have call1_v5 : FVec F S1024x8 .f32 := Host.expm1 call1_v4
  have call1_cst_2 : FVec F S_ .f32 := constant S_ .f32 0x3F800000#32
  have call1_v6 : FVec F S1024x8 .f32 := (broadcastInDim S1024x8 ![] bcast_S_S1024x8) call1_cst_2
  have call1_v7 : FVec F S1024x8 .f32 := mulf call1_v6 call1_v5
  have v57 : FVec F S1024x8 .f32 := select call1_v1 v56 call1_v7
  v57

/-- The last layer: the four heads side by side, its own edge tables and mask from the adjacency, then one more head of
    width two. -/
def rLast (h0 h1 h2 h3 : FVec F S1024x8 .f32) (adj : FVec F S1024x1024 .f32) (wl : FVec F S32x2 .f32)
    (al : FVec F S1x4 .f32) : FVec F S1024x2 .f32 :=
  have v187 : FVec F S1024x32 .f32 := concatenate S1024x32 1 [⟨S1024x8, h0⟩, ⟨S1024x8, h1⟩, ⟨S1024x8, h2⟩, ⟨S1024x8, h3⟩] concatenates_S1024x8_S1024x8_S1024x8_S1024x8_S1024x32_d1
  have v188 : IVec S1024 32 := iotaInDim S1024 32 0
  have v189 : IVec S1024x1024 32 := (broadcastInDim S1024x1024 ![0] bcast_S1024_S1024x1024_0) v188
  have v190 : IVec S1048576 32 := shapeCast S1048576 v189 shapeCasts_S1024x1024_S1048576
  have v191 : IVec S1024 32 := iotaInDim S1024 32 0
  have v192 : IVec S1x1024 32 := shapeCast S1x1024 v191 shapeCasts_S1024_S1x1024
  have v193 : IVec S1024x1024 32 := (broadcastInDim S1024x1024 ![0, 1] bcast_S1x1024_S1024x1024_0_1) v192
  have v194 : IVec S1048576 32 := shapeCast S1048576 v193 shapeCasts_S1024x1024_S1048576
  have v195 : FVec F S1048576 .f32 := shapeCast S1048576 adj shapeCasts_S1024x1024_S1048576
  have cst_35 : FVec F S_ .f32 := constant S_ .f32 0x00000000#32
  have v196 : FVec F S1048576 .f32 := (broadcastInDim S1048576 ![] bcast_S_S1048576 : (⟨S_, .f32⟩ : BufTy).Contents (Elt F) → (⟨S1048576, .f32⟩ : BufTy).Contents (Elt F)) cst_35
  have v197 : IVec S1048576 1 := (cmpf .une : (⟨S1048576, .f32⟩ : BufTy).Contents (Elt F) → (⟨S1048576, .f32⟩ : BufTy).Contents (Elt F) → (⟨S1048576, .i1⟩ : BufTy).Contents (Elt F)) v195 v196
  have v198 : FVec F S1048576 .f32 := (uitofp .f32 : (⟨S1048576, .i1⟩ : BufTy).Contents (Elt F) → (⟨S1048576, .f32⟩ : BufTy).Contents (Elt F)) v197
  have v199 : FVec F S1024x2 .f32 := ((fun l r => Host.dotGeneral dot_S1024x32_S32x2_S1024x2_1_0_0_1_n_n none l r) : (⟨S1024x32, .f32⟩ : BufTy).Contents (Elt F) → (⟨S32x2, .f32⟩ : BufTy).Contents (Elt F) → (⟨S1024x2, .f32⟩ : BufTy).Contents (Elt F)) v187 wl
  have c_36 : IVec S_ 32 := constantI S_ 32 0#32
  have v200 : IVec S1048576 32 := (broadcastInDim S1048576 ![] bcast_S_S1048576) c_36
  have v201 : IVec S1048576 1 := (cmpi .slt) v190 v200
  have c_37 : IVec S_ 32 := constantI S_ 32 1024#32
  have v202 : IVec S1048576 32 := (broadcastInDim S1048576 ![] bcast_S_S1048576) c_37
  have v203 : IVec S1048576 32 := addi v190 v202
  have v204 : IVec S1048576 32 := select v201 v203 v190
  have v205 : IVec S1048576x1 32 := (broadcastInDim S1048576x1 ![0] bcast_S1048576_S1048576x1_0) v204
  have v206 : FVec F S1048576x2 .f32 := ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)) v199 v205
  have c_38 : IVec S_ 32 := constantI S_ 32 0#32
  have v207 : IVec S1048576 32 := (broadcastInDim S1048576 ![] bcast_S_S1048576) c_38
  have v208 : IVec S1048576 1 := (cmpi .slt) v194 v207
  have c_39 : IVec S_ 32 := constantI S_ 32 1024#32
  have v209 : IVec S1048576 32 := (broadcastInDim S1048576 ![] bcast_S_S1048576) c_39
  have v210 : IVec S1048576 32 := addi v194 v209
  have v211 : IVec S1048576 32 := select v208 v210 v194
  have v212 : IVec S1048576x1 32 := (broadcastInDim S1048576x1 ![0] bcast_S1048576_S1048576x1_0) v211
  have v213 : FVec F S1048576x2 .f32 := ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)) v199 v212
  have v214 : FVec F S1048576x4 .f32 := ((fun a b => concatenate S1048576x4 1 [⟨S1048576x2, a⟩, ⟨S1048576x2, b⟩] concatenates_S1048576x2_S1048576x2_S1048576x4_d1) : (⟨S1048576x2, .f32⟩ : BufTy).Contents (Elt F) → (⟨S1048576x2, .f32⟩ : BufTy).Contents (Elt F) → (⟨S1048576x4, .f32⟩ : BufTy).Contents (Elt F)) v206 v213
  have v215 : FVec F S4x1048576 .f32 := ((transpose S4x1048576 [1, 0] · transposes_S1048576x4_S4x1048576_1_0) : (⟨S1048576x4, .f32⟩ : BufTy).Contents (Elt F) → (⟨S4x1048576, .f32⟩ : BufTy).Contents (Elt F)) v214
  have v216 : FVec F S1x1048576 .f32 := ((fun l r => Host.dotGeneral dot_S1x4_S4x1048576_S1x1048576_1_0_0_1_n_n none l r) : (⟨S1x4, .f32⟩ : BufTy).Contents (Elt F) → (⟨S4x1048576, .f32⟩ : BufTy).Contents (Elt F) → (⟨S1x1048576, .f32⟩ : BufTy).Contents (Elt F)) al v215
  have v217 : FVec F S1048576 .f32 := shapeCast S1048576 v216 shapeCasts_S1x1048576_S1048576
  have cst_40 : FVec F S_ .f32 := constant S_ .f32 0x3E4CCCCD#32
  have call8_cst : FVec F S_ .f32 := constant S_ .f32 0x00000000#32
  have call8_v0 : FVec F S1048576 .f32 := (broadcastInDim S1048576 ![] bcast_S_S1048576) call8_cst
  have call8_v1 : IVec S1048576 1 := (cmpf .oge) v217 call8_v0
  have call8_v2 : FVec F S_ .f32 := id cst_40
  have call8_v3 : FVec F S1048576 .f32 := (broadcastInDim S1048576 ![] bcast_S_S1048576) call8_v2
  have call8_v4 : FVec F S1048576 .f32 := mulf call8_v3 v217
  have v218 : FVec F S1048576 .f32 := select call8_v1 v217 call8_v4
  have v219 : FVec F S1048576 .f32 := (Host.negf : (⟨S1048576, .f32⟩ : BufTy).Contents (Elt F) → (⟨S1048576, .f32⟩ : BufTy).Contents (Elt F)) v218
  have v220 : FVec F S1048576 .f32 := (Host.exp : (⟨S1048576, .f32⟩ : BufTy).Contents (Elt F) → (⟨S1048576, .f32⟩ : BufTy).Contents (Elt F)) v219
  have v221 : FVec F S1048576 .f32 := (mulf : (⟨S1048576, .f32⟩ : BufTy).Contents (Elt F) → (⟨S1048576, .f32⟩ : BufTy).Contents (Elt F) → (⟨S1048576, .f32⟩ : BufTy).Contents (Elt F)) v220 v198
  have cst_41 : FVec F S_ .f32 := constant S_ .f32 0x00000000#32
  have v222 : FVec F S1024 .f32 := (broadcastInDim S1024 ![] bcast_S_S1024 : (⟨S_, .f32⟩ : BufTy).Contents (Elt F) → (⟨S1024, .f32⟩ : BufTy).Contents (Elt F)) cst_41
  have v223 : IVec S1048576x1 32 := (broadcastInDim S1048576x1 ![0] bcast_S1048576_S1048576x1_0) v190
  have v224 : FVec F S1024 .f32 := ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)) v222 v223 v221
  have v225 : FVec F S1024x1 .f32 := (broadcastInDim S1024x1 ![0] bcast_S1024_S1024x1_0 : (⟨S1024, .f32⟩ : BufTy).Contents (Elt F) → (⟨S1024x1, .f32⟩ : BufTy).Contents (Elt F)) v224
  have v226 : FVec F S1048576x1 .f32 := (broadcastInDim S1048576x1 ![0] bcast_S1048576_S1048576x1_0 : (⟨S1048576, .f32⟩ : BufTy).Contents (Elt F) → (⟨S1048576x1, .f32⟩ : BufTy).Contents (Elt F)) v221
  have c_42 : IVec S_ 32 := constantI S_ 32 0#32
  have v227 : IVec S1048576 32 := (broadcastInDim S1048576 ![] bcast_S_S1048576) c_42
  have v228 : IVec S1048576 1 := (cmpi .slt) v194 v227
  have c_43 : IVec S_ 32 := constantI S_ 32 1024#32
  have v229 : IVec S1048576 32 := (broadcastInDim S1048576 ![] bcast_S_S1048576) c_43
  have v230 : IVec S1048576 32 := addi v194 v229
  have v231 : IVec S1048576 32 := select v228 v230 v194
  have v232 : IVec S1048576x1 32 := (broadcastInDim S1048576x1 ![0] bcast_S1048576_S1048576x1_0) v231
  have v233 : FVec F S1048576x2 .f32 := ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)) v199 v232
  have v234 : FVec F S1048576x2 .f32 := (broadcastInDim S1048576x2 ![0, 1] bcast_S1048576x1_S1048576x2_0_1 : (⟨S1048576x1, .f32⟩ : BufTy).Contents (Elt F) → (⟨S1048576x2, .f32⟩ : BufTy).Contents (Elt F)) v226
  have v235 : FVec F S1048576x2 .f32 := (mulf : (⟨S1048576x2, .f32⟩ : BufTy).Contents (Elt F) → (⟨S1048576x2, .f32⟩ : BufTy).Contents (Elt F) → (⟨S1048576x2, .f32⟩ : BufTy).Contents (Elt F)) v234 v233
  have cst_44 : FVec F S_ .f32 := constant S_ .f32 0x00000000#32
  have v236 : FVec F S1024x2 .f32 := (broadcastInDim S1024x2 ![] bcast_S_S1024x2 : (⟨S_, .f32⟩ : BufTy).Contents (Elt F) → (⟨S1024x2, .f32⟩ : BufTy).Contents (Elt F)) cst_44
  have v237 : IVec S1048576x1 32 := (broadcastInDim S1048576x1 ![0] bcast_S1048576_S1048576x1_0) v190
  have v238 : FVec F S1024x2 .f32 := ((fun x i u => Host.scatterAdd scatter_S1024x2_S1048576x1_S1048576x2_1_0_0_1 x i u) : (⟨S1024x2, .f32⟩ : BufTy).Contents (Elt F) → (⟨S1048576x1, .i32⟩ : BufTy).Contents (Elt F) → (⟨S1048576x2, .f32⟩ : BufTy).Contents (Elt F) → (⟨S1024x2, .f32⟩ : BufTy).Contents (Elt F)) v236 v237 v235
  have v239 : FVec F S1024x2 .f32 := (broadcastInDim S1024x2 ![0, 1] bcast_S1024x1_S1024x2_0_1 : (⟨S1024x1, .f32⟩ : BufTy).Contents (Elt F) → (⟨S1024x2, .f32⟩ : BufTy).Contents (Elt F)) v225
  have v240 : FVec F S1024x2 .f32 := (Host.divf : (⟨S1024x2, .f32⟩ : BufTy).Contents (Elt F) → (⟨S1024x2, .f32⟩ : BufTy).Contents (Elt F) → (⟨S1024x2, .f32⟩ : BufTy).Contents (Elt F)) v238 v239
  have call9_cst : FVec F S_ .f32 := constant S_ .f32 0x00000000#32
  have call9_v0 : FVec F S1024x2 .f32 := (broadcastInDim S1024x2 ![] bcast_S_S1024x2) call9_cst
  have call9_v1 : IVec S1024x2 1 := (cmpf .ogt) v240 call9_v0
  have call9_cst_0 : FVec F S_ .f32 := constant S_ .f32 0x00000000#32
  have call9_v2 : FVec F S1024x2 .f32 := (broadcastInDim S1024x2 ![] bcast_S_S1024x2) call9_cst_0
  have call9_v3 : IVec S1024x2 1 := (cmpf .ogt) v240 call9_v2
  have call9_cst_1 : FVec F S_ .f32 := constant S_ .f32 0x00000000#32
  have call9_call0_v0 : FVec F S_ .f32 := id call9_cst_1
  have call9_call0_v1 : FVec F S1024x2 .f32 := (broadcastInDim S1024x2 ![] bcast_S_S1024x2) call9_call0_v0
  have call9_v4 : FVec F S1024x2 .f32 := select call9_v3 call9_call0_v1 v240
  have call9_v5 : FVec F S1024x2 .f32 := Host.expm1 call9_v4
  have call9_cst_2 : FVec F S_ .f32 := constant S_ .f32 0x3F800000#32
  have call9_v6 : FVec F S1024x2 .f32 := (broadcastInDim S1024x2 ![] bcast_S_S1024x2) call9_cst_2
  have call9_v7 : FVec F S1024x2 .f32 := mulf call9_v6 call9_v5
  have v241 : FVec F S1024x2 .f32 := select call9_v1 v240 call9_v7
  v241

/-- The result with a leading axis of extent one. -/
def rOut (r : FVec F S1024x2 .f32) : FVec F S1x1024x2 .f32 :=
  have v242 : FVec F S1x1024x2 .f32 := (broadcastInDim S1x1024x2 ![1, 2] bcast_S1024x2_S1x1024x2_1_2 : (⟨S1024x2, .f32⟩ : BufTy).Contents (Elt F) → (⟨S1x1024x2, .f32⟩ : BufTy).Contents (Elt F)) r
  v242

/-- The whole program as one function of its eleven arguments. -/
def rMain (s : FVec F S1x2x1024x1024 .f32) (w0 : FVec F S1024x8 .f32) (a0 : FVec F S1x16 .f32) (w1 : FVec F S1024x8 .f32)
    (a1 : FVec F S1x16 .f32) (w2 : FVec F S1024x8 .f32) (a2 : FVec F S1x16 .f32) (w3 : FVec F S1024x8 .f32) (a3 : FVec F S1x16 .f32)
    (wl : FVec F S32x2 .f32) (al : FVec F S1x4 .f32) : FVec F S1x1024x2 .f32 :=
  rOut (rLast (rHead (rX s) rSrc rDst (rMask (rAdj s)) w0 a0) (rHead (rX s) rSrc rDst (rMask (rAdj s)) w1 a1)
    (rHead (rX s) rSrc rDst (rMask (rAdj s)) w2 a2) (rHead (rX s) rSrc rDst (rMask (rAdj s)) w3 a3) (rAdj s) wl al)

end Cert.ReferenceIdeal.Hand

end
-- ==== Proof.RefEdge.lean ====
/-
  The reference enumerates all ordered pairs of the 1024 nodes as edges: the pair (i, j) is edge 1024 * i + j,
  its source i = e / 1024 and its destination j = e % 1024. Every edge is exactly one pair.
-/
import Mathlib.Data.Fin.Basic
import Mathlib.Logic.Equiv.Fin.Basic

namespace Cert.ReferenceIdeal.Hand

/-- The ordered pair (i, j) as an edge number. -/
def edge (i j : Fin 1024) : Fin 1048576 := ⟨1024 * i.val + j.val, by omega⟩

theorem edge_val (i j : Fin 1024) : (edge i j).val = 1024 * i.val + j.val := rfl

theorem edge_div (i j : Fin 1024) : (edge i j).val / 1024 = i.val := by
  rw [edge_val]; omega

theorem edge_mod (i j : Fin 1024) : (edge i j).val % 1024 = j.val := by
  rw [edge_val]; omega

/-- Every edge is the pair of its source and its destination. -/
theorem edge_surj (e : Fin 1048576) : edge ⟨e.val / 1024, by omega⟩ ⟨e.val % 1024, by omega⟩ = e := by
  apply Fin.ext; rw [edge_val]; simp only []; omega

theorem edge_inj {i j i' j' : Fin 1024} (h : edge i j = edge i' j') : i = i' ∧ j = j' := by
  have := congrArg Fin.val h
  rw [edge_val, edge_val] at this
  exact ⟨Fin.ext (by omega), Fin.ext (by omega)⟩

/-- Pairs and edges correspond one to one. -/
def edgeEquiv : Fin 1024 × Fin 1024 ≃ Fin 1048576 where
  toFun p := edge p.1 p.2
  invFun e := (⟨e.val / 1024, by omega⟩, ⟨e.val % 1024, by omega⟩)
  left_inv p := by
    obtain ⟨i, j⟩ := p
    exact Prod.ext (Fin.ext (edge_div i j)) (Fin.ext (edge_mod i j))
  right_inv e := edge_surj e

end Cert.ReferenceIdeal.Hand
-- ==== Proof.RefGather.lean ====
/-
  The reference's edge tables and its per-edge gathers, read at an index.

  The reference lists the ordered pairs of the 1024 nodes as edges: the pair (i, j) is edge 1024 * i + j. Its source
  table holds i at that edge and its destination table holds j: each is an iota along one axis of the 1024 x 1024 grid
  of pairs, flattened row by row, and the row-major position of (i, j) in the grid is the edge number. Before a table
  indexes a gather, a negative entry would be wrapped by adding 1024; an entry in [0, 1024) is not negative as a signed
  word, so it is kept. A gather of rows with such an index reads the row the index names: the start index is clamped
  into [0, 1023], which changes nothing in that range, the row axis is collapsed, and the column is the result's own.
-/
import proofs.«174455_g86844238725802_fold_wed_m_134_3_alg».proof.ReferenceIdeal
import proofs.«174455_g86844238725802_fold_wed_m_134_3_alg».proof.Proof.RefEdge
import proofs.«174455_g86844238725802_fold_wed_m_134_3_alg».proof.Proof.Spec
import Idealize.ShloMosaic.Lib.ValueIdx
import Idealize.ShloMosaic.Lib.IdealHost
import Idealize.ShloMosaic.Lib.Pipeline.Value

namespace Cert.ReferenceIdeal.Hand

open Cert.ReferenceIdeal Idealize.ShloMosaic Idealize.ShloMosaic.ValueIdx

/-! ## Words: a node number as a signed 32-bit word -/

/-- A number below 1024 written as a 32-bit word reads back, as a signed integer, as itself. -/
theorem toInt_node (n : Nat) (hn : n < 1024) : (BitVec.ofNat 32 n).toInt = (n : Int) := by
  rw [BitVec.toInt_eq_toNat_cond, BitVec.toNat_ofNat, Nat.mod_eq_of_lt (by omega)]
  rw [if_pos (by omega)]

/-- Such a word is not below zero in the signed order. -/
theorem slt_node (n : Nat) (hn : n < 1024) : IntOp.cmpi .slt (BitVec.ofNat 32 n) 0#32 = 0#1 := by
  show BitVec.ofBool ((BitVec.ofNat 32 n).slt 0#32) = 0#1
  have hlt : (BitVec.ofNat 32 n).slt 0#32 = false := by
    unfold BitVec.slt
    rw [toInt_node n hn]
    simp
  rw [hlt]; rfl

/-! ## A gather of whole rows

An operand of N rows and C columns, one start index per result row (an M x 1 array of words), a result of M rows and
C columns: result element (e, d) is the operand at row (the start index of e, clamped into [0, N - 1]) and column d. -/

section Rows
variable {α : Type}

/-- The dimension numbers of a gather of whole rows. -/
abbrev rowsDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The gather of rows at (e, d), when the start index of e, read signed, is the row number r. -/
theorem gather_rows_apply {N M C w : Nat}
    (wf : GatherDims.WF ⟨2, ![N, C]⟩ ⟨2, ![M, 1]⟩ ⟨2, ![M, C]⟩ [1] [0] [] [0] [] 1 ![1, C])
    (T : (⟨2, ![N, C]⟩ : Shape).Idx → α) (ix : IVec ⟨2, ![M, 1]⟩ w) (e : Fin M) (r : Fin N) (d : Fin C)
    (h : (ix (ix2 e (0 : Fin 1))).toInt.toNat = r.val) :
    Host.gather (rowsDims N M C wf) T ix (ix2 e d) = T (ix2 r d) := by
  unfold Host.gather
  congr 1
  funext a
  refine Fin.ext ?_
  match a with
  | ⟨0, _⟩ =>
    -- the row axis: collapsed, so no offset; its start is the clamped start index
    show (rowsDims N M C wf).start (ix2 e d) ix 0 + (rowsDims N M C wf).batchCoord (ix2 e d) 0
      + (rowsDims N M C wf).offCoord (ix2 e d) 0 = r.val
    rw [GatherDims.batchCoord_eq_zero _ _ _ List.not_mem_nil,
      GatherDims.offCoord_eq_zero _ _ _ (fun hm => ((GatherDims.mem_sKept _ _).mp hm).1 (List.mem_singleton.mpr rfl))]
    simp only [Nat.add_zero]
    unfold GatherDims.start
    rw [dif_pos (show (0 : Fin 2) ∈ (rowsDims N M C wf).startIndexMap from List.mem_singleton.mpr rfl)]
    have hsi : (rowsDims N M C wf).siIdx (ix2 e d) ⟨List.idxOf (0 : Fin 2) (rowsDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi, h]
    show min r.val (N - 1) = r.val
    have := r.isLt
    omega
  | ⟨1, _⟩ =>
    -- the column axis: not indexed, so its start is zero; the offset is the result's column
    show (rowsDims N M C wf).start (ix2 e d) ix 1 + (rowsDims N M C wf).batchCoord (ix2 e d) 1
      + (rowsDims N M C wf).offCoord (ix2 e d) 1 = d.val
    rw [GatherDims.batchCoord_eq_zero _ _ _ List.not_mem_nil]
    have hst : (rowsDims N M C wf).start (ix2 e d) ix 1 = 0 := by
      unfold GatherDims.start
      rw [dif_neg (show (1 : Fin 2) ∉ (rowsDims N M C wf).startIndexMap from
        (by decide : (1 : Fin 2) ∉ ([0] : List (Fin 2))))]
    rw [hst]
    simp only [Nat.add_zero, Nat.zero_add]
    unfold GatherDims.offCoord
    rw [dif_pos (show (1 : Fin 2) ∈ (rowsDims N M C wf).sKept from
      (GatherDims.mem_sKept _ _).mpr ⟨(by decide : (1 : Fin 2) ∉ ([0] : List (Fin 2))), List.not_mem_nil⟩)]
    rfl

end Rows

/-! ## The reference's tables and gathers -/

section
variable [Facts₀]
open Facts₀

/-- The row-major position of the pair (i, j) in the grid of pairs is its edge number. -/
theorem edge_rowMajor (i j : Fin 1024) :
    (S1024x1024.rowMajor (ix2 i j)).val = (S1048576.rowMajor (ix1 (edge i j))).val := by
  rw [Shape.rowMajor_val_two, Shape.rowMajor_val_one]
  show i.val * 1024 + j.val = 1024 * i.val + j.val
  omega

/-- The source table: the iota over the nodes, repeated along the second axis of the grid and flattened, holds i at
    the edge (i, j). -/
theorem srcTable_apply (i j : Fin 1024) :
    shapeCast S1048576 (broadcastInDim S1024x1024 ![0] bcast_S1024_S1024x1024_0 (iotaInDim S1024 32 0))
      shapeCasts_S1024x1024_S1048576 (ix1 (edge i j)) = BitVec.ofNat 32 i.val := by
  refine (shapeCast_apply _ shapeCasts_S1024x1024_S1048576 (ix1 (edge i j)) (ix2 i j) (edge_rowMajor i j)).trans ?_
  refine (broadcastInDim_apply ![0] bcast_S1024_S1024x1024_0 _ (ix2 i j) (ix1 i) ?_).trans ?_
  · intro a
    obtain rfl : a = 0 := Subsingleton.elim _ _
    rfl
  rfl

/-- The destination table: the iota over the nodes, as a row, repeated along the first axis of the grid and flattened,
    holds j at the edge (i, j). -/
theorem dstTable_apply (i j : Fin 1024) :
    shapeCast S1048576 (broadcastInDim S1024x1024 ![0, 1] bcast_S1x1024_S1024x1024_0_1
      (shapeCast S1x1024 (iotaInDim S1024 32 0) shapeCasts_S1024_S1x1024)) shapeCasts_S1024x1024_S1048576
      (ix1 (edge i j)) = BitVec.ofNat 32 j.val := by
  refine (shapeCast_apply _ shapeCasts_S1024x1024_S1048576 (ix1 (edge i j)) (ix2 i j) (edge_rowMajor i j)).trans ?_
  refine (broadcastInDim_apply ![0, 1] bcast_S1x1024_S1024x1024_0_1 _ (ix2 i j) (ix2 (0 : Fin 1) j) ?_).trans ?_
  · intro a
    match a with
    | ⟨0, _⟩ => rfl
    | ⟨1, _⟩ => rfl
  refine (shapeCast_apply _ shapeCasts_S1024_S1x1024 (ix2 (0 : Fin 1) j) (ix1 j) ?_).trans ?_
  · rw [Shape.rowMajor_val_one, Shape.rowMajor_val_two]
    show j.val = 0 * 1024 + j.val
    omega
  rfl

/-- The index normalisation (add 1024 to a negative entry) keeps a table entry in [0, 1024). -/
theorem normIdx_apply (idx : IVec S1048576 32) (e : Fin 1048576) (r : Fin 1024)
    (h : idx (ix1 e) = BitVec.ofNat 32 r.val) :
    broadcastInDim S1048576x1 ![0] bcast_S1048576_S1048576x1_0
      (select (cmpi .slt idx (broadcastInDim S1048576 ![] bcast_S_S1048576 (constantI S_ 32 0#32)))
        (addi idx (broadcastInDim S1048576 ![] bcast_S_S1048576 (constantI S_ 32 1024#32))) idx) (ix2 e 0)
      = BitVec.ofNat 32 r.val := by
  refine (broadcastInDim_apply ![0] bcast_S1048576_S1048576x1_0 _ (ix2 e 0) (ix1 e) ?_).trans ?_
  · intro a
    obtain rfl : a = 0 := Subsingleton.elim _ _
    rfl
  rw [select_apply]
  have hc : cmpi .slt idx (broadcastInDim S1048576 ![] bcast_S_S1048576 (constantI S_ 32 0#32)) (ix1 e) = 0#1 := by
    show IntOp.cmpi .slt (idx (ix1 e)) (broadcastInDim S1048576 ![] bcast_S_S1048576 (constantI S_ 32 0#32) (ix1 e)) = 0#1
    rw [h, broadcastInDim_scalar_apply]
    exact slt_node r.val r.isLt
  rw [hc, select_zero, h]

/-- A table entry in [0, 1024), read signed, is the row number. -/
theorem toNat_node (r : Fin 1024) : (BitVec.ofNat 32 r.val).toInt.toNat = r.val := by
  rw [toInt_node r.val r.isLt]; rfl

/-- The gather of the rows of a 1024 x 8 table: edge e takes row r when its index is r. -/
theorem gatherRows8_apply {F : FTy → Type} [FloatOps F] (T : FVec F S1024x8 .f32) (ix : IVec S1048576x1 32)
    (e : Fin 1048576) (r : Fin 1024) (h : ix (ix2 e 0) = BitVec.ofNat 32 r.val) (d : Fin 8) :
    Host.gather gather_S1024x8_S1048576x1_S1048576x8_1_0_n_n_0_1_18 T ix (ix2 e d) = T (ix2 r d) :=
  gather_rows_apply gather_S1024x8_S1048576x1_S1048576x8_1_0_n_n_0_1_18_wf T ix e r d (by rw [h]; exact toNat_node r)

/-- The gather of the rows of a 1024 x 2 table: edge e takes row r when its index is r. -/
theorem gatherRows2_apply {F : FTy → Type} [FloatOps F] (T : FVec F S1024x2 .f32) (ix : IVec S1048576x1 32)
    (e : Fin 1048576) (r : Fin 1024) (h : ix (ix2 e 0) = BitVec.ofNat 32 r.val) (d : Fin 2) :
    Host.gather gather_S1024x2_S1048576x1_S1048576x2_1_0_n_n_0_1_12 T ix (ix2 e d) = T (ix2 r d) :=
  gather_rows_apply gather_S1024x2_S1048576x1_S1048576x2_1_0_n_n_0_1_12_wf T ix e r d (by rw [h]; exact toNat_node r)

end

end Cert.ReferenceIdeal.Hand
-- ==== Proof.RefScatter.lean ====
/-
  The reference's scatter-adds, read at one index of the result.

  A scatter-add into an array adds to each element every update whose index lands on it. Here the index of
  edge e is its source node e / 1024, so the updates that land on row i are exactly the edges (i, j),
  j = 0 … 1023, each once: the element of row i becomes what it was plus the sum over all destinations j of
  the update of edge (i, j). Two steps: where an update lands (the start read off the index vector, plus the
  window coordinate), and the re-indexing of the sum over all edges by pairs.
-/
import proofs.«174455_g86844238725802_fold_wed_m_134_3_alg».proof.ReferenceIdeal
import proofs.«174455_g86844238725802_fold_wed_m_134_3_alg».proof.Proof.RefEdge
import proofs.«174455_g86844238725802_fold_wed_m_134_3_alg».proof.Proof.Spec
import Idealize.ShloMosaic.PureOps.Dims
import Idealize.ShloMosaic.PureOps.Ideal
import Idealize.ShloMosaic.Lib.ValueIdx
import Mathlib.Data.Fintype.BigOperators
import Mathlib.Algebra.BigOperators.Group.Finset.Piecewise

namespace Cert.ReferenceIdeal.Hand

open Cert.ReferenceIdeal Idealize.ShloMosaic Idealize.ShloMosaic.ValueIdx

/-! ## The sum over all edges, by pairs -/

/-- A sum over all edges whose term at edge (a, b) vanishes unless a = i is the sum over the destinations j of
    the term of edge (i, j). -/
theorem sum_edges_of_eq {M : Type*} [AddCommMonoid M] (i : Fin 1024) (G g : Fin 1048576 → M)
    (hG : ∀ a b : Fin 1024, G (edge a b) = if a = i then g (edge a b) else 0) :
    ∑ e : Fin 1048576, G e = ∑ b : Fin 1024, g (edge i b) := by
  rw [← Equiv.sum_comp edgeEquiv, Fintype.sum_prod_type]
  have h : ∀ a : Fin 1024, (∑ b : Fin 1024, G (edgeEquiv (a, b)))
      = if a = i then ∑ b : Fin 1024, g (edge a b) else 0 := by
    intro a
    by_cases ha : a = i
    · rw [if_pos ha]; exact Finset.sum_congr rfl fun b _ => (hG a b).trans (if_pos ha)
    · rw [if_neg ha]; exact Finset.sum_eq_zero fun b _ => (hG a b).trans (if_neg ha)
  rw [Finset.sum_congr rfl fun a _ => h a, Finset.sum_ite_eq', if_pos (Finset.mem_univ i)]

/-- The same, the terms kept by a condition that holds exactly on the edges with source i. -/
theorem sum_edges_of_pred {M : Type*} [AddCommMonoid M] (i : Fin 1024) (P : Fin 1048576 → Prop) [DecidablePred P]
    (hP : ∀ a b : Fin 1024, P (edge a b) ↔ a = i) (g : Fin 1048576 → M) :
    ∑ e : Fin 1048576, (if P e then g e else 0) = ∑ b : Fin 1024, g (edge i b) :=
  sum_edges_of_eq i _ g fun a b => if_congr (hP a b) rfl rfl

/-- The same with the source written as a quotient. -/
theorem sum_edges_of_src {M : Type*} [AddCommMonoid M] (i : Fin 1024) (f : Fin 1048576 → M) :
    ∑ e : Fin 1048576, (if e.val / 1024 = i.val then f e else 0) = ∑ j : Fin 1024, f (edge i j) :=
  sum_edges_of_pred i (fun e => e.val / 1024 = i.val)
    (fun a b => by rw [edge_div]; exact ⟨fun h => Fin.ext h, fun h => congrArg Fin.val h⟩) f

/-- A rank-1 index set is its coordinate range. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Where an update lands -/

/-- A 32-bit word made from a node number reads back, signed, as that number. -/
theorem toInt_ofNat_node (a : Fin 1024) : (BitVec.ofNat 32 a.val).toInt = (a.val : Int) := by
  have ha := a.isLt
  rw [BitVec.toInt_eq_toNat_cond, BitVec.toNat_ofNat, Nat.mod_eq_of_lt (by omega)]
  split <;> omega

/-- An update lands at r when on every axis the start plus the window coordinate is r's coordinate. -/
theorem resultIdx?_eq_some {s si u : Shape} (d : ScatterDims s si u) {w : Nat} (j : u.Idx) (idx : IVec si w)
    (r : s.Idx) (h : ∀ a, d.start j idx a + (d.window j a : Int) = ((r a).val : Int)) :
    d.resultIdx? j idx = some r := by
  unfold ScatterDims.resultIdx?
  have h' : ∀ a, 0 ≤ d.start j idx a + d.window j a ∧ d.start j idx a + d.window j a < s.size a := by
    intro a
    have := (r a).isLt
    rw [h a]
    omega
  rw [dif_pos h']
  congr 1
  funext a
  apply Fin.ext
  simp only [h a, Int.toNat_natCast]

section Lands

variable [Facts₀]

/-- An edge's update into the row totals lands on the edge's source node. -/
theorem totals_lands (ix : IVec S1048576x1 32) (a : Fin 1024) (e : Fin 1048576)
    (h : ix (ix2 e 0) = BitVec.ofNat 32 a.val) :
    scatter_S1024_S1048576x1_S1048576_n_0_0_1.resultIdx? (ix1 e) ix = some (ix1 a) := by
  apply resultIdx?_eq_some
  intro b
  obtain rfl : b = 0 := Subsingleton.elim _ _
  have hw : scatter_S1024_S1048576x1_S1048576_n_0_0_1.window (ix1 e) 0 = 0 := by
    unfold ScatterDims.window
    have hn : (0 : Fin S1024.rank) ∉ scatter_S1024_S1048576x1_S1048576_n_0_0_1.sKept :=
      show (0 : Fin S1024.rank) ∉ S1024.kept [0] by decide
    rw [dif_neg hn]
  have hs : scatter_S1024_S1048576x1_S1048576_n_0_0_1.start (ix1 e) ix 0 = (a.val : Int) := by
    unfold ScatterDims.start
    rw [dif_pos (show (0 : Fin 1) ∈ scatter_S1024_S1048576x1_S1048576_n_0_0_1.scatterDimsToOperandDims from
      List.mem_singleton.mpr rfl)]
    have hsi : scatter_S1024_S1048576x1_S1048576_n_0_0_1.siIdx (ix1 e)
        ⟨List.idxOf (0 : Fin 1) scatter_S1024_S1048576x1_S1048576_n_0_0_1.scatterDimsToOperandDims,
          List.idxOf_lt_length_iff.2 (List.mem_singleton.mpr rfl)⟩ = ix2 e 0 := by
      funext c; refine Fin.ext ?_
      match c with
      | ⟨0, _⟩ => rfl
      | ⟨1, _⟩ => rfl
    rw [hsi, h, toInt_ofNat_node]
  rw [hw, hs]
  rfl

end Lands

section Lands8

variable [Facts₀]

/-- An edge's row update into the [1024, 8] aggregates lands on the edge's source row, at the same column. -/
theorem rows8_lands (ix : IVec S1048576x1 32) (a : Fin 1024) (e : Fin 1048576) (c : Fin 8)
    (h : ix (ix2 e 0) = BitVec.ofNat 32 a.val) :
    scatter_S1024x8_S1048576x1_S1048576x8_1_0_0_1.resultIdx? (ix2 e c) ix = some (ix2 a c) := by
  apply resultIdx?_eq_some
  intro b
  match b with
  | ⟨0, _⟩ =>
    have hw : scatter_S1024x8_S1048576x1_S1048576x8_1_0_0_1.window (ix2 e c) 0 = 0 := by
      unfold ScatterDims.window
      have hn : (0 : Fin S1024x8.rank) ∉ scatter_S1024x8_S1048576x1_S1048576x8_1_0_0_1.sKept :=
        show (0 : Fin S1024x8.rank) ∉ S1024x8.kept [0] by decide
      rw [dif_neg hn]
    have hs : scatter_S1024x8_S1048576x1_S1048576x8_1_0_0_1.start (ix2 e c) ix 0 = (a.val : Int) := by
      unfold ScatterDims.start
      rw [dif_pos (show (0 : Fin 2) ∈ scatter_S1024x8_S1048576x1_S1048576x8_1_0_0_1.scatterDimsToOperandDims from
        List.mem_singleton.mpr rfl)]
      have hsi : scatter_S1024x8_S1048576x1_S1048576x8_1_0_0_1.siIdx (ix2 e c)
          ⟨List.idxOf (0 : Fin 2) scatter_S1024x8_S1048576x1_S1048576x8_1_0_0_1.scatterDimsToOperandDims,
            List.idxOf_lt_length_iff.2 (List.mem_singleton.mpr rfl)⟩ = ix2 e 0 := by
        funext k; refine Fin.ext ?_
        match k with
        | ⟨0, _⟩ => rfl
        | ⟨1, _⟩ => rfl
      rw [hsi, h, toInt_ofNat_node]
    show scatter_S1024x8_S1048576x1_S1048576x8_1_0_0_1.start (ix2 e c) ix 0
      + (scatter_S1024x8_S1048576x1_S1048576x8_1_0_0_1.window (ix2 e c) 0 : Int) = _
    rw [hw, hs]
    rfl
  | ⟨1, _⟩ =>
    have hw : scatter_S1024x8_S1048576x1_S1048576x8_1_0_0_1.window (ix2 e c) 1 = c.val := by
      unfold ScatterDims.window
      have hy : (1 : Fin S1024x8.rank) ∈ scatter_S1024x8_S1048576x1_S1048576x8_1_0_0_1.sKept :=
        show (1 : Fin S1024x8.rank) ∈ S1024x8.kept [0] by decide
      rw [dif_pos hy]
      rfl
    have hs : scatter_S1024x8_S1048576x1_S1048576x8_1_0_0_1.start (ix2 e c) ix 1 = 0 := by
      unfold ScatterDims.start
      have hn : (1 : Fin S1024x8.rank) ∉ scatter_S1024x8_S1048576x1_S1048576x8_1_0_0_1.scatterDimsToOperandDims :=
        show (1 : Fin S1024x8.rank) ∉ [(0 : Fin S1024x8.rank)] by decide
      rw [dif_neg hn]
    show scatter_S1024x8_S1048576x1_S1048576x8_1_0_0_1.start (ix2 e c) ix 1
      + (scatter_S1024x8_S1048576x1_S1048576x8_1_0_0_1.window (ix2 e c) 1 : Int) = _
    rw [hw, hs]
    exact Int.zero_add _

end Lands8

section Lands2

variable [Facts₀]

/-- An edge's row update into the [1024, 2] aggregates lands on the edge's source row, at the same column. -/
theorem rows2_lands (ix : IVec S1048576x1 32) (a : Fin 1024) (e : Fin 1048576) (c : Fin 2)
    (h : ix (ix2 e 0) = BitVec.ofNat 32 a.val) :
    scatter_S1024x2_S1048576x1_S1048576x2_1_0_0_1.resultIdx? (ix2 e c) ix = some (ix2 a c) := by
  apply resultIdx?_eq_some
  intro b
  match b with
  | ⟨0, _⟩ =>
    have hw : scatter_S1024x2_S1048576x1_S1048576x2_1_0_0_1.window (ix2 e c) 0 = 0 := by
      unfold ScatterDims.window
      have hn : (0 : Fin S1024x2.rank) ∉ scatter_S1024x2_S1048576x1_S1048576x2_1_0_0_1.sKept :=
        show (0 : Fin S1024x2.rank) ∉ S1024x2.kept [0] by decide
      rw [dif_neg hn]
    have hs : scatter_S1024x2_S1048576x1_S1048576x2_1_0_0_1.start (ix2 e c) ix 0 = (a.val : Int) := by
      unfold ScatterDims.start
      rw [dif_pos (show (0 : Fin 2) ∈ scatter_S1024x2_S1048576x1_S1048576x2_1_0_0_1.scatterDimsToOperandDims from
        List.mem_singleton.mpr rfl)]
      have hsi : scatter_S1024x2_S1048576x1_S1048576x2_1_0_0_1.siIdx (ix2 e c)
          ⟨List.idxOf (0 : Fin 2) scatter_S1024x2_S1048576x1_S1048576x2_1_0_0_1.scatterDimsToOperandDims,
            List.idxOf_lt_length_iff.2 (List.mem_singleton.mpr rfl)⟩ = ix2 e 0 := by
        funext k; refine Fin.ext ?_
        match k with
        | ⟨0, _⟩ => rfl
        | ⟨1, _⟩ => rfl
      rw [hsi, h, toInt_ofNat_node]
    show scatter_S1024x2_S1048576x1_S1048576x2_1_0_0_1.start (ix2 e c) ix 0
      + (scatter_S1024x2_S1048576x1_S1048576x2_1_0_0_1.window (ix2 e c) 0 : Int) = _
    rw [hw, hs]
    rfl
  | ⟨1, _⟩ =>
    have hw : scatter_S1024x2_S1048576x1_S1048576x2_1_0_0_1.window (ix2 e c) 1 = c.val := by
      unfold ScatterDims.window
      have hy : (1 : Fin S1024x2.rank) ∈ scatter_S1024x2_S1048576x1_S1048576x2_1_0_0_1.sKept :=
        show (1 : Fin S1024x2.rank) ∈ S1024x2.kept [0] by decide
      rw [dif_pos hy]
      rfl
    have hs : scatter_S1024x2_S1048576x1_S1048576x2_1_0_0_1.start (ix2 e c) ix 1 = 0 := by
      unfold ScatterDims.start
      have hn : (1 : Fin S1024x2.rank) ∉ scatter_S1024x2_S1048576x1_S1048576x2_1_0_0_1.scatterDimsToOperandDims :=
        show (1 : Fin S1024x2.rank) ∉ [(0 : Fin S1024x2.rank)] by decide
      rw [dif_neg hn]
    show scatter_S1024x2_S1048576x1_S1048576x2_1_0_0_1.start (ix2 e c) ix 1
      + (scatter_S1024x2_S1048576x1_S1048576x2_1_0_0_1.window (ix2 e c) 1 : Int) = _
    rw [hw, hs]
    exact Int.zero_add _

end Lands2

/-! ## The scatter-adds at an index -/

section Apply

variable [Facts₀]

/-- Two node numbers' rank-1 indices agree exactly when the nodes do. -/
theorem some_ix1_eq_iff (a i : Fin 1024) : (some (ix1 a) = some (ix1 i)) ↔ a = i :=
  ⟨fun h => congrFun (Option.some.inj h) 0, fun h => by rw [h]⟩

/-- Two rank-2 indices agree exactly when both coordinates do. -/
theorem some_ix2_eq_iff {H : Nat} (a i : Fin 1024) (c d : Fin H) :
    (some (ix2 a c) = some (ix2 i d)) ↔ a = i ∧ c = d :=
  ⟨fun h => ⟨congrFun (Option.some.inj h) 0, congrFun (Option.some.inj h) 1⟩, fun h => by rw [h.1, h.2]⟩

/-- The row totals: row i of the scatter-add of one weight per edge is the operand's element plus the sum over
    the destinations j of the weight of edge (i, j). -/
theorem scatterTotals_apply (z : FVec Ideal S1024 .f32) (ix : IVec S1048576x1 32)
    (hix : ∀ i j : Fin 1024, ix (ix2 (edge i j) 0) = BitVec.ofNat 32 i.val)
    (u : FVec Ideal S1048576 .f32) (i : Fin 1024) :
    Host.scatterAdd (F := Ideal) scatter_S1024_S1048576x1_S1048576_n_0_0_1 z ix u (ix1 i)
      = z (ix1 i) + ∑ j : Fin 1024, u (ix1 (edge i j)) := by
  show z (ix1 i) + ∑ j ∈ Finset.univ.filter
      (fun j => scatter_S1024_S1048576x1_S1048576_n_0_0_1.resultIdx? j ix = some (ix1 i)), u j = _
  refine congrArg (z (ix1 i) + ·) ?_
  rw [Finset.sum_filter, sum_idx1]
  exact sum_edges_of_pred i _ (fun a b => by
    rw [totals_lands ix a (edge a b) (hix a b)]
    exact some_ix1_eq_iff a i) (fun e => u (ix1 e))

/-- The aggregates: element (i, d) of the scatter-add of one [8]-row per edge is the operand's element plus the
    sum over the destinations j of column d of the row of edge (i, j). -/
theorem scatterRows8_apply (z : FVec Ideal S1024x8 .f32) (ix : IVec S1048576x1 32)
    (hix : ∀ i j : Fin 1024, ix (ix2 (edge i j) 0) = BitVec.ofNat 32 i.val)
    (u : FVec Ideal S1048576x8 .f32) (i : Fin 1024) (d : Fin 8) :
    Host.scatterAdd (F := Ideal) scatter_S1024x8_S1048576x1_S1048576x8_1_0_0_1 z ix u (ix2 i d)
      = z (ix2 i d) + ∑ j : Fin 1024, u (ix2 (edge i j) d) := by
  show z (ix2 i d) + ∑ j ∈ Finset.univ.filter
      (fun j => scatter_S1024x8_S1048576x1_S1048576x8_1_0_0_1.resultIdx? j ix = some (ix2 i d)), u j = _
  refine congrArg (z (ix2 i d) + ·) ?_
  rw [Finset.sum_filter, sum_idx2]
  refine sum_edges_of_eq i _ (fun e => u (ix2 e d)) (fun a b => ?_)
  have hc : ∀ c : Fin 8,
      (if scatter_S1024x8_S1048576x1_S1048576x8_1_0_0_1.resultIdx? (ix2 (edge a b) c) ix = some (ix2 i d)
        then u (ix2 (edge a b) c) else 0)
      = if c = d then (if a = i then u (ix2 (edge a b) c) else 0) else 0 := by
    intro c
    rw [rows8_lands ix a (edge a b) c (hix a b)]
    by_cases hcd : c = d
    · rw [if_pos hcd]
      exact if_congr ((some_ix2_eq_iff a i c d).trans (and_iff_left hcd)) rfl rfl
    · rw [if_neg hcd]
      exact if_neg fun h => hcd ((some_ix2_eq_iff a i c d).1 h).2
  rw [Finset.sum_congr rfl fun c _ => hc c, Finset.sum_ite_eq', if_pos (Finset.mem_univ d)]

/-- The last layer's aggregates: element (i, d) of the scatter-add of one [2]-row per edge is the operand's element plus the
    sum over the destinations j of column d of the row of edge (i, j). -/
theorem scatterRows2_apply (z : FVec Ideal S1024x2 .f32) (ix : IVec S1048576x1 32)
    (hix : ∀ i j : Fin 1024, ix (ix2 (edge i j) 0) = BitVec.ofNat 32 i.val)
    (u : FVec Ideal S1048576x2 .f32) (i : Fin 1024) (d : Fin 2) :
    Host.scatterAdd (F := Ideal) scatter_S1024x2_S1048576x1_S1048576x2_1_0_0_1 z ix u (ix2 i d)
      = z (ix2 i d) + ∑ j : Fin 1024, u (ix2 (edge i j) d) := by
  show z (ix2 i d) + ∑ j ∈ Finset.univ.filter
      (fun j => scatter_S1024x2_S1048576x1_S1048576x2_1_0_0_1.resultIdx? j ix = some (ix2 i d)), u j = _
  refine congrArg (z (ix2 i d) + ·) ?_
  rw [Finset.sum_filter, sum_idx2]
  refine sum_edges_of_eq i _ (fun e => u (ix2 e d)) (fun a b => ?_)
  have hc : ∀ c : Fin 2,
      (if scatter_S1024x2_S1048576x1_S1048576x2_1_0_0_1.resultIdx? (ix2 (edge a b) c) ix = some (ix2 i d)
        then u (ix2 (edge a b) c) else 0)
      = if c = d then (if a = i then u (ix2 (edge a b) c) else 0) else 0 := by
    intro c
    rw [rows2_lands ix a (edge a b) c (hix a b)]
    by_cases hcd : c = d
    · rw [if_pos hcd]
      exact if_congr ((some_ix2_eq_iff a i c d).trans (and_iff_left hcd)) rfl rfl
    · rw [if_neg hcd]
      exact if_neg fun h => hcd ((some_ix2_eq_iff a i c d).1 h).2
  rw [Finset.sum_congr rfl fun c _ => hc c, Finset.sum_ite_eq', if_pos (Finset.mem_univ d)]

end Apply

end Cert.ReferenceIdeal.Hand
-- ==== Proof.RefLast.lean ====
/-
  The last layer of the reference network, read at one element: one more attention head over the four first-layer
  heads laid side by side. Each stage of the edge-list computation is read at an index — the concatenation, the
  projection, the per-edge score from the gathered source and destination rows, the leaky rectifier, the
  exponential weight times the mask, the two scatter-adds keyed by the source table (the row totals and the
  weighted sums), the quotient and the exponential linear unit — and the stages compose to the specification's head.
-/
import proofs.«174455_g86844238725802_fold_wed_m_134_3_alg».proof.Proof.RefFn
import proofs.«174455_g86844238725802_fold_wed_m_134_3_alg».proof.Proof.RefGather
import proofs.«174455_g86844238725802_fold_wed_m_134_3_alg».proof.Proof.RefScatter
import proofs.«174455_g86844238725802_fold_wed_m_134_3_alg».proof.Proof.Spec
import proofs.«174455_g86844238725802_fold_wed_m_134_3_alg».proof.Proof.RefEdge
import Idealize.ShloMosaic.Lib.IdealHost
import Idealize.ShloMosaic.Lib.StackMember
import Idealize.ShloMosaic.Lib.Pipeline.Value
import Mathlib.Algebra.BigOperators.Fin

noncomputable section

namespace Cert.ReferenceIdeal.Hand

open Cert.ReferenceIdeal Idealize.ShloMosaic Idealize.ShloMosaic.ValueIdx
open scoped BigOperators

namespace Last

section Stages

variable [Facts₀]
open Facts₀

/-! ## Reading the layout operations of the chain at an index -/

/-- A vector made a one-column array reads the vector's entry. -/
theorem col_apply {α : Type} (v : S1048576.Idx → α) (e : Fin 1048576) :
    broadcastInDim S1048576x1 ![0] bcast_S1048576_S1048576x1_0 v (ix2 e 0) = v (ix1 e) :=
  broadcastInDim_apply _ _ v (ix2 e 0) (ix1 e) (fun a => match a with | ⟨0, _⟩ => rfl)

/-- A one-column array spread over two columns reads the column's entry. -/
theorem spread2_apply {α : Type} (v : S1048576x1.Idx → α) (e : Fin 1048576) (d : Fin 2) :
    broadcastInDim S1048576x2 ![0, 1] bcast_S1048576x1_S1048576x2_0_1 v (ix2 e d) = v (ix2 e 0) :=
  broadcastInDim_apply _ _ v (ix2 e d) (ix2 e 0) (fun a => match a with | ⟨0, _⟩ => rfl | ⟨1, _⟩ => rfl)

/-- The row totals as a one-column array spread over two columns read the row's total. -/
theorem rowSpread_apply {α : Type} (v : S1024.Idx → α) (i : Fin 1024) (d : Fin 2) :
    broadcastInDim S1024x2 ![0, 1] bcast_S1024x1_S1024x2_0_1 (broadcastInDim S1024x1 ![0] bcast_S1024_S1024x1_0 v) (ix2 i d)
      = v (ix1 i) :=
  (broadcastInDim_apply _ _ _ (ix2 i d) (ix2 i 0) (fun a => match a with | ⟨0, _⟩ => rfl | ⟨1, _⟩ => rfl)).trans
    (broadcastInDim_apply _ _ v (ix2 i 0) (ix1 i) (fun a => match a with | ⟨0, _⟩ => rfl))

/-- The four heads side by side: column c is column c % 8 of head c / 8. -/
theorem catHeads_apply (h0 h1 h2 h3 : FVec Ideal S1024x8 .f32) (i : Fin 1024) (c : Fin 32) :
    concatenate S1024x32 1 [⟨S1024x8, h0⟩, ⟨S1024x8, h1⟩, ⟨S1024x8, h2⟩, ⟨S1024x8, h3⟩]
        concatenates_S1024x8_S1024x8_S1024x8_S1024x8_S1024x32_d1 (ix2 i c)
      = (![h0, h1, h2, h3] ⟨c.val / 8, by omega⟩) (ix2 i ⟨c.val % 8, by omega⟩) :=
  concatenate_ofFn_apply (t := S1024x32) (s₁ := S1024x8) 1 (N := 4) (fun n => ![h0, h1, h2, h3] n)
    concatenates_S1024x8_S1024x8_S1024x8_S1024x8_S1024x32_d1 rfl 8 rfl (ix2 i c) ⟨c.val / 8, by omega⟩ rfl
    (ix2 i ⟨c.val % 8, by omega⟩) rfl (fun b hb => match b, hb with | ⟨0, _⟩, _ => rfl | ⟨1, _⟩, hb => absurd rfl hb)

/-- The projection: the concatenated features times the last layer's matrix, as a sum over the 32 columns. -/
theorem projLast_apply (X : FVec Ideal S1024x32 .f32) (wl : FVec Ideal S32x2 .f32) (i : Fin 1024) (d : Fin 2) :
    Host.dotGeneral dot_S1024x32_S32x2_S1024x2_1_0_0_1_n_n none X wl (ix2 i d) = ∑ c : Fin 32, X (ix2 i c) * wl (ix2 c d) :=
  StackMember.dotGeneral_plain_apply (m := 1024) (n := 2) (k := 32) none X wl i d

/-- The transposed concatenation of the gathered rows: its first two rows are the source rows' columns … -/
theorem catT_left (gs gd : FVec Ideal S1048576x2 .f32) (e : Fin 1048576) (c : Fin 4) (dd : Fin 2) (hc : c.val = dd.val) :
    transpose S4x1048576 [1, 0] (concatenate S1048576x4 1 [⟨S1048576x2, gs⟩, ⟨S1048576x2, gd⟩]
        concatenates_S1048576x2_S1048576x2_S1048576x4_d1) transposes_S1048576x4_S4x1048576_1_0 (ix2 c e)
      = gs (ix2 e dd) :=
  (transpose_apply _ _ _ (ix2 c e) (ix2 e c) (fun b => match b with | ⟨0, _⟩ => rfl | ⟨1, _⟩ => rfl)).trans
    (concatenate_pair_apply_left (t := S1048576x4) 1 gs gd _ (ix2 e c) rfl (ix2 e dd)
      (fun b => match b with | ⟨0, _⟩ => rfl | ⟨1, _⟩ => hc.symm))

/-- … and its last two rows the destination rows' columns. -/
theorem catT_right (gs gd : FVec Ideal S1048576x2 .f32) (e : Fin 1048576) (c : Fin 4) (dd : Fin 2) (hc : c.val = 2 + dd.val) :
    transpose S4x1048576 [1, 0] (concatenate S1048576x4 1 [⟨S1048576x2, gs⟩, ⟨S1048576x2, gd⟩]
        concatenates_S1048576x2_S1048576x2_S1048576x4_d1) transposes_S1048576x4_S4x1048576_1_0 (ix2 c e)
      = gd (ix2 e dd) :=
  (transpose_apply _ _ _ (ix2 c e) (ix2 e c) (fun b => match b with | ⟨0, _⟩ => rfl | ⟨1, _⟩ => rfl)).trans
    (concatenate_pair_apply_right (t := S1048576x4) 1 gs gd _ (ix2 e c) rfl rfl (ix2 e dd)
      (fun b hb => match b, hb with | ⟨0, _⟩, _ => rfl | ⟨1, _⟩, hb => absurd rfl hb)
      (by show dd.val + 2 = c.val; omega))

/-- The edge score: the attention row times the gathered rows, the source half then the destination half. -/
theorem scoreLast_apply (al : FVec Ideal S1x4 .f32) (gs gd : FVec Ideal S1048576x2 .f32) (e : Fin 1048576) :
    shapeCast S1048576 (Host.dotGeneral dot_S1x4_S4x1048576_S1x1048576_1_0_0_1_n_n none al
        (transpose S4x1048576 [1, 0] (concatenate S1048576x4 1 [⟨S1048576x2, gs⟩, ⟨S1048576x2, gd⟩]
          concatenates_S1048576x2_S1048576x2_S1048576x4_d1) transposes_S1048576x4_S4x1048576_1_0))
        shapeCasts_S1x1048576_S1048576 (ix1 e)
      = (∑ dd : Fin 2, al (ix2 0 ⟨dd.val, by omega⟩) * gs (ix2 e dd))
        + ∑ dd : Fin 2, al (ix2 0 ⟨2 + dd.val, by omega⟩) * gd (ix2 e dd) := by
  refine (shapeCast_apply _ _ (ix1 e) (ix2 0 e) (by
    rw [Shape.rowMajor_val_two, Shape.rowMajor_val_one]
    show 0 * 1048576 + e.val = e.val
    omega)).trans ?_
  refine (StackMember.dotGeneral_plain_apply (m := 1) (n := 1048576) (k := 4) none al _ 0 e).trans ?_
  rw [Fin.sum_univ_four, Fin.sum_univ_two, Fin.sum_univ_two,
    catT_left gs gd e 0 0 rfl, catT_left gs gd e 1 1 rfl, catT_right gs gd e 2 0 rfl, catT_right gs gd e 3 1 rfl]
  exact add_assoc _ _ _

/-! ## The scalar functions of the chain -/

/-- The reference's leaky rectifier, read at an edge. -/
theorem leakyVec_apply (v : FVec Ideal S1048576 .f32) (e : Fin 1048576) :
    select (cmpf .oge v (broadcastInDim S1048576 ![] bcast_S_S1048576 (constant S_ .f32 0x00000000#32))) v
        (mulf (broadcastInDim S1048576 ![] bcast_S_S1048576 (constant S_ .f32 0x3E4CCCCD#32)) v) (ix1 e)
      = Cert.Gat.leaky (v (ix1 e)) := by
  rw [select_apply, cmpf_apply, mulf_apply, broadcastInDim_scalar_apply, broadcastInDim_scalar_apply,
    constant_apply, constant_apply, Cert.Gat.zero_word]
  exact Cert.Gat.leaky_of_select _

/-- The edge weight: exp of minus the rectified score, times the mask entry. -/
theorem weightVec_apply (s m : FVec Ideal S1048576 .f32) (e : Fin 1048576) :
    mulf (Host.exp (Host.negf
        (select (cmpf .oge s (broadcastInDim S1048576 ![] bcast_S_S1048576 (constant S_ .f32 0x00000000#32))) s
          (mulf (broadcastInDim S1048576 ![] bcast_S_S1048576 (constant S_ .f32 0x3E4CCCCD#32)) s)))) m (ix1 e)
      = Ideal.exp (-(Cert.Gat.leaky (s (ix1 e)))) * m (ix1 e) := by
  rw [mulf_apply]
  show Ideal.exp (-(select _ s _ (ix1 e))) * m (ix1 e) = _
  rw [leakyVec_apply]

/-- The mask of an edge: the flattened adjacency compared with zero, as a float — 1 exactly where the entry is not zero. -/
theorem maskVec_apply (adj : FVec Ideal S1024x1024 .f32) (i j : Fin 1024) :
    (uitofp .f32 (cmpf .une (shapeCast S1048576 adj shapeCasts_S1024x1024_S1048576)
        (broadcastInDim S1048576 ![] bcast_S_S1048576 (constant S_ .f32 0x00000000#32))) : FVec Ideal S1048576 .f32)
        (ix1 (edge i j))
      = Cert.Gat.maskOf (adj (ix2 i j)) := by
  have hsc : shapeCast S1048576 adj shapeCasts_S1024x1024_S1048576 (ix1 (edge i j)) = adj (ix2 i j) :=
    shapeCast_apply _ _ (ix1 (edge i j)) (ix2 i j) (by
      rw [Shape.rowMajor_val_two, Shape.rowMajor_val_one]
      show i.val * 1024 + j.val = 1024 * i.val + j.val
      omega)
  show (((Ideal.cmp .une (shapeCast S1048576 adj shapeCasts_S1024x1024_S1048576 (ix1 (edge i j)))
      (broadcastInDim S1048576 ![] bcast_S_S1048576 (constant (F := Ideal) S_ .f32 0x00000000#32) (ix1 (edge i j)))).toNat : ℝ) : EReal) = _
  rw [hsc, broadcastInDim_scalar_apply, constant_apply, Cert.Gat.zero_word]
  unfold Ideal.cmp Cert.Gat.maskOf
  by_cases h : adj (ix2 i j) = 0 <;> simp [h]

/-- A weight spread along its edge's row of gathered features multiplies each feature. -/
theorem rowScale_apply (w : FVec Ideal S1048576 .f32) (g : FVec Ideal S1048576x2 .f32) (e : Fin 1048576) (d : Fin 2) :
    mulf (broadcastInDim S1048576x2 ![0, 1] bcast_S1048576x1_S1048576x2_0_1
        (broadcastInDim S1048576x1 ![0] bcast_S1048576_S1048576x1_0 w)) g (ix2 e d)
      = w (ix1 e) * g (ix2 e d) := by
  rw [mulf_apply, spread2_apply, col_apply]

/-- The aggregate divided by the row total. -/
theorem quot_apply (a : FVec Ideal S1024x2 .f32) (t : FVec Ideal S1024 .f32) (i : Fin 1024) (d : Fin 2) :
    Host.divf a (broadcastInDim S1024x2 ![0, 1] bcast_S1024x1_S1024x2_0_1
        (broadcastInDim S1024x1 ![0] bcast_S1024_S1024x1_0 t)) (ix2 i d)
      = Ideal.div (a (ix2 i d)) (t (ix1 i)) := by
  rw [hostDivf_apply, rowSpread_apply]

/-- The reference's exponential linear unit, read at an element. -/
theorem eluVec_apply (r : FVec Ideal S1024x2 .f32) (i : Fin 1024) (d : Fin 2) :
    select (cmpf .ogt r (broadcastInDim S1024x2 ![] bcast_S_S1024x2 (constant S_ .f32 0x00000000#32))) r
        (mulf (broadcastInDim S1024x2 ![] bcast_S_S1024x2 (constant S_ .f32 0x3F800000#32))
          (Host.expm1 (select (cmpf .ogt r (broadcastInDim S1024x2 ![] bcast_S_S1024x2 (constant S_ .f32 0x00000000#32)))
            (broadcastInDim S1024x2 ![] bcast_S_S1024x2 (constant S_ .f32 0x00000000#32)) r))) (ix2 i d)
      = Cert.Gat.elu (r (ix2 i d)) := by
  rw [select_apply, cmpf_apply, mulf_apply]
  show Scalar.select _ _ (_ * (Ideal.exp (select _ _ r (ix2 i d)) - 1)) = _
  rw [select_apply, cmpf_apply, broadcastInDim_scalar_apply, broadcastInDim_scalar_apply,
    constant_apply, constant_apply, Cert.Gat.zero_word, Cert.Gat.one_word]
  exact Cert.Gat.elu_of_where _

/-- The zero arrays the scatter-adds accumulate into. -/
theorem zeros1_apply (i : Fin 1024) :
    broadcastInDim S1024 ![] bcast_S_S1024 (constant (F := Ideal) S_ .f32 0x00000000#32) (ix1 i) = 0 := by
  rw [broadcastInDim_scalar_apply, constant_apply, Cert.Gat.zero_word]

theorem zeros2_apply (i : Fin 1024) (d : Fin 2) :
    broadcastInDim S1024x2 ![] bcast_S_S1024x2 (constant (F := Ideal) S_ .f32 0x00000000#32) (ix2 i d) = 0 := by
  rw [broadcastInDim_scalar_apply, constant_apply, Cert.Gat.zero_word]

/-! ## The stages composed -/

/-- The projected features of the last layer: the concatenated heads times the matrix is the specification's
    projection of the heads side by side. -/
theorem projCat_apply (h0 h1 h2 h3 : FVec Ideal S1024x8 .f32) (wl : FVec Ideal S32x2 .f32) (i : Fin 1024) (d : Fin 2) :
    Host.dotGeneral dot_S1024x32_S32x2_S1024x2_1_0_0_1_n_n none
        (concatenate S1024x32 1 [⟨S1024x8, h0⟩, ⟨S1024x8, h1⟩, ⟨S1024x8, h2⟩, ⟨S1024x8, h3⟩]
          concatenates_S1024x8_S1024x8_S1024x8_S1024x8_S1024x32_d1) wl (ix2 i d)
      = Cert.Gat.proj (fun i c => (![h0, h1, h2, h3] ⟨c.val / 8, by omega⟩) (ix2 i ⟨c.val % 8, by omega⟩))
          (fun c dd => wl (ix2 c dd)) i d :=
  (projLast_apply _ wl i d).trans
    (Finset.sum_congr rfl fun c _ => congrArg (· * wl (ix2 c d)) (catHeads_apply h0 h1 h2 h3 i c))

/-- The score of the edge (i, j): the source half of node i plus the destination half of node j. -/
theorem scoreEdge_apply {K : ℕ} (P : FVec Ideal S1024x2 .f32) (al : FVec Ideal S1x4 .f32) (ixs ixd : IVec S1048576x1 32)
    (i j : Fin 1024) (hs : ixs (ix2 (edge i j) 0) = BitVec.ofNat 32 i.val)
    (hd : ixd (ix2 (edge i j) 0) = BitVec.ofNat 32 j.val)
    (x : Fin 1024 → Fin K → EReal) (W : Fin K → Fin 2 → EReal) (hp : ∀ r dd, P (ix2 r dd) = Cert.Gat.proj x W r dd) :
    shapeCast S1048576 (Host.dotGeneral dot_S1x4_S4x1048576_S1x1048576_1_0_0_1_n_n none al
        (transpose S4x1048576 [1, 0] (concatenate S1048576x4 1
          [⟨S1048576x2, Host.gather gather_S1024x2_S1048576x1_S1048576x2_1_0_n_n_0_1_12 P ixs⟩,
           ⟨S1048576x2, Host.gather gather_S1024x2_S1048576x1_S1048576x2_1_0_n_n_0_1_12 P ixd⟩]
          concatenates_S1048576x2_S1048576x2_S1048576x4_d1) transposes_S1048576x4_S4x1048576_1_0))
        shapeCasts_S1x1048576_S1048576 (ix1 (edge i j))
      = Cert.Gat.srcScore x W (fun dd => al (ix2 0 ⟨dd.val, by omega⟩)) i
        + Cert.Gat.dstScore x W (fun dd => al (ix2 0 ⟨2 + dd.val, by omega⟩)) j := by
  rw [scoreLast_apply]
  refine congrArg₂ (· + ·) (Finset.sum_congr rfl fun dd _ => ?_) (Finset.sum_congr rfl fun dd _ => ?_)
  · rw [gatherRows2_apply P ixs (edge i j) i hs dd, hp, mul_comm]
  · rw [gatherRows2_apply P ixd (edge i j) j hd dd, hp]

/-- The weight of the edge (i, j) from its score and its mask entry. -/
theorem edgeWeight_apply {K : ℕ} (x : Fin 1024 → Fin K → EReal) (mask : Fin 1024 → Fin 1024 → EReal)
    (W : Fin K → Fin 2 → EReal) (asrc adst : Fin 2 → EReal) (i j : Fin 1024) (s m : FVec Ideal S1048576 .f32)
    (hs : s (ix1 (edge i j)) = Cert.Gat.srcScore x W asrc i + Cert.Gat.dstScore x W adst j)
    (hm : m (ix1 (edge i j)) = mask i j) :
    mulf (Host.exp (Host.negf
        (select (cmpf .oge s (broadcastInDim S1048576 ![] bcast_S_S1048576 (constant S_ .f32 0x00000000#32))) s
          (mulf (broadcastInDim S1048576 ![] bcast_S_S1048576 (constant S_ .f32 0x3E4CCCCD#32)) s)))) m (ix1 (edge i j))
      = Cert.Gat.weight x mask W asrc adst i j := by
  rw [weightVec_apply, hs, hm]
  rfl

end Stages

end Last

open Last in
/-- The last layer at node i, feature d: the specification's head over the four heads side by side. -/
theorem rLast_apply (h0 h1 h2 h3 : FVec Ideal S1024x8 .f32) (adj : FVec Ideal S1024x1024 .f32) (wl : FVec Ideal S32x2 .f32)
    (al : FVec Ideal S1x4 .f32) (i : Fin 1024) (d : Fin 2) :
    rLast (F := Ideal) h0 h1 h2 h3 adj wl al (ix2 i d)
      = Cert.Gat.head (fun i c => (![h0, h1, h2, h3] ⟨c.val / 8, by omega⟩) (ix2 i ⟨c.val % 8, by omega⟩))
          (fun i j => Cert.Gat.maskOf (adj (ix2 i j))) (fun c dd => wl (ix2 c dd))
          (fun dd => al (ix2 0 ⟨dd.val, by omega⟩)) (fun dd => al (ix2 0 ⟨2 + dd.val, by omega⟩)) i d := by
  have hp := projCat_apply h0 h1 h2 h3 wl
  unfold rLast
  refine (eluVec_apply _ i d).trans (congrArg Cert.Gat.elu ?_)
  refine (quot_apply _ _ i d).trans (congrArg₂ Ideal.div ?_ ?_)
  · -- the weighted sum of the projected rows
    refine (scatterRows2_apply _ _ (fun i' j' => (col_apply _ _).trans (srcTable_apply i' j')) _ i d).trans ?_
    refine (congrArg₂ (· + ·) (zeros2_apply i d) (Finset.sum_congr rfl fun j _ => ?_)).trans (zero_add _)
    refine (rowScale_apply _ _ _ d).trans (congrArg₂ (· * ·) ?_ ?_)
    · exact edgeWeight_apply _ _ _ _ _ i j _ _
        (scoreEdge_apply _ al _ _ i j (normIdx_apply _ _ i (srcTable_apply i j)) (normIdx_apply _ _ j (dstTable_apply i j)) _ _ hp)
        (maskVec_apply adj i j)
    · exact (gatherRows2_apply _ _ _ j (normIdx_apply _ _ j (dstTable_apply i j)) d).trans (hp j d)
  · -- the total weight
    refine (scatterTotals_apply _ _ (fun i' j' => (col_apply _ _).trans (srcTable_apply i' j')) _ i).trans ?_
    refine (congrArg₂ (· + ·) (zeros1_apply i) (Finset.sum_congr rfl fun j _ => ?_)).trans (zero_add _)
    exact edgeWeight_apply _ _ _ _ _ i j _ _
      (scoreEdge_apply _ al _ _ i j (normIdx_apply _ _ i (srcTable_apply i j)) (normIdx_apply _ _ j (dstTable_apply i j)) _ _ hp)
      (maskVec_apply adj i j)

end Cert.ReferenceIdeal.Hand

end
-- ==== Proof.RefHead.lean ====
/-
  One head of the reference is the specification's head.

  The reference walks over all 1024 · 1024 ordered pairs of nodes as edges e = 1024 i + j. For each edge it gathers
  rows i and j of the projected features x · W, scores the edge by the attention row against the two gathered rows
  side by side, passes the score through the leaky rectifier, and weights the edge by exp of minus that, times the
  mask entry of the edge. Two scatter-adds keyed by the source i then add, into zeros, the weights (the row totals)
  and the weights times the gathered destination rows (the aggregates); their quotient goes through the exponential
  linear unit.

  Read at one index, each step is the specification's formula. The gathered rows at edge (i, j) are rows i and j of
  the projection, so the score is the source score of i plus the destination score of j (the source half with the
  factors of each product commuted). A scatter-add into zeros keyed by the source is the sum over the destinations j.
  Nothing else is used of the extended reals than that sums commute and associate and products commute.
-/
import proofs.«174455_g86844238725802_fold_wed_m_134_3_alg».proof.Proof.RefFn
import proofs.«174455_g86844238725802_fold_wed_m_134_3_alg».proof.Proof.RefGather
import proofs.«174455_g86844238725802_fold_wed_m_134_3_alg».proof.Proof.RefScatter
import proofs.«174455_g86844238725802_fold_wed_m_134_3_alg».proof.Proof.Spec
import proofs.«174455_g86844238725802_fold_wed_m_134_3_alg».proof.Proof.RefEdge
import Idealize.ShloMosaic.Lib.IdealHost
import Idealize.ShloMosaic.Lib.StackMember
import Idealize.ShloMosaic.Lib.ValueLayout
import Idealize.ShloMosaic.Lib.Pipeline.Value
import Mathlib.Algebra.BigOperators.Fin

noncomputable section

namespace Cert.ReferenceIdeal.Hand

open Idealize.ShloMosaic Idealize.ShloMosaic.ValueIdx Cert.ReferenceIdeal Cert.ReferenceIdeal.Gen

namespace OneHead

/-! ## Layout steps read at an index -/

/-- A per-edge vector viewed as one column reads, at (e, 0), the vector at e. -/
theorem col_apply {α : Type} (v : S1048576.Idx → α) (e : Fin 1048576) :
    broadcastInDim S1048576x1 ![0] bcast_S1048576_S1048576x1_0 v (ix2 e 0) = v (ix1 e) :=
  broadcastInDim_apply _ _ v (ix2 e (0 : Fin 1)) (ix1 e) fun a => match a with | ⟨0, _⟩ => rfl

/-- That column copied across eight features reads, at (e, d), the column at (e, 0). -/
theorem row8_apply {α : Type} (v : S1048576x1.Idx → α) (e : Fin 1048576) (d : Fin 8) :
    broadcastInDim S1048576x8 ![0, 1] bcast_S1048576x1_S1048576x8_0_1 v (ix2 e d) = v (ix2 e 0) :=
  broadcastInDim_apply _ _ v (ix2 e d) (ix2 e (0 : Fin 1)) fun a => match a with | ⟨0, _⟩ => rfl | ⟨1, _⟩ => rfl

/-- A per-node vector copied across eight features reads, at (i, d), the vector at i. -/
theorem nodeRow8_apply {α : Type} (t : S1024.Idx → α) (i : Fin 1024) (d : Fin 8) :
    broadcastInDim S1024x8 ![0, 1] bcast_S1024x1_S1024x8_0_1
      (broadcastInDim S1024x1 ![0] bcast_S1024_S1024x1_0 t) (ix2 i d) = t (ix1 i) :=
  (broadcastInDim_apply _ _ _ (ix2 i d) (ix2 i (0 : Fin 1)) fun a => match a with | ⟨0, _⟩ => rfl | ⟨1, _⟩ => rfl).trans
    (broadcastInDim_apply _ _ t (ix2 i (0 : Fin 1)) (ix1 i) fun a => match a with | ⟨0, _⟩ => rfl)

/-! ## The projection and the score of an edge -/

/-- The projection: row r of x times W, at feature d. -/
theorem wh_apply (x : FVec Ideal S1024x1024 .f32) (W : FVec Ideal S1024x8 .f32) (r : Fin 1024) (d : Fin 8) :
    Host.dotGeneral dot_S1024x1024_S1024x8_S1024x8_1_0_0_1_n_n none x W (ix2 r d)
      = ∑ k : Fin 1024, x (ix2 r k) * W (ix2 k d) :=
  StackMember.dotGeneral_plain_apply (m := 1024) (n := 8) (k := 1024) none x W r d

/-- The two gathered rows side by side, transposed: row c of the result at edge e is feature c of the source row
    for c < 8 and feature c - 8 of the destination row otherwise. -/
theorem catT_apply_left (gs gd : FVec Ideal S1048576x8 .f32) (e : Fin 1048576) (d : Fin 8) :
    transpose S16x1048576 [1, 0] (concatenate S1048576x16 1 [⟨S1048576x8, gs⟩, ⟨S1048576x8, gd⟩]
        concatenates_S1048576x8_S1048576x8_S1048576x16_d1) transposes_S1048576x16_S16x1048576_1_0
      (ix2 (⟨d.val, by omega⟩ : Fin 16) e) = gs (ix2 e d) :=
  (transpose_ix2_apply _ _ _ _).trans
    (concatenate_pair_apply_left (t := S1048576x16) (s₁ := S1048576x8) (s₂ := S1048576x8) 1 gs gd _
      (ix2 e (⟨d.val, by omega⟩ : Fin 16)) rfl (ix2 e d) fun b => match b with | ⟨0, _⟩ => rfl | ⟨1, _⟩ => rfl)

theorem catT_apply_right (gs gd : FVec Ideal S1048576x8 .f32) (e : Fin 1048576) (d : Fin 8) :
    transpose S16x1048576 [1, 0] (concatenate S1048576x16 1 [⟨S1048576x8, gs⟩, ⟨S1048576x8, gd⟩]
        concatenates_S1048576x8_S1048576x8_S1048576x16_d1) transposes_S1048576x16_S16x1048576_1_0
      (ix2 (⟨8 + d.val, by omega⟩ : Fin 16) e) = gd (ix2 e d) :=
  (transpose_ix2_apply _ _ _ _).trans
    (concatenate_pair_apply_right (t := S1048576x16) (s₁ := S1048576x8) (s₂ := S1048576x8) 1 gs gd _
      (ix2 e (⟨8 + d.val, by omega⟩ : Fin 16)) rfl rfl (ix2 e d)
      (fun b hb => match b, hb with | ⟨0, _⟩, _ => rfl | ⟨1, _⟩, hb => absurd rfl hb)
      (by show d.val + 8 = 8 + d.val; omega))

/-- The score of edge e: the attention row's first eight weights against the gathered source row plus its last
    eight against the gathered destination row. -/
theorem edgeScore_apply (a : FVec Ideal S1x16 .f32) (gs gd : FVec Ideal S1048576x8 .f32) (e : Fin 1048576) :
    shapeCast S1048576 (Host.dotGeneral dot_S1x16_S16x1048576_S1x1048576_1_0_0_1_n_n none a
        (transpose S16x1048576 [1, 0] (concatenate S1048576x16 1 [⟨S1048576x8, gs⟩, ⟨S1048576x8, gd⟩]
          concatenates_S1048576x8_S1048576x8_S1048576x16_d1) transposes_S1048576x16_S16x1048576_1_0))
        shapeCasts_S1x1048576_S1048576 (ix1 e)
      = (∑ d : Fin 8, a (ix2 0 ⟨d.val, by omega⟩) * gs (ix2 e d))
        + ∑ d : Fin 8, a (ix2 0 ⟨8 + d.val, by omega⟩) * gd (ix2 e d) := by
  refine (shapeCast_1a_a_apply _ _ e).trans ?_
  refine (StackMember.dotGeneral_plain_apply (m := 1) (n := 1048576) (k := 16) none a _ 0 e).trans ?_
  refine (Fin.sum_univ_add (a := 8) (b := 8) _).trans ?_
  refine congrArg₂ (· + ·) (Finset.sum_congr rfl fun d _ => ?_) (Finset.sum_congr rfl fun d _ => ?_)
  · exact congrArg₂ (· * ·) rfl (catT_apply_left gs gd e d)
  · exact congrArg₂ (· * ·) rfl (catT_apply_right gs gd e d)

/-! ## The three scalar functions as the reference spells them -/

/-- The leaky rectifier's operations, read at an edge. -/
theorem leakyChain_apply (s : FVec Ideal S1048576 .f32) (e : Fin 1048576) :
    select (cmpf .oge s (broadcastInDim S1048576 ![] bcast_S_S1048576 (constant (F := Ideal) S_ .f32 0x00000000#32))) s
        (mulf (broadcastInDim S1048576 ![] bcast_S_S1048576 (constant (F := Ideal) S_ .f32 0x3E4CCCCD#32)) s) (ix1 e)
      = Cert.Gat.leaky (s (ix1 e)) := by
  rw [select_apply, cmpf_apply, mulf_apply, broadcastInDim_scalar_apply, broadcastInDim_scalar_apply]
  show Scalar.select (Ideal.cmp .oge (s (ix1 e)) (Ideal.ofBits .f32 0x00000000#32)) (s (ix1 e))
    (Ideal.ofBits .f32 0x3E4CCCCD#32 * s (ix1 e)) = _
  rw [Cert.Gat.zero_word]
  exact Cert.Gat.leaky_of_select _

/-- The exponential linear unit's operations, read at (i, d). -/
theorem eluChain_apply (q : FVec Ideal S1024x8 .f32) (i : Fin 1024) (d : Fin 8) :
    select (cmpf .ogt q (broadcastInDim S1024x8 ![] bcast_S_S1024x8 (constant (F := Ideal) S_ .f32 0x00000000#32))) q
        (mulf (broadcastInDim S1024x8 ![] bcast_S_S1024x8 (constant (F := Ideal) S_ .f32 0x3F800000#32))
          (Host.expm1 (select
            (cmpf .ogt q (broadcastInDim S1024x8 ![] bcast_S_S1024x8 (constant (F := Ideal) S_ .f32 0x00000000#32)))
            (broadcastInDim S1024x8 ![] bcast_S_S1024x8 (constant (F := Ideal) S_ .f32 0x00000000#32)) q))) (ix2 i d)
      = Cert.Gat.elu (q (ix2 i d)) := by
  rw [select_apply, cmpf_apply, mulf_apply, broadcastInDim_scalar_apply, broadcastInDim_scalar_apply]
  show Scalar.select (Ideal.cmp .ogt (q (ix2 i d)) (Ideal.ofBits .f32 0x00000000#32)) (q (ix2 i d))
    (Ideal.ofBits .f32 0x3F800000#32 * (Ideal.exp (Scalar.select
      (Ideal.cmp .ogt (q (ix2 i d)) (Ideal.ofBits .f32 0x00000000#32)) (Ideal.ofBits .f32 0x00000000#32) (q (ix2 i d))) - 1)) = _
  rw [Cert.Gat.zero_word, Cert.Gat.one_word]
  exact Cert.Gat.elu_of_where _

/-- A one-bit word read as an unsigned number: the comparison "a ≠ 0" as a 0/1 weight. -/
theorem uitofp_une_zero (a : EReal) :
    FloatOps.uitofp (F := Ideal) .f32 (Ideal.cmp .une a 0) = Cert.Gat.maskOf a := by
  unfold Cert.Gat.maskOf Ideal.cmp
  by_cases h : a = 0
  · simp [h, FloatOps.uitofp]
  · simp [h, FloatOps.uitofp]

/-- The flattened adjacency compared against zero, as a float: at edge (i, j) the 0/1 weight of entry (i, j). -/
theorem maskChain_apply (adj : FVec Ideal S1024x1024 .f32) (i j : Fin 1024) :
    uitofp (F := Ideal) .f32 (cmpf .une (shapeCast S1048576 adj shapeCasts_S1024x1024_S1048576)
        (broadcastInDim S1048576 ![] bcast_S_S1048576 (constant (F := Ideal) S_ .f32 0x00000000#32))) (ix1 (edge i j))
      = Cert.Gat.maskOf (adj (ix2 i j)) := by
  have hc : shapeCast S1048576 adj shapeCasts_S1024x1024_S1048576 (ix1 (edge i j)) = adj (ix2 i j) :=
    shapeCast_apply adj _ (ix1 (edge i j)) (ix2 i j) (by
      rw [Shape.rowMajor_val_two, Shape.rowMajor_val_one]
      show i.val * 1024 + j.val = 1024 * i.val + j.val
      omega)
  show FloatOps.uitofp (F := Ideal) .f32 (FloatOps.cmpf .une (shapeCast S1048576 adj shapeCasts_S1024x1024_S1048576 (ix1 (edge i j)))
    (broadcastInDim S1048576 ![] bcast_S_S1048576 (constant (F := Ideal) S_ .f32 0x00000000#32) (ix1 (edge i j)))) = _
  rw [hc, broadcastInDim_scalar_apply]
  show FloatOps.uitofp (F := Ideal) .f32 (Ideal.cmp .une (adj (ix2 i j)) (Ideal.ofBits .f32 0x00000000#32)) = _
  rw [Cert.Gat.zero_word]
  exact uitofp_une_zero _

/-! ## The stages of one head, named -/

/-- An index table made non-negative (1024 added where an entry is negative), as one column. -/
abbrev normCol (idx : IVec S1048576 32) : IVec S1048576x1 32 :=
  broadcastInDim S1048576x1 ![0] bcast_S1048576_S1048576x1_0
    (select (cmpi .slt idx (broadcastInDim S1048576 ![] bcast_S_S1048576 (constantI S_ 32 0#32)))
      (addi idx (broadcastInDim S1048576 ![] bcast_S_S1048576 (constantI S_ 32 1024#32))) idx)

/-- The rows of T the table names, one per edge. -/
abbrev rowsAt (T : FVec Ideal S1024x8 .f32) (idx : IVec S1048576 32) : FVec Ideal S1048576x8 .f32 :=
  Host.gather gather_S1024x8_S1048576x1_S1048576x8_1_0_n_n_0_1_18 T (normCol idx)

/-- The score of every edge from the two gathered rows. -/
abbrev scoreOf (a : FVec Ideal S1x16 .f32) (gs gd : FVec Ideal S1048576x8 .f32) : FVec Ideal S1048576 .f32 :=
  shapeCast S1048576 (Host.dotGeneral dot_S1x16_S16x1048576_S1x1048576_1_0_0_1_n_n none a
    (transpose S16x1048576 [1, 0] (concatenate S1048576x16 1 [⟨S1048576x8, gs⟩, ⟨S1048576x8, gd⟩]
      concatenates_S1048576x8_S1048576x8_S1048576x16_d1) transposes_S1048576x16_S16x1048576_1_0))
    shapeCasts_S1x1048576_S1048576

/-- The weight of every edge: exp of minus the rectified score, times the edge's mask entry. -/
abbrev weightsOf (s mask : FVec Ideal S1048576 .f32) : FVec Ideal S1048576 .f32 :=
  mulf (Host.exp (Host.negf
    (select (cmpf .oge s (broadcastInDim S1048576 ![] bcast_S_S1048576 (constant (F := Ideal) S_ .f32 0x00000000#32))) s
      (mulf (broadcastInDim S1048576 ![] bcast_S_S1048576 (constant (F := Ideal) S_ .f32 0x3E4CCCCD#32)) s)))) mask

/-- The exponential linear unit over a node array. -/
abbrev eluOf (q : FVec Ideal S1024x8 .f32) : FVec Ideal S1024x8 .f32 :=
  select (cmpf .ogt q (broadcastInDim S1024x8 ![] bcast_S_S1024x8 (constant (F := Ideal) S_ .f32 0x00000000#32))) q
    (mulf (broadcastInDim S1024x8 ![] bcast_S_S1024x8 (constant (F := Ideal) S_ .f32 0x3F800000#32))
      (Host.expm1 (select
        (cmpf .ogt q (broadcastInDim S1024x8 ![] bcast_S_S1024x8 (constant (F := Ideal) S_ .f32 0x00000000#32)))
        (broadcastInDim S1024x8 ![] bcast_S_S1024x8 (constant (F := Ideal) S_ .f32 0x00000000#32)) q)))

/-- A gathered row at edge e is the row its table entry names. -/
theorem rowsAt_apply (T : FVec Ideal S1024x8 .f32) (idx : IVec S1048576 32) (e : Fin 1048576) (r : Fin 1024)
    (h : idx (ix1 e) = BitVec.ofNat 32 r.val) (d : Fin 8) : rowsAt T idx (ix2 e d) = T (ix2 r d) :=
  gatherRows8_apply T _ e r (normIdx_apply idx e r h) d

/-- The weight of an edge, read at the edge. -/
theorem weightsOf_apply (s mask : FVec Ideal S1048576 .f32) (e : Fin 1048576) :
    weightsOf s mask (ix1 e) = Ideal.exp (-(Cert.Gat.leaky (s (ix1 e)))) * mask (ix1 e) :=
  congrArg (fun t => Ideal.exp (-t) * mask (ix1 e)) (leakyChain_apply s e)

/-- The zero arrays the scatter-adds start from. -/
theorem zero1_apply (i : Fin 1024) :
    broadcastInDim S1024 ![] bcast_S_S1024 (constant (F := Ideal) S_ .f32 0x00000000#32) (ix1 i) = 0 := by
  rw [broadcastInDim_scalar_apply]; exact Cert.Gat.zero_word

theorem zero8_apply (i : Fin 1024) (d : Fin 8) :
    broadcastInDim S1024x8 ![] bcast_S_S1024x8 (constant (F := Ideal) S_ .f32 0x00000000#32) (ix2 i d) = 0 := by
  rw [broadcastInDim_scalar_apply]; exact Cert.Gat.zero_word

/-! ## One head -/

section Head

variable (x : FVec Ideal S1024x1024 .f32) (W : FVec Ideal S1024x8 .f32) (a : FVec Ideal S1x16 .f32)
  (src dst : IVec S1048576 32) (mask : FVec Ideal S1048576 .f32) (M : Fin 1024 → Fin 1024 → EReal)
  (hs : ∀ i j : Fin 1024, src (ix1 (edge i j)) = BitVec.ofNat 32 i.val)
  (hd : ∀ i j : Fin 1024, dst (ix1 (edge i j)) = BitVec.ofNat 32 j.val)
  (hm : ∀ i j : Fin 1024, mask (ix1 (edge i j)) = M i j)

/-- The projected features as an array. -/
abbrev whOf : FVec Ideal S1024x8 .f32 := Host.dotGeneral dot_S1024x1024_S1024x8_S1024x8_1_0_0_1_n_n none x W

/-- Every edge's weight from the inputs. -/
abbrev wOf : FVec Ideal S1048576 .f32 :=
  weightsOf (scoreOf a (rowsAt (whOf x W) src) (rowsAt (whOf x W) dst)) mask

include hs hd hm in
/-- The weight of edge (i, j) is the specification's weight of the pair: the gathered rows are rows i and j of the
    projection, and the source half of the score has its factors in the other order. -/
theorem wOf_apply (i j : Fin 1024) :
    wOf x W a src dst mask (ix1 (edge i j))
      = Cert.Gat.weight (fun i k => x (ix2 i k)) M (fun k d => W (ix2 k d))
          (fun d => a (ix2 0 ⟨d.val, by omega⟩)) (fun d => a (ix2 0 ⟨8 + d.val, by omega⟩)) i j := by
  unfold Cert.Gat.weight Cert.Gat.srcScore Cert.Gat.dstScore Cert.Gat.proj
  refine (weightsOf_apply _ mask (edge i j)).trans ?_
  refine congrArg₂ (fun t m => Ideal.exp (-(Cert.Gat.leaky t)) * m) ?_ (hm i j)
  refine (edgeScore_apply a _ _ (edge i j)).trans ?_
  refine congrArg₂ (· + ·) (Finset.sum_congr rfl fun d _ => ?_) (Finset.sum_congr rfl fun d _ => ?_)
  · refine (mul_comm _ _).trans (congrArg (· * a (ix2 0 ⟨d.val, by omega⟩)) ?_)
    exact (rowsAt_apply _ src _ i (hs i j) d).trans (wh_apply x W i d)
  · refine congrArg (a (ix2 0 ⟨8 + d.val, by omega⟩) * ·) ?_
    exact (rowsAt_apply _ dst _ j (hd i j) d).trans (wh_apply x W j d)

include hs in
/-- The source table as one column names, at edge (i, j), node i: where the scatter-adds put the edge. -/
theorem srcCol_apply (i j : Fin 1024) :
    broadcastInDim S1048576x1 ![0] bcast_S1048576_S1048576x1_0 src (ix2 (edge i j) 0) = BitVec.ofNat 32 i.val :=
  (col_apply src (edge i j)).trans (hs i j)

include hs hd hm in
/-- One head of the reference, read at (i, d), is the specification's head: the two scatter-adds into zeros are the
    sums over the destinations j of the weights and of the weights times row j of the projection. -/
theorem headChain_apply (i : Fin 1024) (d : Fin 8) :
    eluOf (Host.divf
        (Host.scatterAdd (F := Ideal) scatter_S1024x8_S1048576x1_S1048576x8_1_0_0_1
          (broadcastInDim S1024x8 ![] bcast_S_S1024x8 (constant (F := Ideal) S_ .f32 0x00000000#32))
          (broadcastInDim S1048576x1 ![0] bcast_S1048576_S1048576x1_0 src)
          (mulf (broadcastInDim S1048576x8 ![0, 1] bcast_S1048576x1_S1048576x8_0_1
              (broadcastInDim S1048576x1 ![0] bcast_S1048576_S1048576x1_0 (wOf x W a src dst mask)))
            (rowsAt (whOf x W) dst)))
        (broadcastInDim S1024x8 ![0, 1] bcast_S1024x1_S1024x8_0_1
          (broadcastInDim S1024x1 ![0] bcast_S1024_S1024x1_0
            (Host.scatterAdd (F := Ideal) scatter_S1024_S1048576x1_S1048576_n_0_0_1
              (broadcastInDim S1024 ![] bcast_S_S1024 (constant (F := Ideal) S_ .f32 0x00000000#32))
              (broadcastInDim S1048576x1 ![0] bcast_S1048576_S1048576x1_0 src)
              (wOf x W a src dst mask))))) (ix2 i d)
      = Cert.Gat.head (fun i k => x (ix2 i k)) M (fun k d => W (ix2 k d))
          (fun d => a (ix2 0 ⟨d.val, by omega⟩)) (fun d => a (ix2 0 ⟨8 + d.val, by omega⟩)) i d := by
  unfold Cert.Gat.head Cert.Gat.agg Cert.Gat.total
  refine (eluChain_apply _ i d).trans (congrArg Cert.Gat.elu ?_)
  refine (hostDivf_apply _ _ (ix2 i d)).trans (congrArg₂ Ideal.div ?_ ?_)
  · refine (scatterRows8_apply _ _ (srcCol_apply src hs) _ i d).trans ?_
    rw [zero8_apply, zero_add]
    refine Finset.sum_congr rfl fun j _ => ?_
    refine (mulf_apply _ _ _).trans (congrArg₂ (· * ·) ?_ ?_)
    · exact ((row8_apply _ _ d).trans (col_apply _ _)).trans (wOf_apply x W a src dst mask M hs hd hm i j)
    · exact ((rowsAt_apply _ dst _ j (hd i j) d).trans (wh_apply x W j d)).trans rfl
  · refine (nodeRow8_apply _ i d).trans ?_
    refine (scatterTotals_apply _ _ (srcCol_apply src hs) _ i).trans ?_
    rw [zero1_apply, zero_add]
    exact Finset.sum_congr rfl fun j _ => wOf_apply x W a src dst mask M hs hd hm i j

end Head

end OneHead

/-! ## The reference's own functions -/

/-- The mask array at edge (i, j) is the 0/1 weight of adjacency entry (i, j). -/
theorem rMask_apply (adj : FVec Ideal S1024x1024 .f32) (i j : Fin 1024) :
    rMask (F := Ideal) adj (ix1 (edge i j)) = Cert.Gat.maskOf (adj (ix2 i j)) :=
  OneHead.maskChain_apply adj i j

/-- One head of the reference over the source and destination tables and the adjacency's mask is the
    specification's head. -/
theorem rHead_apply (x adj : FVec Ideal S1024x1024 .f32) (W : FVec Ideal S1024x8 .f32) (a : FVec Ideal S1x16 .f32)
    (i : Fin 1024) (d : Fin 8) :
    rHead (F := Ideal) x rSrc rDst (rMask adj) W a (ix2 i d)
      = Cert.Gat.head (fun i k => x (ix2 i k)) (fun i j => Cert.Gat.maskOf (adj (ix2 i j))) (fun k d => W (ix2 k d))
          (fun d => a (ix2 0 ⟨d.val, by omega⟩)) (fun d => a (ix2 0 ⟨8 + d.val, by omega⟩)) i d :=
  OneHead.headChain_apply x W a rSrc rDst (rMask adj) (fun i j => Cert.Gat.maskOf (adj (ix2 i j)))
    srcTable_apply dstTable_apply (rMask_apply adj) i d

end Cert.ReferenceIdeal.Hand

end
-- ==== Proof.RefOps.lean ====
/-
  The reference program as seven consecutive lists of array operations. Each operation writes one array from the whole
  contents of its operands through a pure function; a call of a small function (the leaky rectifier, the exponential
  linear unit, the selections inside them) is the function's operations at the call's own arrays. Beside each list:
  the arrays it writes, in order, and that every array it touches is one of the program's.
-/
import proofs.«174455_g86844238725802_fold_wed_m_134_3_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.SL.Sem

variable {F : FTy → Type} [FloatOps F]

/-- The prologue: the node features and the adjacency (the two stacked matrices of the first argument), the two edge
    tables (edge e has source e / 1024 and destination e % 1024) and the adjacency as a 0/1 weight per edge. (16 operations.) -/
abbrev opsPro : List (HloOp τ sig (Elt F)) :=
  [ StableHlo.unary main_arg0 main_v0 ((extractStridedSlice S1x1x1024x1024 ![0, 0, 0, 0] · slices_S1x2x1024x1024_S1x1x1024x1024_0_0_0_0) : (⟨S1x2x1024x1024, .f32⟩ : BufTy).Contents (Elt F) → (⟨S1x1x1024x1024, .f32⟩ : BufTy).Contents (Elt F)),  -- %0
    StableHlo.reshape main_v0 main_v1 rfl shapeCasts_S1x1x1024x1024_S1024x1024,  -- %1
    StableHlo.unary main_arg0 main_v2 ((extractStridedSlice S1x1x1024x1024 ![0, 1, 0, 0] · slices_S1x2x1024x1024_S1x1x1024x1024_0_1_0_0) : (⟨S1x2x1024x1024, .f32⟩ : BufTy).Contents (Elt F) → (⟨S1x1x1024x1024, .f32⟩ : BufTy).Contents (Elt F)),  -- %2
    StableHlo.reshape main_v2 main_v3 rfl shapeCasts_S1x1x1024x1024_S1024x1024,  -- %3
    StableHlo.nullary main_v4 (iotaInDim S1024 32 0),  -- %4
    StableHlo.unary main_v4 main_v5 (broadcastInDim S1024x1024 ![0] bcast_S1024_S1024x1024_0 : (⟨S1024, .i32⟩ : BufTy).Contents (Elt F) → (⟨S1024x1024, .i32⟩ : BufTy).Contents (Elt F)),  -- %5
    StableHlo.reshape main_v5 main_v6 rfl shapeCasts_S1024x1024_S1048576,  -- %6
    StableHlo.nullary main_v7 (iotaInDim S1024 32 0),  -- %7
    StableHlo.reshape main_v7 main_v8 rfl shapeCasts_S1024_S1x1024,  -- %8
    StableHlo.unary main_v8 main_v9 (broadcastInDim S1024x1024 ![0, 1] bcast_S1x1024_S1024x1024_0_1 : (⟨S1x1024, .i32⟩ : BufTy).Contents (Elt F) → (⟨S1024x1024, .i32⟩ : BufTy).Contents (Elt F)),  -- %9
    StableHlo.reshape main_v9 main_v10 rfl shapeCasts_S1024x1024_S1048576,  -- %10
    StableHlo.reshape main_v3 main_v11 rfl shapeCasts_S1024x1024_S1048576,  -- %11
    StableHlo.nullary main_cst (constant S_ .f32 0x00000000#32),  -- %cst
    StableHlo.unary main_cst main_v12 (broadcastInDim S1048576 ![] bcast_S_S1048576 : (⟨S_, .f32⟩ : BufTy).Contents (Elt F) → (⟨S1048576, .f32⟩ : BufTy).Contents (Elt F)),  -- %12
    StableHlo.binary main_v11 main_v12 main_v13 (cmpf .une : (⟨S1048576, .f32⟩ : BufTy).Contents (Elt F) → (⟨S1048576, .f32⟩ : BufTy).Contents (Elt F) → (⟨S1048576, .i1⟩ : BufTy).Contents (Elt F)),  -- %13
    StableHlo.unary main_v13 main_v14 (uitofp .f32 : (⟨S1048576, .i1⟩ : BufTy).Contents (Elt F) → (⟨S1048576, .f32⟩ : BufTy).Contents (Elt F)) ]  -- %14

/-- The arrays `opsPro` writes, in order. -/
abbrev wPro : List (Ref sig .tc) :=
  [ main_v0, main_v1, main_v2, main_v3, main_v4, main_v5,
    main_v6, main_v7, main_v8, main_v9, main_v10, main_v11,
    main_cst, main_v12, main_v13, main_v14 ]

theorem opsPro_sub : (opsPro : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.nullary_bufs_sub ..,
    StableHlo.unary_bufs_sub .., StableHlo.reshape_bufs_sub .., StableHlo.nullary_bufs_sub .., StableHlo.reshape_bufs_sub .., StableHlo.unary_bufs_sub ..,
    StableHlo.reshape_bufs_sub .., StableHlo.reshape_bufs_sub .., StableHlo.nullary_bufs_sub .., StableHlo.unary_bufs_sub .., StableHlo.binary_bufs_sub ..,
    StableHlo.unary_bufs_sub ..⟩

/-- The first head: projection by the second argument, attention by the third. (72 operations.) -/
abbrev opsH0 : List (HloOp τ sig (Elt F)) :=
  [ StableHlo.binary main_v1 main_arg1 main_v15 ((fun l r => Host.dotGeneral dot_S1024x1024_S1024x8_S1024x8_1_0_0_1_n_n none l r) : (⟨S1024x1024, .f32⟩ : BufTy).Contents (Elt F) → (⟨S1024x8, .f32⟩ : BufTy).Contents (Elt F) → (⟨S1024x8, .f32⟩ : BufTy).Contents (Elt F)),  -- %15
    StableHlo.nullary main_c (constantI S_ 32 0#32),  -- %c
    StableHlo.unary main_c main_v16 (broadcastInDim S1048576 ![] bcast_S_S1048576 : (⟨S_, .i32⟩ : BufTy).Contents (Elt F) → (⟨S1048576, .i32⟩ : BufTy).Contents (Elt F)),  -- %16
    StableHlo.binary main_v6 main_v16 main_v17 (cmpi .slt : (⟨S1048576, .i32⟩ : BufTy).Contents (Elt F) → (⟨S1048576, .i32⟩ : BufTy).Contents (Elt F) → (⟨S1048576, .i1⟩ : BufTy).Contents (Elt F)),  -- %17
    StableHlo.nullary main_c_0 (constantI S_ 32 1024#32),  -- %c_0
    StableHlo.unary main_c_0 main_v18 (broadcastInDim S1048576 ![] bcast_S_S1048576 : (⟨S_, .i32⟩ : BufTy).Contents (Elt F) → (⟨S1048576, .i32⟩ : BufTy).Contents (Elt F)),  -- %18
    StableHlo.binary main_v6 main_v18 main_v19 (addi : (⟨S1048576, .i32⟩ : BufTy).Contents (Elt F) → (⟨S1048576, .i32⟩ : BufTy).Contents (Elt F) → (⟨S1048576, .i32⟩ : BufTy).Contents (Elt F)),  -- %19
    StableHlo.ternary main_v17 main_v19 main_v6 main_v20 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %20
    StableHlo.unary main_v20 main_v21 (broadcastInDim S1048576x1 ![0] bcast_S1048576_S1048576x1_0 : (⟨S1048576, .i32⟩ : BufTy).Contents (Elt F) → (⟨S1048576x1, .i32⟩ : BufTy).Contents (Elt F)),  -- %21
    StableHlo.binary main_v15 main_v21 main_v22 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %22
    StableHlo.nullary main_c_1 (constantI S_ 32 0#32),  -- %c_1
    StableHlo.unary main_c_1 main_v23 (broadcastInDim S1048576 ![] bcast_S_S1048576 : (⟨S_, .i32⟩ : BufTy).Contents (Elt F) → (⟨S1048576, .i32⟩ : BufTy).Contents (Elt F)),  -- %23
    StableHlo.binary main_v10 main_v23 main_v24 (cmpi .slt : (⟨S1048576, .i32⟩ : BufTy).Contents (Elt F) → (⟨S1048576, .i32⟩ : BufTy).Contents (Elt F) → (⟨S1048576, .i1⟩ : BufTy).Contents (Elt F)),  -- %24
    StableHlo.nullary main_c_2 (constantI S_ 32 1024#32),  -- %c_2
    StableHlo.unary main_c_2 main_v25 (broadcastInDim S1048576 ![] bcast_S_S1048576 : (⟨S_, .i32⟩ : BufTy).Contents (Elt F) → (⟨S1048576, .i32⟩ : BufTy).Contents (Elt F)),  -- %25
    StableHlo.binary main_v10 main_v25 main_v26 (addi : (⟨S1048576, .i32⟩ : BufTy).Contents (Elt F) → (⟨S1048576, .i32⟩ : BufTy).Contents (Elt F) → (⟨S1048576, .i32⟩ : BufTy).Contents (Elt F)),  -- %26
    StableHlo.ternary main_v24 main_v26 main_v10 main_v27 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %27
    StableHlo.unary main_v27 main_v28 (broadcastInDim S1048576x1 ![0] bcast_S1048576_S1048576x1_0 : (⟨S1048576, .i32⟩ : BufTy).Contents (Elt F) → (⟨S1048576x1, .i32⟩ : BufTy).Contents (Elt F)),  -- %28
    StableHlo.binary main_v15 main_v28 main_v29 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %29
    StableHlo.binary main_v22 main_v29 main_v30 ((fun a b => concatenate S1048576x16 1 [⟨S1048576x8, a⟩, ⟨S1048576x8, b⟩] concatenates_S1048576x8_S1048576x8_S1048576x16_d1) : (⟨S1048576x8, .f32⟩ : BufTy).Contents (Elt F) → (⟨S1048576x8, .f32⟩ : BufTy).Contents (Elt F) → (⟨S1048576x16, .f32⟩ : BufTy).Contents (Elt F)),  -- %30
    StableHlo.unary main_v30 main_v31 ((transpose S16x1048576 [1, 0] · transposes_S1048576x16_S16x1048576_1_0) : (⟨S1048576x16, .f32⟩ : BufTy).Contents (Elt F) → (⟨S16x1048576, .f32⟩ : BufTy).Contents (Elt F)),  -- %31
    StableHlo.binary main_arg2 main_v31 main_v32 ((fun l r => Host.dotGeneral dot_S1x16_S16x1048576_S1x1048576_1_0_0_1_n_n none l r) : (⟨S1x16, .f32⟩ : BufTy).Contents (Elt F) → (⟨S16x1048576, .f32⟩ : BufTy).Contents (Elt F) → (⟨S1x1048576, .f32⟩ : BufTy).Contents (Elt F)),  -- %32
    StableHlo.reshape main_v32 main_v33 rfl shapeCasts_S1x1048576_S1048576,  -- %33
    StableHlo.nullary main_cst_3 (constant S_ .f32 0x3E4CCCCD#32),  -- %cst_3
    StableHlo.TRef.nullary main_call0.cst (constant S_ .f32 0x00000000#32),  -- %34
    StableHlo.TRef.unary main_call0.cst main_call0.v0 (broadcastInDim S1048576 ![] bcast_S_S1048576),  -- %34
    StableHlo.TRef.binary (.of main_v33) main_call0.v0 main_call0.v1 (cmpf .oge),  -- %34
    StableHlo.TRef.unary (.of main_cst_3) main_call0.v2 id,  -- %34
    StableHlo.TRef.unary main_call0.v2 main_call0.v3 (broadcastInDim S1048576 ![] bcast_S_S1048576),  -- %34
    StableHlo.TRef.binary main_call0.v3 (.of main_v33) main_call0.v4 mulf,  -- %34
    StableHlo.TRef.ternary main_call0.v1 (.of main_v33) main_call0.v4 main_call0.call0.v0 select,  -- %34
    StableHlo.unary main_v34 main_v35 (Host.negf : (⟨S1048576, .f32⟩ : BufTy).Contents (Elt F) → (⟨S1048576, .f32⟩ : BufTy).Contents (Elt F)),  -- %35
    StableHlo.unary main_v35 main_v36 (Host.exp : (⟨S1048576, .f32⟩ : BufTy).Contents (Elt F) → (⟨S1048576, .f32⟩ : BufTy).Contents (Elt F)),  -- %36
    StableHlo.binary main_v36 main_v14 main_v37 (mulf : (⟨S1048576, .f32⟩ : BufTy).Contents (Elt F) → (⟨S1048576, .f32⟩ : BufTy).Contents (Elt F) → (⟨S1048576, .f32⟩ : BufTy).Contents (Elt F)),  -- %37
    StableHlo.nullary main_cst_4 (constant S_ .f32 0x00000000#32),  -- %cst_4
    StableHlo.unary main_cst_4 main_v38 (broadcastInDim S1024 ![] bcast_S_S1024 : (⟨S_, .f32⟩ : BufTy).Contents (Elt F) → (⟨S1024, .f32⟩ : BufTy).Contents (Elt F)),  -- %38
    StableHlo.unary main_v6 main_v39 (broadcastInDim S1048576x1 ![0] bcast_S1048576_S1048576x1_0 : (⟨S1048576, .i32⟩ : BufTy).Contents (Elt F) → (⟨S1048576x1, .i32⟩ : BufTy).Contents (Elt F)),  -- %39
    StableHlo.ternary main_v38 main_v39 main_v37 main_v40 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),  -- %40
    StableHlo.unary main_v40 main_v41 (broadcastInDim S1024x1 ![0] bcast_S1024_S1024x1_0 : (⟨S1024, .f32⟩ : BufTy).Contents (Elt F) → (⟨S1024x1, .f32⟩ : BufTy).Contents (Elt F)),  -- %41
    StableHlo.unary main_v37 main_v42 (broadcastInDim S1048576x1 ![0] bcast_S1048576_S1048576x1_0 : (⟨S1048576, .f32⟩ : BufTy).Contents (Elt F) → (⟨S1048576x1, .f32⟩ : BufTy).Contents (Elt F)),  -- %42
    StableHlo.nullary main_c_5 (constantI S_ 32 0#32),  -- %c_5
    StableHlo.unary main_c_5 main_v43 (broadcastInDim S1048576 ![] bcast_S_S1048576 : (⟨S_, .i32⟩ : BufTy).Contents (Elt F) → (⟨S1048576, .i32⟩ : BufTy).Contents (Elt F)),  -- %43
    StableHlo.binary main_v10 main_v43 main_v44 (cmpi .slt : (⟨S1048576, .i32⟩ : BufTy).Contents (Elt F) → (⟨S1048576, .i32⟩ : BufTy).Contents (Elt F) → (⟨S1048576, .i1⟩ : BufTy).Contents (Elt F)),  -- %44
    StableHlo.nullary main_c_6 (constantI S_ 32 1024#32),  -- %c_6
    StableHlo.unary main_c_6 main_v45 (broadcastInDim S1048576 ![] bcast_S_S1048576 : (⟨S_, .i32⟩ : BufTy).Contents (Elt F) → (⟨S1048576, .i32⟩ : BufTy).Contents (Elt F)),  -- %45
    StableHlo.binary main_v10 main_v45 main_v46 (addi : (⟨S1048576, .i32⟩ : BufTy).Contents (Elt F) → (⟨S1048576, .i32⟩ : BufTy).Contents (Elt F) → (⟨S1048576, .i32⟩ : BufTy).Contents (Elt F)),  -- %46
    StableHlo.ternary main_v44 main_v46 main_v10 main_v47 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %47
    StableHlo.unary main_v47 main_v48 (broadcastInDim S1048576x1 ![0] bcast_S1048576_S1048576x1_0 : (⟨S1048576, .i32⟩ : BufTy).Contents (Elt F) → (⟨S1048576x1, .i32⟩ : BufTy).Contents (Elt F)),  -- %48
    StableHlo.binary main_v15 main_v48 main_v49 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %49
    StableHlo.unary main_v42 main_v50 (broadcastInDim S1048576x8 ![0, 1] bcast_S1048576x1_S1048576x8_0_1 : (⟨S1048576x1, .f32⟩ : BufTy).Contents (Elt F) → (⟨S1048576x8, .f32⟩ : BufTy).Contents (Elt F)),  -- %50
    StableHlo.binary main_v50 main_v49 main_v51 (mulf : (⟨S1048576x8, .f32⟩ : BufTy).Contents (Elt F) → (⟨S1048576x8, .f32⟩ : BufTy).Contents (Elt F) → (⟨S1048576x8, .f32⟩ : BufTy).Contents (Elt F)),  -- %51
    StableHlo.nullary main_cst_7 (constant S_ .f32 0x00000000#32),  -- %cst_7
    StableHlo.unary main_cst_7 main_v52 (broadcastInDim S1024x8 ![] bcast_S_S1024x8 : (⟨S_, .f32⟩ : BufTy).Contents (Elt F) → (⟨S1024x8, .f32⟩ : BufTy).Contents (Elt F)),  -- %52
    StableHlo.unary main_v6 main_v53 (broadcastInDim S1048576x1 ![0] bcast_S1048576_S1048576x1_0 : (⟨S1048576, .i32⟩ : BufTy).Contents (Elt F) → (⟨S1048576x1, .i32⟩ : BufTy).Contents (Elt F)),  -- %53
    StableHlo.ternary main_v52 main_v53 main_v51 main_v54 ((fun x i u => Host.scatterAdd scatter_S1024x8_S1048576x1_S1048576x8_1_0_0_1 x i u) : (⟨S1024x8, .f32⟩ : BufTy).Contents (Elt F) → (⟨S1048576x1, .i32⟩ : BufTy).Contents (Elt F) → (⟨S1048576x8, .f32⟩ : BufTy).Contents (Elt F) → (⟨S1024x8, .f32⟩ : BufTy).Contents (Elt F)),  -- %54
    StableHlo.unary main_v41 main_v55 (broadcastInDim S1024x8 ![0, 1] bcast_S1024x1_S1024x8_0_1 : (⟨S1024x1, .f32⟩ : BufTy).Contents (Elt F) → (⟨S1024x8, .f32⟩ : BufTy).Contents (Elt F)),  -- %55
    StableHlo.binary main_v54 main_v55 main_v56 (Host.divf : (⟨S1024x8, .f32⟩ : BufTy).Contents (Elt F) → (⟨S1024x8, .f32⟩ : BufTy).Contents (Elt F) → (⟨S1024x8, .f32⟩ : BufTy).Contents (Elt F)),  -- %56
    StableHlo.TRef.nullary main_call1.cst (constant S_ .f32 0x00000000#32),  -- %57
    StableHlo.TRef.unary main_call1.cst main_call1.v0 (broadcastInDim S1024x8 ![] bcast_S_S1024x8),  -- %57
    StableHlo.TRef.binary (.of main_v56) main_call1.v0 main_call1.v1 (cmpf .ogt),  -- %57
    StableHlo.TRef.nullary main_call1.cst_0 (constant S_ .f32 0x00000000#32),  -- %57
    StableHlo.TRef.unary main_call1.cst_0 main_call1.v2 (broadcastInDim S1024x8 ![] bcast_S_S1024x8),  -- %57
    StableHlo.TRef.binary (.of main_v56) main_call1.v2 main_call1.v3 (cmpf .ogt),  -- %57
    StableHlo.TRef.nullary main_call1.cst_1 (constant S_ .f32 0x00000000#32),  -- %57
    StableHlo.TRef.unary main_call1.cst_1 main_call1.call0.v0 id,  -- %57
    StableHlo.TRef.unary main_call1.call0.v0 main_call1.call0.v1 (broadcastInDim S1024x8 ![] bcast_S_S1024x8),  -- %57
    StableHlo.TRef.ternary main_call1.v3 main_call1.call0.v1 (.of main_v56) main_call1.call0.v2 select,  -- %57
    StableHlo.TRef.unary main_call1.call0.v2 main_call1.v5 Host.expm1,  -- %57
    StableHlo.TRef.nullary main_call1.cst_2 (constant S_ .f32 0x3F800000#32),  -- %57
    StableHlo.TRef.unary main_call1.cst_2 main_call1.v6 (broadcastInDim S1024x8 ![] bcast_S_S1024x8),  -- %57
    StableHlo.TRef.binary main_call1.v6 main_call1.v5 main_call1.v7 mulf,  -- %57
    StableHlo.TRef.ternary main_call1.v1 (.of main_v56) main_call1.v7 main_call1.call1.v0 select ]  -- %57

/-- The arrays `opsH0` writes, in order. -/
abbrev wH0 : List (Ref sig .tc) :=
  [ main_v15, main_c, main_v16, main_v17, main_c_0, main_v18,
    main_v19, main_v20, main_v21, main_v22, main_c_1, main_v23,
    main_v24, main_c_2, main_v25, main_v26, main_v27, main_v28,
    main_v29, main_v30, main_v31, main_v32, main_v33, main_cst_3,
    main_call0.cst.ref, main_call0.v0.ref, main_call0.v1.ref, main_call0.v2.ref, main_call0.v3.ref, main_call0.v4.ref,
    main_call0.call0.v0.ref, main_v35, main_v36, main_v37, main_cst_4, main_v38,
    main_v39, main_v40, main_v41, main_v42, main_c_5, main_v43,
    main_v44, main_c_6, main_v45, main_v46, main_v47, main_v48,
    main_v49, main_v50, main_v51, main_cst_7, main_v52, main_v53,
    main_v54, main_v55, main_v56, main_call1.cst.ref, main_call1.v0.ref, main_call1.v1.ref,
    main_call1.cst_0.ref, main_call1.v2.ref, main_call1.v3.ref, main_call1.cst_1.ref, main_call1.call0.v0.ref, main_call1.call0.v1.ref,
    main_call1.call0.v2.ref, main_call1.v5.ref, main_call1.cst_2.ref, main_call1.v6.ref, main_call1.v7.ref, main_call1.call1.v0.ref ]

theorem opsH0_sub : (opsH0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..,
    StableHlo.unary_bufs_sub .., StableHlo.binary_bufs_sub .., StableHlo.reshape_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.ternary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub ..,
    StableHlo.binary_bufs_sub .., StableHlo.ternary_bufs_sub ..⟩

/-- The second head: the same operations on the fourth and fifth arguments. (72 operations.) -/
abbrev opsH1 : List (HloOp τ sig (Elt F)) :=
  [ StableHlo.binary main_v1 main_arg3 main_v58 ((fun l r => Host.dotGeneral dot_S1024x1024_S1024x8_S1024x8_1_0_0_1_n_n none l r) : (⟨S1024x1024, .f32⟩ : BufTy).Contents (Elt F) → (⟨S1024x8, .f32⟩ : BufTy).Contents (Elt F) → (⟨S1024x8, .f32⟩ : BufTy).Contents (Elt F)),  -- %58
    StableHlo.nullary main_c_8 (constantI S_ 32 0#32),  -- %c_8
    StableHlo.unary main_c_8 main_v59 (broadcastInDim S1048576 ![] bcast_S_S1048576 : (⟨S_, .i32⟩ : BufTy).Contents (Elt F) → (⟨S1048576, .i32⟩ : BufTy).Contents (Elt F)),  -- %59
    StableHlo.binary main_v6 main_v59 main_v60 (cmpi .slt : (⟨S1048576, .i32⟩ : BufTy).Contents (Elt F) → (⟨S1048576, .i32⟩ : BufTy).Contents (Elt F) → (⟨S1048576, .i1⟩ : BufTy).Contents (Elt F)),  -- %60
    StableHlo.nullary main_c_9 (constantI S_ 32 1024#32),  -- %c_9
    StableHlo.unary main_c_9 main_v61 (broadcastInDim S1048576 ![] bcast_S_S1048576 : (⟨S_, .i32⟩ : BufTy).Contents (Elt F) → (⟨S1048576, .i32⟩ : BufTy).Contents (Elt F)),  -- %61
    StableHlo.binary main_v6 main_v61 main_v62 (addi : (⟨S1048576, .i32⟩ : BufTy).Contents (Elt F) → (⟨S1048576, .i32⟩ : BufTy).Contents (Elt F) → (⟨S1048576, .i32⟩ : BufTy).Contents (Elt F)),  -- %62
    StableHlo.ternary main_v60 main_v62 main_v6 main_v63 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %63
    StableHlo.unary main_v63 main_v64 (broadcastInDim S1048576x1 ![0] bcast_S1048576_S1048576x1_0 : (⟨S1048576, .i32⟩ : BufTy).Contents (Elt F) → (⟨S1048576x1, .i32⟩ : BufTy).Contents (Elt F)),  -- %64
    StableHlo.binary main_v58 main_v64 main_v65 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %65
    StableHlo.nullary main_c_10 (constantI S_ 32 0#32),  -- %c_10
    StableHlo.unary main_c_10 main_v66 (broadcastInDim S1048576 ![] bcast_S_S1048576 : (⟨S_, .i32⟩ : BufTy).Contents (Elt F) → (⟨S1048576, .i32⟩ : BufTy).Contents (Elt F)),  -- %66
    StableHlo.binary main_v10 main_v66 main_v67 (cmpi .slt : (⟨S1048576, .i32⟩ : BufTy).Contents (Elt F) → (⟨S1048576, .i32⟩ : BufTy).Contents (Elt F) → (⟨S1048576, .i1⟩ : BufTy).Contents (Elt F)),  -- %67
    StableHlo.nullary main_c_11 (constantI S_ 32 1024#32),  -- %c_11
    StableHlo.unary main_c_11 main_v68 (broadcastInDim S1048576 ![] bcast_S_S1048576 : (⟨S_, .i32⟩ : BufTy).Contents (Elt F) → (⟨S1048576, .i32⟩ : BufTy).Contents (Elt F)),  -- %68
    StableHlo.binary main_v10 main_v68 main_v69 (addi : (⟨S1048576, .i32⟩ : BufTy).Contents (Elt F) → (⟨S1048576, .i32⟩ : BufTy).Contents (Elt F) → (⟨S1048576, .i32⟩ : BufTy).Contents (Elt F)),  -- %69
    StableHlo.ternary main_v67 main_v69 main_v10 main_v70 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %70
    StableHlo.unary main_v70 main_v71 (broadcastInDim S1048576x1 ![0] bcast_S1048576_S1048576x1_0 : (⟨S1048576, .i32⟩ : BufTy).Contents (Elt F) → (⟨S1048576x1, .i32⟩ : BufTy).Contents (Elt F)),  -- %71
    StableHlo.binary main_v58 main_v71 main_v72 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %72
    StableHlo.binary main_v65 main_v72 main_v73 ((fun a b => concatenate S1048576x16 1 [⟨S1048576x8, a⟩, ⟨S1048576x8, b⟩] concatenates_S1048576x8_S1048576x8_S1048576x16_d1) : (⟨S1048576x8, .f32⟩ : BufTy).Contents (Elt F) → (⟨S1048576x8, .f32⟩ : BufTy).Contents (Elt F) → (⟨S1048576x16, .f32⟩ : BufTy).Contents (Elt F)),  -- %73
    StableHlo.unary main_v73 main_v74 ((transpose S16x1048576 [1, 0] · transposes_S1048576x16_S16x1048576_1_0) : (⟨S1048576x16, .f32⟩ : BufTy).Contents (Elt F) → (⟨S16x1048576, .f32⟩ : BufTy).Contents (Elt F)),  -- %74
    StableHlo.binary main_arg4 main_v74 main_v75 ((fun l r => Host.dotGeneral dot_S1x16_S16x1048576_S1x1048576_1_0_0_1_n_n none l r) : (⟨S1x16, .f32⟩ : BufTy).Contents (Elt F) → (⟨S16x1048576, .f32⟩ : BufTy).Contents (Elt F) → (⟨S1x1048576, .f32⟩ : BufTy).Contents (Elt F)),  -- %75
    StableHlo.reshape main_v75 main_v76 rfl shapeCasts_S1x1048576_S1048576,  -- %76
    StableHlo.nullary main_cst_12 (constant S_ .f32 0x3E4CCCCD#32),  -- %cst_12
    StableHlo.TRef.nullary main_call2.cst (constant S_ .f32 0x00000000#32),  -- %77
    StableHlo.TRef.unary main_call2.cst main_call2.v0 (broadcastInDim S1048576 ![] bcast_S_S1048576),  -- %77
    StableHlo.TRef.binary (.of main_v76) main_call2.v0 main_call2.v1 (cmpf .oge),  -- %77
    StableHlo.TRef.unary (.of main_cst_12) main_call2.v2 id,  -- %77
    StableHlo.TRef.unary main_call2.v2 main_call2.v3 (broadcastInDim S1048576 ![] bcast_S_S1048576),  -- %77
    StableHlo.TRef.binary main_call2.v3 (.of main_v76) main_call2.v4 mulf,  -- %77
    StableHlo.TRef.ternary main_call2.v1 (.of main_v76) main_call2.v4 main_call2.call0.v0 select,  -- %77
    StableHlo.unary main_v77 main_v78 (Host.negf : (⟨S1048576, .f32⟩ : BufTy).Contents (Elt F) → (⟨S1048576, .f32⟩ : BufTy).Contents (Elt F)),  -- %78
    StableHlo.unary main_v78 main_v79 (Host.exp : (⟨S1048576, .f32⟩ : BufTy).Contents (Elt F) → (⟨S1048576, .f32⟩ : BufTy).Contents (Elt F)),  -- %79
    StableHlo.binary main_v79 main_v14 main_v80 (mulf : (⟨S1048576, .f32⟩ : BufTy).Contents (Elt F) → (⟨S1048576, .f32⟩ : BufTy).Contents (Elt F) → (⟨S1048576, .f32⟩ : BufTy).Contents (Elt F)),  -- %80
    StableHlo.nullary main_cst_13 (constant S_ .f32 0x00000000#32),  -- %cst_13
    StableHlo.unary main_cst_13 main_v81 (broadcastInDim S1024 ![] bcast_S_S1024 : (⟨S_, .f32⟩ : BufTy).Contents (Elt F) → (⟨S1024, .f32⟩ : BufTy).Contents (Elt F)),  -- %81
    StableHlo.unary main_v6 main_v82 (broadcastInDim S1048576x1 ![0] bcast_S1048576_S1048576x1_0 : (⟨S1048576, .i32⟩ : BufTy).Contents (Elt F) → (⟨S1048576x1, .i32⟩ : BufTy).Contents (Elt F)),  -- %82
    StableHlo.ternary main_v81 main_v82 main_v80 main_v83 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),  -- %83
    StableHlo.unary main_v83 main_v84 (broadcastInDim S1024x1 ![0] bcast_S1024_S1024x1_0 : (⟨S1024, .f32⟩ : BufTy).Contents (Elt F) → (⟨S1024x1, .f32⟩ : BufTy).Contents (Elt F)),  -- %84
    StableHlo.unary main_v80 main_v85 (broadcastInDim S1048576x1 ![0] bcast_S1048576_S1048576x1_0 : (⟨S1048576, .f32⟩ : BufTy).Contents (Elt F) → (⟨S1048576x1, .f32⟩ : BufTy).Contents (Elt F)),  -- %85
    StableHlo.nullary main_c_14 (constantI S_ 32 0#32),  -- %c_14
    StableHlo.unary main_c_14 main_v86 (broadcastInDim S1048576 ![] bcast_S_S1048576 : (⟨S_, .i32⟩ : BufTy).Contents (Elt F) → (⟨S1048576, .i32⟩ : BufTy).Contents (Elt F)),  -- %86
    StableHlo.binary main_v10 main_v86 main_v87 (cmpi .slt : (⟨S1048576, .i32⟩ : BufTy).Contents (Elt F) → (⟨S1048576, .i32⟩ : BufTy).Contents (Elt F) → (⟨S1048576, .i1⟩ : BufTy).Contents (Elt F)),  -- %87
    StableHlo.nullary main_c_15 (constantI S_ 32 1024#32),  -- %c_15
    StableHlo.unary main_c_15 main_v88 (broadcastInDim S1048576 ![] bcast_S_S1048576 : (⟨S_, .i32⟩ : BufTy).Contents (Elt F) → (⟨S1048576, .i32⟩ : BufTy).Contents (Elt F)),  -- %88
    StableHlo.binary main_v10 main_v88 main_v89 (addi : (⟨S1048576, .i32⟩ : BufTy).Contents (Elt F) → (⟨S1048576, .i32⟩ : BufTy).Contents (Elt F) → (⟨S1048576, .i32⟩ : BufTy).Contents (Elt F)),  -- %89
    StableHlo.ternary main_v87 main_v89 main_v10 main_v90 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %90
    StableHlo.unary main_v90 main_v91 (broadcastInDim S1048576x1 ![0] bcast_S1048576_S1048576x1_0 : (⟨S1048576, .i32⟩ : BufTy).Contents (Elt F) → (⟨S1048576x1, .i32⟩ : BufTy).Contents (Elt F)),  -- %91
    StableHlo.binary main_v58 main_v91 main_v92 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %92
    StableHlo.unary main_v85 main_v93 (broadcastInDim S1048576x8 ![0, 1] bcast_S1048576x1_S1048576x8_0_1 : (⟨S1048576x1, .f32⟩ : BufTy).Contents (Elt F) → (⟨S1048576x8, .f32⟩ : BufTy).Contents (Elt F)),  -- %93
    StableHlo.binary main_v93 main_v92 main_v94 (mulf : (⟨S1048576x8, .f32⟩ : BufTy).Contents (Elt F) → (⟨S1048576x8, .f32⟩ : BufTy).Contents (Elt F) → (⟨S1048576x8, .f32⟩ : BufTy).Contents (Elt F)),  -- %94
    StableHlo.nullary main_cst_16 (constant S_ .f32 0x00000000#32),  -- %cst_16
    StableHlo.unary main_cst_16 main_v95 (broadcastInDim S1024x8 ![] bcast_S_S1024x8 : (⟨S_, .f32⟩ : BufTy).Contents (Elt F) → (⟨S1024x8, .f32⟩ : BufTy).Contents (Elt F)),  -- %95
    StableHlo.unary main_v6 main_v96 (broadcastInDim S1048576x1 ![0] bcast_S1048576_S1048576x1_0 : (⟨S1048576, .i32⟩ : BufTy).Contents (Elt F) → (⟨S1048576x1, .i32⟩ : BufTy).Contents (Elt F)),  -- %96
    StableHlo.ternary main_v95 main_v96 main_v94 main_v97 ((fun x i u => Host.scatterAdd scatter_S1024x8_S1048576x1_S1048576x8_1_0_0_1 x i u) : (⟨S1024x8, .f32⟩ : BufTy).Contents (Elt F) → (⟨S1048576x1, .i32⟩ : BufTy).Contents (Elt F) → (⟨S1048576x8, .f32⟩ : BufTy).Contents (Elt F) → (⟨S1024x8, .f32⟩ : BufTy).Contents (Elt F)),  -- %97
    StableHlo.unary main_v84 main_v98 (broadcastInDim S1024x8 ![0, 1] bcast_S1024x1_S1024x8_0_1 : (⟨S1024x1, .f32⟩ : BufTy).Contents (Elt F) → (⟨S1024x8, .f32⟩ : BufTy).Contents (Elt F)),  -- %98
    StableHlo.binary main_v97 main_v98 main_v99 (Host.divf : (⟨S1024x8, .f32⟩ : BufTy).Contents (Elt F) → (⟨S1024x8, .f32⟩ : BufTy).Contents (Elt F) → (⟨S1024x8, .f32⟩ : BufTy).Contents (Elt F)),  -- %99
    StableHlo.TRef.nullary main_call3.cst (constant S_ .f32 0x00000000#32),  -- %100
    StableHlo.TRef.unary main_call3.cst main_call3.v0 (broadcastInDim S1024x8 ![] bcast_S_S1024x8),  -- %100
    StableHlo.TRef.binary (.of main_v99) main_call3.v0 main_call3.v1 (cmpf .ogt),  -- %100
    StableHlo.TRef.nullary main_call3.cst_0 (constant S_ .f32 0x00000000#32),  -- %100
    StableHlo.TRef.unary main_call3.cst_0 main_call3.v2 (broadcastInDim S1024x8 ![] bcast_S_S1024x8),  -- %100
    StableHlo.TRef.binary (.of main_v99) main_call3.v2 main_call3.v3 (cmpf .ogt),  -- %100
    StableHlo.TRef.nullary main_call3.cst_1 (constant S_ .f32 0x00000000#32),  -- %100
    StableHlo.TRef.unary main_call3.cst_1 main_call3.call0.v0 id,  -- %100
    StableHlo.TRef.unary main_call3.call0.v0 main_call3.call0.v1 (broadcastInDim S1024x8 ![] bcast_S_S1024x8),  -- %100
    StableHlo.TRef.ternary main_call3.v3 main_call3.call0.v1 (.of main_v99) main_call3.call0.v2 select,  -- %100
    StableHlo.TRef.unary main_call3.call0.v2 main_call3.v5 Host.expm1,  -- %100
    StableHlo.TRef.nullary main_call3.cst_2 (constant S_ .f32 0x3F800000#32),  -- %100
    StableHlo.TRef.unary main_call3.cst_2 main_call3.v6 (broadcastInDim S1024x8 ![] bcast_S_S1024x8),  -- %100
    StableHlo.TRef.binary main_call3.v6 main_call3.v5 main_call3.v7 mulf,  -- %100
    StableHlo.TRef.ternary main_call3.v1 (.of main_v99) main_call3.v7 main_call3.call1.v0 select ]  -- %100

/-- The arrays `opsH1` writes, in order. -/
abbrev wH1 : List (Ref sig .tc) :=
  [ main_v58, main_c_8, main_v59, main_v60, main_c_9, main_v61,
    main_v62, main_v63, main_v64, main_v65, main_c_10, main_v66,
    main_v67, main_c_11, main_v68, main_v69, main_v70, main_v71,
    main_v72, main_v73, main_v74, main_v75, main_v76, main_cst_12,
    main_call2.cst.ref, main_call2.v0.ref, main_call2.v1.ref, main_call2.v2.ref, main_call2.v3.ref, main_call2.v4.ref,
    main_call2.call0.v0.ref, main_v78, main_v79, main_v80, main_cst_13, main_v81,
    main_v82, main_v83, main_v84, main_v85, main_c_14, main_v86,
    main_v87, main_c_15, main_v88, main_v89, main_v90, main_v91,
    main_v92, main_v93, main_v94, main_cst_16, main_v95, main_v96,
    main_v97, main_v98, main_v99, main_call3.cst.ref, main_call3.v0.ref, main_call3.v1.ref,
    main_call3.cst_0.ref, main_call3.v2.ref, main_call3.v3.ref, main_call3.cst_1.ref, main_call3.call0.v0.ref, main_call3.call0.v1.ref,
    main_call3.call0.v2.ref, main_call3.v5.ref, main_call3.cst_2.ref, main_call3.v6.ref, main_call3.v7.ref, main_call3.call1.v0.ref ]

theorem opsH1_sub : (opsH1 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..,
    StableHlo.unary_bufs_sub .., StableHlo.binary_bufs_sub .., StableHlo.reshape_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.ternary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub ..,
    StableHlo.binary_bufs_sub .., StableHlo.ternary_bufs_sub ..⟩

/-- The third head: the same operations on the sixth and seventh arguments. (72 operations.) -/
abbrev opsH2 : List (HloOp τ sig (Elt F)) :=
  [ StableHlo.binary main_v1 main_arg5 main_v101 ((fun l r => Host.dotGeneral dot_S1024x1024_S1024x8_S1024x8_1_0_0_1_n_n none l r) : (⟨S1024x1024, .f32⟩ : BufTy).Contents (Elt F) → (⟨S1024x8, .f32⟩ : BufTy).Contents (Elt F) → (⟨S1024x8, .f32⟩ : BufTy).Contents (Elt F)),  -- %101
    StableHlo.nullary main_c_17 (constantI S_ 32 0#32),  -- %c_17
    StableHlo.unary main_c_17 main_v102 (broadcastInDim S1048576 ![] bcast_S_S1048576 : (⟨S_, .i32⟩ : BufTy).Contents (Elt F) → (⟨S1048576, .i32⟩ : BufTy).Contents (Elt F)),  -- %102
    StableHlo.binary main_v6 main_v102 main_v103 (cmpi .slt : (⟨S1048576, .i32⟩ : BufTy).Contents (Elt F) → (⟨S1048576, .i32⟩ : BufTy).Contents (Elt F) → (⟨S1048576, .i1⟩ : BufTy).Contents (Elt F)),  -- %103
    StableHlo.nullary main_c_18 (constantI S_ 32 1024#32),  -- %c_18
    StableHlo.unary main_c_18 main_v104 (broadcastInDim S1048576 ![] bcast_S_S1048576 : (⟨S_, .i32⟩ : BufTy).Contents (Elt F) → (⟨S1048576, .i32⟩ : BufTy).Contents (Elt F)),  -- %104
    StableHlo.binary main_v6 main_v104 main_v105 (addi : (⟨S1048576, .i32⟩ : BufTy).Contents (Elt F) → (⟨S1048576, .i32⟩ : BufTy).Contents (Elt F) → (⟨S1048576, .i32⟩ : BufTy).Contents (Elt F)),  -- %105
    StableHlo.ternary main_v103 main_v105 main_v6 main_v106 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %106
    StableHlo.unary main_v106 main_v107 (broadcastInDim S1048576x1 ![0] bcast_S1048576_S1048576x1_0 : (⟨S1048576, .i32⟩ : BufTy).Contents (Elt F) → (⟨S1048576x1, .i32⟩ : BufTy).Contents (Elt F)),  -- %107
    StableHlo.binary main_v101 main_v107 main_v108 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %108
    StableHlo.nullary main_c_19 (constantI S_ 32 0#32),  -- %c_19
    StableHlo.unary main_c_19 main_v109 (broadcastInDim S1048576 ![] bcast_S_S1048576 : (⟨S_, .i32⟩ : BufTy).Contents (Elt F) → (⟨S1048576, .i32⟩ : BufTy).Contents (Elt F)),  -- %109
    StableHlo.binary main_v10 main_v109 main_v110 (cmpi .slt : (⟨S1048576, .i32⟩ : BufTy).Contents (Elt F) → (⟨S1048576, .i32⟩ : BufTy).Contents (Elt F) → (⟨S1048576, .i1⟩ : BufTy).Contents (Elt F)),  -- %110
    StableHlo.nullary main_c_20 (constantI S_ 32 1024#32),  -- %c_20
    StableHlo.unary main_c_20 main_v111 (broadcastInDim S1048576 ![] bcast_S_S1048576 : (⟨S_, .i32⟩ : BufTy).Contents (Elt F) → (⟨S1048576, .i32⟩ : BufTy).Contents (Elt F)),  -- %111
    StableHlo.binary main_v10 main_v111 main_v112 (addi : (⟨S1048576, .i32⟩ : BufTy).Contents (Elt F) → (⟨S1048576, .i32⟩ : BufTy).Contents (Elt F) → (⟨S1048576, .i32⟩ : BufTy).Contents (Elt F)),  -- %112
    StableHlo.ternary main_v110 main_v112 main_v10 main_v113 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %113
    StableHlo.unary main_v113 main_v114 (broadcastInDim S1048576x1 ![0] bcast_S1048576_S1048576x1_0 : (⟨S1048576, .i32⟩ : BufTy).Contents (Elt F) → (⟨S1048576x1, .i32⟩ : BufTy).Contents (Elt F)),  -- %114
    StableHlo.binary main_v101 main_v114 main_v115 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %115
    StableHlo.binary main_v108 main_v115 main_v116 ((fun a b => concatenate S1048576x16 1 [⟨S1048576x8, a⟩, ⟨S1048576x8, b⟩] concatenates_S1048576x8_S1048576x8_S1048576x16_d1) : (⟨S1048576x8, .f32⟩ : BufTy).Contents (Elt F) → (⟨S1048576x8, .f32⟩ : BufTy).Contents (Elt F) → (⟨S1048576x16, .f32⟩ : BufTy).Contents (Elt F)),  -- %116
    StableHlo.unary main_v116 main_v117 ((transpose S16x1048576 [1, 0] · transposes_S1048576x16_S16x1048576_1_0) : (⟨S1048576x16, .f32⟩ : BufTy).Contents (Elt F) → (⟨S16x1048576, .f32⟩ : BufTy).Contents (Elt F)),  -- %117
    StableHlo.binary main_arg6 main_v117 main_v118 ((fun l r => Host.dotGeneral dot_S1x16_S16x1048576_S1x1048576_1_0_0_1_n_n none l r) : (⟨S1x16, .f32⟩ : BufTy).Contents (Elt F) → (⟨S16x1048576, .f32⟩ : BufTy).Contents (Elt F) → (⟨S1x1048576, .f32⟩ : BufTy).Contents (Elt F)),  -- %118
    StableHlo.reshape main_v118 main_v119 rfl shapeCasts_S1x1048576_S1048576,  -- %119
    StableHlo.nullary main_cst_21 (constant S_ .f32 0x3E4CCCCD#32),  -- %cst_21
    StableHlo.TRef.nullary main_call4.cst (constant S_ .f32 0x00000000#32),  -- %120
    StableHlo.TRef.unary main_call4.cst main_call4.v0 (broadcastInDim S1048576 ![] bcast_S_S1048576),  -- %120
    StableHlo.TRef.binary (.of main_v119) main_call4.v0 main_call4.v1 (cmpf .oge),  -- %120
    StableHlo.TRef.unary (.of main_cst_21) main_call4.v2 id,  -- %120
    StableHlo.TRef.unary main_call4.v2 main_call4.v3 (broadcastInDim S1048576 ![] bcast_S_S1048576),  -- %120
    StableHlo.TRef.binary main_call4.v3 (.of main_v119) main_call4.v4 mulf,  -- %120
    StableHlo.TRef.ternary main_call4.v1 (.of main_v119) main_call4.v4 main_call4.call0.v0 select,  -- %120
    StableHlo.unary main_v120 main_v121 (Host.negf : (⟨S1048576, .f32⟩ : BufTy).Contents (Elt F) → (⟨S1048576, .f32⟩ : BufTy).Contents (Elt F)),  -- %121
    StableHlo.unary main_v121 main_v122 (Host.exp : (⟨S1048576, .f32⟩ : BufTy).Contents (Elt F) → (⟨S1048576, .f32⟩ : BufTy).Contents (Elt F)),  -- %122
    StableHlo.binary main_v122 main_v14 main_v123 (mulf : (⟨S1048576, .f32⟩ : BufTy).Contents (Elt F) → (⟨S1048576, .f32⟩ : BufTy).Contents (Elt F) → (⟨S1048576, .f32⟩ : BufTy).Contents (Elt F)),  -- %123
    StableHlo.nullary main_cst_22 (constant S_ .f32 0x00000000#32),  -- %cst_22
    StableHlo.unary main_cst_22 main_v124 (broadcastInDim S1024 ![] bcast_S_S1024 : (⟨S_, .f32⟩ : BufTy).Contents (Elt F) → (⟨S1024, .f32⟩ : BufTy).Contents (Elt F)),  -- %124
    StableHlo.unary main_v6 main_v125 (broadcastInDim S1048576x1 ![0] bcast_S1048576_S1048576x1_0 : (⟨S1048576, .i32⟩ : BufTy).Contents (Elt F) → (⟨S1048576x1, .i32⟩ : BufTy).Contents (Elt F)),  -- %125
    StableHlo.ternary main_v124 main_v125 main_v123 main_v126 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),  -- %126
    StableHlo.unary main_v126 main_v127 (broadcastInDim S1024x1 ![0] bcast_S1024_S1024x1_0 : (⟨S1024, .f32⟩ : BufTy).Contents (Elt F) → (⟨S1024x1, .f32⟩ : BufTy).Contents (Elt F)),  -- %127
    StableHlo.unary main_v123 main_v128 (broadcastInDim S1048576x1 ![0] bcast_S1048576_S1048576x1_0 : (⟨S1048576, .f32⟩ : BufTy).Contents (Elt F) → (⟨S1048576x1, .f32⟩ : BufTy).Contents (Elt F)),  -- %128
    StableHlo.nullary main_c_23 (constantI S_ 32 0#32),  -- %c_23
    StableHlo.unary main_c_23 main_v129 (broadcastInDim S1048576 ![] bcast_S_S1048576 : (⟨S_, .i32⟩ : BufTy).Contents (Elt F) → (⟨S1048576, .i32⟩ : BufTy).Contents (Elt F)),  -- %129
    StableHlo.binary main_v10 main_v129 main_v130 (cmpi .slt : (⟨S1048576, .i32⟩ : BufTy).Contents (Elt F) → (⟨S1048576, .i32⟩ : BufTy).Contents (Elt F) → (⟨S1048576, .i1⟩ : BufTy).Contents (Elt F)),  -- %130
    StableHlo.nullary main_c_24 (constantI S_ 32 1024#32),  -- %c_24
    StableHlo.unary main_c_24 main_v131 (broadcastInDim S1048576 ![] bcast_S_S1048576 : (⟨S_, .i32⟩ : BufTy).Contents (Elt F) → (⟨S1048576, .i32⟩ : BufTy).Contents (Elt F)),  -- %131
    StableHlo.binary main_v10 main_v131 main_v132 (addi : (⟨S1048576, .i32⟩ : BufTy).Contents (Elt F) → (⟨S1048576, .i32⟩ : BufTy).Contents (Elt F) → (⟨S1048576, .i32⟩ : BufTy).Contents (Elt F)),  -- %132
    StableHlo.ternary main_v130 main_v132 main_v10 main_v133 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %133
    StableHlo.unary main_v133 main_v134 (broadcastInDim S1048576x1 ![0] bcast_S1048576_S1048576x1_0 : (⟨S1048576, .i32⟩ : BufTy).Contents (Elt F) → (⟨S1048576x1, .i32⟩ : BufTy).Contents (Elt F)),  -- %134
    StableHlo.binary main_v101 main_v134 main_v135 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %135
    StableHlo.unary main_v128 main_v136 (broadcastInDim S1048576x8 ![0, 1] bcast_S1048576x1_S1048576x8_0_1 : (⟨S1048576x1, .f32⟩ : BufTy).Contents (Elt F) → (⟨S1048576x8, .f32⟩ : BufTy).Contents (Elt F)),  -- %136
    StableHlo.binary main_v136 main_v135 main_v137 (mulf : (⟨S1048576x8, .f32⟩ : BufTy).Contents (Elt F) → (⟨S1048576x8, .f32⟩ : BufTy).Contents (Elt F) → (⟨S1048576x8, .f32⟩ : BufTy).Contents (Elt F)),  -- %137
    StableHlo.nullary main_cst_25 (constant S_ .f32 0x00000000#32),  -- %cst_25
    StableHlo.unary main_cst_25 main_v138 (broadcastInDim S1024x8 ![] bcast_S_S1024x8 : (⟨S_, .f32⟩ : BufTy).Contents (Elt F) → (⟨S1024x8, .f32⟩ : BufTy).Contents (Elt F)),  -- %138
    StableHlo.unary main_v6 main_v139 (broadcastInDim S1048576x1 ![0] bcast_S1048576_S1048576x1_0 : (⟨S1048576, .i32⟩ : BufTy).Contents (Elt F) → (⟨S1048576x1, .i32⟩ : BufTy).Contents (Elt F)),  -- %139
    StableHlo.ternary main_v138 main_v139 main_v137 main_v140 ((fun x i u => Host.scatterAdd scatter_S1024x8_S1048576x1_S1048576x8_1_0_0_1 x i u) : (⟨S1024x8, .f32⟩ : BufTy).Contents (Elt F) → (⟨S1048576x1, .i32⟩ : BufTy).Contents (Elt F) → (⟨S1048576x8, .f32⟩ : BufTy).Contents (Elt F) → (⟨S1024x8, .f32⟩ : BufTy).Contents (Elt F)),  -- %140
    StableHlo.unary main_v127 main_v141 (broadcastInDim S1024x8 ![0, 1] bcast_S1024x1_S1024x8_0_1 : (⟨S1024x1, .f32⟩ : BufTy).Contents (Elt F) → (⟨S1024x8, .f32⟩ : BufTy).Contents (Elt F)),  -- %141
    StableHlo.binary main_v140 main_v141 main_v142 (Host.divf : (⟨S1024x8, .f32⟩ : BufTy).Contents (Elt F) → (⟨S1024x8, .f32⟩ : BufTy).Contents (Elt F) → (⟨S1024x8, .f32⟩ : BufTy).Contents (Elt F)),  -- %142
    StableHlo.TRef.nullary main_call5.cst (constant S_ .f32 0x00000000#32),  -- %143
    StableHlo.TRef.unary main_call5.cst main_call5.v0 (broadcastInDim S1024x8 ![] bcast_S_S1024x8),  -- %143
    StableHlo.TRef.binary (.of main_v142) main_call5.v0 main_call5.v1 (cmpf .ogt),  -- %143
    StableHlo.TRef.nullary main_call5.cst_0 (constant S_ .f32 0x00000000#32),  -- %143
    StableHlo.TRef.unary main_call5.cst_0 main_call5.v2 (broadcastInDim S1024x8 ![] bcast_S_S1024x8),  -- %143
    StableHlo.TRef.binary (.of main_v142) main_call5.v2 main_call5.v3 (cmpf .ogt),  -- %143
    StableHlo.TRef.nullary main_call5.cst_1 (constant S_ .f32 0x00000000#32),  -- %143
    StableHlo.TRef.unary main_call5.cst_1 main_call5.call0.v0 id,  -- %143
    StableHlo.TRef.unary main_call5.call0.v0 main_call5.call0.v1 (broadcastInDim S1024x8 ![] bcast_S_S1024x8),  -- %143
    StableHlo.TRef.ternary main_call5.v3 main_call5.call0.v1 (.of main_v142) main_call5.call0.v2 select,  -- %143
    StableHlo.TRef.unary main_call5.call0.v2 main_call5.v5 Host.expm1,  -- %143
    StableHlo.TRef.nullary main_call5.cst_2 (constant S_ .f32 0x3F800000#32),  -- %143
    StableHlo.TRef.unary main_call5.cst_2 main_call5.v6 (broadcastInDim S1024x8 ![] bcast_S_S1024x8),  -- %143
    StableHlo.TRef.binary main_call5.v6 main_call5.v5 main_call5.v7 mulf,  -- %143
    StableHlo.TRef.ternary main_call5.v1 (.of main_v142) main_call5.v7 main_call5.call1.v0 select ]  -- %143

/-- The arrays `opsH2` writes, in order. -/
abbrev wH2 : List (Ref sig .tc) :=
  [ main_v101, main_c_17, main_v102, main_v103, main_c_18, main_v104,
    main_v105, main_v106, main_v107, main_v108, main_c_19, main_v109,
    main_v110, main_c_20, main_v111, main_v112, main_v113, main_v114,
    main_v115, main_v116, main_v117, main_v118, main_v119, main_cst_21,
    main_call4.cst.ref, main_call4.v0.ref, main_call4.v1.ref, main_call4.v2.ref, main_call4.v3.ref, main_call4.v4.ref,
    main_call4.call0.v0.ref, main_v121, main_v122, main_v123, main_cst_22, main_v124,
    main_v125, main_v126, main_v127, main_v128, main_c_23, main_v129,
    main_v130, main_c_24, main_v131, main_v132, main_v133, main_v134,
    main_v135, main_v136, main_v137, main_cst_25, main_v138, main_v139,
    main_v140, main_v141, main_v142, main_call5.cst.ref, main_call5.v0.ref, main_call5.v1.ref,
    main_call5.cst_0.ref, main_call5.v2.ref, main_call5.v3.ref, main_call5.cst_1.ref, main_call5.call0.v0.ref, main_call5.call0.v1.ref,
    main_call5.call0.v2.ref, main_call5.v5.ref, main_call5.cst_2.ref, main_call5.v6.ref, main_call5.v7.ref, main_call5.call1.v0.ref ]

theorem opsH2_sub : (opsH2 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..,
    StableHlo.unary_bufs_sub .., StableHlo.binary_bufs_sub .., StableHlo.reshape_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.ternary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub ..,
    StableHlo.binary_bufs_sub .., StableHlo.ternary_bufs_sub ..⟩

/-- The fourth head: the same operations on the eighth and ninth arguments. (72 operations.) -/
abbrev opsH3 : List (HloOp τ sig (Elt F)) :=
  [ StableHlo.binary main_v1 main_arg7 main_v144 ((fun l r => Host.dotGeneral dot_S1024x1024_S1024x8_S1024x8_1_0_0_1_n_n none l r) : (⟨S1024x1024, .f32⟩ : BufTy).Contents (Elt F) → (⟨S1024x8, .f32⟩ : BufTy).Contents (Elt F) → (⟨S1024x8, .f32⟩ : BufTy).Contents (Elt F)),  -- %144
    StableHlo.nullary main_c_26 (constantI S_ 32 0#32),  -- %c_26
    StableHlo.unary main_c_26 main_v145 (broadcastInDim S1048576 ![] bcast_S_S1048576 : (⟨S_, .i32⟩ : BufTy).Contents (Elt F) → (⟨S1048576, .i32⟩ : BufTy).Contents (Elt F)),  -- %145
    StableHlo.binary main_v6 main_v145 main_v146 (cmpi .slt : (⟨S1048576, .i32⟩ : BufTy).Contents (Elt F) → (⟨S1048576, .i32⟩ : BufTy).Contents (Elt F) → (⟨S1048576, .i1⟩ : BufTy).Contents (Elt F)),  -- %146
    StableHlo.nullary main_c_27 (constantI S_ 32 1024#32),  -- %c_27
    StableHlo.unary main_c_27 main_v147 (broadcastInDim S1048576 ![] bcast_S_S1048576 : (⟨S_, .i32⟩ : BufTy).Contents (Elt F) → (⟨S1048576, .i32⟩ : BufTy).Contents (Elt F)),  -- %147
    StableHlo.binary main_v6 main_v147 main_v148 (addi : (⟨S1048576, .i32⟩ : BufTy).Contents (Elt F) → (⟨S1048576, .i32⟩ : BufTy).Contents (Elt F) → (⟨S1048576, .i32⟩ : BufTy).Contents (Elt F)),  -- %148
    StableHlo.ternary main_v146 main_v148 main_v6 main_v149 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %149
    StableHlo.unary main_v149 main_v150 (broadcastInDim S1048576x1 ![0] bcast_S1048576_S1048576x1_0 : (⟨S1048576, .i32⟩ : BufTy).Contents (Elt F) → (⟨S1048576x1, .i32⟩ : BufTy).Contents (Elt F)),  -- %150
    StableHlo.binary main_v144 main_v150 main_v151 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %151
    StableHlo.nullary main_c_28 (constantI S_ 32 0#32),  -- %c_28
    StableHlo.unary main_c_28 main_v152 (broadcastInDim S1048576 ![] bcast_S_S1048576 : (⟨S_, .i32⟩ : BufTy).Contents (Elt F) → (⟨S1048576, .i32⟩ : BufTy).Contents (Elt F)),  -- %152
    StableHlo.binary main_v10 main_v152 main_v153 (cmpi .slt : (⟨S1048576, .i32⟩ : BufTy).Contents (Elt F) → (⟨S1048576, .i32⟩ : BufTy).Contents (Elt F) → (⟨S1048576, .i1⟩ : BufTy).Contents (Elt F)),  -- %153
    StableHlo.nullary main_c_29 (constantI S_ 32 1024#32),  -- %c_29
    StableHlo.unary main_c_29 main_v154 (broadcastInDim S1048576 ![] bcast_S_S1048576 : (⟨S_, .i32⟩ : BufTy).Contents (Elt F) → (⟨S1048576, .i32⟩ : BufTy).Contents (Elt F)),  -- %154
    StableHlo.binary main_v10 main_v154 main_v155 (addi : (⟨S1048576, .i32⟩ : BufTy).Contents (Elt F) → (⟨S1048576, .i32⟩ : BufTy).Contents (Elt F) → (⟨S1048576, .i32⟩ : BufTy).Contents (Elt F)),  -- %155
    StableHlo.ternary main_v153 main_v155 main_v10 main_v156 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %156
    StableHlo.unary main_v156 main_v157 (broadcastInDim S1048576x1 ![0] bcast_S1048576_S1048576x1_0 : (⟨S1048576, .i32⟩ : BufTy).Contents (Elt F) → (⟨S1048576x1, .i32⟩ : BufTy).Contents (Elt F)),  -- %157
    StableHlo.binary main_v144 main_v157 main_v158 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %158
    StableHlo.binary main_v151 main_v158 main_v159 ((fun a b => concatenate S1048576x16 1 [⟨S1048576x8, a⟩, ⟨S1048576x8, b⟩] concatenates_S1048576x8_S1048576x8_S1048576x16_d1) : (⟨S1048576x8, .f32⟩ : BufTy).Contents (Elt F) → (⟨S1048576x8, .f32⟩ : BufTy).Contents (Elt F) → (⟨S1048576x16, .f32⟩ : BufTy).Contents (Elt F)),  -- %159
    StableHlo.unary main_v159 main_v160 ((transpose S16x1048576 [1, 0] · transposes_S1048576x16_S16x1048576_1_0) : (⟨S1048576x16, .f32⟩ : BufTy).Contents (Elt F) → (⟨S16x1048576, .f32⟩ : BufTy).Contents (Elt F)),  -- %160
    StableHlo.binary main_arg8 main_v160 main_v161 ((fun l r => Host.dotGeneral dot_S1x16_S16x1048576_S1x1048576_1_0_0_1_n_n none l r) : (⟨S1x16, .f32⟩ : BufTy).Contents (Elt F) → (⟨S16x1048576, .f32⟩ : BufTy).Contents (Elt F) → (⟨S1x1048576, .f32⟩ : BufTy).Contents (Elt F)),  -- %161
    StableHlo.reshape main_v161 main_v162 rfl shapeCasts_S1x1048576_S1048576,  -- %162
    StableHlo.nullary main_cst_30 (constant S_ .f32 0x3E4CCCCD#32),  -- %cst_30
    StableHlo.TRef.nullary main_call6.cst (constant S_ .f32 0x00000000#32),  -- %163
    StableHlo.TRef.unary main_call6.cst main_call6.v0 (broadcastInDim S1048576 ![] bcast_S_S1048576),  -- %163
    StableHlo.TRef.binary (.of main_v162) main_call6.v0 main_call6.v1 (cmpf .oge),  -- %163
    StableHlo.TRef.unary (.of main_cst_30) main_call6.v2 id,  -- %163
    StableHlo.TRef.unary main_call6.v2 main_call6.v3 (broadcastInDim S1048576 ![] bcast_S_S1048576),  -- %163
    StableHlo.TRef.binary main_call6.v3 (.of main_v162) main_call6.v4 mulf,  -- %163
    StableHlo.TRef.ternary main_call6.v1 (.of main_v162) main_call6.v4 main_call6.call0.v0 select,  -- %163
    StableHlo.unary main_v163 main_v164 (Host.negf : (⟨S1048576, .f32⟩ : BufTy).Contents (Elt F) → (⟨S1048576, .f32⟩ : BufTy).Contents (Elt F)),  -- %164
    StableHlo.unary main_v164 main_v165 (Host.exp : (⟨S1048576, .f32⟩ : BufTy).Contents (Elt F) → (⟨S1048576, .f32⟩ : BufTy).Contents (Elt F)),  -- %165
    StableHlo.binary main_v165 main_v14 main_v166 (mulf : (⟨S1048576, .f32⟩ : BufTy).Contents (Elt F) → (⟨S1048576, .f32⟩ : BufTy).Contents (Elt F) → (⟨S1048576, .f32⟩ : BufTy).Contents (Elt F)),  -- %166
    StableHlo.nullary main_cst_31 (constant S_ .f32 0x00000000#32),  -- %cst_31
    StableHlo.unary main_cst_31 main_v167 (broadcastInDim S1024 ![] bcast_S_S1024 : (⟨S_, .f32⟩ : BufTy).Contents (Elt F) → (⟨S1024, .f32⟩ : BufTy).Contents (Elt F)),  -- %167
    StableHlo.unary main_v6 main_v168 (broadcastInDim S1048576x1 ![0] bcast_S1048576_S1048576x1_0 : (⟨S1048576, .i32⟩ : BufTy).Contents (Elt F) → (⟨S1048576x1, .i32⟩ : BufTy).Contents (Elt F)),  -- %168
    StableHlo.ternary main_v167 main_v168 main_v166 main_v169 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),  -- %169
    StableHlo.unary main_v169 main_v170 (broadcastInDim S1024x1 ![0] bcast_S1024_S1024x1_0 : (⟨S1024, .f32⟩ : BufTy).Contents (Elt F) → (⟨S1024x1, .f32⟩ : BufTy).Contents (Elt F)),  -- %170
    StableHlo.unary main_v166 main_v171 (broadcastInDim S1048576x1 ![0] bcast_S1048576_S1048576x1_0 : (⟨S1048576, .f32⟩ : BufTy).Contents (Elt F) → (⟨S1048576x1, .f32⟩ : BufTy).Contents (Elt F)),  -- %171
    StableHlo.nullary main_c_32 (constantI S_ 32 0#32),  -- %c_32
    StableHlo.unary main_c_32 main_v172 (broadcastInDim S1048576 ![] bcast_S_S1048576 : (⟨S_, .i32⟩ : BufTy).Contents (Elt F) → (⟨S1048576, .i32⟩ : BufTy).Contents (Elt F)),  -- %172
    StableHlo.binary main_v10 main_v172 main_v173 (cmpi .slt : (⟨S1048576, .i32⟩ : BufTy).Contents (Elt F) → (⟨S1048576, .i32⟩ : BufTy).Contents (Elt F) → (⟨S1048576, .i1⟩ : BufTy).Contents (Elt F)),  -- %173
    StableHlo.nullary main_c_33 (constantI S_ 32 1024#32),  -- %c_33
    StableHlo.unary main_c_33 main_v174 (broadcastInDim S1048576 ![] bcast_S_S1048576 : (⟨S_, .i32⟩ : BufTy).Contents (Elt F) → (⟨S1048576, .i32⟩ : BufTy).Contents (Elt F)),  -- %174
    StableHlo.binary main_v10 main_v174 main_v175 (addi : (⟨S1048576, .i32⟩ : BufTy).Contents (Elt F) → (⟨S1048576, .i32⟩ : BufTy).Contents (Elt F) → (⟨S1048576, .i32⟩ : BufTy).Contents (Elt F)),  -- %175
    StableHlo.ternary main_v173 main_v175 main_v10 main_v176 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %176
    StableHlo.unary main_v176 main_v177 (broadcastInDim S1048576x1 ![0] bcast_S1048576_S1048576x1_0 : (⟨S1048576, .i32⟩ : BufTy).Contents (Elt F) → (⟨S1048576x1, .i32⟩ : BufTy).Contents (Elt F)),  -- %177
    StableHlo.binary main_v144 main_v177 main_v178 ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)),  -- %178
    StableHlo.unary main_v171 main_v179 (broadcastInDim S1048576x8 ![0, 1] bcast_S1048576x1_S1048576x8_0_1 : (⟨S1048576x1, .f32⟩ : BufTy).Contents (Elt F) → (⟨S1048576x8, .f32⟩ : BufTy).Contents (Elt F)),  -- %179
    StableHlo.binary main_v179 main_v178 main_v180 (mulf : (⟨S1048576x8, .f32⟩ : BufTy).Contents (Elt F) → (⟨S1048576x8, .f32⟩ : BufTy).Contents (Elt F) → (⟨S1048576x8, .f32⟩ : BufTy).Contents (Elt F)),  -- %180
    StableHlo.nullary main_cst_34 (constant S_ .f32 0x00000000#32),  -- %cst_34
    StableHlo.unary main_cst_34 main_v181 (broadcastInDim S1024x8 ![] bcast_S_S1024x8 : (⟨S_, .f32⟩ : BufTy).Contents (Elt F) → (⟨S1024x8, .f32⟩ : BufTy).Contents (Elt F)),  -- %181
    StableHlo.unary main_v6 main_v182 (broadcastInDim S1048576x1 ![0] bcast_S1048576_S1048576x1_0 : (⟨S1048576, .i32⟩ : BufTy).Contents (Elt F) → (⟨S1048576x1, .i32⟩ : BufTy).Contents (Elt F)),  -- %182
    StableHlo.ternary main_v181 main_v182 main_v180 main_v183 ((fun x i u => Host.scatterAdd scatter_S1024x8_S1048576x1_S1048576x8_1_0_0_1 x i u) : (⟨S1024x8, .f32⟩ : BufTy).Contents (Elt F) → (⟨S1048576x1, .i32⟩ : BufTy).Contents (Elt F) → (⟨S1048576x8, .f32⟩ : BufTy).Contents (Elt F) → (⟨S1024x8, .f32⟩ : BufTy).Contents (Elt F)),  -- %183
    StableHlo.unary main_v170 main_v184 (broadcastInDim S1024x8 ![0, 1] bcast_S1024x1_S1024x8_0_1 : (⟨S1024x1, .f32⟩ : BufTy).Contents (Elt F) → (⟨S1024x8, .f32⟩ : BufTy).Contents (Elt F)),  -- %184
    StableHlo.binary main_v183 main_v184 main_v185 (Host.divf : (⟨S1024x8, .f32⟩ : BufTy).Contents (Elt F) → (⟨S1024x8, .f32⟩ : BufTy).Contents (Elt F) → (⟨S1024x8, .f32⟩ : BufTy).Contents (Elt F)),  -- %185
    StableHlo.TRef.nullary main_call7.cst (constant S_ .f32 0x00000000#32),  -- %186
    StableHlo.TRef.unary main_call7.cst main_call7.v0 (broadcastInDim S1024x8 ![] bcast_S_S1024x8),  -- %186
    StableHlo.TRef.binary (.of main_v185) main_call7.v0 main_call7.v1 (cmpf .ogt),  -- %186
    StableHlo.TRef.nullary main_call7.cst_0 (constant S_ .f32 0x00000000#32),  -- %186
    StableHlo.TRef.unary main_call7.cst_0 main_call7.v2 (broadcastInDim S1024x8 ![] bcast_S_S1024x8),  -- %186
    StableHlo.TRef.binary (.of main_v185) main_call7.v2 main_call7.v3 (cmpf .ogt),  -- %186
    StableHlo.TRef.nullary main_call7.cst_1 (constant S_ .f32 0x00000000#32),  -- %186
    StableHlo.TRef.unary main_call7.cst_1 main_call7.call0.v0 id,  -- %186
    StableHlo.TRef.unary main_call7.call0.v0 main_call7.call0.v1 (broadcastInDim S1024x8 ![] bcast_S_S1024x8),  -- %186
    StableHlo.TRef.ternary main_call7.v3 main_call7.call0.v1 (.of main_v185) main_call7.call0.v2 select,  -- %186
    StableHlo.TRef.unary main_call7.call0.v2 main_call7.v5 Host.expm1,  -- %186
    StableHlo.TRef.nullary main_call7.cst_2 (constant S_ .f32 0x3F800000#32),  -- %186
    StableHlo.TRef.unary main_call7.cst_2 main_call7.v6 (broadcastInDim S1024x8 ![] bcast_S_S1024x8),  -- %186
    StableHlo.TRef.binary main_call7.v6 main_call7.v5 main_call7.v7 mulf,  -- %186
    StableHlo.TRef.ternary main_call7.v1 (.of main_v185) main_call7.v7 main_call7.call1.v0 select ]  -- %186

/-- The arrays `opsH3` writes, in order. -/
abbrev wH3 : List (Ref sig .tc) :=
  [ main_v144, main_c_26, main_v145, main_v146, main_c_27, main_v147,
    main_v148, main_v149, main_v150, main_v151, main_c_28, main_v152,
    main_v153, main_c_29, main_v154, main_v155, main_v156, main_v157,
    main_v158, main_v159, main_v160, main_v161, main_v162, main_cst_30,
    main_call6.cst.ref, main_call6.v0.ref, main_call6.v1.ref, main_call6.v2.ref, main_call6.v3.ref, main_call6.v4.ref,
    main_call6.call0.v0.ref, main_v164, main_v165, main_v166, main_cst_31, main_v167,
    main_v168, main_v169, main_v170, main_v171, main_c_32, main_v172,
    main_v173, main_c_33, main_v174, main_v175, main_v176, main_v177,
    main_v178, main_v179, main_v180, main_cst_34, main_v181, main_v182,
    main_v183, main_v184, main_v185, main_call7.cst.ref, main_call7.v0.ref, main_call7.v1.ref,
    main_call7.cst_0.ref, main_call7.v2.ref, main_call7.v3.ref, main_call7.cst_1.ref, main_call7.call0.v0.ref, main_call7.call0.v1.ref,
    main_call7.call0.v2.ref, main_call7.v5.ref, main_call7.cst_2.ref, main_call7.v6.ref, main_call7.v7.ref, main_call7.call1.v0.ref ]

theorem opsH3_sub : (opsH3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.binary_bufs_sub ..,
    StableHlo.unary_bufs_sub .., StableHlo.binary_bufs_sub .., StableHlo.reshape_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub ..,
    StableHlo.ternary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.nullary_bufs_sub .., StableHlo.unary_bufs_sub ..,
    StableHlo.binary_bufs_sub .., StableHlo.ternary_bufs_sub ..⟩

/-- The last layer: the four heads side by side, its own edge tables and mask, then one more head of width two. (85 operations.) -/
abbrev opsL2 : List (HloOp τ sig (Elt F)) :=
  [ StableHlo.nary ![main_v57, main_v100, main_v143, main_v186] main_v187 (fun u => concatenate S1024x32 1 [⟨S1024x8, u 0⟩, ⟨S1024x8, u 1⟩, ⟨S1024x8, u 2⟩, ⟨S1024x8, u 3⟩] concatenates_S1024x8_S1024x8_S1024x8_S1024x8_S1024x32_d1),  -- %187
    StableHlo.nullary main_v188 (iotaInDim S1024 32 0),  -- %188
    StableHlo.unary main_v188 main_v189 (broadcastInDim S1024x1024 ![0] bcast_S1024_S1024x1024_0 : (⟨S1024, .i32⟩ : BufTy).Contents (Elt F) → (⟨S1024x1024, .i32⟩ : BufTy).Contents (Elt F)),  -- %189
    StableHlo.reshape main_v189 main_v190 rfl shapeCasts_S1024x1024_S1048576,  -- %190
    StableHlo.nullary main_v191 (iotaInDim S1024 32 0),  -- %191
    StableHlo.reshape main_v191 main_v192 rfl shapeCasts_S1024_S1x1024,  -- %192
    StableHlo.unary main_v192 main_v193 (broadcastInDim S1024x1024 ![0, 1] bcast_S1x1024_S1024x1024_0_1 : (⟨S1x1024, .i32⟩ : BufTy).Contents (Elt F) → (⟨S1024x1024, .i32⟩ : BufTy).Contents (Elt F)),  -- %193
    StableHlo.reshape main_v193 main_v194 rfl shapeCasts_S1024x1024_S1048576,  -- %194
    StableHlo.reshape main_v3 main_v195 rfl shapeCasts_S1024x1024_S1048576,  -- %195
    StableHlo.nullary main_cst_35 (constant S_ .f32 0x00000000#32),  -- %cst_35
    StableHlo.unary main_cst_35 main_v196 (broadcastInDim S1048576 ![] bcast_S_S1048576 : (⟨S_, .f32⟩ : BufTy).Contents (Elt F) → (⟨S1048576, .f32⟩ : BufTy).Contents (Elt F)),  -- %196
    StableHlo.binary main_v195 main_v196 main_v197 (cmpf .une : (⟨S1048576, .f32⟩ : BufTy).Contents (Elt F) → (⟨S1048576, .f32⟩ : BufTy).Contents (Elt F) → (⟨S1048576, .i1⟩ : BufTy).Contents (Elt F)),  -- %197
    StableHlo.unary main_v197 main_v198 (uitofp .f32 : (⟨S1048576, .i1⟩ : BufTy).Contents (Elt F) → (⟨S1048576, .f32⟩ : BufTy).Contents (Elt F)),  -- %198
    StableHlo.binary main_v187 main_arg9 main_v199 ((fun l r => Host.dotGeneral dot_S1024x32_S32x2_S1024x2_1_0_0_1_n_n none l r) : (⟨S1024x32, .f32⟩ : BufTy).Contents (Elt F) → (⟨S32x2, .f32⟩ : BufTy).Contents (Elt F) → (⟨S1024x2, .f32⟩ : BufTy).Contents (Elt F)),  -- %199
    StableHlo.nullary main_c_36 (constantI S_ 32 0#32),  -- %c_36
    StableHlo.unary main_c_36 main_v200 (broadcastInDim S1048576 ![] bcast_S_S1048576 : (⟨S_, .i32⟩ : BufTy).Contents (Elt F) → (⟨S1048576, .i32⟩ : BufTy).Contents (Elt F)),  -- %200
    StableHlo.binary main_v190 main_v200 main_v201 (cmpi .slt : (⟨S1048576, .i32⟩ : BufTy).Contents (Elt F) → (⟨S1048576, .i32⟩ : BufTy).Contents (Elt F) → (⟨S1048576, .i1⟩ : BufTy).Contents (Elt F)),  -- %201
    StableHlo.nullary main_c_37 (constantI S_ 32 1024#32),  -- %c_37
    StableHlo.unary main_c_37 main_v202 (broadcastInDim S1048576 ![] bcast_S_S1048576 : (⟨S_, .i32⟩ : BufTy).Contents (Elt F) → (⟨S1048576, .i32⟩ : BufTy).Contents (Elt F)),  -- %202
    StableHlo.binary main_v190 main_v202 main_v203 (addi : (⟨S1048576, .i32⟩ : BufTy).Contents (Elt F) → (⟨S1048576, .i32⟩ : BufTy).Contents (Elt F) → (⟨S1048576, .i32⟩ : BufTy).Contents (Elt F)),  -- %203
    StableHlo.ternary main_v201 main_v203 main_v190 main_v204 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %204
    StableHlo.unary main_v204 main_v205 (broadcastInDim S1048576x1 ![0] bcast_S1048576_S1048576x1_0 : (⟨S1048576, .i32⟩ : BufTy).Contents (Elt F) → (⟨S1048576x1, .i32⟩ : BufTy).Contents (Elt F)),  -- %205
    StableHlo.binary main_v199 main_v205 main_v206 ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)),  -- %206
    StableHlo.nullary main_c_38 (constantI S_ 32 0#32),  -- %c_38
    StableHlo.unary main_c_38 main_v207 (broadcastInDim S1048576 ![] bcast_S_S1048576 : (⟨S_, .i32⟩ : BufTy).Contents (Elt F) → (⟨S1048576, .i32⟩ : BufTy).Contents (Elt F)),  -- %207
    StableHlo.binary main_v194 main_v207 main_v208 (cmpi .slt : (⟨S1048576, .i32⟩ : BufTy).Contents (Elt F) → (⟨S1048576, .i32⟩ : BufTy).Contents (Elt F) → (⟨S1048576, .i1⟩ : BufTy).Contents (Elt F)),  -- %208
    StableHlo.nullary main_c_39 (constantI S_ 32 1024#32),  -- %c_39
    StableHlo.unary main_c_39 main_v209 (broadcastInDim S1048576 ![] bcast_S_S1048576 : (⟨S_, .i32⟩ : BufTy).Contents (Elt F) → (⟨S1048576, .i32⟩ : BufTy).Contents (Elt F)),  -- %209
    StableHlo.binary main_v194 main_v209 main_v210 (addi : (⟨S1048576, .i32⟩ : BufTy).Contents (Elt F) → (⟨S1048576, .i32⟩ : BufTy).Contents (Elt F) → (⟨S1048576, .i32⟩ : BufTy).Contents (Elt F)),  -- %210
    StableHlo.ternary main_v208 main_v210 main_v194 main_v211 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %211
    StableHlo.unary main_v211 main_v212 (broadcastInDim S1048576x1 ![0] bcast_S1048576_S1048576x1_0 : (⟨S1048576, .i32⟩ : BufTy).Contents (Elt F) → (⟨S1048576x1, .i32⟩ : BufTy).Contents (Elt F)),  -- %212
    StableHlo.binary main_v199 main_v212 main_v213 ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)),  -- %213
    StableHlo.binary main_v206 main_v213 main_v214 ((fun a b => concatenate S1048576x4 1 [⟨S1048576x2, a⟩, ⟨S1048576x2, b⟩] concatenates_S1048576x2_S1048576x2_S1048576x4_d1) : (⟨S1048576x2, .f32⟩ : BufTy).Contents (Elt F) → (⟨S1048576x2, .f32⟩ : BufTy).Contents (Elt F) → (⟨S1048576x4, .f32⟩ : BufTy).Contents (Elt F)),  -- %214
    StableHlo.unary main_v214 main_v215 ((transpose S4x1048576 [1, 0] · transposes_S1048576x4_S4x1048576_1_0) : (⟨S1048576x4, .f32⟩ : BufTy).Contents (Elt F) → (⟨S4x1048576, .f32⟩ : BufTy).Contents (Elt F)),  -- %215
    StableHlo.binary main_arg10 main_v215 main_v216 ((fun l r => Host.dotGeneral dot_S1x4_S4x1048576_S1x1048576_1_0_0_1_n_n none l r) : (⟨S1x4, .f32⟩ : BufTy).Contents (Elt F) → (⟨S4x1048576, .f32⟩ : BufTy).Contents (Elt F) → (⟨S1x1048576, .f32⟩ : BufTy).Contents (Elt F)),  -- %216
    StableHlo.reshape main_v216 main_v217 rfl shapeCasts_S1x1048576_S1048576,  -- %217
    StableHlo.nullary main_cst_40 (constant S_ .f32 0x3E4CCCCD#32),  -- %cst_40
    StableHlo.TRef.nullary main_call8.cst (constant S_ .f32 0x00000000#32),  -- %218
    StableHlo.TRef.unary main_call8.cst main_call8.v0 (broadcastInDim S1048576 ![] bcast_S_S1048576),  -- %218
    StableHlo.TRef.binary (.of main_v217) main_call8.v0 main_call8.v1 (cmpf .oge),  -- %218
    StableHlo.TRef.unary (.of main_cst_40) main_call8.v2 id,  -- %218
    StableHlo.TRef.unary main_call8.v2 main_call8.v3 (broadcastInDim S1048576 ![] bcast_S_S1048576),  -- %218
    StableHlo.TRef.binary main_call8.v3 (.of main_v217) main_call8.v4 mulf,  -- %218
    StableHlo.TRef.ternary main_call8.v1 (.of main_v217) main_call8.v4 main_call8.call0.v0 select,  -- %218
    StableHlo.unary main_v218 main_v219 (Host.negf : (⟨S1048576, .f32⟩ : BufTy).Contents (Elt F) → (⟨S1048576, .f32⟩ : BufTy).Contents (Elt F)),  -- %219
    StableHlo.unary main_v219 main_v220 (Host.exp : (⟨S1048576, .f32⟩ : BufTy).Contents (Elt F) → (⟨S1048576, .f32⟩ : BufTy).Contents (Elt F)),  -- %220
    StableHlo.binary main_v220 main_v198 main_v221 (mulf : (⟨S1048576, .f32⟩ : BufTy).Contents (Elt F) → (⟨S1048576, .f32⟩ : BufTy).Contents (Elt F) → (⟨S1048576, .f32⟩ : BufTy).Contents (Elt F)),  -- %221
    StableHlo.nullary main_cst_41 (constant S_ .f32 0x00000000#32),  -- %cst_41
    StableHlo.unary main_cst_41 main_v222 (broadcastInDim S1024 ![] bcast_S_S1024 : (⟨S_, .f32⟩ : BufTy).Contents (Elt F) → (⟨S1024, .f32⟩ : BufTy).Contents (Elt F)),  -- %222
    StableHlo.unary main_v190 main_v223 (broadcastInDim S1048576x1 ![0] bcast_S1048576_S1048576x1_0 : (⟨S1048576, .i32⟩ : BufTy).Contents (Elt F) → (⟨S1048576x1, .i32⟩ : BufTy).Contents (Elt F)),  -- %223
    StableHlo.ternary main_v222 main_v223 main_v221 main_v224 ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)),  -- %224
    StableHlo.unary main_v224 main_v225 (broadcastInDim S1024x1 ![0] bcast_S1024_S1024x1_0 : (⟨S1024, .f32⟩ : BufTy).Contents (Elt F) → (⟨S1024x1, .f32⟩ : BufTy).Contents (Elt F)),  -- %225
    StableHlo.unary main_v221 main_v226 (broadcastInDim S1048576x1 ![0] bcast_S1048576_S1048576x1_0 : (⟨S1048576, .f32⟩ : BufTy).Contents (Elt F) → (⟨S1048576x1, .f32⟩ : BufTy).Contents (Elt F)),  -- %226
    StableHlo.nullary main_c_42 (constantI S_ 32 0#32),  -- %c_42
    StableHlo.unary main_c_42 main_v227 (broadcastInDim S1048576 ![] bcast_S_S1048576 : (⟨S_, .i32⟩ : BufTy).Contents (Elt F) → (⟨S1048576, .i32⟩ : BufTy).Contents (Elt F)),  -- %227
    StableHlo.binary main_v194 main_v227 main_v228 (cmpi .slt : (⟨S1048576, .i32⟩ : BufTy).Contents (Elt F) → (⟨S1048576, .i32⟩ : BufTy).Contents (Elt F) → (⟨S1048576, .i1⟩ : BufTy).Contents (Elt F)),  -- %228
    StableHlo.nullary main_c_43 (constantI S_ 32 1024#32),  -- %c_43
    StableHlo.unary main_c_43 main_v229 (broadcastInDim S1048576 ![] bcast_S_S1048576 : (⟨S_, .i32⟩ : BufTy).Contents (Elt F) → (⟨S1048576, .i32⟩ : BufTy).Contents (Elt F)),  -- %229
    StableHlo.binary main_v194 main_v229 main_v230 (addi : (⟨S1048576, .i32⟩ : BufTy).Contents (Elt F) → (⟨S1048576, .i32⟩ : BufTy).Contents (Elt F) → (⟨S1048576, .i32⟩ : BufTy).Contents (Elt F)),  -- %230
    StableHlo.ternary main_v228 main_v230 main_v194 main_v231 (select : (⟨S1048576, .i1⟩ : BufTy).Contents (Elt F) → (⟨S1048576, .i32⟩ : BufTy).Contents (Elt F) → (⟨S1048576, .i32⟩ : BufTy).Contents (Elt F) → (⟨S1048576, .i32⟩ : BufTy).Contents (Elt F)),  -- %231
    StableHlo.unary main_v231 main_v232 (broadcastInDim S1048576x1 ![0] bcast_S1048576_S1048576x1_0 : (⟨S1048576, .i32⟩ : BufTy).Contents (Elt F) → (⟨S1048576x1, .i32⟩ : BufTy).Contents (Elt F)),  -- %232
    StableHlo.binary main_v199 main_v232 main_v233 ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)),  -- %233
    StableHlo.unary main_v226 main_v234 (broadcastInDim S1048576x2 ![0, 1] bcast_S1048576x1_S1048576x2_0_1 : (⟨S1048576x1, .f32⟩ : BufTy).Contents (Elt F) → (⟨S1048576x2, .f32⟩ : BufTy).Contents (Elt F)),  -- %234
    StableHlo.binary main_v234 main_v233 main_v235 (mulf : (⟨S1048576x2, .f32⟩ : BufTy).Contents (Elt F) → (⟨S1048576x2, .f32⟩ : BufTy).Contents (Elt F) → (⟨S1048576x2, .f32⟩ : BufTy).Contents (Elt F)),  -- %235
    StableHlo.nullary main_cst_44 (constant S_ .f32 0x00000000#32),  -- %cst_44
    StableHlo.unary main_cst_44 main_v236 (broadcastInDim S1024x2 ![] bcast_S_S1024x2 : (⟨S_, .f32⟩ : BufTy).Contents (Elt F) → (⟨S1024x2, .f32⟩ : BufTy).Contents (Elt F)),  -- %236
    StableHlo.unary main_v190 main_v237 (broadcastInDim S1048576x1 ![0] bcast_S1048576_S1048576x1_0 : (⟨S1048576, .i32⟩ : BufTy).Contents (Elt F) → (⟨S1048576x1, .i32⟩ : BufTy).Contents (Elt F)),  -- %237
    StableHlo.ternary main_v236 main_v237 main_v235 main_v238 ((fun x i u => Host.scatterAdd scatter_S1024x2_S1048576x1_S1048576x2_1_0_0_1 x i u) : (⟨S1024x2, .f32⟩ : BufTy).Contents (Elt F) → (⟨S1048576x1, .i32⟩ : BufTy).Contents (Elt F) → (⟨S1048576x2, .f32⟩ : BufTy).Contents (Elt F) → (⟨S1024x2, .f32⟩ : BufTy).Contents (Elt F)),  -- %238
    StableHlo.unary main_v225 main_v239 (broadcastInDim S1024x2 ![0, 1] bcast_S1024x1_S1024x2_0_1 : (⟨S1024x1, .f32⟩ : BufTy).Contents (Elt F) → (⟨S1024x2, .f32⟩ : BufTy).Contents (Elt F)),  -- %239
    StableHlo.binary main_v238 main_v239 main_v240 (Host.divf : (⟨S1024x2, .f32⟩ : BufTy).Contents (Elt F) → (⟨S1024x2, .f32⟩ : BufTy).Contents (Elt F) → (⟨S1024x2, .f32⟩ : BufTy).Contents (Elt F)),  -- %240
    StableHlo.TRef.nullary main_call9.cst (constant S_ .f32 0x00000000#32),  -- %241
    StableHlo.TRef.unary main_call9.cst main_call9.v0 (broadcastInDim S1024x2 ![] bcast_S_S1024x2),  -- %241
    StableHlo.TRef.binary (.of main_v240) main_call9.v0 main_call9.v1 (cmpf .ogt),  -- %241
    StableHlo.TRef.nullary main_call9.cst_0 (constant S_ .f32 0x00000000#32),  -- %241
    StableHlo.TRef.unary main_call9.cst_0 main_call9.v2 (broadcastInDim S1024x2 ![] bcast_S_S1024x2),  -- %241
    StableHlo.TRef.binary (.of main_v240) main_call9.v2 main_call9.v3 (cmpf .ogt),  -- %241
    StableHlo.TRef.nullary main_call9.cst_1 (constant S_ .f32 0x00000000#32),  -- %241
    StableHlo.TRef.unary main_call9.cst_1 main_call9.call0.v0 id,  -- %241
    StableHlo.TRef.unary main_call9.call0.v0 main_call9.call0.v1 (broadcastInDim S1024x2 ![] bcast_S_S1024x2),  -- %241
    StableHlo.TRef.ternary main_call9.v3 main_call9.call0.v1 (.of main_v240) main_call9.call0.v2 select,  -- %241
    StableHlo.TRef.unary main_call9.call0.v2 main_call9.v5 Host.expm1,  -- %241
    StableHlo.TRef.nullary main_call9.cst_2 (constant S_ .f32 0x3F800000#32),  -- %241
    StableHlo.TRef.unary main_call9.cst_2 main_call9.v6 (broadcastInDim S1024x2 ![] bcast_S_S1024x2),  -- %241
    StableHlo.TRef.binary main_call9.v6 main_call9.v5 main_call9.v7 mulf,  -- %241
    StableHlo.TRef.ternary main_call9.v1 (.of main_v240) main_call9.v7 main_call9.call1.v0 select ]  -- %241

/-- The arrays `opsL2` writes, in order. -/
abbrev wL2 : List (Ref sig .tc) :=
  [ main_v187, main_v188, main_v189, main_v190, main_v191, main_v192,
    main_v193, main_v194, main_v195, main_cst_35, main_v196, main_v197,
    main_v198, main_v199, main_c_36, main_v200, main_v201, main_c_37,
    main_v202, main_v203, main_v204, main_v205, main_v206, main_c_38,
    main_v207, main_v208, main_c_39, main_v209, main_v210, main_v211,
    main_v212, main_v213, main_v214, main_v215, main_v216, main_v217,
    main_cst_40, main_call8.cst.ref, main_call8.v0.ref, main_call8.v1.ref, main_call8.v2.ref, main_call8.v3.ref,
    main_call8.v4.ref, main_call8.call0.v0.ref, main_v219, main_v220, main_v221, main_cst_41,
    main_v222, main_v223, main_v224, main_v225, main_v226, main_c_42,
    main_v227, main_v228, main_c_43, main_v229, main_v230, main_v231,
    main_v232, main_v233, main_v234, main_v235, main_cst_44, main_v236,
    main_v237, main_v238, main_v239, main_v240, main_call9.cst.ref, main_call9.v0.ref,
    main_call9.v1.ref, main_call9.cst_0.ref, main_call9.v2.ref, main_call9.v3.ref, main_call9.cst_1.ref, main_call9.call0.v0.ref,
    main_call9.call0.v1.ref, main_call9.call0.v2.ref, main_call9.v5.ref, main_call9.cst_2.ref, main_call9.v6.ref, main_call9.v7.ref,
    main_call9.call1.v0.ref ]

theorem opsL2_sub : (opsL2 : List (HloOp τ sig (Elt F))).Forall fun op => op.bufs ⊆ StableHlo.tcRefs τ sig :=
  ⟨StableHlo.nary_bufs_sub .., StableHlo.nullary_bufs_sub .., StableHlo.unary_bufs_sub .., StableHlo.reshape_bufs_sub .., StableHlo.nullary_bufs_sub ..,
    StableHlo.reshape_bufs_sub .., StableHlo.unary_bufs_sub .., StableHlo.reshape_bufs_sub .., StableHlo.reshape_bufs_sub .., StableHlo.nullary_bufs_sub ..,
    StableHlo.unary_bufs_sub .., StableHlo.binary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.binary_bufs_sub .., StableHlo.unary_bufs_sub .., StableHlo.binary_bufs_sub ..,
    StableHlo.reshape_bufs_sub .., StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.ternary_bufs_sub .., StableHlo.unary_bufs_sub ..,
    StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.unary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.binary_bufs_sub .., StableHlo.nullary_bufs_sub ..,
    StableHlo.unary_bufs_sub .., StableHlo.unary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.unary_bufs_sub .., StableHlo.ternary_bufs_sub ..,
    StableHlo.unary_bufs_sub .., StableHlo.nullary_bufs_sub .., StableHlo.unary_bufs_sub .., StableHlo.binary_bufs_sub .., StableHlo.ternary_bufs_sub ..⟩

/-- The result with a leading axis of extent one. (1 operations.) -/
abbrev opsFin : List (HloOp τ sig (Elt F)) :=
  [ StableHlo.unary main_v241 main_v242 (broadcastInDim S1x1024x2 ![1, 2] bcast_S1024x2_S1x1024x2_1_2 : (⟨S1024x2, .f32⟩ : BufTy).Contents (Elt F) → (⟨S1x1024x2, .f32⟩ : BufTy).Contents (Elt F)) ]  -- %242

/-- The arrays `opsFin` writes, in order. -/
abbrev wFin : List (Ref sig .tc) :=
  [ main_v242 ]

theorem opsFin_sub : (opsFin : List (HloOp τ sig (Elt F))).Forall fun op => op.bufs ⊆ StableHlo.tcRefs τ sig :=
  StableHlo.unary_bufs_sub ..

/-- The whole program: the seven lists in order (390 operations). -/
abbrev ops : List (HloOp τ sig (Elt F)) := opsPro ++ opsH0 ++ opsH1 ++ opsH2 ++ opsH3 ++ opsL2 ++ opsFin

end Cert.ReferenceIdeal.Hand

end
-- ==== Proof.RefRun.lean ====
/-
  The reference program's run. The program is a straight line of array operations (its windows in order, every
  called function's body at its call), so it is the list of those operations run one after another; none of them
  leaves an array undetermined and all of them stay within the program's own arrays. Hence every weakly fair
  execution terminates, and at the end each array holds the fold of the operations' results over the contents the
  launch dealt it.
-/
import proofs.«174455_g86844238725802_fold_wed_m_134_3_alg».proof.Proof.RefOps

noncomputable section

namespace Cert.ReferenceIdeal.Hand

open Cert.ReferenceIdeal Cert.ReferenceIdeal.Gen Idealize.ShloMosaic Idealize.ShloMosaic.TcCoe Idealize.SL.Sem

variable {F : FTy → Type} [FloatOps F]

/-- Every operation of the program determines what it writes: none leaves an array at contents it does not name. -/
private theorem fresh_Pro : ∀ op ∈ (opsPro : List (HloOp τ sig (Elt F))), op.fresh = ∅ := by
  intro _ h; (repeat (cases h with | head => rfl | tail _ h => ?_)); exact nomatch h
private theorem fresh_H0 : ∀ op ∈ (opsH0 : List (HloOp τ sig (Elt F))), op.fresh = ∅ := by
  intro _ h; (repeat (cases h with | head => rfl | tail _ h => ?_)); exact nomatch h
private theorem fresh_H1 : ∀ op ∈ (opsH1 : List (HloOp τ sig (Elt F))), op.fresh = ∅ := by
  intro _ h; (repeat (cases h with | head => rfl | tail _ h => ?_)); exact nomatch h
private theorem fresh_H2 : ∀ op ∈ (opsH2 : List (HloOp τ sig (Elt F))), op.fresh = ∅ := by
  intro _ h; (repeat (cases h with | head => rfl | tail _ h => ?_)); exact nomatch h
private theorem fresh_H3 : ∀ op ∈ (opsH3 : List (HloOp τ sig (Elt F))), op.fresh = ∅ := by
  intro _ h; (repeat (cases h with | head => rfl | tail _ h => ?_)); exact nomatch h
private theorem fresh_L2 : ∀ op ∈ (opsL2 : List (HloOp τ sig (Elt F))), op.fresh = ∅ := by
  intro _ h; (repeat (cases h with | head => rfl | tail _ h => ?_)); exact nomatch h
private theorem fresh_Fin : ∀ op ∈ (opsFin : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  exacts [fresh_Pro op h, fresh_H0 op h, fresh_H1 op h, fresh_H2 op h, fresh_H3 op h, fresh_L2 op h, fresh_Fin op h]

-- the comparison walks one continuation per operation on each side (390 of them, two steps each)
set_option maxRecDepth 65536 in
set_option maxHeartbeats 4000000 in
/-- The program is the straight line of its operations: its five windows in order, each called function's body at its
    call, are one chain of steps, and so is the list run in order; the two chains are the same by computation. -/
theorem main_eq (c : Dev nD) : main (F := F) c = StableHlo.seq ops := rfl

/-- No array of the program lives only inside a region, and it has no semaphore: the two tables are empty. -/
theorem scopedRefs_eq : (Finset.univ.filter fun b : Ref sig .tc => b.isScoped) = ∅ := by decide
theorem scopedSems_eq : (Finset.univ.filter fun sm : SemLoc sig => sm.isScoped .tc) = ∅ := by decide

/-- Every array an operation touches is one of the program's: the seven lists' facts side by side. -/
theorem ops_sub : (ops : List (HloOp τ sig (Elt F))).Forall fun op => op.bufs ⊆ StableHlo.tcRefs τ sig := by
  unfold ops
  exact List.forall_append.mpr ⟨List.forall_append.mpr ⟨List.forall_append.mpr ⟨List.forall_append.mpr
    ⟨List.forall_append.mpr ⟨List.forall_append.mpr ⟨opsPro_sub, opsH0_sub⟩, opsH1_sub⟩, opsH2_sub⟩, opsH3_sub⟩, opsL2_sub⟩, opsFin_sub⟩

/-- From any memory with zero counters, for any float values: every weakly fair execution of the program terminates,
    and every final state has each array at the fold of the operations' results over what the launch dealt it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (b : DevRef τ sig) :=
  StableHlo.run_seq scopedRefs_eq scopedSems_eq defs main (fun _ => ops) main_eq (fun _ => ops_sub) m ρ (fun _ => ops_fresh)

end Cert.ReferenceIdeal.Hand

end
-- ==== Proof.RefSeg.lean ====
/-
  The reference's run, with its result named as one function of the eleven argument arrays.

  The reference is a straight line of 390 array operations in seven stretches: a prologue (the features, the adjacency,
  the two edge tables and the mask), four attention heads, the last layer, and the final reshaping. Each stretch's result
  is a function of the arrays it reads, and it leaves every other array alone, so the stretches compose.

  Within a head several values are used more than once (the projected features by the score and by the aggregation, the
  score three times by the rectifier, the weights by the totals and by the aggregation, the quotient four times by the
  exponential linear unit). A head is therefore cut where those values are made, into five steps, each a small function
  of arrays: the value of a step is read from the arrays the earlier steps left, never from the expression that made
  them. The last layer is cut the same way.
-/
import proofs.«174455_g86844238725802_fold_wed_m_134_3_alg».proof.Proof.RefFn
import proofs.«174455_g86844238725802_fold_wed_m_134_3_alg».proof.Proof.RefOps
import proofs.«174455_g86844238725802_fold_wed_m_134_3_alg».proof.Proof.RefRun

noncomputable section

namespace Cert.ReferenceIdeal.Hand

open Cert.ReferenceIdeal Cert.ReferenceIdeal.Gen Idealize.ShloMosaic Idealize.ShloMosaic.TcCoe Idealize.ShloMosaic.StableHlo Idealize.SL.Sem

variable {F : FTy → Type} [FloatOps F]

/-! ### One head and the last layer as five steps each -/

/-- The projected features of one head. -/
def hWh (x : FVec F S1024x1024 .f32) (W : FVec F S1024x8 .f32) : FVec F S1024x8 .f32 :=
  have v15 : FVec F S1024x8 .f32 := ((fun l r => Host.dotGeneral dot_S1024x1024_S1024x8_S1024x8_1_0_0_1_n_n none l r) : (⟨S1024x1024, .f32⟩ : BufTy).Contents (Elt F) → (⟨S1024x8, .f32⟩ : BufTy).Contents (Elt F) → (⟨S1024x8, .f32⟩ : BufTy).Contents (Elt F)) x W
  v15

/-- The score of every edge: the attention row against the projections gathered at the edge's two ends. -/
def hScore (v15 : FVec F S1024x8 .f32) (src dst : IVec S1048576 32) (a : FVec F S1x16 .f32) : FVec F S1048576 .f32 :=
  have c : IVec S_ 32 := constantI S_ 32 0#32
  have v16 : IVec S1048576 32 := (broadcastInDim S1048576 ![] bcast_S_S1048576) c
  have v17 : IVec S1048576 1 := (cmpi .slt) src v16
  have c_0 : IVec S_ 32 := constantI S_ 32 1024#32
  have v18 : IVec S1048576 32 := (broadcastInDim S1048576 ![] bcast_S_S1048576) c_0
  have v19 : IVec S1048576 32 := addi src v18
  have v20 : IVec S1048576 32 := select v17 v19 src
  have v21 : IVec S1048576x1 32 := (broadcastInDim S1048576x1 ![0] bcast_S1048576_S1048576x1_0) v20
  have v22 : FVec F S1048576x8 .f32 := ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)) v15 v21
  have c_1 : IVec S_ 32 := constantI S_ 32 0#32
  have v23 : IVec S1048576 32 := (broadcastInDim S1048576 ![] bcast_S_S1048576) c_1
  have v24 : IVec S1048576 1 := (cmpi .slt) dst v23
  have c_2 : IVec S_ 32 := constantI S_ 32 1024#32
  have v25 : IVec S1048576 32 := (broadcastInDim S1048576 ![] bcast_S_S1048576) c_2
  have v26 : IVec S1048576 32 := addi dst v25
  have v27 : IVec S1048576 32 := select v24 v26 dst
  have v28 : IVec S1048576x1 32 := (broadcastInDim S1048576x1 ![0] bcast_S1048576_S1048576x1_0) v27
  have v29 : FVec F S1048576x8 .f32 := ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)) v15 v28
  have v30 : FVec F S1048576x16 .f32 := ((fun a b => concatenate S1048576x16 1 [⟨S1048576x8, a⟩, ⟨S1048576x8, b⟩] concatenates_S1048576x8_S1048576x8_S1048576x16_d1) : (⟨S1048576x8, .f32⟩ : BufTy).Contents (Elt F) → (⟨S1048576x8, .f32⟩ : BufTy).Contents (Elt F) → (⟨S1048576x16, .f32⟩ : BufTy).Contents (Elt F)) v22 v29
  have v31 : FVec F S16x1048576 .f32 := ((transpose S16x1048576 [1, 0] · transposes_S1048576x16_S16x1048576_1_0) : (⟨S1048576x16, .f32⟩ : BufTy).Contents (Elt F) → (⟨S16x1048576, .f32⟩ : BufTy).Contents (Elt F)) v30
  have v32 : FVec F S1x1048576 .f32 := ((fun l r => Host.dotGeneral dot_S1x16_S16x1048576_S1x1048576_1_0_0_1_n_n none l r) : (⟨S1x16, .f32⟩ : BufTy).Contents (Elt F) → (⟨S16x1048576, .f32⟩ : BufTy).Contents (Elt F) → (⟨S1x1048576, .f32⟩ : BufTy).Contents (Elt F)) a v31
  have v33 : FVec F S1048576 .f32 := shapeCast S1048576 v32 shapeCasts_S1x1048576_S1048576
  v33

/-- The weight of every edge: the exponential of minus the rectified score, times the edge's mask entry. -/
def hWeight (v33 : FVec F S1048576 .f32) (mask : FVec F S1048576 .f32) : FVec F S1048576 .f32 :=
  have cst_3 : FVec F S_ .f32 := constant S_ .f32 0x3E4CCCCD#32
  have call0_cst : FVec F S_ .f32 := constant S_ .f32 0x00000000#32
  have call0_v0 : FVec F S1048576 .f32 := (broadcastInDim S1048576 ![] bcast_S_S1048576) call0_cst
  have call0_v1 : IVec S1048576 1 := (cmpf .oge) v33 call0_v0
  have call0_v2 : FVec F S_ .f32 := id cst_3
  have call0_v3 : FVec F S1048576 .f32 := (broadcastInDim S1048576 ![] bcast_S_S1048576) call0_v2
  have call0_v4 : FVec F S1048576 .f32 := mulf call0_v3 v33
  have v34 : FVec F S1048576 .f32 := select call0_v1 v33 call0_v4
  have v35 : FVec F S1048576 .f32 := (Host.negf : (⟨S1048576, .f32⟩ : BufTy).Contents (Elt F) → (⟨S1048576, .f32⟩ : BufTy).Contents (Elt F)) v34
  have v36 : FVec F S1048576 .f32 := (Host.exp : (⟨S1048576, .f32⟩ : BufTy).Contents (Elt F) → (⟨S1048576, .f32⟩ : BufTy).Contents (Elt F)) v35
  have v37 : FVec F S1048576 .f32 := (mulf : (⟨S1048576, .f32⟩ : BufTy).Contents (Elt F) → (⟨S1048576, .f32⟩ : BufTy).Contents (Elt F) → (⟨S1048576, .f32⟩ : BufTy).Contents (Elt F)) v36 mask
  v37

/-- The weighted destination projections added up per source row, over the weights added up per source row. -/
def hQuot (v37 : FVec F S1048576 .f32) (v15 : FVec F S1024x8 .f32) (src dst : IVec S1048576 32) : FVec F S1024x8 .f32 :=
  have cst_4 : FVec F S_ .f32 := constant S_ .f32 0x00000000#32
  have v38 : FVec F S1024 .f32 := (broadcastInDim S1024 ![] bcast_S_S1024 : (⟨S_, .f32⟩ : BufTy).Contents (Elt F) → (⟨S1024, .f32⟩ : BufTy).Contents (Elt F)) cst_4
  have v39 : IVec S1048576x1 32 := (broadcastInDim S1048576x1 ![0] bcast_S1048576_S1048576x1_0) src
  have v40 : FVec F S1024 .f32 := ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)) v38 v39 v37
  have v41 : FVec F S1024x1 .f32 := (broadcastInDim S1024x1 ![0] bcast_S1024_S1024x1_0 : (⟨S1024, .f32⟩ : BufTy).Contents (Elt F) → (⟨S1024x1, .f32⟩ : BufTy).Contents (Elt F)) v40
  have v42 : FVec F S1048576x1 .f32 := (broadcastInDim S1048576x1 ![0] bcast_S1048576_S1048576x1_0 : (⟨S1048576, .f32⟩ : BufTy).Contents (Elt F) → (⟨S1048576x1, .f32⟩ : BufTy).Contents (Elt F)) v37
  have c_5 : IVec S_ 32 := constantI S_ 32 0#32
  have v43 : IVec S1048576 32 := (broadcastInDim S1048576 ![] bcast_S_S1048576) c_5
  have v44 : IVec S1048576 1 := (cmpi .slt) dst v43
  have c_6 : IVec S_ 32 := constantI S_ 32 1024#32
  have v45 : IVec S1048576 32 := (broadcastInDim S1048576 ![] bcast_S_S1048576) c_6
  have v46 : IVec S1048576 32 := addi dst v45
  have v47 : IVec S1048576 32 := select v44 v46 dst
  have v48 : IVec S1048576x1 32 := (broadcastInDim S1048576x1 ![0] bcast_S1048576_S1048576x1_0) v47
  have v49 : FVec F S1048576x8 .f32 := ((fun x i => Host.gather gather_S1024x8_S1048576x1_S1048576x8_1_0_n_n_0_1_18 x i) : (⟨S1024x8, .f32⟩ : BufTy).Contents (Elt F) → (⟨S1048576x1, .i32⟩ : BufTy).Contents (Elt F) → (⟨S1048576x8, .f32⟩ : BufTy).Contents (Elt F)) v15 v48
  have v50 : FVec F S1048576x8 .f32 := (broadcastInDim S1048576x8 ![0, 1] bcast_S1048576x1_S1048576x8_0_1 : (⟨S1048576x1, .f32⟩ : BufTy).Contents (Elt F) → (⟨S1048576x8, .f32⟩ : BufTy).Contents (Elt F)) v42
  have v51 : FVec F S1048576x8 .f32 := (mulf : (⟨S1048576x8, .f32⟩ : BufTy).Contents (Elt F) → (⟨S1048576x8, .f32⟩ : BufTy).Contents (Elt F) → (⟨S1048576x8, .f32⟩ : BufTy).Contents (Elt F)) v50 v49
  have cst_7 : FVec F S_ .f32 := constant S_ .f32 0x00000000#32
  have v52 : FVec F S1024x8 .f32 := (broadcastInDim S1024x8 ![] bcast_S_S1024x8 : (⟨S_, .f32⟩ : BufTy).Contents (Elt F) → (⟨S1024x8, .f32⟩ : BufTy).Contents (Elt F)) cst_7
  have v53 : IVec S1048576x1 32 := (broadcastInDim S1048576x1 ![0] bcast_S1048576_S1048576x1_0) src
  have v54 : FVec F S1024x8 .f32 := ((fun x i u => Host.scatterAdd scatter_S1024x8_S1048576x1_S1048576x8_1_0_0_1 x i u) : (⟨S1024x8, .f32⟩ : BufTy).Contents (Elt F) → (⟨S1048576x1, .i32⟩ : BufTy).Contents (Elt F) → (⟨S1048576x8, .f32⟩ : BufTy).Contents (Elt F) → (⟨S1024x8, .f32⟩ : BufTy).Contents (Elt F)) v52 v53 v51
  have v55 : FVec F S1024x8 .f32 := (broadcastInDim S1024x8 ![0, 1] bcast_S1024x1_S1024x8_0_1 : (⟨S1024x1, .f32⟩ : BufTy).Contents (Elt F) → (⟨S1024x8, .f32⟩ : BufTy).Contents (Elt F)) v41
  have v56 : FVec F S1024x8 .f32 := (Host.divf : (⟨S1024x8, .f32⟩ : BufTy).Contents (Elt F) → (⟨S1024x8, .f32⟩ : BufTy).Contents (Elt F) → (⟨S1024x8, .f32⟩ : BufTy).Contents (Elt F)) v54 v55
  v56

/-- The exponential linear unit, entry by entry. -/
def hElu (v56 : FVec F S1024x8 .f32) : FVec F S1024x8 .f32 :=
  have call1_cst : FVec F S_ .f32 := constant S_ .f32 0x00000000#32
  have call1_v0 : FVec F S1024x8 .f32 := (broadcastInDim S1024x8 ![] bcast_S_S1024x8) call1_cst
  have call1_v1 : IVec S1024x8 1 := (cmpf .ogt) v56 call1_v0
  have call1_cst_0 : FVec F S_ .f32 := constant S_ .f32 0x00000000#32
  have call1_v2 : FVec F S1024x8 .f32 := (broadcastInDim S1024x8 ![] bcast_S_S1024x8) call1_cst_0
  have call1_v3 : IVec S1024x8 1 := (cmpf .ogt) v56 call1_v2
  have call1_cst_1 : FVec F S_ .f32 := constant S_ .f32 0x00000000#32
  have call1_call0_v0 : FVec F S_ .f32 := id call1_cst_1
  have call1_call0_v1 : FVec F S1024x8 .f32 := (broadcastInDim S1024x8 ![] bcast_S_S1024x8) call1_call0_v0
  have call1_v4 : FVec F S1024x8 .f32 := select call1_v3 call1_call0_v1 v56
  have call1_v5 : FVec F S1024x8 .f32 := Host.expm1 call1_v4
  have call1_cst_2 : FVec F S_ .f32 := constant S_ .f32 0x3F800000#32
  have call1_v6 : FVec F S1024x8 .f32 := (broadcastInDim S1024x8 ![] bcast_S_S1024x8) call1_cst_2
  have call1_v7 : FVec F S1024x8 .f32 := mulf call1_v6 call1_v5
  have v57 : FVec F S1024x8 .f32 := select call1_v1 v56 call1_v7
  v57

/-- One head is these five steps in order; the projected features are used by the score and by the aggregation. -/
theorem rHead_eq (x : FVec F S1024x1024 .f32) (src dst : IVec S1048576 32) (mask : FVec F S1048576 .f32)
    (W : FVec F S1024x8 .f32) (a : FVec F S1x16 .f32) :
    rHead x src dst mask W a
      = hElu (hQuot (hWeight (hScore (hWh x W) src dst a) mask) (hWh x W) src dst) := rfl

/-- The last layer's projected features: the four heads' outputs side by side, times the last weight matrix. -/
def lProj (h0 h1 h2 h3 : FVec F S1024x8 .f32) (wl : FVec F S32x2 .f32) : FVec F S1024x2 .f32 :=
  have v187 : FVec F S1024x32 .f32 := concatenate S1024x32 1 [⟨S1024x8, h0⟩, ⟨S1024x8, h1⟩, ⟨S1024x8, h2⟩, ⟨S1024x8, h3⟩] concatenates_S1024x8_S1024x8_S1024x8_S1024x8_S1024x32_d1
  have v199 : FVec F S1024x2 .f32 := ((fun l r => Host.dotGeneral dot_S1024x32_S32x2_S1024x2_1_0_0_1_n_n none l r) : (⟨S1024x32, .f32⟩ : BufTy).Contents (Elt F) → (⟨S32x2, .f32⟩ : BufTy).Contents (Elt F) → (⟨S1024x2, .f32⟩ : BufTy).Contents (Elt F)) v187 wl
  v199

/-- The last layer's score of every edge. -/
def lScore (v199 : FVec F S1024x2 .f32) (v190 v194 : IVec S1048576 32) (al : FVec F S1x4 .f32) : FVec F S1048576 .f32 :=
  have c_36 : IVec S_ 32 := constantI S_ 32 0#32
  have v200 : IVec S1048576 32 := (broadcastInDim S1048576 ![] bcast_S_S1048576) c_36
  have v201 : IVec S1048576 1 := (cmpi .slt) v190 v200
  have c_37 : IVec S_ 32 := constantI S_ 32 1024#32
  have v202 : IVec S1048576 32 := (broadcastInDim S1048576 ![] bcast_S_S1048576) c_37
  have v203 : IVec S1048576 32 := addi v190 v202
  have v204 : IVec S1048576 32 := select v201 v203 v190
  have v205 : IVec S1048576x1 32 := (broadcastInDim S1048576x1 ![0] bcast_S1048576_S1048576x1_0) v204
  have v206 : FVec F S1048576x2 .f32 := ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)) v199 v205
  have c_38 : IVec S_ 32 := constantI S_ 32 0#32
  have v207 : IVec S1048576 32 := (broadcastInDim S1048576 ![] bcast_S_S1048576) c_38
  have v208 : IVec S1048576 1 := (cmpi .slt) v194 v207
  have c_39 : IVec S_ 32 := constantI S_ 32 1024#32
  have v209 : IVec S1048576 32 := (broadcastInDim S1048576 ![] bcast_S_S1048576) c_39
  have v210 : IVec S1048576 32 := addi v194 v209
  have v211 : IVec S1048576 32 := select v208 v210 v194
  have v212 : IVec S1048576x1 32 := (broadcastInDim S1048576x1 ![0] bcast_S1048576_S1048576x1_0) v211
  have v213 : FVec F S1048576x2 .f32 := ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)) v199 v212
  have v214 : FVec F S1048576x4 .f32 := ((fun a b => concatenate S1048576x4 1 [⟨S1048576x2, a⟩, ⟨S1048576x2, b⟩] concatenates_S1048576x2_S1048576x2_S1048576x4_d1) : (⟨S1048576x2, .f32⟩ : BufTy).Contents (Elt F) → (⟨S1048576x2, .f32⟩ : BufTy).Contents (Elt F) → (⟨S1048576x4, .f32⟩ : BufTy).Contents (Elt F)) v206 v213
  have v215 : FVec F S4x1048576 .f32 := ((transpose S4x1048576 [1, 0] · transposes_S1048576x4_S4x1048576_1_0) : (⟨S1048576x4, .f32⟩ : BufTy).Contents (Elt F) → (⟨S4x1048576, .f32⟩ : BufTy).Contents (Elt F)) v214
  have v216 : FVec F S1x1048576 .f32 := ((fun l r => Host.dotGeneral dot_S1x4_S4x1048576_S1x1048576_1_0_0_1_n_n none l r) : (⟨S1x4, .f32⟩ : BufTy).Contents (Elt F) → (⟨S4x1048576, .f32⟩ : BufTy).Contents (Elt F) → (⟨S1x1048576, .f32⟩ : BufTy).Contents (Elt F)) al v215
  have v217 : FVec F S1048576 .f32 := shapeCast S1048576 v216 shapeCasts_S1x1048576_S1048576
  v217

/-- The last layer's aggregation over its totals. -/
def lQuot (v221 : FVec F S1048576 .f32) (v199 : FVec F S1024x2 .f32) (v190 v194 : IVec S1048576 32) : FVec F S1024x2 .f32 :=
  have cst_41 : FVec F S_ .f32 := constant S_ .f32 0x00000000#32
  have v222 : FVec F S1024 .f32 := (broadcastInDim S1024 ![] bcast_S_S1024 : (⟨S_, .f32⟩ : BufTy).Contents (Elt F) → (⟨S1024, .f32⟩ : BufTy).Contents (Elt F)) cst_41
  have v223 : IVec S1048576x1 32 := (broadcastInDim S1048576x1 ![0] bcast_S1048576_S1048576x1_0) v190
  have v224 : FVec F S1024 .f32 := ((fun x i u => Host.scatterAdd scatter_S1024_S1048576x1_S1048576_n_0_0_1 x i u) : (⟨S1024, .f32⟩ : BufTy).Contents (Elt F) → (⟨S1048576x1, .i32⟩ : BufTy).Contents (Elt F) → (⟨S1048576, .f32⟩ : BufTy).Contents (Elt F) → (⟨S1024, .f32⟩ : BufTy).Contents (Elt F)) v222 v223 v221
  have v225 : FVec F S1024x1 .f32 := (broadcastInDim S1024x1 ![0] bcast_S1024_S1024x1_0 : (⟨S1024, .f32⟩ : BufTy).Contents (Elt F) → (⟨S1024x1, .f32⟩ : BufTy).Contents (Elt F)) v224
  have v226 : FVec F S1048576x1 .f32 := (broadcastInDim S1048576x1 ![0] bcast_S1048576_S1048576x1_0 : (⟨S1048576, .f32⟩ : BufTy).Contents (Elt F) → (⟨S1048576x1, .f32⟩ : BufTy).Contents (Elt F)) v221
  have c_42 : IVec S_ 32 := constantI S_ 32 0#32
  have v227 : IVec S1048576 32 := (broadcastInDim S1048576 ![] bcast_S_S1048576) c_42
  have v228 : IVec S1048576 1 := (cmpi .slt) v194 v227
  have c_43 : IVec S_ 32 := constantI S_ 32 1024#32
  have v229 : IVec S1048576 32 := (broadcastInDim S1048576 ![] bcast_S_S1048576) c_43
  have v230 : IVec S1048576 32 := addi v194 v229
  have v231 : IVec S1048576 32 := select v228 v230 v194
  have v232 : IVec S1048576x1 32 := (broadcastInDim S1048576x1 ![0] bcast_S1048576_S1048576x1_0) v231
  have v233 : FVec F S1048576x2 .f32 := ((fun x i => Host.gather gather_S1024x2_S1048576x1_S1048576x2_1_0_n_n_0_1_12 x i) : (⟨S1024x2, .f32⟩ : BufTy).Contents (Elt F) → (⟨S1048576x1, .i32⟩ : BufTy).Contents (Elt F) → (⟨S1048576x2, .f32⟩ : BufTy).Contents (Elt F)) v199 v232
  have v234 : FVec F S1048576x2 .f32 := (broadcastInDim S1048576x2 ![0, 1] bcast_S1048576x1_S1048576x2_0_1 : (⟨S1048576x1, .f32⟩ : BufTy).Contents (Elt F) → (⟨S1048576x2, .f32⟩ : BufTy).Contents (Elt F)) v226
  have v235 : FVec F S1048576x2 .f32 := (mulf : (⟨S1048576x2, .f32⟩ : BufTy).Contents (Elt F) → (⟨S1048576x2, .f32⟩ : BufTy).Contents (Elt F) → (⟨S1048576x2, .f32⟩ : BufTy).Contents (Elt F)) v234 v233
  have cst_44 : FVec F S_ .f32 := constant S_ .f32 0x00000000#32
  have v236 : FVec F S1024x2 .f32 := (broadcastInDim S1024x2 ![] bcast_S_S1024x2 : (⟨S_, .f32⟩ : BufTy).Contents (Elt F) → (⟨S1024x2, .f32⟩ : BufTy).Contents (Elt F)) cst_44
  have v237 : IVec S1048576x1 32 := (broadcastInDim S1048576x1 ![0] bcast_S1048576_S1048576x1_0) v190
  have v238 : FVec F S1024x2 .f32 := ((fun x i u => Host.scatterAdd scatter_S1024x2_S1048576x1_S1048576x2_1_0_0_1 x i u) : (⟨S1024x2, .f32⟩ : BufTy).Contents (Elt F) → (⟨S1048576x1, .i32⟩ : BufTy).Contents (Elt F) → (⟨S1048576x2, .f32⟩ : BufTy).Contents (Elt F) → (⟨S1024x2, .f32⟩ : BufTy).Contents (Elt F)) v236 v237 v235
  have v239 : FVec F S1024x2 .f32 := (broadcastInDim S1024x2 ![0, 1] bcast_S1024x1_S1024x2_0_1 : (⟨S1024x1, .f32⟩ : BufTy).Contents (Elt F) → (⟨S1024x2, .f32⟩ : BufTy).Contents (Elt F)) v225
  have v240 : FVec F S1024x2 .f32 := (Host.divf : (⟨S1024x2, .f32⟩ : BufTy).Contents (Elt F) → (⟨S1024x2, .f32⟩ : BufTy).Contents (Elt F) → (⟨S1024x2, .f32⟩ : BufTy).Contents (Elt F)) v238 v239
  v240

/-- The exponential linear unit at the last layer's width. -/
def lElu (v240 : FVec F S1024x2 .f32) : FVec F S1024x2 .f32 :=
  have call9_cst : FVec F S_ .f32 := constant S_ .f32 0x00000000#32
  have call9_v0 : FVec F S1024x2 .f32 := (broadcastInDim S1024x2 ![] bcast_S_S1024x2) call9_cst
  have call9_v1 : IVec S1024x2 1 := (cmpf .ogt) v240 call9_v0
  have call9_cst_0 : FVec F S_ .f32 := constant S_ .f32 0x00000000#32
  have call9_v2 : FVec F S1024x2 .f32 := (broadcastInDim S1024x2 ![] bcast_S_S1024x2) call9_cst_0
  have call9_v3 : IVec S1024x2 1 := (cmpf .ogt) v240 call9_v2
  have call9_cst_1 : FVec F S_ .f32 := constant S_ .f32 0x00000000#32
  have call9_call0_v0 : FVec F S_ .f32 := id call9_cst_1
  have call9_call0_v1 : FVec F S1024x2 .f32 := (broadcastInDim S1024x2 ![] bcast_S_S1024x2) call9_call0_v0
  have call9_v4 : FVec F S1024x2 .f32 := select call9_v3 call9_call0_v1 v240
  have call9_v5 : FVec F S1024x2 .f32 := Host.expm1 call9_v4
  have call9_cst_2 : FVec F S_ .f32 := constant S_ .f32 0x3F800000#32
  have call9_v6 : FVec F S1024x2 .f32 := (broadcastInDim S1024x2 ![] bcast_S_S1024x2) call9_cst_2
  have call9_v7 : FVec F S1024x2 .f32 := mulf call9_v6 call9_v5
  have v241 : FVec F S1024x2 .f32 := select call9_v1 v240 call9_v7
  v241

/-- The last layer is the same five steps at width two, over its own copies of the edge tables and the mask. -/
theorem rLast_eq (h0 h1 h2 h3 : FVec F S1024x8 .f32) (adj : FVec F S1024x1024 .f32) (wl : FVec F S32x2 .f32)
    (al : FVec F S1x4 .f32) :
    rLast h0 h1 h2 h3 adj wl al
      = lElu (lQuot (hWeight (lScore (lProj h0 h1 h2 h3 wl) rSrc rDst al) (rMask adj)) (lProj h0 h1 h2 h3 wl) rSrc rDst) := rfl

/-! ### Lines of operations, and what they leave alone -/

/-- Running two lines of operations one after the other is running their concatenation. -/
theorem after_append (a b : List (HloOp τ sig (Elt F))) (V : Valuation τ sig (Elt F)) :
    after (a ++ b) V = after b (after a V) := by
  induction a generalizing V with
  | nil => rfl
  | cons op a ih => simp only [List.cons_append, after_cons, ih]

/-- A consecutive piece of a line keeps every array outside a list that holds all the arrays the line writes. -/
theorem keep_piece {Wl : List (Ref sig .tc)} (l : List (HloOp τ sig (Elt F))) (a b : Nat) (V : Valuation τ sig (Elt F))
    (hW : l.Forall fun op => op.writes ⊆ (Wl.map (Proc.devRef (τ := τ) .tc)).toFinset) {r : Ref sig .tc} (hr : r ∉ Wl) :
    after ((l.drop a).take b) V (Proc.devRef .tc r) = V (Proc.devRef .tc r) :=
  after_of_writes_sub _ V
    (List.forall_iff_forall_mem.mpr fun op hop =>
      List.forall_iff_forall_mem.mp hW op (List.mem_of_mem_drop (List.mem_of_mem_take hop))) hr

/-- Each operation of a literal line writes one array, and that array is in the line's list of written arrays. -/
macro "writes_tac" : tactic =>
  `(tactic| (simp only [List.Forall, nullary_writes, unary_writes, binary_writes, ternary_writes, reshape_writes, nary_writes,
               Finset.singleton_subset_iff, List.mem_toFinset]
             repeat' apply And.intro
             all_goals exact List.mem_map_of_mem (by decide)))

/-! ### The prologue and the final reshaping -/

theorem wPro_writes : (opsPro : List (HloOp τ sig (Elt F))).Forall fun op =>
    op.writes ⊆ (wPro.map (Proc.devRef (τ := τ) .tc)).toFinset := by
  writes_tac

theorem wFin_writes : (opsFin : List (HloOp τ sig (Elt F))).Forall fun op =>
    op.writes ⊆ (wFin.map (Proc.devRef (τ := τ) .tc)).toFinset := by
  writes_tac

theorem Pro_x (V : Valuation τ sig (Elt F)) :
    after opsPro V (Proc.devRef .tc main_v1) = rX (V (Proc.devRef .tc main_arg0)) := by
  simp only [opsPro]
  after_results_simp
  rfl

theorem Pro_adj (V : Valuation τ sig (Elt F)) :
    after opsPro V (Proc.devRef .tc main_v3) = rAdj (V (Proc.devRef .tc main_arg0)) := by
  simp only [opsPro]
  after_results_simp
  rfl

theorem Pro_src (V : Valuation τ sig (Elt F)) :
    after opsPro V (Proc.devRef .tc main_v6) = rSrc := by
  simp only [opsPro]
  after_results_simp
  rfl

theorem Pro_dst (V : Valuation τ sig (Elt F)) :
    after opsPro V (Proc.devRef .tc main_v10) = rDst := by
  simp only [opsPro]
  after_results_simp
  rfl

theorem Pro_mask (V : Valuation τ sig (Elt F)) :
    after opsPro V (Proc.devRef .tc main_v14) = rMask (rAdj (V (Proc.devRef .tc main_arg0))) := by
  simp only [opsPro]
  after_results_simp
  rfl

theorem Fin_out (V : Valuation τ sig (Elt F)) :
    after opsFin V (Proc.devRef .tc main_v242) = rOut (V (Proc.devRef .tc main_v241)) := by
  simp only [opsFin]
  after_results_simp
  rfl

/-! ### Head 0 -/

theorem wH0_writes : (opsH0 : List (HloOp τ sig (Elt F))).Forall fun op =>
    op.writes ⊆ (wH0.map (Proc.devRef (τ := τ) .tc)).toFinset := by
  writes_tac

theorem splitH0 : (opsH0 : List (HloOp τ sig (Elt F)))
    = (opsH0.drop 0).take 1 ++ ((opsH0.drop 1).take 22 ++ ((opsH0.drop 23).take 11
        ++ ((opsH0.drop 34).take 23 ++ (opsH0.drop 57).take 15))) := rfl

theorem H0_wh (W : Valuation τ sig (Elt F)) :
    after ((opsH0.drop 0).take 1) W (Proc.devRef .tc main_v15)
      = hWh (W (Proc.devRef .tc main_v1)) (W (Proc.devRef .tc main_arg1)) := by
  simp only [opsH0, List.take, List.drop]
  after_results_simp
  rfl

set_option maxRecDepth 4096 in
theorem H0_score (W : Valuation τ sig (Elt F)) :
    after ((opsH0.drop 1).take 22) W (Proc.devRef .tc main_v33)
      = hScore (W (Proc.devRef .tc main_v15)) (W (Proc.devRef .tc main_v6)) (W (Proc.devRef .tc main_v10))
          (W (Proc.devRef .tc main_arg2)) := by
  simp only [opsH0, List.take, List.drop]
  after_results_simp
  rfl

set_option maxRecDepth 4096 in
theorem H0_score_wh (W : Valuation τ sig (Elt F)) :
    after ((opsH0.drop 1).take 22) W (Proc.devRef .tc main_v15) = W (Proc.devRef .tc main_v15) := by
  simp only [opsH0, List.take, List.drop]
  after_results_simp

set_option maxRecDepth 4096 in
theorem H0_weight (W : Valuation τ sig (Elt F)) :
    after ((opsH0.drop 23).take 11) W (Proc.devRef .tc main_v37)
      = hWeight (W (Proc.devRef .tc main_v33)) (W (Proc.devRef .tc main_v14)) := by
  simp only [opsH0, List.take, List.drop]
  after_results_simp
  rfl

set_option maxRecDepth 4096 in
theorem H0_weight_wh (W : Valuation τ sig (Elt F)) :
    after ((opsH0.drop 23).take 11) W (Proc.devRef .tc main_v15) = W (Proc.devRef .tc main_v15) := by
  simp only [opsH0, List.take, List.drop]
  after_results_simp

set_option maxRecDepth 4096 in
theorem H0_quot (W : Valuation τ sig (Elt F)) :
    after ((opsH0.drop 34).take 23) W (Proc.devRef .tc main_v56)
      = hQuot (W (Proc.devRef .tc main_v37)) (W (Proc.devRef .tc main_v15)) (W (Proc.devRef .tc main_v6))
          (W (Proc.devRef .tc main_v10)) := by
  simp only [opsH0, List.take, List.drop]
  after_results_simp
  rfl

set_option maxRecDepth 4096 in
theorem H0_elu (W : Valuation τ sig (Elt F)) :
    after ((opsH0.drop 57).take 15) W (Proc.devRef .tc main_v57)
      = hElu (W (Proc.devRef .tc main_v56)) := by
  simp only [opsH0, List.take, List.drop]
  after_results_simp
  rfl

/-- Head 0's result is the head function of the arrays it reads. -/
theorem segH0_out (V : Valuation τ sig (Elt F)) :
    after opsH0 V (Proc.devRef .tc main_v57)
      = rHead (V (Proc.devRef .tc main_v1)) (V (Proc.devRef .tc main_v6)) (V (Proc.devRef .tc main_v10))
          (V (Proc.devRef .tc main_v14)) (V (Proc.devRef .tc main_arg1)) (V (Proc.devRef .tc main_arg2)) := by
  rw [rHead_eq, splitH0]
  simp only [after_append]
  rw [H0_elu, H0_quot, H0_weight, H0_score, H0_weight_wh, H0_score_wh, H0_wh]
  simp only [keep_piece _ _ _ _ wH0_writes (show main_v6 ∉ wH0 by decide),
    keep_piece _ _ _ _ wH0_writes (show main_v10 ∉ wH0 by decide),
    keep_piece _ _ _ _ wH0_writes (show main_v14 ∉ wH0 by decide),
    keep_piece _ _ _ _ wH0_writes (show main_arg2 ∉ wH0 by decide)]

/-! ### Head 1 -/

theorem wH1_writes : (opsH1 : List (HloOp τ sig (Elt F))).Forall fun op =>
    op.writes ⊆ (wH1.map (Proc.devRef (τ := τ) .tc)).toFinset := by
  writes_tac

theorem splitH1 : (opsH1 : List (HloOp τ sig (Elt F)))
    = (opsH1.drop 0).take 1 ++ ((opsH1.drop 1).take 22 ++ ((opsH1.drop 23).take 11
        ++ ((opsH1.drop 34).take 23 ++ (opsH1.drop 57).take 15))) := rfl

theorem H1_wh (W : Valuation τ sig (Elt F)) :
    after ((opsH1.drop 0).take 1) W (Proc.devRef .tc main_v58)
      = hWh (W (Proc.devRef .tc main_v1)) (W (Proc.devRef .tc main_arg3)) := by
  simp only [opsH1, List.take, List.drop]
  after_results_simp
  rfl

set_option maxRecDepth 4096 in
theorem H1_score (W : Valuation τ sig (Elt F)) :
    after ((opsH1.drop 1).take 22) W (Proc.devRef .tc main_v76)
      = hScore (W (Proc.devRef .tc main_v58)) (W (Proc.devRef .tc main_v6)) (W (Proc.devRef .tc main_v10))
          (W (Proc.devRef .tc main_arg4)) := by
  simp only [opsH1, List.take, List.drop]
  after_results_simp
  rfl

set_option maxRecDepth 4096 in
theorem H1_score_wh (W : Valuation τ sig (Elt F)) :
    after ((opsH1.drop 1).take 22) W (Proc.devRef .tc main_v58) = W (Proc.devRef .tc main_v58) := by
  simp only [opsH1, List.take, List.drop]
  after_results_simp

set_option maxRecDepth 4096 in
theorem H1_weight (W : Valuation τ sig (Elt F)) :
    after ((opsH1.drop 23).take 11) W (Proc.devRef .tc main_v80)
      = hWeight (W (Proc.devRef .tc main_v76)) (W (Proc.devRef .tc main_v14)) := by
  simp only [opsH1, List.take, List.drop]
  after_results_simp
  rfl

set_option maxRecDepth 4096 in
theorem H1_weight_wh (W : Valuation τ sig (Elt F)) :
    after ((opsH1.drop 23).take 11) W (Proc.devRef .tc main_v58) = W (Proc.devRef .tc main_v58) := by
  simp only [opsH1, List.take, List.drop]
  after_results_simp

set_option maxRecDepth 4096 in
theorem H1_quot (W : Valuation τ sig (Elt F)) :
    after ((opsH1.drop 34).take 23) W (Proc.devRef .tc main_v99)
      = hQuot (W (Proc.devRef .tc main_v80)) (W (Proc.devRef .tc main_v58)) (W (Proc.devRef .tc main_v6))
          (W (Proc.devRef .tc main_v10)) := by
  simp only [opsH1, List.take, List.drop]
  after_results_simp
  rfl

set_option maxRecDepth 4096 in
theorem H1_elu (W : Valuation τ sig (Elt F)) :
    after ((opsH1.drop 57).take 15) W (Proc.devRef .tc main_v100)
      = hElu (W (Proc.devRef .tc main_v99)) := by
  simp only [opsH1, List.take, List.drop]
  after_results_simp
  rfl

/-- Head 1's result is the head function of the arrays it reads. -/
theorem segH1_out (V : Valuation τ sig (Elt F)) :
    after opsH1 V (Proc.devRef .tc main_v100)
      = rHead (V (Proc.devRef .tc main_v1)) (V (Proc.devRef .tc main_v6)) (V (Proc.devRef .tc main_v10))
          (V (Proc.devRef .tc main_v14)) (V (Proc.devRef .tc main_arg3)) (V (Proc.devRef .tc main_arg4)) := by
  rw [rHead_eq, splitH1]
  simp only [after_append]
  rw [H1_elu, H1_quot, H1_weight, H1_score, H1_weight_wh, H1_score_wh, H1_wh]
  simp only [keep_piece _ _ _ _ wH1_writes (show main_v6 ∉ wH1 by decide),
    keep_piece _ _ _ _ wH1_writes (show main_v10 ∉ wH1 by decide),
    keep_piece _ _ _ _ wH1_writes (show main_v14 ∉ wH1 by decide),
    keep_piece _ _ _ _ wH1_writes (show main_arg4 ∉ wH1 by decide)]

/-! ### Head 2 -/

theorem wH2_writes : (opsH2 : List (HloOp τ sig (Elt F))).Forall fun op =>
    op.writes ⊆ (wH2.map (Proc.devRef (τ := τ) .tc)).toFinset := by
  writes_tac

theorem splitH2 : (opsH2 : List (HloOp τ sig (Elt F)))
    = (opsH2.drop 0).take 1 ++ ((opsH2.drop 1).take 22 ++ ((opsH2.drop 23).take 11
        ++ ((opsH2.drop 34).take 23 ++ (opsH2.drop 57).take 15))) := rfl

theorem H2_wh (W : Valuation τ sig (Elt F)) :
    after ((opsH2.drop 0).take 1) W (Proc.devRef .tc main_v101)
      = hWh (W (Proc.devRef .tc main_v1)) (W (Proc.devRef .tc main_arg5)) := by
  simp only [opsH2, List.take, List.drop]
  after_results_simp
  rfl

set_option maxRecDepth 4096 in
theorem H2_score (W : Valuation τ sig (Elt F)) :
    after ((opsH2.drop 1).take 22) W (Proc.devRef .tc main_v119)
      = hScore (W (Proc.devRef .tc main_v101)) (W (Proc.devRef .tc main_v6)) (W (Proc.devRef .tc main_v10))
          (W (Proc.devRef .tc main_arg6)) := by
  simp only [opsH2, List.take, List.drop]
  after_results_simp
  rfl

set_option maxRecDepth 4096 in
theorem H2_score_wh (W : Valuation τ sig (Elt F)) :
    after ((opsH2.drop 1).take 22) W (Proc.devRef .tc main_v101) = W (Proc.devRef .tc main_v101) := by
  simp only [opsH2, List.take, List.drop]
  after_results_simp

set_option maxRecDepth 4096 in
theorem H2_weight (W : Valuation τ sig (Elt F)) :
    after ((opsH2.drop 23).take 11) W (Proc.devRef .tc main_v123)
      = hWeight (W (Proc.devRef .tc main_v119)) (W (Proc.devRef .tc main_v14)) := by
  simp only [opsH2, List.take, List.drop]
  after_results_simp
  rfl

set_option maxRecDepth 4096 in
theorem H2_weight_wh (W : Valuation τ sig (Elt F)) :
    after ((opsH2.drop 23).take 11) W (Proc.devRef .tc main_v101) = W (Proc.devRef .tc main_v101) := by
  simp only [opsH2, List.take, List.drop]
  after_results_simp

set_option maxRecDepth 4096 in
theorem H2_quot (W : Valuation τ sig (Elt F)) :
    after ((opsH2.drop 34).take 23) W (Proc.devRef .tc main_v142)
      = hQuot (W (Proc.devRef .tc main_v123)) (W (Proc.devRef .tc main_v101)) (W (Proc.devRef .tc main_v6))
          (W (Proc.devRef .tc main_v10)) := by
  simp only [opsH2, List.take, List.drop]
  after_results_simp
  rfl

set_option maxRecDepth 4096 in
theorem H2_elu (W : Valuation τ sig (Elt F)) :
    after ((opsH2.drop 57).take 15) W (Proc.devRef .tc main_v143)
      = hElu (W (Proc.devRef .tc main_v142)) := by
  simp only [opsH2, List.take, List.drop]
  after_results_simp
  rfl

/-- Head 2's result is the head function of the arrays it reads. -/
theorem segH2_out (V : Valuation τ sig (Elt F)) :
    after opsH2 V (Proc.devRef .tc main_v143)
      = rHead (V (Proc.devRef .tc main_v1)) (V (Proc.devRef .tc main_v6)) (V (Proc.devRef .tc main_v10))
          (V (Proc.devRef .tc main_v14)) (V (Proc.devRef .tc main_arg5)) (V (Proc.devRef .tc main_arg6)) := by
  rw [rHead_eq, splitH2]
  simp only [after_append]
  rw [H2_elu, H2_quot, H2_weight, H2_score, H2_weight_wh, H2_score_wh, H2_wh]
  simp only [keep_piece _ _ _ _ wH2_writes (show main_v6 ∉ wH2 by decide),
    keep_piece _ _ _ _ wH2_writes (show main_v10 ∉ wH2 by decide),
    keep_piece _ _ _ _ wH2_writes (show main_v14 ∉ wH2 by decide),
    keep_piece _ _ _ _ wH2_writes (show main_arg6 ∉ wH2 by decide)]

/-! ### Head 3 -/

theorem wH3_writes : (opsH3 : List (HloOp τ sig (Elt F))).Forall fun op =>
    op.writes ⊆ (wH3.map (Proc.devRef (τ := τ) .tc)).toFinset := by
  writes_tac

theorem splitH3 : (opsH3 : List (HloOp τ sig (Elt F)))
    = (opsH3.drop 0).take 1 ++ ((opsH3.drop 1).take 22 ++ ((opsH3.drop 23).take 11
        ++ ((opsH3.drop 34).take 23 ++ (opsH3.drop 57).take 15))) := rfl

theorem H3_wh (W : Valuation τ sig (Elt F)) :
    after ((opsH3.drop 0).take 1) W (Proc.devRef .tc main_v144)
      = hWh (W (Proc.devRef .tc main_v1)) (W (Proc.devRef .tc main_arg7)) := by
  simp only [opsH3, List.take, List.drop]
  after_results_simp
  rfl

set_option maxRecDepth 4096 in
theorem H3_score (W : Valuation τ sig (Elt F)) :
    after ((opsH3.drop 1).take 22) W (Proc.devRef .tc main_v162)
      = hScore (W (Proc.devRef .tc main_v144)) (W (Proc.devRef .tc main_v6)) (W (Proc.devRef .tc main_v10))
          (W (Proc.devRef .tc main_arg8)) := by
  simp only [opsH3, List.take, List.drop]
  after_results_simp
  rfl

set_option maxRecDepth 4096 in
theorem H3_score_wh (W : Valuation τ sig (Elt F)) :
    after ((opsH3.drop 1).take 22) W (Proc.devRef .tc main_v144) = W (Proc.devRef .tc main_v144) := by
  simp only [opsH3, List.take, List.drop]
  after_results_simp

set_option maxRecDepth 4096 in
theorem H3_weight (W : Valuation τ sig (Elt F)) :
    after ((opsH3.drop 23).take 11) W (Proc.devRef .tc main_v166)
      = hWeight (W (Proc.devRef .tc main_v162)) (W (Proc.devRef .tc main_v14)) := by
  simp only [opsH3, List.take, List.drop]
  after_results_simp
  rfl

set_option maxRecDepth 4096 in
theorem H3_weight_wh (W : Valuation τ sig (Elt F)) :
    after ((opsH3.drop 23).take 11) W (Proc.devRef .tc main_v144) = W (Proc.devRef .tc main_v144) := by
  simp only [opsH3, List.take, List.drop]
  after_results_simp

set_option maxRecDepth 4096 in
theorem H3_quot (W : Valuation τ sig (Elt F)) :
    after ((opsH3.drop 34).take 23) W (Proc.devRef .tc main_v185)
      = hQuot (W (Proc.devRef .tc main_v166)) (W (Proc.devRef .tc main_v144)) (W (Proc.devRef .tc main_v6))
          (W (Proc.devRef .tc main_v10)) := by
  simp only [opsH3, List.take, List.drop]
  after_results_simp
  rfl

set_option maxRecDepth 4096 in
theorem H3_elu (W : Valuation τ sig (Elt F)) :
    after ((opsH3.drop 57).take 15) W (Proc.devRef .tc main_v186)
      = hElu (W (Proc.devRef .tc main_v185)) := by
  simp only [opsH3, List.take, List.drop]
  after_results_simp
  rfl

/-- Head 3's result is the head function of the arrays it reads. -/
theorem segH3_out (V : Valuation τ sig (Elt F)) :
    after opsH3 V (Proc.devRef .tc main_v186)
      = rHead (V (Proc.devRef .tc main_v1)) (V (Proc.devRef .tc main_v6)) (V (Proc.devRef .tc main_v10))
          (V (Proc.devRef .tc main_v14)) (V (Proc.devRef .tc main_arg7)) (V (Proc.devRef .tc main_arg8)) := by
  rw [rHead_eq, splitH3]
  simp only [after_append]
  rw [H3_elu, H3_quot, H3_weight, H3_score, H3_weight_wh, H3_score_wh, H3_wh]
  simp only [keep_piece _ _ _ _ wH3_writes (show main_v6 ∉ wH3 by decide),
    keep_piece _ _ _ _ wH3_writes (show main_v10 ∉ wH3 by decide),
    keep_piece _ _ _ _ wH3_writes (show main_v14 ∉ wH3 by decide),
    keep_piece _ _ _ _ wH3_writes (show main_arg8 ∉ wH3 by decide)]

/-! ### The last layer -/

theorem wL2_writes : (opsL2 : List (HloOp τ sig (Elt F))).Forall fun op =>
    op.writes ⊆ (wL2.map (Proc.devRef (τ := τ) .tc)).toFinset := by
  writes_tac

theorem splitL2 : (opsL2 : List (HloOp τ sig (Elt F)))
    = (opsL2.drop 0).take 14 ++ ((opsL2.drop 14).take 22 ++ ((opsL2.drop 36).take 11
        ++ ((opsL2.drop 47).take 23 ++ (opsL2.drop 70).take 15))) := rfl

set_option maxRecDepth 4096 in
theorem L2_src (W : Valuation τ sig (Elt F)) :
    after ((opsL2.drop 0).take 14) W (Proc.devRef .tc main_v190)
      = rSrc := by
  simp only [opsL2, List.take, List.drop]
  after_results_simp
  rfl

set_option maxRecDepth 4096 in
theorem L2_dst (W : Valuation τ sig (Elt F)) :
    after ((opsL2.drop 0).take 14) W (Proc.devRef .tc main_v194)
      = rDst := by
  simp only [opsL2, List.take, List.drop]
  after_results_simp
  rfl

set_option maxRecDepth 4096 in
theorem L2_mask (W : Valuation τ sig (Elt F)) :
    after ((opsL2.drop 0).take 14) W (Proc.devRef .tc main_v198)
      = rMask (W (Proc.devRef .tc main_v3)) := by
  simp only [opsL2, List.take, List.drop]
  after_results_simp
  rfl

set_option maxRecDepth 4096 in
theorem L2_proj (W : Valuation τ sig (Elt F)) :
    after ((opsL2.drop 0).take 14) W (Proc.devRef .tc main_v199)
      = lProj (W (Proc.devRef .tc main_v57)) (W (Proc.devRef .tc main_v100)) (W (Proc.devRef .tc main_v143)) (W (Proc.devRef .tc main_v186))
          (W (Proc.devRef .tc main_arg9)) := by
  simp only [opsL2, List.take, List.drop]
  after_results_simp
  rfl

set_option maxRecDepth 4096 in
theorem L2_score (W : Valuation τ sig (Elt F)) :
    after ((opsL2.drop 14).take 22) W (Proc.devRef .tc main_v217)
      = lScore (W (Proc.devRef .tc main_v199)) (W (Proc.devRef .tc main_v190)) (W (Proc.devRef .tc main_v194))
          (W (Proc.devRef .tc main_arg10)) := by
  simp only [opsL2, List.take, List.drop]
  after_results_simp
  rfl

set_option maxRecDepth 4096 in
theorem L2_score_v190 (W : Valuation τ sig (Elt F)) :
    after ((opsL2.drop 14).take 22) W (Proc.devRef .tc main_v190)
      = W (Proc.devRef .tc main_v190) := by
  simp only [opsL2, List.take, List.drop]
  after_results_simp

set_option maxRecDepth 4096 in
theorem L2_score_v194 (W : Valuation τ sig (Elt F)) :
    after ((opsL2.drop 14).take 22) W (Proc.devRef .tc main_v194)
      = W (Proc.devRef .tc main_v194) := by
  simp only [opsL2, List.take, List.drop]
  after_results_simp

set_option maxRecDepth 4096 in
theorem L2_score_v198 (W : Valuation τ sig (Elt F)) :
    after ((opsL2.drop 14).take 22) W (Proc.devRef .tc main_v198)
      = W (Proc.devRef .tc main_v198) := by
  simp only [opsL2, List.take, List.drop]
  after_results_simp

set_option maxRecDepth 4096 in
theorem L2_score_v199 (W : Valuation τ sig (Elt F)) :
    after ((opsL2.drop 14).take 22) W (Proc.devRef .tc main_v199)
      = W (Proc.devRef .tc main_v199) := by
  simp only [opsL2, List.take, List.drop]
  after_results_simp

set_option maxRecDepth 4096 in
theorem L2_weight (W : Valuation τ sig (Elt F)) :
    after ((opsL2.drop 36).take 11) W (Proc.devRef .tc main_v221)
      = hWeight (W (Proc.devRef .tc main_v217)) (W (Proc.devRef .tc main_v198)) := by
  simp only [opsL2, List.take, List.drop]
  after_results_simp
  rfl

set_option maxRecDepth 4096 in
theorem L2_weight_v190 (W : Valuation τ sig (Elt F)) :
    after ((opsL2.drop 36).take 11) W (Proc.devRef .tc main_v190)
      = W (Proc.devRef .tc main_v190) := by
  simp only [opsL2, List.take, List.drop]
  after_results_simp

set_option maxRecDepth 4096 in
theorem L2_weight_v194 (W : Valuation τ sig (Elt F)) :
    after ((opsL2.drop 36).take 11) W (Proc.devRef .tc main_v194)
      = W (Proc.devRef .tc main_v194) := by
  simp only [opsL2, List.take, List.drop]
  after_results_simp

set_option maxRecDepth 4096 in
theorem L2_weight_v199 (W : Valuation τ sig (Elt F)) :
    after ((opsL2.drop 36).take 11) W (Proc.devRef .tc main_v199)
      = W (Proc.devRef .tc main_v199) := by
  simp only [opsL2, List.take, List.drop]
  after_results_simp

set_option maxRecDepth 4096 in
theorem L2_quot (W : Valuation τ sig (Elt F)) :
    after ((opsL2.drop 47).take 23) W (Proc.devRef .tc main_v240)
      = lQuot (W (Proc.devRef .tc main_v221)) (W (Proc.devRef .tc main_v199)) (W (Proc.devRef .tc main_v190))
          (W (Proc.devRef .tc main_v194)) := by
  simp only [opsL2, List.take, List.drop]
  after_results_simp
  rfl

set_option maxRecDepth 4096 in
theorem L2_elu (W : Valuation τ sig (Elt F)) :
    after ((opsL2.drop 70).take 15) W (Proc.devRef .tc main_v241)
      = lElu (W (Proc.devRef .tc main_v240)) := by
  simp only [opsL2, List.take, List.drop]
  after_results_simp
  rfl

/-- The last layer's result is the last-layer function of the four heads' outputs, the adjacency and its two parameters. -/
theorem segL2_out (V : Valuation τ sig (Elt F)) :
    after opsL2 V (Proc.devRef .tc main_v241)
      = rLast (V (Proc.devRef .tc main_v57)) (V (Proc.devRef .tc main_v100)) (V (Proc.devRef .tc main_v143))
          (V (Proc.devRef .tc main_v186)) (V (Proc.devRef .tc main_v3)) (V (Proc.devRef .tc main_arg9))
          (V (Proc.devRef .tc main_arg10)) := by
  rw [rLast_eq, splitL2]
  simp only [after_append]
  rw [L2_elu, L2_quot, L2_weight, L2_weight_v199, L2_weight_v190, L2_weight_v194, L2_score, L2_score_v198,
    L2_score_v199, L2_score_v190, L2_score_v194, L2_proj, L2_src, L2_dst, L2_mask, keep_piece _ _ _ _ wL2_writes (show main_arg10 ∉ wL2 by decide)]

/-! ### The whole run -/

theorem keepPro (V : Valuation τ sig (Elt F)) {r : Ref sig .tc} (h : r ∉ wPro) :
    after opsPro V (Proc.devRef .tc r) = V (Proc.devRef .tc r) :=
  after_of_writes_sub opsPro V wPro_writes h

theorem keepH0 (V : Valuation τ sig (Elt F)) {r : Ref sig .tc} (h : r ∉ wH0) :
    after opsH0 V (Proc.devRef .tc r) = V (Proc.devRef .tc r) :=
  after_of_writes_sub opsH0 V wH0_writes h

theorem keepH1 (V : Valuation τ sig (Elt F)) {r : Ref sig .tc} (h : r ∉ wH1) :
    after opsH1 V (Proc.devRef .tc r) = V (Proc.devRef .tc r) :=
  after_of_writes_sub opsH1 V wH1_writes h

theorem keepH2 (V : Valuation τ sig (Elt F)) {r : Ref sig .tc} (h : r ∉ wH2) :
    after opsH2 V (Proc.devRef .tc r) = V (Proc.devRef .tc r) :=
  after_of_writes_sub opsH2 V wH2_writes h

theorem keepH3 (V : Valuation τ sig (Elt F)) {r : Ref sig .tc} (h : r ∉ wH3) :
    after opsH3 V (Proc.devRef .tc r) = V (Proc.devRef .tc r) :=
  after_of_writes_sub opsH3 V wH3_writes h

theorem keepL2 (V : Valuation τ sig (Elt F)) {r : Ref sig .tc} (h : r ∉ wL2) :
    after opsL2 V (Proc.devRef .tc r) = V (Proc.devRef .tc r) :=
  after_of_writes_sub opsL2 V wL2_writes h

theorem keepFin (V : Valuation τ sig (Elt F)) {r : Ref sig .tc} (h : r ∉ wFin) :
    after opsFin V (Proc.devRef .tc r) = V (Proc.devRef .tc r) :=
  after_of_writes_sub opsFin V wFin_writes h

/-- The program's seven stretches run one after another. -/
theorem after_ops (V : Valuation τ sig (Elt F)) :
    after ops V = after opsFin (after opsL2 (after opsH3 (after opsH2 (after opsH1 (after opsH0 (after opsPro V)))))) := by
  simp only [ops, after_append]

/-- The result array ends at the whole program's function of the eleven argument arrays: the final reshaping of the
    last layer, of the four heads, each of the features, the two edge tables and the mask, which the prologue makes from
    the first argument; every stretch leaves alone what the later stretches read. -/
theorem out_eq (V : Valuation τ sig (Elt F)) :
    after ops V (Proc.devRef .tc main_v242)
      = rMain (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) := by
  rw [after_ops, Fin_out, segL2_out, segH3_out]
  rw [keepH3 _ (show main_v57 ∉ wH3 by decide),
    keepH3 _ (show main_v100 ∉ wH3 by decide),
    keepH3 _ (show main_v143 ∉ wH3 by decide),
    keepH3 _ (show main_v3 ∉ wH3 by decide),
    keepH3 _ (show main_arg9 ∉ wH3 by decide),
    keepH3 _ (show main_arg10 ∉ wH3 by decide)]
  rw [segH2_out]
  rw [keepH2 _ (show main_v57 ∉ wH2 by decide),
    keepH2 _ (show main_v100 ∉ wH2 by decide),
    keepH2 _ (show main_v3 ∉ wH2 by decide),
    keepH2 _ (show main_arg9 ∉ wH2 by decide),
    keepH2 _ (show main_arg10 ∉ wH2 by decide),
    keepH2 _ (show main_v1 ∉ wH2 by decide),
    keepH2 _ (show main_v6 ∉ wH2 by decide),
    keepH2 _ (show main_v10 ∉ wH2 by decide),
    keepH2 _ (show main_v14 ∉ wH2 by decide),
    keepH2 _ (show main_arg7 ∉ wH2 by decide),
    keepH2 _ (show main_arg8 ∉ wH2 by decide)]
  rw [segH1_out]
  rw [keepH1 _ (show main_v57 ∉ wH1 by decide),
    keepH1 _ (show main_v3 ∉ wH1 by decide),
    keepH1 _ (show main_arg9 ∉ wH1 by decide),
    keepH1 _ (show main_arg10 ∉ wH1 by decide),
    keepH1 _ (show main_v1 ∉ wH1 by decide),
    keepH1 _ (show main_v6 ∉ wH1 by decide),
    keepH1 _ (show main_v10 ∉ wH1 by decide),
    keepH1 _ (show main_v14 ∉ wH1 by decide),
    keepH1 _ (show main_arg5 ∉ wH1 by decide),
    keepH1 _ (show main_arg6 ∉ wH1 by decide),
    keepH1 _ (show main_arg7 ∉ wH1 by decide),
    keepH1 _ (show main_arg8 ∉ wH1 by decide)]
  rw [segH0_out]
  rw [keepH0 _ (show main_v3 ∉ wH0 by decide),
    keepH0 _ (show main_arg9 ∉ wH0 by decide),
    keepH0 _ (show main_arg10 ∉ wH0 by decide),
    keepH0 _ (show main_v1 ∉ wH0 by decide),
    keepH0 _ (show main_v6 ∉ wH0 by decide),
    keepH0 _ (show main_v10 ∉ wH0 by decide),
    keepH0 _ (show main_v14 ∉ wH0 by decide),
    keepH0 _ (show main_arg3 ∉ wH0 by decide),
    keepH0 _ (show main_arg4 ∉ wH0 by decide),
    keepH0 _ (show main_arg5 ∉ wH0 by decide),
    keepH0 _ (show main_arg6 ∉ wH0 by decide),
    keepH0 _ (show main_arg7 ∉ wH0 by decide),
    keepH0 _ (show main_arg8 ∉ wH0 by decide)]
  rw [Pro_x, Pro_adj, Pro_src, Pro_dst, Pro_mask,
    keepPro _ (show main_arg1 ∉ wPro by decide),
    keepPro _ (show main_arg2 ∉ wPro by decide),
    keepPro _ (show main_arg3 ∉ wPro by decide),
    keepPro _ (show main_arg4 ∉ wPro by decide),
    keepPro _ (show main_arg5 ∉ wPro by decide),
    keepPro _ (show main_arg6 ∉ wPro by decide),
    keepPro _ (show main_arg7 ∉ wPro by decide),
    keepPro _ (show main_arg8 ∉ wPro by decide),
    keepPro _ (show main_arg9 ∉ wPro by decide),
    keepPro _ (show main_arg10 ∉ wPro by decide)]
  rfl

/-- An array that no stretch writes ends as it began. -/
theorem keep_ops (V : Valuation τ sig (Elt F)) {r : Ref sig .tc} (hPro : r ∉ wPro) (h0 : r ∉ wH0) (h1 : r ∉ wH1)
    (h2 : r ∉ wH2) (h3 : r ∉ wH3) (hL : r ∉ wL2) (hF : r ∉ wFin) :
    after ops V (Proc.devRef .tc r) = V (Proc.devRef .tc r) := by
  rw [after_ops, keepFin _ hF, keepL2 _ hL, keepH3 _ h3, keepH2 _ h2, keepH1 _ h1, keepH0 _ h0, keepPro _ hPro]

theorem arg0_eq (V : Valuation τ sig (Elt F)) :
    after ops V (Proc.devRef .tc main_arg0) = V (Proc.devRef .tc main_arg0) :=
  keep_ops V (by decide) (by decide) (by decide) (by decide) (by decide) (by decide) (by decide)

theorem arg1_eq (V : Valuation τ sig (Elt F)) :
    after ops V (Proc.devRef .tc main_arg1) = V (Proc.devRef .tc main_arg1) :=
  keep_ops V (by decide) (by decide) (by decide) (by decide) (by decide) (by decide) (by decide)

theorem arg2_eq (V : Valuation τ sig (Elt F)) :
    after ops V (Proc.devRef .tc main_arg2) = V (Proc.devRef .tc main_arg2) :=
  keep_ops V (by decide) (by decide) (by decide) (by decide) (by decide) (by decide) (by decide)

theorem arg3_eq (V : Valuation τ sig (Elt F)) :
    after ops V (Proc.devRef .tc main_arg3) = V (Proc.devRef .tc main_arg3) :=
  keep_ops V (by decide) (by decide) (by decide) (by decide) (by decide) (by decide) (by decide)

theorem arg4_eq (V : Valuation τ sig (Elt F)) :
    after ops V (Proc.devRef .tc main_arg4) = V (Proc.devRef .tc main_arg4) :=
  keep_ops V (by decide) (by decide) (by decide) (by decide) (by decide) (by decide) (by decide)

theorem arg5_eq (V : Valuation τ sig (Elt F)) :
    after ops V (Proc.devRef .tc main_arg5) = V (Proc.devRef .tc main_arg5) :=
  keep_ops V (by decide) (by decide) (by decide) (by decide) (by decide) (by decide) (by decide)

theorem arg6_eq (V : Valuation τ sig (Elt F)) :
    after ops V (Proc.devRef .tc main_arg6) = V (Proc.devRef .tc main_arg6) :=
  keep_ops V (by decide) (by decide) (by decide) (by decide) (by decide) (by decide) (by decide)

theorem arg7_eq (V : Valuation τ sig (Elt F)) :
    after ops V (Proc.devRef .tc main_arg7) = V (Proc.devRef .tc main_arg7) :=
  keep_ops V (by decide) (by decide) (by decide) (by decide) (by decide) (by decide) (by decide)

theorem arg8_eq (V : Valuation τ sig (Elt F)) :
    after ops V (Proc.devRef .tc main_arg8) = V (Proc.devRef .tc main_arg8) :=
  keep_ops V (by decide) (by decide) (by decide) (by decide) (by decide) (by decide) (by decide)

theorem arg9_eq (V : Valuation τ sig (Elt F)) :
    after ops V (Proc.devRef .tc main_arg9) = V (Proc.devRef .tc main_arg9) :=
  keep_ops V (by decide) (by decide) (by decide) (by decide) (by decide) (by decide) (by decide)

theorem arg10_eq (V : Valuation τ sig (Elt F)) :
    after ops V (Proc.devRef .tc main_arg10) = V (Proc.devRef .tc main_arg10) :=
  keep_ops V (by decide) (by decide) (by decide) (by decide) (by decide) (by decide) (by decide)

/-- From any memory with zero counters, for any float values: every weakly fair execution of the reference terminates,
    the result array ends at `rMain` of the eleven argument arrays' launch contents, and the arguments end unchanged. -/
theorem run_fn (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v242)
        = rMain (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono
    (fun _ h c => ⟨(h c main_v242).trans (out_eq _), (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

end Cert.ReferenceIdeal.Hand

end
-- ==== Proof.RefValue.lean ====
/-
  The reference program's value in the specification's terms. The node features and the adjacency are the two
  matrices stacked in the first argument; each first-layer head of the reference is the specification's head over them;
  the last layer is the specification's head over the four heads side by side; the result carries one more leading axis
  of extent one. Hence the reference's result array is the specification's function of the eleven argument arrays, and
  so is what every run of the reference leaves in the result array.
-/
import proofs.«174455_g86844238725802_fold_wed_m_134_3_alg».proof.Proof.RefLast
import proofs.«174455_g86844238725802_fold_wed_m_134_3_alg».proof.Proof.RefHead
import proofs.«174455_g86844238725802_fold_wed_m_134_3_alg».proof.Proof.RefSeg
import proofs.«174455_g86844238725802_fold_wed_m_134_3_alg».proof.Proof.Spec
import Idealize.ShloMosaic.Lib.IdealHost
import Idealize.ShloMosaic.Lib.Pipeline.Value

noncomputable section

namespace Cert.ReferenceIdeal.Hand

open Cert.ReferenceIdeal Idealize.ShloMosaic Idealize.ShloMosaic.ValueIdx Idealize.ShloMosaic.TcCoe Idealize.SL.Sem

/-! ## The two stacked inputs and the result's leading axis -/

/-- The node features are the first of the two stacked matrices. -/
theorem rX_apply (s : FVec Ideal S1x2x1024x1024 .f32) (i k : Fin 1024) :
    rX (F := Ideal) s (ix2 i k) = s (ix4 0 0 i k) := by
  unfold rX
  refine (shapeCast_apply _ _ (ix2 i k) (ix4 0 0 i k) (by
    rw [Shape.rowMajor_val_four, Shape.rowMajor_val_two]
    show ((0 * 1 + 0) * 1024 + i.val) * 1024 + k.val = i.val * 1024 + k.val
    omega)).trans ?_
  exact extractStridedSlice_apply _ s _ (ix4 0 0 i k) (ix4 0 0 i k) (fun a => match a with
    | ⟨0, _⟩ => rfl
    | ⟨1, _⟩ => rfl
    | ⟨2, _⟩ => (Nat.zero_add _).symm
    | ⟨3, _⟩ => (Nat.zero_add _).symm)

/-- The adjacency is the second of the two stacked matrices. -/
theorem rAdj_apply (s : FVec Ideal S1x2x1024x1024 .f32) (i j : Fin 1024) :
    rAdj (F := Ideal) s (ix2 i j) = s (ix4 0 1 i j) := by
  unfold rAdj
  refine (shapeCast_apply _ _ (ix2 i j) (ix4 0 0 i j) (by
    rw [Shape.rowMajor_val_four, Shape.rowMajor_val_two]
    show ((0 * 1 + 0) * 1024 + i.val) * 1024 + j.val = i.val * 1024 + j.val
    omega)).trans ?_
  exact extractStridedSlice_apply _ s _ (ix4 0 0 i j) (ix4 0 1 i j) (fun a => match a with
    | ⟨0, _⟩ => rfl
    | ⟨1, _⟩ => rfl
    | ⟨2, _⟩ => (Nat.zero_add _).symm
    | ⟨3, _⟩ => (Nat.zero_add _).symm)

/-- The result with a leading axis of extent one reads the result. -/
theorem rOut_apply (r : FVec Ideal S1024x2 .f32) (i : Fin 1024) (d : Fin 2) :
    rOut (F := Ideal) r (ix3 0 i d) = r (ix2 i d) := by
  unfold rOut
  exact broadcastInDim_apply _ _ r (ix3 0 i d) (ix2 i d) (fun a => match a with | ⟨0, _⟩ => rfl | ⟨1, _⟩ => rfl)

/-! ## The whole reference is the specification's network -/

namespace Value

/-- A first-layer head of the reference over the two stacked inputs is the specification's head over them. -/
theorem rHead_main_apply (s : FVec Ideal S1x2x1024x1024 .f32) (w : FVec Ideal S1024x8 .f32) (a : FVec Ideal S1x16 .f32)
    (r : Fin 1024) (e : Fin 8) :
    rHead (F := Ideal) (rX s) rSrc rDst (rMask (rAdj s)) w a (ix2 r e)
      = Cert.Gat.head (fun i k => s (ix4 0 0 i k)) (fun i j => Cert.Gat.maskOf (s (ix4 0 1 i j)))
          (fun k d => w (ix2 k d)) (fun d => a (ix2 0 ⟨d.val, by omega⟩)) (fun d => a (ix2 0 ⟨8 + d.val, by omega⟩)) r e := by
  have hx : (fun i k => rX (F := Ideal) s (ix2 i k)) = fun i k => s (ix4 0 0 i k) :=
    funext fun i => funext fun k => rX_apply s i k
  have hm : (fun i j => Cert.Gat.maskOf (rAdj (F := Ideal) s (ix2 i j))) = fun i j => Cert.Gat.maskOf (s (ix4 0 1 i j)) :=
    funext fun i => funext fun j => congrArg Cert.Gat.maskOf (rAdj_apply s i j)
  rw [rHead_apply, hx, hm]

/-- Four arrays that are, element by element, four heads are side by side the specification's concatenation. -/
theorem heads_eq_hcat (H0 H1 H2 H3 : FVec Ideal S1024x8 .f32) (g : Fin 4 → Fin 1024 → Fin 8 → EReal)
    (e0 : ∀ r e, H0 (ix2 r e) = g 0 r e) (e1 : ∀ r e, H1 (ix2 r e) = g 1 r e)
    (e2 : ∀ r e, H2 (ix2 r e) = g 2 r e) (e3 : ∀ r e, H3 (ix2 r e) = g 3 r e) :
    (fun (i : Fin 1024) (c : Fin 32) => (![H0, H1, H2, H3] ⟨c.val / 8, by omega⟩) (ix2 i ⟨c.val % 8, by omega⟩))
      = Cert.Gat.hcat g := by
  funext r c
  unfold Cert.Gat.hcat
  have hk : ∀ (k : Fin 4) (e : Fin 8), (![H0, H1, H2, H3] k) (ix2 r e) = g k r e := by
    intro k e
    fin_cases k
    · exact e0 r e
    · exact e1 r e
    · exact e2 r e
    · exact e3 r e
  exact hk _ _

end Value

open Value in
/-- The reference's result array is the specification's function of the eleven argument arrays. -/
theorem rMain_eq_G (s : FVec Ideal S1x2x1024x1024 .f32) (w0 : FVec Ideal S1024x8 .f32) (a0 : FVec Ideal S1x16 .f32)
    (w1 : FVec Ideal S1024x8 .f32) (a1 : FVec Ideal S1x16 .f32) (w2 : FVec Ideal S1024x8 .f32) (a2 : FVec Ideal S1x16 .f32)
    (w3 : FVec Ideal S1024x8 .f32) (a3 : FVec Ideal S1x16 .f32) (wl : FVec Ideal S32x2 .f32) (al : FVec Ideal S1x4 .f32) :
    rMain (F := Ideal) s w0 a0 w1 a1 w2 a2 w3 a3 wl al = Cert.Gat.G s w0 a0 w1 a1 w2 a2 w3 a3 wl al := by
  funext j
  obtain ⟨a, i, d, rfl⟩ : ∃ (a : Fin 1) (i : Fin 1024) (d : Fin 2), j = ix3 a i d := ⟨j 0, j 1, j 2, eq_ix3 j⟩
  obtain rfl : a = 0 := Subsingleton.elim _ _
  have hm : (fun i j => Cert.Gat.maskOf (rAdj (F := Ideal) s (ix2 i j))) = fun i j => Cert.Gat.maskOf (s (ix4 0 1 i j)) :=
    funext fun i => funext fun j => congrArg Cert.Gat.maskOf (rAdj_apply s i j)
  unfold rMain
  rw [rOut_apply, rLast_apply, hm]
  unfold Cert.Gat.G Cert.Gat.final
  exact congrArg (fun x => Cert.Gat.head x _ _ _ _ i d)
    (heads_eq_hcat _ _ _ _ _ (rHead_main_apply s w0 a0) (rHead_main_apply s w1 a1) (rHead_main_apply s w2 a2)
      (rHead_main_apply s w3 a3))

/-! ## The run of the reference, in the specification's terms -/

/-- Every weakly fair execution of the reference terminates with the result array at the specification's function of
    the eleven argument arrays, and the arguments as they were. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v242)
          = Cert.Gat.G (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run _ _ _).mono (fun _ h c => ⟨(h c).1.trans (rMain_eq_G _ _ _ _ _ _ _ _ _ _ _), (h c).2⟩) (run_fn m ρ)

end Cert.ReferenceIdeal.Hand

end
-- ==== Proof.lean ====
/-
  The five claims assembled. Both idealized programs end with the result array at ONE function of the eleven
  argument arrays (the graph-attention network of Proof/Spec.lean): the kernel's by its frame run and the body's
  arithmetic read index by index, the reference's by its run read segment by segment and the per-edge sums
  re-indexed over ordered pairs. The frames are the runs with the result dropped; nothing was rewritten by the
  idealization, so its preservation claim is trivial.
-/
import proofs.«174455_g86844238725802_fold_wed_m_134_3_alg».proof.Defs
import proofs.«174455_g86844238725802_fold_wed_m_134_3_alg».proof.Proof.Gen.Kernel
import proofs.«174455_g86844238725802_fold_wed_m_134_3_alg».proof.Proof.Gen.KernelIdeal
import proofs.«174455_g86844238725802_fold_wed_m_134_3_alg».proof.Proof.Gen.ReferenceIdeal
import proofs.«174455_g86844238725802_fold_wed_m_134_3_alg».proof.Proof.Gen.Pre_finite_inputs
import proofs.«174455_g86844238725802_fold_wed_m_134_3_alg».proof.Proof.Spec
import proofs.«174455_g86844238725802_fold_wed_m_134_3_alg».proof.Proof.KFrame
import proofs.«174455_g86844238725802_fold_wed_m_134_3_alg».proof.Proof.KFrameBits
import proofs.«174455_g86844238725802_fold_wed_m_134_3_alg».proof.Proof.KValue
import proofs.«174455_g86844238725802_fold_wed_m_134_3_alg».proof.Proof.RefValue

noncomputable section

namespace Cert.Proof

open Idealize.ShloMosaic Idealize.SL.Sem

/-- The word-level kernel runs to the end, faults nowhere and leaves its eleven arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run_value m ρ)

/-- Both runs end at the network's function of their arguments, and the arguments agree. -/
theorem algebraic : Cert.algebraic_KernelIdeal_ReferenceIdeal := by
  intro m ρ m' ρ' _ hagree
  refine ⟨fun c => Cert.Gat.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Hand.run_value m ρ, ?_⟩
  refine (θ_run Cert.ReferenceIdeal.defs _ _).mono (fun _ h c => ⟨(h c).1.trans ?_, (h c).2⟩)
    (Cert.ReferenceIdeal.Hand.run_value m' ρ')
  obtain ⟨h0, h1, h2, h3, h4, h5, h6, h7, h8, h9, h10⟩ := hagree c
  rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
